-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x19x64x5 : Shape := ⟨4, ![256, 19, 64, 5]⟩
abbrev S256x5x19x19 : Shape := ⟨4, ![256, 5, 19, 19]⟩
abbrev S64x5x192x32 : Shape := ⟨4, ![64, 5, 192, 32]⟩
abbrev S64x5x1x32 : Shape := ⟨4, ![64, 5, 1, 32]⟩
abbrev S64x10x96x32 : Shape := ⟨4, ![64, 10, 96, 32]⟩
abbrev S64x10x1x32 : Shape := ⟨4, ![64, 10, 1, 32]⟩
abbrev S64x5x96x32 : Shape := ⟨4, ![64, 5, 96, 32]⟩
abbrev S64x3x19x1 : Shape := ⟨4, ![64, 3, 19, 1]⟩
abbrev S64x1x1 : Shape := ⟨3, ![64, 1, 1]⟩
abbrev S64x1x158 : Shape := ⟨3, ![64, 1, 158]⟩
abbrev S64x158x8 : Shape := ⟨3, ![64, 158, 8]⟩
abbrev S64x1x8 : Shape := ⟨3, ![64, 1, 8]⟩
abbrev S_ : Shape := ⟨0, ![]⟩

class Facts : Prop where
  bcast_S_S256x19x64x5 : S_.BroadcastsInDim S256x19x64x5 (![] : Fin 0 → Fin S256x19x64x5.rank)
  reducesTo_S256x19x64x5_S_d0_1_2_3 : S256x19x64x5.ReducesTo [0, 1, 2, 3] S_
  h_S_ : 0 < S_.numel
  bcast_S_S256x5x19x19 : S_.BroadcastsInDim S256x5x19x19 (![] : Fin 0 → Fin S256x5x19x19.rank)
  reducesTo_S256x5x19x19_S_d0_1_2_3 : S256x5x19x19.ReducesTo [0, 1, 2, 3] S_
  bcast_S_S64x5x192x32 : S_.BroadcastsInDim S64x5x192x32 (![] : Fin 0 → Fin S64x5x192x32.rank)
  reducesTo_S64x5x192x32_S_d0_1_2_3 : S64x5x192x32.ReducesTo [0, 1, 2, 3] S_
  bcast_S_S64x5x1x32 : S_.BroadcastsInDim S64x5x1x32 (![] : Fin 0 → Fin S64x5x1x32.rank)
  reducesTo_S64x5x1x32_S_d0_1_2_3 : S64x5x1x32.ReducesTo [0, 1, 2, 3] S_
  bcast_S_S64x10x96x32 : S_.BroadcastsInDim S64x10x96x32 (![] : Fin 0 → Fin S64x10x96x32.rank)
  reducesTo_S64x10x96x32_S_d0_1_2_3 : S64x10x96x32.ReducesTo [0, 1, 2, 3] S_
  bcast_S_S64x10x1x32 : S_.BroadcastsInDim S64x10x1x32 (![] : Fin 0 → Fin S64x10x1x32.rank)
  reducesTo_S64x10x1x32_S_d0_1_2_3 : S64x10x1x32.ReducesTo [0, 1, 2, 3] S_
  bcast_S_S64x5x96x32 : S_.BroadcastsInDim S64x5x96x32 (![] : Fin 0 → Fin S64x5x96x32.rank)
  reducesTo_S64x5x96x32_S_d0_1_2_3 : S64x5x96x32.ReducesTo [0, 1, 2, 3] S_
  bcast_S_S64x3x19x1 : S_.BroadcastsInDim S64x3x19x1 (![] : Fin 0 → Fin S64x3x19x1.rank)
  reducesTo_S64x3x19x1_S_d0_1_2_3 : S64x3x19x1.ReducesTo [0, 1, 2, 3] S_
  bcast_S_S64x1x1 : S_.BroadcastsInDim S64x1x1 (![] : Fin 0 → Fin S64x1x1.rank)
  reducesTo_S64x1x1_S_d0_1_2 : S64x1x1.ReducesTo [0, 1, 2] S_
  bcast_S_S64x1x158 : S_.BroadcastsInDim S64x1x158 (![] : Fin 0 → Fin S64x1x158.rank)
  reducesTo_S64x1x158_S_d0_1_2 : S64x1x158.ReducesTo [0, 1, 2] S_
  bcast_S_S64x158x8 : S_.BroadcastsInDim S64x158x8 (![] : Fin 0 → Fin S64x158x8.rank)
  reducesTo_S64x158x8_S_d0_1_2 : S64x158x8.ReducesTo [0, 1, 2] S_
  bcast_S_S64x1x8 : S_.BroadcastsInDim S64x1x8 (![] : Fin 0 → Fin S64x1x8.rank)
  reducesTo_S64x1x8_S_d0_1_2 : S64x1x8.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64x1x158 .f32) (main_arg12 : FVec F S64x158x8 .f32) (main_arg13 : FVec F S64x1x8 .f32) (main_v48 : IVec S_ 1) (main_v49 : FVec F S64x1x158 .f32) (main_v50 : FVec F S64x1x158 .f32) : IVec S_ 1 :=
  let main_v51 : IVec S64x1x158 1 := cmpf .olt main_v49 main_v50
  let main_c_19 : IVec S_ 1 := constantI S_ 1 1#1
  let main_v52 : IVec S_ 1 := (fun x v => Host.reduce IntOp.andi x v reducesTo_S64x1x158_S_d0_1_2 h_S_) main_v51 main_c_19
  let main_v53 : IVec S_ 1 := andi main_v48 main_v52
  let main_v54 : FVec F S64x1x158 .f32 := Host.absf main_arg11
  let main_cst_20 : FVec F S_ .f32 := constant S_ .f32 0x7F800000#32
  let main_v55 : FVec F S64x1x158 .f32 := broadcastInDim S64x1x158 ![] bcast_S_S64x1x158 main_cst_20
  let main_v56 : IVec S64x1x158 1 := cmpf .olt main_v54 main_v55
  let main_c_21 : IVec S_ 1 := constantI S_ 1 1#1
  let main_v57 : IVec S_ 1 := (fun x v => Host.reduce IntOp.andi x v reducesTo_S64x1x158_S_d0_1_2 h_S_) main_v56 main_c_21
  let main_v58 : IVec S_ 1 := andi main_v53 main_v57
  let main_v59 : FVec F S64x158x8 .f32 := Host.absf main_arg12
  let main_cst_22 : FVec F S_ .f32 := constant S_ .f32 0x7F800000#32
  let main_v60 : FVec F S64x158x8 .f32 := broadcastInDim S64x158x8 ![] bcast_S_S64x158x8 main_cst_22
  let main_v61 : IVec S64x158x8 1 := cmpf .olt main_v59 main_v60
  let main_c_23 : IVec S_ 1 := constantI S_ 1 1#1
  let main_v62 : IVec S_ 1 := (fun x v => Host.reduce IntOp.andi x v reducesTo_S64x158x8_S_d0_1_2 h_S_) main_v61 main_c_23
  let main_v63 : IVec S_ 1 := andi main_v58 main_v62
  let main_v64 : FVec F S64x1x8 .f32 := Host.absf main_arg13
  let main_cst_24 : FVec F S_ .f32 := constant S_ .f32 0x7F800000#32
  let main_v65 : FVec F S64x1x8 .f32 := broadcastInDim S64x1x8 ![] bcast_S_S64x1x8 main_cst_24
  let main_v66 : IVec S64x1x8 1 := cmpf .olt main_v64 main_v65
  let main_c_25 : IVec S_ 1 := constantI S_ 1 1#1
  let main_v67 : IVec S_ 1 := (fun x v => Host.reduce IntOp.andi x v reducesTo_S64x1x8_S_d0_1_2 h_S_) main_v66 main_c_25
  fn_part4 (F := F) main_v63 main_v67

def fn_part2 {F : FTy → Type} [FloatOps F] (main_arg7 : FVec F S64x5x1x32 .f32) (main_arg8 : FVec F S64x3x19x1 .f32) (main_arg9 : FVec F S64x1x1 .f32) (main_arg10 : FVec F S64x1x158 .f32) (main_arg11 : FVec F S64x1x158 .f32) (main_arg12 : FVec F S64x158x8 .f32) (main_arg13 : FVec F S64x1x8 .f32) (main_v33 : IVec S_ 1) : IVec S_ 1 :=
  let main_v34 : FVec F S64x5x1x32 .f32 := Host.absf main_arg7
  let main_cst_12 : FVec F S_ .f32 := constant S_ .f32 0x7F800000#32
  let main_v35 : FVec F S64x5x1x32 .f32 := broadcastInDim S64x5x1x32 ![] bcast_S_S64x5x1x32 main_cst_12
  let main_v36 : IVec S64x5x1x32 1 := cmpf .olt main_v34 main_v35
  let main_c_13 : IVec S_ 1 := constantI S_ 1 1#1
  let main_v37 : IVec S_ 1 := (fun x v => Host.reduce IntOp.andi x v reducesTo_S64x5x1x32_S_d0_1_2_3 h_S_) main_v36 main_c_13
  let main_v38 : IVec S_ 1 := andi main_v33 main_v37
  let main_v39 : FVec F S64x3x19x1 .f32 := Host.absf main_arg8
  let main_cst_14 : FVec F S_ .f32 := constant S_ .f32 0x7F800000#32
  let main_v40 : FVec F S64x3x19x1 .f32 := broadcastInDim S64x3x19x1 ![] bcast_S_S64x3x19x1 main_cst_14
  let main_v41 : IVec S64x3x19x1 1 := cmpf .olt main_v39 main_v40
  let main_c_15 : IVec S_ 1 := constantI S_ 1 1#1
  let main_v42 : IVec S_ 1 := (fun x v => Host.reduce IntOp.andi x v reducesTo_S64x3x19x1_S_d0_1_2_3 h_S_) main_v41 main_c_15
  let main_v43 : IVec S_ 1 := andi main_v38 main_v42
  let main_v44 : FVec F S64x1x1 .f32 := Host.absf main_arg9
  let main_cst_16 : FVec F S_ .f32 := constant S_ .f32 0x7F800000#32
  let main_v45 : FVec F S64x1x1 .f32 := broadcastInDim S64x1x1 ![] bcast_S_S64x1x1 main_cst_16
  let main_v46 : IVec S64x1x1 1 := cmpf .olt main_v44 main_v45
  let main_c_17 : IVec S_ 1 := constantI S_ 1 1#1
  let main_v47 : IVec S_ 1 := (fun x v => Host.reduce IntOp.andi x v reducesTo_S64x1x1_S_d0_1_2 h_S_) main_v46 main_c_17
  let main_v48 : IVec S_ 1 := andi main_v43 main_v47
  let main_v49 : FVec F S64x1x158 .f32 := Host.absf main_arg10
  let main_cst_18 : FVec F S_ .f32 := constant S_ .f32 0x7F800000#32
  let main_v50 : FVec F S64x1x158 .f32 := broadcastInDim S64x1x158 ![] bcast_S_S64x1x158 main_cst_18
  fn_part3 (F := F) main_arg11 main_arg12 main_arg13 main_v48 main_v49 main_v50

def fn_part1 {F : FTy → Type} [FloatOps F] (main_arg4 : FVec F S64x10x96x32 .f32) (main_arg5 : FVec F S64x10x1x32 .f32) (main_arg6 : FVec F S64x5x96x32 .f32) (main_arg7 : FVec F S64x5x1x32 .f32) (main_arg8 : FVec F S64x3x19x1 .f32) (main_arg9 : FVec F S64x1x1 .f32) (main_arg10 : FVec F S64x1x158 .f32) (main_arg11 : FVec F S64x1x158 .f32) (main_arg12 : FVec F S64x158x8 .f32) (main_arg13 : FVec F S64x1x8 .f32) (main_v13 : IVec S_ 1) (main_v16 : IVec S64x5x1x32 1) : IVec S_ 1 :=
  let main_c_5 : IVec S_ 1 := constantI S_ 1 1#1
  let main_v17 : IVec S_ 1 := (fun x v => Host.reduce IntOp.andi x v reducesTo_S64x5x1x32_S_d0_1_2_3 h_S_) main_v16 main_c_5
  let main_v18 : IVec S_ 1 := andi main_v13 main_v17
  let main_v19 : FVec F S64x10x96x32 .f32 := Host.absf main_arg4
  let main_cst_6 : FVec F S_ .f32 := constant S_ .f32 0x7F800000#32
  let main_v20 : FVec F S64x10x96x32 .f32 := broadcastInDim S64x10x96x32 ![] bcast_S_S64x10x96x32 main_cst_6
  let main_v21 : IVec S64x10x96x32 1 := cmpf .olt main_v19 main_v20
  let main_c_7 : IVec S_ 1 := constantI S_ 1 1#1
  let main_v22 : IVec S_ 1 := (fun x v => Host.reduce IntOp.andi x v reducesTo_S64x10x96x32_S_d0_1_2_3 h_S_) main_v21 main_c_7
  let main_v23 : IVec S_ 1 := andi main_v18 main_v22
  let main_v24 : FVec F S64x10x1x32 .f32 := Host.absf main_arg5
  let main_cst_8 : FVec F S_ .f32 := constant S_ .f32 0x7F800000#32
  let main_v25 : FVec F S64x10x1x32 .f32 := broadcastInDim S64x10x1x32 ![] bcast_S_S64x10x1x32 main_cst_8
  let main_v26 : IVec S64x10x1x32 1 := cmpf .olt main_v24 main_v25
  let main_c_9 : IVec S_ 1 := constantI S_ 1 1#1
  let main_v27 : IVec S_ 1 := (fun x v => Host.reduce IntOp.andi x v reducesTo_S64x10x1x32_S_d0_1_2_3 h_S_) main_v26 main_c_9
  let main_v28 : IVec S_ 1 := andi main_v23 main_v27
  let main_v29 : FVec F S64x5x96x32 .f32 := Host.absf main_arg6
  let main_cst_10 : FVec F S_ .f32 := constant S_ .f32 0x7F800000#32
  let main_v30 : FVec F S64x5x96x32 .f32 := broadcastInDim S64x5x96x32 ![] bcast_S_S64x5x96x32 main_cst_10
  let main_v31 : IVec S64x5x96x32 1 := cmpf .olt main_v29 main_v30
  let main_c_11 : IVec S_ 1 := constantI S_ 1 1#1
  let main_v32 : IVec S_ 1 := (fun x v => Host.reduce IntOp.andi x v reducesTo_S64x5x96x32_S_d0_1_2_3 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S256x19x64x5 .f32) (main_arg1 : FVec F S256x5x19x19 .f32) (main_arg2 : FVec F S64x5x192x32 .f32) (main_arg3 : FVec F S64x5x1x32 .f32) (main_arg4 : FVec F S64x10x96x32 .f32) (main_arg5 : FVec F S64x10x1x32 .f32) (main_arg6 : FVec F S64x5x96x32 .f32) (main_arg7 : FVec F S64x5x1x32 .f32) (main_arg8 : FVec F S64x3x19x1 .f32) (main_arg9 : FVec F S64x1x1 .f32) (main_arg10 : FVec F S64x1x158 .f32) (main_arg11 : FVec F S64x1x158 .f32) (main_arg12 : FVec F S64x158x8 .f32) (main_arg13 : FVec F S64x1x8 .f32) : IVec S_ 1 :=
  let main_v0 : FVec F S256x19x64x5 .f32 := Host.absf main_arg0
  let main_cst : FVec F S_ .f32 := constant S_ .f32 0x7F800000#32
  let main_v1 : FVec F S256x19x64x5 .f32 := broadcastInDim S256x19x64x5 ![] bcast_S_S256x19x64x5 main_cst
  let main_v2 : IVec S256x19x64x5 1 := cmpf .olt main_v0 main_v1
  let main_c : IVec S_ 1 := constantI S_ 1 1#1
  let main_v3 : IVec S_ 1 := (fun x v => Host.reduce IntOp.andi x v reducesTo_S256x19x64x5_S_d0_1_2_3 h_S_) main_v2 main_c
  let main_v4 : FVec F S256x5x19x19 .f32 := Host.absf main_arg1
  let main_cst_0 : FVec F S_ .f32 := constant S_ .f32 0x7F800000#32
  let main_v5 : FVec F S256x5x19x19 .f32 := broadcastInDim S256x5x19x19 ![] bcast_S_S256x5x19x19 main_cst_0
  let main_v6 : IVec S256x5x19x19 1 := cmpf .olt main_v4 main_v5
  let main_c_1 : IVec S_ 1 := constantI S_ 1 1#1
  let main_v7 : IVec S_ 1 := (fun x v => Host.reduce IntOp.andi x v reducesTo_S256x5x19x19_S_d0_1_2_3 h_S_) main_v6 main_c_1
  let main_v8 : IVec S_ 1 := andi main_v3 main_v7
  let main_v9 : FVec F S64x5x192x32 .f32 := Host.absf main_arg2
  let main_cst_2 : FVec F S_ .f32 := constant S_ .f32 0x7F800000#32
  let main_v10 : FVec F S64x5x192x32 .f32 := broadcastInDim S64x5x192x32 ![] bcast_S_S64x5x192x32 main_cst_2
  let main_v11 : IVec S64x5x192x32 1 := cmpf .olt main_v9 main_v10
  let main_c_3 : IVec S_ 1 := constantI S_ 1 1#1
  let main_v12 : IVec S_ 1 := (fun x v => Host.reduce IntOp.andi x v reducesTo_S64x5x192x32_S_d0_1_2_3 h_S_) main_v11 main_c_3
  let main_v13 : IVec S_ 1 := andi main_v8 main_v12
  let main_v14 : FVec F S64x5x1x32 .f32 := Host.absf main_arg3
  let main_cst_4 : FVec F S_ .f32 := constant S_ .f32 0x7F800000#32
  let main_v15 : FVec F S64x5x1x32 .f32 := broadcastInDim S64x5x1x32 ![] bcast_S_S64x5x1x32 main_cst_4
  let main_v16 : IVec S64x5x1x32 1 := cmpf .olt main_v14 main_v15
  fn_part1 (F := F) main_arg4 main_arg5 main_arg6 main_arg7 main_arg8 main_arg9 main_arg10 main_arg11 main_arg12 main_arg13 main_v13 main_v16
-- ==== Kernel.lean ====
abbrev S256x19x64x5 : Shape := ⟨4, ![256, 19, 64, 5]⟩
abbrev S256x5x19x19 : Shape := ⟨4, ![256, 5, 19, 19]⟩
abbrev S64x5x192x32 : Shape := ⟨4, ![64, 5, 192, 32]⟩
abbrev S64x5x1x32 : Shape := ⟨4, ![64, 5, 1, 32]⟩
abbrev S64x10x96x32 : Shape := ⟨4, ![64, 10, 96, 32]⟩
abbrev S64x10x1x32 : Shape := ⟨4, ![64, 10, 1, 32]⟩
abbrev S64x5x96x32 : Shape := ⟨4, ![64, 5, 96, 32]⟩
abbrev S64x3x19x1 : Shape := ⟨4, ![64, 3, 19, 1]⟩
abbrev S64x1x1 : Shape := ⟨3, ![64, 1, 1]⟩
abbrev S64x1x158 : Shape := ⟨3, ![64, 1, 158]⟩
abbrev S64x158x8 : Shape := ⟨3, ![64, 158, 8]⟩
abbrev S64x1x8 : Shape := ⟨3, ![64, 1, 8]⟩
abbrev S5x256x19x64 : Shape := ⟨4, ![5, 256, 19, 64]⟩
abbrev S5x4864x64 : Shape := ⟨3, ![5, 4864, 64]⟩
abbrev S5x256x19x19 : Shape := ⟨4, ![5, 256, 19, 19]⟩
abbrev S5x4864x19 : Shape := ⟨3, ![5, 4864, 19]⟩
abbrev S1x64x1x3x1x19x1x1 : Shape := ⟨8, ![1, 64, 1, 3, 1, 19, 1, 1]⟩
abbrev S1x64x1x3x32x19x1x1 : Shape := ⟨8, ![1, 64, 1, 3, 32, 19, 1, 1]⟩
abbrev S64x3x608x1 : Shape := ⟨4, ![64, 3, 608, 1]⟩
abbrev S5x4864x192 : Shape := ⟨3, ![5, 4864, 192]⟩
abbrev S5x4864x152 : Shape := ⟨3, ![5, 4864, 152]⟩
abbrev S5x608x64 : Shape := ⟨3, ![5, 608, 64]⟩
abbrev S5x608x19 : Shape := ⟨3, ![5, 608, 19]⟩
abbrev S5x608x192 : Shape := ⟨3, ![5, 608, 192]⟩
abbrev S5x608x152 : Shape := ⟨3, ![5, 608, 152]⟩
abbrev S1x608x64 : Shape := ⟨3, ![1, 608, 64]⟩
abbrev S608x64 : Shape := ⟨2, ![608, 64]⟩
abbrev S1x608x19 : Shape := ⟨3, ![1, 608, 19]⟩
abbrev S608x19 : Shape := ⟨2, ![608, 19]⟩
abbrev S152x19 : Shape := ⟨2, ![152, 19]⟩
abbrev S152x152 : Shape := ⟨2, ![152, 152]⟩
abbrev S152x64 : Shape := ⟨2, ![152, 64]⟩
abbrev S608x192 : Shape := ⟨2, ![608, 192]⟩
abbrev S1x608x192 : Shape := ⟨3, ![1, 608, 192]⟩
abbrev S608x152 : Shape := ⟨2, ![608, 152]⟩
abbrev S1x608x152 : Shape := ⟨3, ![1, 608, 152]⟩
abbrev S64x256x158 : Shape := ⟨3, ![64, 256, 158]⟩
abbrev S1x5x192x32 : Shape := ⟨4, ![1, 5, 192, 32]⟩
abbrev S1x5x1x32 : Shape := ⟨4, ![1, 5, 1, 32]⟩
abbrev S1x10x96x32 : Shape := ⟨4, ![1, 10, 96, 32]⟩
abbrev S1x10x1x32 : Shape := ⟨4, ![1, 10, 1, 32]⟩
abbrev S1x5x96x32 : Shape := ⟨4, ![1, 5, 96, 32]⟩
abbrev S1x3x608x1 : Shape := ⟨4, ![1, 3, 608, 1]⟩
abbrev S1x1x1 : Shape := ⟨3, ![1, 1, 1]⟩
abbrev S1x32x158 : Shape := ⟨3, ![1, 32, 158]⟩
abbrev S1x1x192x32 : Shape := ⟨4, ![1, 1, 192, 32]⟩
abbrev S192x32 : Shape := ⟨2, ![192, 32]⟩
abbrev S608x32 : Shape := ⟨2, ![608, 32]⟩
abbrev S1x1x1x32 : Shape := ⟨4, ![1, 1, 1, 32]⟩
abbrev S1x32 : Shape := ⟨2, ![1, 32]⟩
abbrev S1x1x96x32 : Shape := ⟨4, ![1, 1, 96, 32]⟩
abbrev S96x32 : Shape := ⟨2, ![96, 32]⟩
abbrev S152x32 : Shape := ⟨2, ![152, 32]⟩
abbrev S608x96 : Shape := ⟨2, ![608, 96]⟩
abbrev S608x160 : Shape := ⟨2, ![608, 160]⟩
abbrev S1x1x608x1 : Shape := ⟨4, ![1, 1, 608, 1]⟩
abbrev S608x1 : Shape := ⟨2, ![608, 1]⟩
abbrev S32x19x160 : Shape := ⟨3, ![32, 19, 160]⟩
abbrev S32x160 : Shape := ⟨2, ![32, 160]⟩
abbrev S32x158 : Shape := ⟨2, ![32, 158]⟩
abbrev S1x1 : Shape := ⟨2, ![1, 1]⟩
abbrev S64x256x8 : Shape := ⟨3, ![64, 256, 8]⟩
abbrev S1x256x158 : Shape := ⟨3, ![1, 256, 158]⟩
abbrev S1x1x158 : Shape := ⟨3, ![1, 1, 158]⟩
abbrev S1x158x8 : Shape := ⟨3, ![1, 158, 8]⟩
abbrev S1x1x8 : Shape := ⟨3, ![1, 1, 8]⟩
abbrev S1x256x8 : Shape := ⟨3, ![1, 256, 8]⟩
abbrev S256x158 : Shape := ⟨2, ![256, 158]⟩
abbrev S158 : Shape := ⟨1, ![158]⟩
abbrev S1x158 : Shape := ⟨2, ![1, 158]⟩
abbrev S158x8 : Shape := ⟨2, ![158, 8]⟩
abbrev S256x8 : Shape := ⟨2, ![256, 8]⟩
abbrev S1x8 : Shape := ⟨2, ![1, 8]⟩
abbrev S_ : Shape := ⟨0, ![]⟩

abbrev nBuf : Space → Nat
  | .hbm => 30
  | .vmem => 42
  | .smem => 0
  | _ => 0

abbrev bufTy : (tb : Table) → Fin (tcTables nBuf tb) → BufTy
  | .hbm, ⟨0, _⟩ => ⟨S256x19x64x5, .f32⟩
  | .hbm, ⟨1, _⟩ => ⟨S256x5x19x19, .f32⟩
  | .hbm, ⟨2, _⟩ => ⟨S64x5x192x32, .f32⟩
  | .hbm, ⟨3, _⟩ => ⟨S64x5x1x32, .f32⟩
  | .hbm, ⟨4, _⟩ => ⟨S64x10x96x32, .f32⟩
  | .hbm, ⟨5, _⟩ => ⟨S64x10x1x32, .f32⟩
  | .hbm, ⟨6, _⟩ => ⟨S64x5x96x32, .f32⟩
  | .hbm, ⟨7, _⟩ => ⟨S64x5x1x32, .f32⟩
  | .hbm, ⟨8, _⟩ => ⟨S64x3x19x1, .f32⟩
  | .hbm, ⟨9, _⟩ => ⟨S64x1x1, .f32⟩
  | .hbm, ⟨10, _⟩ => ⟨S64x1x158, .f32⟩
  | .hbm, ⟨11, _⟩ => ⟨S64x1x158, .f32⟩
  | .hbm, ⟨12, _⟩ => ⟨S64x158x8, .f32⟩
  | .hbm, ⟨13, _⟩ => ⟨S64x1x8, .f32⟩
  | .hbm, ⟨14, _⟩ => ⟨S5x256x19x64, .f32⟩
  | .hbm, ⟨15, _⟩ => ⟨S5x4864x64, .f32⟩
  | .hbm, ⟨16, _⟩ => ⟨S5x256x19x19, .f32⟩
  | .hbm, ⟨17, _⟩ => ⟨S5x4864x19, .f32⟩
  | .hbm, ⟨18, _⟩ => ⟨S1x64x1x3x1x19x1x1, .f32⟩
  | .hbm, ⟨19, _⟩ => ⟨S1x64x1x3x32x19x1x1, .f32⟩
  | .hbm, ⟨20, _⟩ => ⟨S64x3x608x1, .f32⟩
  | .hbm, ⟨21, _⟩ => ⟨S5x4864x192, .f32⟩
  | .hbm, ⟨22, _⟩ => ⟨S5x4864x152, .f32⟩
  | .hbm, ⟨23, _⟩ => ⟨S64x256x158, .f32⟩
  | .hbm, ⟨24, _⟩ => ⟨S64x256x8, .f32⟩
  | .hbm, ⟨25, _⟩ => ⟨S_, .f32⟩
  | .hbm, ⟨26, _⟩ => ⟨S256x8, .f32⟩
  | .hbm, ⟨27, _⟩ => ⟨S_, .f32⟩
  | .hbm, ⟨28, _⟩ => ⟨S256x8, .f32⟩
  | .hbm, ⟨29, _⟩ => ⟨S256x8, .f32⟩
  | .local _ .vmem, ⟨0, _⟩ => ⟨S5x608x64, .f32⟩
  | .local _ .vmem, ⟨1, _⟩ => ⟨S5x608x64, .f32⟩
  | .local _ .vmem, ⟨2, _⟩ => ⟨S5x608x19, .f32⟩
  | .local _ .vmem, ⟨3, _⟩ => ⟨S5x608x19, .f32⟩
  | .local _ .vmem, ⟨4, _⟩ => ⟨S5x608x192, .f32⟩
  | .local _ .vmem, ⟨5, _⟩ => ⟨S5x608x192, .f32⟩
  | .local _ .vmem, ⟨6, _⟩ => ⟨S5x608x152, .f32⟩
  | .local _ .vmem, ⟨7, _⟩ => ⟨S5x608x152, .f32⟩
  | .local _ .vmem, ⟨8, _⟩ => ⟨S5x608x192, .f32⟩
  | .local _ .vmem, ⟨9, _⟩ => ⟨S5x608x192, .f32⟩
  | .local _ .vmem, ⟨10, _⟩ => ⟨S5x608x152, .f32⟩
  | .local _ .vmem, ⟨11, _⟩ => ⟨S5x608x152, .f32⟩
  | .local _ .vmem, ⟨12, _⟩ => ⟨S1x5x192x32, .f32⟩
  | .local _ .vmem, ⟨13, _⟩ => ⟨S1x5x192x32, .f32⟩
  | .local _ .vmem, ⟨14, _⟩ => ⟨S1x5x1x32, .f32⟩
  | .local _ .vmem, ⟨15, _⟩ => ⟨S1x5x1x32, .f32⟩
  | .local _ .vmem, ⟨16, _⟩ => ⟨S1x10x96x32, .f32⟩
  | .local _ .vmem, ⟨17, _⟩ => ⟨S1x10x96x32, .f32⟩
  | .local _ .vmem, ⟨18, _⟩ => ⟨S1x10x1x32, .f32⟩
  | .local _ .vmem, ⟨19, _⟩ => ⟨S1x10x1x32, .f32⟩
  | .local _ .vmem, ⟨20, _⟩ => ⟨S1x5x96x32, .f32⟩
  | .local _ .vmem, ⟨21, _⟩ => ⟨S1x5x96x32, .f32⟩
  | .local _ .vmem, ⟨22, _⟩ => ⟨S1x5x1x32, .f32⟩
  | .local _ .vmem, ⟨23, _⟩ => ⟨S1x5x1x32, .f32⟩
  | .local _ .vmem, ⟨24, _⟩ => ⟨S1x3x608x1, .f32⟩
  | .local _ .vmem, ⟨25, _⟩ => ⟨S1x3x608x1, .f32⟩
  | .local _ .vmem, ⟨26, _⟩ => ⟨S1x1x1, .f32⟩
  | .local _ .vmem, ⟨27, _⟩ => ⟨S1x1x1, .f32⟩
  | .local _ .vmem, ⟨28, _⟩ => ⟨S1x32x158, .f32⟩
  | .local _ .vmem, ⟨29, _⟩ => ⟨S1x32x158, .f32⟩
  | .local _ .vmem, ⟨30, _⟩ => ⟨S1x256x158, .f32⟩
  | .local _ .vmem, ⟨31, _⟩ => ⟨S1x256x158, .f32⟩
  | .local _ .vmem, ⟨32, _⟩ => ⟨S1x1x158, .f32⟩
  | .local _ .vmem, ⟨33, _⟩ => ⟨S1x1x158, .f32⟩
  | .local _ .vmem, ⟨34, _⟩ => ⟨S1x1x158, .f32⟩
  | .local _ .vmem, ⟨35, _⟩ => ⟨S1x1x158, .f32⟩
  | .local _ .vmem, ⟨36, _⟩ => ⟨S1x158x8, .f32⟩
  | .local _ .vmem, ⟨37, _⟩ => ⟨S1x158x8, .f32⟩
  | .local _ .vmem, ⟨38, _⟩ => ⟨S1x1x8, .f32⟩
  | .local _ .vmem, ⟨39, _⟩ => ⟨S1x1x8, .f32⟩
  | .local _ .vmem, ⟨40, _⟩ => ⟨S1x256x8, .f32⟩
  | .local _ .vmem, ⟨41, _⟩ => ⟨S1x256x8, .f32⟩
  | _, _ => ⟨S256x19x64x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev cc2_sem5_0 : DmaSem sig := 40
abbrev cc2_sem5_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5x608x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x608x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x608x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x608x152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S5x608x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5x608x152 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x5x192x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x5x1x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x10x96x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x10x1x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x5x96x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x5x1x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x3x608x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S1x32x158 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x158 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x158 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x158 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x158x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S256x19x64x5_S5x256x19x64_3_0_1_2 : S256x19x64x5.Transposes [3, 0, 1, 2] S5x256x19x64
  shapeCasts_S5x256x19x64_S5x4864x64 : S5x256x19x64.ShapeCasts S5x4864x64
  transposes_S256x5x19x19_S5x256x19x19_1_0_2_3 : S256x5x19x19.Transposes [1, 0, 2, 3] S5x256x19x19
  shapeCasts_S5x256x19x19_S5x4864x19 : S5x256x19x19.ShapeCasts S5x4864x19
  shapeCasts_S64x3x19x1_S1x64x1x3x1x19x1x1 : S64x3x19x1.ShapeCasts S1x64x1x3x1x19x1x1
  bcast_S1x64x1x3x1x19x1x1_S1x64x1x3x32x19x1x1_0_1_2_3_4_5_6_7 : S1x64x1x3x1x19x1x1.BroadcastsInDim S1x64x1x3x32x19x1x1 (![0, 1, 2, 3, 4, 5, 6, 7] : Fin 8 → Fin S1x64x1x3x32x19x1x1.rank)
  shapeCasts_S1x64x1x3x32x19x1x1_S64x3x608x1 : S1x64x1x3x32x19x1x1.ShapeCasts S64x3x608x1
  inb_S5x608x64_S1x608x64_0_0_0 : ∀ a, (![0, 0, 0] : Fin 3 → Nat) a + S1x608x64.size a ≤ S5x608x64.size a
  h_S1x608x64 : 0 < S1x608x64.numel
  shapeCasts_S1x608x64_S608x64 : S1x608x64.ShapeCasts S608x64
  inb_S5x608x19_S1x608x19_0_0_0 : ∀ a, (![0, 0, 0] : Fin 3 → Nat) a + S1x608x19.size a ≤ S5x608x19.size a
  h_S1x608x19 : 0 < S1x608x19.numel
  shapeCasts_S1x608x19_S608x19 : S1x608x19.ShapeCasts S608x19
  slices_S608x19_o0_0_S152x19 : S608x19.Slices ![0, 0] S152x19
  concatenates_S152x19_S152x19_S152x19_S152x19_S152x19_S152x19_S152x19_S152x19_S152x152_d1 : Shape.Concatenates [S152x19, S152x19, S152x19, S152x19, S152x19, S152x19, S152x19, S152x19] S152x152 1
  iota_S152x152_d0_w32 : S152x152.Iotas .tc 32 [0]
  natLt_1_32 : 1 < 32
  iota_S152x152_d1_w32 : S152x152.Iotas .tc 32 [1]
  slices_S608x64_o0_0_S152x64 : S608x64.Slices ![0, 0] S152x64
  slices_S608x19_o152_0_S152x19 : S608x19.Slices ![152, 0] S152x19
  slices_S608x64_o152_0_S152x64 : S608x64.Slices ![152, 0] S152x64
  slices_S608x19_o304_0_S152x19 : S608x19.Slices ![304, 0] S152x19
  slices_S608x64_o304_0_S152x64 : S608x64.Slices ![304, 0] S152x64
  slices_S608x19_o456_0_S152x19 : S608x19.Slices ![456, 0] S152x19
  slices_S608x64_o456_0_S152x64 : S608x64.Slices ![456, 0] S152x64
  concatenates_S152x64_S152x64_S152x64_S152x64_S608x64_d0 : Shape.Concatenates [S152x64, S152x64, S152x64, S152x64] S608x64 0
  concatenates_S608x64_S608x64_S608x64_S608x192_d1 : Shape.Concatenates [S608x64, S608x64, S608x64] S608x192 1
  inb_S5x608x192_S1x608x192_0_0_0 : ∀ a, (![0, 0, 0] : Fin 3 → Nat) a + S1x608x192.size a ≤ S5x608x192.size a
  h_S1x608x192 : 0 < S1x608x192.numel
  shapeCasts_S1x608x192_S608x192 : S1x608x192.ShapeCasts S608x192
  shapeCasts_S608x192_S1x608x192 : S608x192.ShapeCasts S1x608x192
  concatenates_S152x152_S152x152_S152x152_S152x152_S608x152_d0 : Shape.Concatenates [S152x152, S152x152, S152x152, S152x152] S608x152 0
  inb_S5x608x152_S1x608x152_0_0_0 : ∀ a, (![0, 0, 0] : Fin 3 → Nat) a + S1x608x152.size a ≤ S5x608x152.size a
  h_S1x608x152 : 0 < S1x608x152.numel
  shapeCasts_S1x608x152_S608x152 : S1x608x152.ShapeCasts S608x152
  shapeCasts_S608x152_S1x608x152 : S608x152.ShapeCasts S1x608x152
  inb_S5x608x64_S1x608x64_1_0_0 : ∀ a, (![1, 0, 0] : Fin 3 → Nat) a + S1x608x64.size a ≤ S5x608x64.size a
  inb_S5x608x19_S1x608x19_1_0_0 : ∀ a, (![1, 0, 0] : Fin 3 → Nat) a + S1x608x19.size a ≤ S5x608x19.size a
  inb_S5x608x192_S1x608x192_1_0_0 : ∀ a, (![1, 0, 0] : Fin 3 → Nat) a + S1x608x192.size a ≤ S5x608x192.size a
  inb_S5x608x152_S1x608x152_1_0_0 : ∀ a, (![1, 0, 0] : Fin 3 → Nat) a + S1x608x152.size a ≤ S5x608x152.size a
  inb_S5x608x64_S1x608x64_2_0_0 : ∀ a, (![2, 0, 0] : Fin 3 → Nat) a + S1x608x64.size a ≤ S5x608x64.size a
  inb_S5x608x19_S1x608x19_2_0_0 : ∀ a, (![2, 0, 0] : Fin 3 → Nat) a + S1x608x19.size a ≤ S5x608x19.size a
  inb_S5x608x192_S1x608x192_2_0_0 : ∀ a, (![2, 0, 0] : Fin 3 → Nat) a + S1x608x192.size a ≤ S5x608x192.size a
  inb_S5x608x152_S1x608x152_2_0_0 : ∀ a, (![2, 0, 0] : Fin 3 → Nat) a + S1x608x152.size a ≤ S5x608x152.size a
  inb_S5x608x64_S1x608x64_3_0_0 : ∀ a, (![3, 0, 0] : Fin 3 → Nat) a + S1x608x64.size a ≤ S5x608x64.size a
  inb_S5x608x19_S1x608x19_3_0_0 : ∀ a, (![3, 0, 0] : Fin 3 → Nat) a + S1x608x19.size a ≤ S5x608x19.size a
  inb_S5x608x192_S1x608x192_3_0_0 : ∀ a, (![3, 0, 0] : Fin 3 → Nat) a + S1x608x192.size a ≤ S5x608x192.size a
  inb_S5x608x152_S1x608x152_3_0_0 : ∀ a, (![3, 0, 0] : Fin 3 → Nat) a + S1x608x152.size a ≤ S5x608x152.size a
  inb_S5x608x64_S1x608x64_4_0_0 : ∀ a, (![4, 0, 0] : Fin 3 → Nat) a + S1x608x64.size a ≤ S5x608x64.size a
  inb_S5x608x19_S1x608x19_4_0_0 : ∀ a, (![4, 0, 0] : Fin 3 → Nat) a + S1x608x19.size a ≤ S5x608x19.size a
  inb_S5x608x192_S1x608x192_4_0_0 : ∀ a, (![4, 0, 0] : Fin 3 → Nat) a + S1x608x192.size a ≤ S5x608x192.size a
  inb_S5x608x152_S1x608x152_4_0_0 : ∀ a, (![4, 0, 0] : Fin 3 → Nat) a + S1x608x152.size a ≤ S5x608x152.size a
  slices_S608x152_o0_0_S152x152 : S608x152.Slices ![0, 0] S152x152
  slices_S608x152_o152_0_S152x152 : S608x152.Slices ![152, 0] S152x152
  slices_S608x152_o304_0_S152x152 : S608x152.Slices ![304, 0] S152x152
  slices_S608x152_o456_0_S152x152 : S608x152.Slices ![456, 0] S152x152
  inb_S1x5x192x32_S1x1x192x32_0_0_0_0 : ∀ a, (![0, 0, 0, 0] : Fin 4 → Nat) a + S1x1x192x32.size a ≤ S1x5x192x32.size a
  h_S1x1x192x32 : 0 < S1x1x192x32.numel
  shapeCasts_S1x1x192x32_S192x32 : S1x1x192x32.ShapeCasts S192x32
  inb_S1x5x1x32_S1x1x1x32_0_0_0_0 : ∀ a, (![0, 0, 0, 0] : Fin 4 → Nat) a + S1x1x1x32.size a ≤ S1x5x1x32.size a
  h_S1x1x1x32 : 0 < S1x1x1x32.numel
  shapeCasts_S1x1x1x32_S1x32 : S1x1x1x32.ShapeCasts S1x32
  broadcasts_S1x32_S608x32 : S1x32.Broadcasts S608x32
  inb_S1x10x96x32_S1x1x96x32_0_0_0_0 : ∀ a, (![0, 0, 0, 0] : Fin 4 → Nat) a + S1x1x96x32.size a ≤ S1x10x96x32.size a
  h_S1x1x96x32 : 0 < S1x1x96x32.numel
  shapeCasts_S1x1x96x32_S96x32 : S1x1x96x32.ShapeCasts S96x32
  inb_S1x10x1x32_S1x1x1x32_0_0_0_0 : ∀ a, (![0, 0, 0, 0] : Fin 4 → Nat) a + S1x1x1x32.size a ≤ S1x10x1x32.size a
  slices_S608x32_o0_0_S152x32 : S608x32.Slices ![0, 0] S152x32
  slices_S608x32_o152_0_S152x32 : S608x32.Slices ![152, 0] S152x32
  slices_S608x32_o304_0_S152x32 : S608x32.Slices ![304, 0] S152x32
  slices_S608x32_o456_0_S152x32 : S608x32.Slices ![456, 0] S152x32
  concatenates_S152x32_S152x32_S152x32_S152x32_S608x32_d0 : Shape.Concatenates [S152x32, S152x32, S152x32, S152x32] S608x32 0
  concatenates_S608x32_S608x32_S608x32_S608x96_d1 : Shape.Concatenates [S608x32, S608x32, S608x32] S608x96 1
  inb_S1x10x96x32_S1x1x96x32_0_1_0_0 : ∀ a, (![0, 1, 0, 0] : Fin 4 → Nat) a + S1x1x96x32.size a ≤ S1x10x96x32.size a
  inb_S1x10x1x32_S1x1x1x32_0_1_0_0 : ∀ a, (![0, 1, 0, 0] : Fin 4 → Nat) a + S1x1x1x32.size a ≤ S1x10x1x32.size a
  inb_S1x5x96x32_S1x1x96x32_0_0_0_0 : ∀ a, (![0, 0, 0, 0] : Fin 4 → Nat) a + S1x1x96x32.size a ≤ S1x5x96x32.size a
  inb_S1x5x192x32_S1x1x192x32_0_1_0_0 : ∀ a, (![0, 1, 0, 0] : Fin 4 → Nat) a + S1x1x192x32.size a ≤ S1x5x192x32.size a
  inb_S1x5x1x32_S1x1x1x32_0_1_0_0 : ∀ a, (![0, 1, 0, 0] : Fin 4 → Nat) a + S1x1x1x32.size a ≤ S1x5x1x32.size a
  inb_S1x10x96x32_S1x1x96x32_0_2_0_0 : ∀ a, (![0, 2, 0, 0] : Fin 4 → Nat) a + S1x1x96x32.size a ≤ S1x10x96x32.size a
  inb_S1x10x1x32_S1x1x1x32_0_2_0_0 : ∀ a, (![0, 2, 0, 0] : Fin 4 → Nat) a + S1x1x1x32.size a ≤ S1x10x1x32.size a
  inb_S1x10x96x32_S1x1x96x32_0_3_0_0 : ∀ a, (![0, 3, 0, 0] : Fin 4 → Nat) a + S1x1x96x32.size a ≤ S1x10x96x32.size a
  inb_S1x10x1x32_S1x1x1x32_0_3_0_0 : ∀ a, (![0, 3, 0, 0] : Fin 4 → Nat) a + S1x1x1x32.size a ≤ S1x10x1x32.size a
  inb_S1x5x96x32_S1x1x96x32_0_1_0_0 : ∀ a, (![0, 1, 0, 0] : Fin 4 → Nat) a + S1x1x96x32.size a ≤ S1x5x96x32.size a
  inb_S1x5x192x32_S1x1x192x32_0_2_0_0 : ∀ a, (![0, 2, 0, 0] : Fin 4 → Nat) a + S1x1x192x32.size a ≤ S1x5x192x32.size a
  inb_S1x5x1x32_S1x1x1x32_0_2_0_0 : ∀ a, (![0, 2, 0, 0] : Fin 4 → Nat) a + S1x1x1x32.size a ≤ S1x5x1x32.size a
  inb_S1x10x96x32_S1x1x96x32_0_4_0_0 : ∀ a, (![0, 4, 0, 0] : Fin 4 → Nat) a + S1x1x96x32.size a ≤ S1x10x96x32.size a
  inb_S1x10x1x32_S1x1x1x32_0_4_0_0 : ∀ a, (![0, 4, 0, 0] : Fin 4 → Nat) a + S1x1x1x32.size a ≤ S1x10x1x32.size a
  inb_S1x10x96x32_S1x1x96x32_0_5_0_0 : ∀ a, (![0, 5, 0, 0] : Fin 4 → Nat) a + S1x1x96x32.size a ≤ S1x10x96x32.size a
  inb_S1x10x1x32_S1x1x1x32_0_5_0_0 : ∀ a, (![0, 5, 0, 0] : Fin 4 → Nat) a + S1x1x1x32.size a ≤ S1x10x1x32.size a
  inb_S1x5x96x32_S1x1x96x32_0_2_0_0 : ∀ a, (![0, 2, 0, 0] : Fin 4 → Nat) a + S1x1x96x32.size a ≤ S1x5x96x32.size a
  inb_S1x5x192x32_S1x1x192x32_0_3_0_0 : ∀ a, (![0, 3, 0, 0] : Fin 4 → Nat) a + S1x1x192x32.size a ≤ S1x5x192x32.size a
  inb_S1x5x1x32_S1x1x1x32_0_3_0_0 : ∀ a, (![0, 3, 0, 0] : Fin 4 → Nat) a + S1x1x1x32.size a ≤ S1x5x1x32.size a
  inb_S1x10x96x32_S1x1x96x32_0_6_0_0 : ∀ a, (![0, 6, 0, 0] : Fin 4 → Nat) a + S1x1x96x32.size a ≤ S1x10x96x32.size a
  inb_S1x10x1x32_S1x1x1x32_0_6_0_0 : ∀ a, (![0, 6, 0, 0] : Fin 4 → Nat) a + S1x1x1x32.size a ≤ S1x10x1x32.size a
  inb_S1x10x96x32_S1x1x96x32_0_7_0_0 : ∀ a, (![0, 7, 0, 0] : Fin 4 → Nat) a + S1x1x96x32.size a ≤ S1x10x96x32.size a
  inb_S1x10x1x32_S1x1x1x32_0_7_0_0 : ∀ a, (![0, 7, 0, 0] : Fin 4 → Nat) a + S1x1x1x32.size a ≤ S1x10x1x32.size a
  inb_S1x5x96x32_S1x1x96x32_0_3_0_0 : ∀ a, (![0, 3, 0, 0] : Fin 4 → Nat) a + S1x1x96x32.size a ≤ S1x5x96x32.size a
  inb_S1x5x192x32_S1x1x192x32_0_4_0_0 : ∀ a, (![0, 4, 0, 0] : Fin 4 → Nat) a + S1x1x192x32.size a ≤ S1x5x192x32.size a
  inb_S1x5x1x32_S1x1x1x32_0_4_0_0 : ∀ a, (![0, 4, 0, 0] : Fin 4 → Nat) a + S1x1x1x32.size a ≤ S1x5x1x32.size a
  inb_S1x10x96x32_S1x1x96x32_0_8_0_0 : ∀ a, (![0, 8, 0, 0] : Fin 4 → Nat) a + S1x1x96x32.size a ≤ S1x10x96x32.size a
  inb_S1x10x1x32_S1x1x1x32_0_8_0_0 : ∀ a, (![0, 8, 0, 0] : Fin 4 → Nat) a + S1x1x1x32.size a ≤ S1x10x1x32.size a
  inb_S1x10x96x32_S1x1x96x32_0_9_0_0 : ∀ a, (![0, 9, 0, 0] : Fin 4 → Nat) a + S1x1x96x32.size a ≤ S1x10x96x32.size a
  inb_S1x10x1x32_S1x1x1x32_0_9_0_0 : ∀ a, (![0, 9, 0, 0] : Fin 4 → Nat) a + S1x1x1x32.size a ≤ S1x10x1x32.size a
  inb_S1x5x96x32_S1x1x96x32_0_4_0_0 : ∀ a, (![0, 4, 0, 0] : Fin 4 → Nat) a + S1x1x96x32.size a ≤ S1x5x96x32.size a
  concatenates_S608x32_S608x32_S608x32_S608x32_S608x32_S608x160_d1 : Shape.Concatenates [S608x32, S608x32, S608x32, S608x32, S608x32] S608x160 1
  inb_S1x3x608x1_S1x1x608x1_0_0_0_0 : ∀ a, (![0, 0, 0, 0] : Fin 4 → Nat) a + S1x1x608x1.size a ≤ S1x3x608x1.size a
  h_S1x1x608x1 : 0 < S1x1x608x1.numel
  shapeCasts_S1x1x608x1_S608x1 : S1x1x608x1.ShapeCasts S608x1
  broadcasts_S608x1_S608x160 : S608x1.Broadcasts S608x160
  shapeCasts_S608x160_S32x19x160 : S608x160.ShapeCasts S32x19x160
  reduces_S32x19x160_S32x160 : S32x19x160.Reduces [1] S32x160
  inb_S1x3x608x1_S1x1x608x1_0_1_0_0 : ∀ a, (![0, 1, 0, 0] : Fin 4 → Nat) a + S1x1x608x1.size a ≤ S1x3x608x1.size a
  inb_S1x3x608x1_S1x1x608x1_0_2_0_0 : ∀ a, (![0, 2, 0, 0] : Fin 4 → Nat) a + S1x1x608x1.size a ≤ S1x3x608x1.size a
  slices_S32x160_o0_0_S32x158 : S32x160.Slices ![0, 0] S32x158
  slices_S32x160_o0_1_S32x158 : S32x160.Slices ![0, 1] S32x158
  slices_S32x160_o0_2_S32x158 : S32x160.Slices ![0, 2] S32x158
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S32x158 : S1x1.Broadcasts S32x158
  inb_S1x32x158_S1x32x158_0_0_0 : ∀ a, (![0, 0, 0] : Fin 3 → Nat) a + S1x32x158.size a ≤ S1x32x158.size a
  h_S1x32x158 : 0 < S1x32x158.numel
  shapeCasts_S1x32x158_S32x158 : S1x32x158.ShapeCasts S32x158
  shapeCasts_S32x158_S1x32x158 : S32x158.ShapeCasts S1x32x158
  inb_S1x256x158_S1x256x158_0_0_0 : ∀ a, (![0, 0, 0] : Fin 3 → Nat) a + S1x256x158.size a ≤ S1x256x158.size a
  h_S1x256x158 : 0 < S1x256x158.numel
  shapeCasts_S1x256x158_S256x158 : S1x256x158.ShapeCasts S256x158
  reduces_S256x158_S158 : S256x158.Reduces [0] S158
  shapeCasts_S158_S1x158 : S158.ShapeCasts S1x158
  broadcasts_S1x158_S256x158 : S1x158.Broadcasts S256x158
  inb_S1x1x158_S1x1x158_0_0_0 : ∀ a, (![0, 0, 0] : Fin 3 → Nat) a + S1x1x158.size a ≤ S1x1x158.size a
  h_S1x1x158 : 0 < S1x1x158.numel
  shapeCasts_S1x1x158_S1x158 : S1x1x158.ShapeCasts S1x158
  inb_S1x158x8_S1x158x8_0_0_0 : ∀ a, (![0, 0, 0] : Fin 3 → Nat) a + S1x158x8.size a ≤ S1x158x8.size a
  h_S1x158x8 : 0 < S1x158x8.numel
  shapeCasts_S1x158x8_S158x8 : S1x158x8.ShapeCasts S158x8
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  broadcasts_S1x8_S256x8 : S1x8.Broadcasts S256x8
  inb_S1x256x8_S1x256x8_0_0_0 : ∀ a, (![0, 0, 0] : Fin 3 → Nat) a + S1x256x8.size a ≤ S1x256x8.size a
  h_S1x256x8 : 0 < S1x256x8.numel
  shapeCasts_S1x256x8_S256x8 : S1x256x8.ShapeCasts S256x8
  shapeCasts_S256x8_S1x256x8 : S256x8.ShapeCasts S1x256x8
  reducesTo_S64x256x8_S256x8_d0 : S64x256x8.ReducesTo [0] S256x8
  h_S_ : 0 < S_.numel
  bcast_S_S256x8 : S_.BroadcastsInDim S256x8 (![] : Fin 0 → Fin S256x8.rank)
  dot_S152x152_S152x64_S152x64_1_0_0_1_n_n_wf : DotDims.WF S152x152 S152x64 S152x64 [1] [0] [0] [1] [] []
  dot_S608x192_S192x32_S608x32_1_0_0_1_n_n_wf : DotDims.WF S608x192 S192x32 S608x32 [1] [0] [0] [1] [] []
  dot_S152x152_S152x32_S152x32_1_0_0_1_n_n_wf : DotDims.WF S152x152 S152x32 S152x32 [1] [0] [0] [1] [] []
  dot_S608x96_S96x32_S608x32_1_0_0_1_n_n_wf : DotDims.WF S608x96 S96x32 S608x32 [1] [0] [0] [1] [] []
  dot_S256x158_S158x8_S256x8_1_0_0_1_n_n_wf : DotDims.WF S256x158 S158x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x608x64.size a ≤ S5x4864x64.size a
  hwx0_0 : ∀ i : grid0.Coords, EltTy.bits .f32 = 32 ∨ (Rect.block (s := S5x4864x64) S5x608x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x608x19.size a ≤ S5x4864x19.size a
  hwx0_1 : ∀ i : grid0.Coords, EltTy.bits .f32 = 32 ∨ (Rect.block (s := S5x4864x19) S5x608x19.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x608x192.size a ≤ S5x4864x192.size a
  hwx0_2 : ∀ i : grid0.Coords, EltTy.bits .f32 = 32 ∨ (Rect.block (s := S5x4864x192) S5x608x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x608x152.size a ≤ S5x4864x152.size a
  hwx0_3 : ∀ i : grid0.Coords, EltTy.bits .f32 = 32 ∨ (Rect.block (s := S5x4864x152) S5x608x152.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x608x192.size a ≤ S5x4864x192.size a
  hwx1_0 : ∀ i : grid1.Coords, EltTy.bits .f32 = 32 ∨ (Rect.block (s := S5x4864x192) S5x608x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5x608x152.size a ≤ S5x4864x152.size a
  hwx1_1 : ∀ i : grid1.Coords, EltTy.bits .f32 = 32 ∨ (Rect.block (s := S5x4864x152) S5x608x152.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5x192x32.size a ≤ S64x5x192x32.size a
  hwx1_2 : ∀ i : grid1.Coords, EltTy.bits .f32 = 32 ∨ (Rect.block (s := S64x5x192x32) S1x5x192x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x5x1x32.size a ≤ S64x5x1x32.size a
  hwx1_3 : ∀ i : grid1.Coords, EltTy.bits .f32 = 32 ∨ (Rect.block (s := S64x5x1x32) S1x5x1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x10x96x32.size a ≤ S64x10x96x32.size a
  hwx1_4 : ∀ i : grid1.Coords, EltTy.bits .f32 = 32 ∨ (Rect.block (s := S64x10x96x32) S1x10x96x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x10x1x32.size a ≤ S64x10x1x32.size a
  hwx1_5 : ∀ i : grid1.Coords, EltTy.bits .f32 = 32 ∨ (Rect.block (s := S64x10x1x32) S1x10x1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x5x96x32.size a ≤ S64x5x96x32.size a
  hwx1_6 : ∀ i : grid1.Coords, EltTy.bits .f32 = 32 ∨ (Rect.block (s := S64x5x96x32) S1x5x96x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x5x1x32.size a ≤ S64x5x1x32.size a
  hwx1_7 : ∀ i : grid1.Coords, EltTy.bits .f32 = 32 ∨ (Rect.block (s := S64x5x1x32) S1x5x1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x3x608x1.size a ≤ S64x3x608x1.size a
  hwx1_8 : ∀ i : grid1.Coords, EltTy.bits .f32 = 32 ∨ (Rect.block (s := S64x3x608x1) S1x3x608x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x1.size a ≤ S64x1x1.size a
  hwx1_9 : ∀ i : grid1.Coords, EltTy.bits .f32 = 32 ∨ (Rect.block (s := S64x1x1) S1x1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x32x158.size a ≤ S64x256x158.size a
  hwx1_10 : ∀ i : grid1.Coords, EltTy.bits .f32 = 32 ∨ (Rect.block (s := S64x256x158) S1x32x158.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x158.size a ≤ S64x256x158.size a
  hwx2_0 : ∀ i : grid2.Coords, EltTy.bits .f32 = 32 ∨ (Rect.block (s := S64x256x158) S1x256x158.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x158.size a ≤ S64x1x158.size a
  hwx2_1 : ∀ i : grid2.Coords, EltTy.bits .f32 = 32 ∨ (Rect.block (s := S64x1x158) S1x1x158.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x158.size a ≤ S64x1x158.size a
  hwx2_2 : ∀ i : grid2.Coords, EltTy.bits .f32 = 32 ∨ (Rect.block (s := S64x1x158) S1x1x158.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x158x8.size a ≤ S64x158x8.size a
  hwx2_3 : ∀ i : grid2.Coords, EltTy.bits .f32 = 32 ∨ (Rect.block (s := S64x158x8) S1x158x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x8.size a ≤ S64x1x8.size a
  hwx2_4 : ∀ i : grid2.Coords, EltTy.bits .f32 = 32 ∨ (Rect.block (s := S64x1x8) S1x1x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256x8.size a ≤ S64x256x8.size a
  hwx2_5 : ∀ i : grid2.Coords, EltTy.bits .f32 = 32 ∨ (Rect.block (s := S64x256x8) S1x256x8.size (cc2_transform_5 i) (hinb2_5 i)).WholeWords (EltTy.packing .f32)

variable [Facts₀]

def dot_S152x152_S152x64_S152x64_1_0_0_1_n_n : DotDims S152x152 S152x64 S152x64 where
  lhsContracting := [1]
  rhsContracting := [0]
  lhsNonContracting := [0]
  rhsNonContracting := [1]
  lhsBatch := []
  rhsBatch := []
  wf := dot_S152x152_S152x64_S152x64_1_0_0_1_n_n_wf
def dot_S608x192_S192x32_S608x32_1_0_0_1_n_n : DotDims S608x192 S192x32 S608x32 where
  lhsContracting := [1]
  rhsContracting := [0]
  lhsNonContracting := [0]
  rhsNonContracting := [1]
  lhsBatch := []
  rhsBatch := []
  wf := dot_S608x192_S192x32_S608x32_1_0_0_1_n_n_wf
def dot_S152x152_S152x32_S152x32_1_0_0_1_n_n : DotDims S152x152 S152x32 S152x32 where
  lhsContracting := [1]
  rhsContracting := [0]
  lhsNonContracting := [0]
  rhsNonContracting := [1]
  lhsBatch := []
  rhsBatch := []
  wf := dot_S152x152_S152x32_S152x32_1_0_0_1_n_n_wf
def dot_S608x96_S96x32_S608x32_1_0_0_1_n_n : DotDims S608x96 S96x32 S608x32 where
  lhsContracting := [1]
  rhsContracting := [0]
  lhsNonContracting := [0]
  rhsNonContracting := [1]
  lhsBatch := []
  rhsBatch := []
  wf := dot_S608x96_S96x32_S608x32_1_0_0_1_n_n_wf
def dot_S256x158_S158x8_S256x8_1_0_0_1_n_n : DotDims S256x158 S158x8 S256x8 where
  lhsContracting := [1]
  rhsContracting := [0]
  lhsNonContracting := [0]
  rhsNonContracting := [1]
  lhsBatch := []
  rhsBatch := []
  wf := dot_S256x158_S158x8_S256x8_1_0_0_1_n_n_wf

abbrev win0_0 : Pipeline.Window sig grid0 :=
  Pipeline.Window.ofSpec (Memref.whole main_v1) S5x608x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5x608x19.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S5x608x192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S5x608x152.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7_0) S5x608x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S5x608x152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x5x192x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x5x1x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x10x96x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x10x1x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1x5x96x32.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S1x5x1x32.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6) S1x3x608x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S1x1x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v8) S1x32x158.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v8) S1x256x158.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S1x1x158.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S1x1x158.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1x158x8.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S1x1x8.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x256x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S256x19x64x5 : Shape := ⟨4, ![256, 19, 64, 5]⟩
abbrev S256x5x19x19 : Shape := ⟨4, ![256, 5, 19, 19]⟩
abbrev S64x5x192x32 : Shape := ⟨4, ![64, 5, 192, 32]⟩
abbrev S64x5x1x32 : Shape := ⟨4, ![64, 5, 1, 32]⟩
abbrev S64x10x96x32 : Shape := ⟨4, ![64, 10, 96, 32]⟩
abbrev S64x10x1x32 : Shape := ⟨4, ![64, 10, 1, 32]⟩
abbrev S64x5x96x32 : Shape := ⟨4, ![64, 5, 96, 32]⟩
abbrev S64x3x19x1 : Shape := ⟨4, ![64, 3, 19, 1]⟩
abbrev S64x1x1 : Shape := ⟨3, ![64, 1, 1]⟩
abbrev S64x1x158 : Shape := ⟨3, ![64, 1, 158]⟩
abbrev S64x158x8 : Shape := ⟨3, ![64, 158, 8]⟩
abbrev S64x1x8 : Shape := ⟨3, ![64, 1, 8]⟩
abbrev S256x5x19x64 : Shape := ⟨4, ![256, 5, 19, 64]⟩
abbrev S64x256x19x160 : Shape := ⟨4, ![64, 256, 19, 160]⟩
abbrev S1x5x19x64 : Shape := ⟨4, ![1, 5, 19, 64]⟩
abbrev S1x5x19x19 : Shape := ⟨4, ![1, 5, 19, 19]⟩
abbrev S1x5x192x32 : Shape := ⟨4, ![1, 5, 192, 32]⟩
abbrev S1x5x1x32 : Shape := ⟨4, ![1, 5, 1, 32]⟩
abbrev S1x10x96x32 : Shape := ⟨4, ![1, 10, 96, 32]⟩
abbrev S1x10x1x32 : Shape := ⟨4, ![1, 10, 1, 32]⟩
abbrev S1x5x96x32 : Shape := ⟨4, ![1, 5, 96, 32]⟩
abbrev S1x1x19x160 : Shape := ⟨4, ![1, 1, 19, 160]⟩
abbrev S1x1x19x19 : Shape := ⟨4, ![1, 1, 19, 19]⟩
abbrev S19x19 : Shape := ⟨2, ![19, 19]⟩
abbrev S1x1x19x64 : Shape := ⟨4, ![1, 1, 19, 64]⟩
abbrev S19x64 : Shape := ⟨2, ![19, 64]⟩
abbrev S1x1x192x32 : Shape := ⟨4, ![1, 1, 192, 32]⟩
abbrev S192x32 : Shape := ⟨2, ![192, 32]⟩
abbrev S1x1x1x32 : Shape := ⟨4, ![1, 1, 1, 32]⟩
abbrev S1x32 : Shape := ⟨2, ![1, 32]⟩
abbrev S19x192 : Shape := ⟨2, ![19, 192]⟩
abbrev S19x32 : Shape := ⟨2, ![19, 32]⟩
abbrev S1x1x96x32 : Shape := ⟨4, ![1, 1, 96, 32]⟩
abbrev S96x32 : Shape := ⟨2, ![96, 32]⟩
abbrev S19x96 : Shape := ⟨2, ![19, 96]⟩
abbrev S19x160 : Shape := ⟨2, ![19, 160]⟩
abbrev S64x256x8 : Shape := ⟨3, ![64, 256, 8]⟩
abbrev S1x256x19x160 : Shape := ⟨4, ![1, 256, 19, 160]⟩
abbrev S1x3x19x1 : Shape := ⟨4, ![1, 3, 19, 1]⟩
abbrev S1x1x1 : Shape := ⟨3, ![1, 1, 1]⟩
abbrev S1x1x158 : Shape := ⟨3, ![1, 1, 158]⟩
abbrev S1x158x8 : Shape := ⟨3, ![1, 158, 8]⟩
abbrev S1x1x8 : Shape := ⟨3, ![1, 1, 8]⟩
abbrev S1x256x8 : Shape := ⟨3, ![1, 256, 8]⟩
abbrev S1x1x19x1 : Shape := ⟨4, ![1, 1, 19, 1]⟩
abbrev S19x1 : Shape := ⟨2, ![19, 1]⟩
abbrev S160 : Shape := ⟨1, ![160]⟩
abbrev S1x160 : Shape := ⟨2, ![1, 160]⟩
abbrev S1x158 : Shape := ⟨2, ![1, 158]⟩
abbrev S256x158 : Shape := ⟨2, ![256, 158]⟩
abbrev S1x1 : Shape := ⟨2, ![1, 1]⟩
abbrev S158 : Shape := ⟨1, ![158]⟩
abbrev S158x8 : Shape := ⟨2, ![158, 8]⟩
abbrev S256x8 : Shape := ⟨2, ![256, 8]⟩
abbrev S1x8 : Shape := ⟨2, ![1, 8]⟩
abbrev S_ : Shape := ⟨0, ![]⟩

abbrev nBuf : Space → Nat
  | .hbm => 22
  | .vmem => 34
  | .smem => 0
  | _ => 0

abbrev bufTy : (tb : Table) → Fin (tcTables nBuf tb) → BufTy
  | .hbm, ⟨0, _⟩ => ⟨S256x19x64x5, .f32⟩
  | .hbm, ⟨1, _⟩ => ⟨S256x5x19x19, .f32⟩
  | .hbm, ⟨2, _⟩ => ⟨S64x5x192x32, .f32⟩
  | .hbm, ⟨3, _⟩ => ⟨S64x5x1x32, .f32⟩
  | .hbm, ⟨4, _⟩ => ⟨S64x10x96x32, .f32⟩
  | .hbm, ⟨5, _⟩ => ⟨S64x10x1x32, .f32⟩
  | .hbm, ⟨6, _⟩ => ⟨S64x5x96x32, .f32⟩
  | .hbm, ⟨7, _⟩ => ⟨S64x5x1x32, .f32⟩
  | .hbm, ⟨8, _⟩ => ⟨S64x3x19x1, .f32⟩
  | .hbm, ⟨9, _⟩ => ⟨S64x1x1, .f32⟩
  | .hbm, ⟨10, _⟩ => ⟨S64x1x158, .f32⟩
  | .hbm, ⟨11, _⟩ => ⟨S64x1x158, .f32⟩
  | .hbm, ⟨12, _⟩ => ⟨S64x158x8, .f32⟩
  | .hbm, ⟨13, _⟩ => ⟨S64x1x8, .f32⟩
  | .hbm, ⟨14, _⟩ => ⟨S256x5x19x64, .f32⟩
  | .hbm, ⟨15, _⟩ => ⟨S64x256x19x160, .f32⟩
  | .hbm, ⟨16, _⟩ => ⟨S64x256x8, .f32⟩
  | .hbm, ⟨17, _⟩ => ⟨S_, .f32⟩
  | .hbm, ⟨18, _⟩ => ⟨S256x8, .f32⟩
  | .hbm, ⟨19, _⟩ => ⟨S_, .f32⟩
  | .hbm, ⟨20, _⟩ => ⟨S256x8, .f32⟩
  | .hbm, ⟨21, _⟩ => ⟨S256x8, .f32⟩
  | .local _ .vmem, ⟨0, _⟩ => ⟨S1x5x19x64, .f32⟩
  | .local _ .vmem, ⟨1, _⟩ => ⟨S1x5x19x64, .f32⟩
  | .local _ .vmem, ⟨2, _⟩ => ⟨S1x5x19x19, .f32⟩
  | .local _ .vmem, ⟨3, _⟩ => ⟨S1x5x19x19, .f32⟩
  | .local _ .vmem, ⟨4, _⟩ => ⟨S1x5x192x32, .f32⟩
  | .local _ .vmem, ⟨5, _⟩ => ⟨S1x5x192x32, .f32⟩
  | .local _ .vmem, ⟨6, _⟩ => ⟨S1x5x1x32, .f32⟩
  | .local _ .vmem, ⟨7, _⟩ => ⟨S1x5x1x32, .f32⟩
  | .local _ .vmem, ⟨8, _⟩ => ⟨S1x10x96x32, .f32⟩
  | .local _ .vmem, ⟨9, _⟩ => ⟨S1x10x96x32, .f32⟩
  | .local _ .vmem, ⟨10, _⟩ => ⟨S1x10x1x32, .f32⟩
  | .local _ .vmem, ⟨11, _⟩ => ⟨S1x10x1x32, .f32⟩
  | .local _ .vmem, ⟨12, _⟩ => ⟨S1x5x96x32, .f32⟩
  | .local _ .vmem, ⟨13, _⟩ => ⟨S1x5x96x32, .f32⟩
  | .local _ .vmem, ⟨14, _⟩ => ⟨S1x5x1x32, .f32⟩
  | .local _ .vmem, ⟨15, _⟩ => ⟨S1x5x1x32, .f32⟩
  | .local _ .vmem, ⟨16, _⟩ => ⟨S1x1x19x160, .f32⟩
  | .local _ .vmem, ⟨17, _⟩ => ⟨S1x1x19x160, .f32⟩
  | .local _ .vmem, ⟨18, _⟩ => ⟨S1x256x19x160, .f32⟩
  | .local _ .vmem, ⟨19, _⟩ => ⟨S1x256x19x160, .f32⟩
  | .local _ .vmem, ⟨20, _⟩ => ⟨S1x3x19x1, .f32⟩
  | .local _ .vmem, ⟨21, _⟩ => ⟨S1x3x19x1, .f32⟩
  | .local _ .vmem, ⟨22, _⟩ => ⟨S1x1x1, .f32⟩
  | .local _ .vmem, ⟨23, _⟩ => ⟨S1x1x1, .f32⟩
  | .local _ .vmem, ⟨24, _⟩ => ⟨S1x1x158, .f32⟩
  | .local _ .vmem, ⟨25, _⟩ => ⟨S1x1x158, .f32⟩
  | .local _ .vmem, ⟨26, _⟩ => ⟨S1x1x158, .f32⟩
  | .local _ .vmem, ⟨27, _⟩ => ⟨S1x1x158, .f32⟩
  | .local _ .vmem, ⟨28, _⟩ => ⟨S1x158x8, .f32⟩
  | .local _ .vmem, ⟨29, _⟩ => ⟨S1x158x8, .f32⟩
  | .local _ .vmem, ⟨30, _⟩ => ⟨S1x1x8, .f32⟩
  | .local _ .vmem, ⟨31, _⟩ => ⟨S1x1x8, .f32⟩
  | .local _ .vmem, ⟨32, _⟩ => ⟨S1x256x8, .f32⟩
  | .local _ .vmem, ⟨33, _⟩ => ⟨S1x256x8, .f32⟩
  | _, _ => ⟨S256x19x64x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33

abbrev nD : Nat := 1
abbrev τ : Topo := Topo.v7x

variable {F : FTy → Type} [FloatOps F]

abbrev grid0 : Pipeline.Grid := ⟨2, ![64, 256], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x5x19x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5x19x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5x192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x10x96x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x10x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x5x96x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x5x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x19x160 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x19x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x19x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x158 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x158 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x158x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S256x19x64x5_S256x5x19x64_0_3_1_2 : S256x19x64x5.Transposes [0, 3, 1, 2] S256x5x19x64
  inb_S1x5x19x19_S1x1x19x19_0_0_0_0 : ∀ a, (![0, 0, 0, 0] : Fin 4 → Nat) a + S1x1x19x19.size a ≤ S1x5x19x19.size a
  h_S1x1x19x19 : 0 < S1x1x19x19.numel
  shapeCasts_S1x1x19x19_S19x19 : S1x1x19x19.ShapeCasts S19x19
  inb_S1x5x19x64_S1x1x19x64_0_0_0_0 : ∀ a, (![0, 0, 0, 0] : Fin 4 → Nat) a + S1x1x19x64.size a ≤ S1x5x19x64.size a
  h_S1x1x19x64 : 0 < S1x1x19x64.numel
  shapeCasts_S1x1x19x64_S19x64 : S1x1x19x64.ShapeCasts S19x64
  inb_S1x5x192x32_S1x1x192x32_0_0_0_0 : ∀ a, (![0, 0, 0, 0] : Fin 4 → Nat) a + S1x1x192x32.size a ≤ S1x5x192x32.size a
  h_S1x1x192x32 : 0 < S1x1x192x32.numel
  shapeCasts_S1x1x192x32_S192x32 : S1x1x192x32.ShapeCasts S192x32
  inb_S1x5x1x32_S1x1x1x32_0_0_0_0 : ∀ a, (![0, 0, 0, 0] : Fin 4 → Nat) a + S1x1x1x32.size a ≤ S1x5x1x32.size a
  h_S1x1x1x32 : 0 < S1x1x1x32.numel
  shapeCasts_S1x1x1x32_S1x32 : S1x1x1x32.ShapeCasts S1x32
  concatenates_S19x64_S19x64_S19x64_S19x192_d1 : Shape.Concatenates [S19x64, S19x64, S19x64] S19x192 1
  broadcasts_S1x32_S19x32 : S1x32.Broadcasts S19x32
  inb_S1x10x96x32_S1x1x96x32_0_0_0_0 : ∀ a, (![0, 0, 0, 0] : Fin 4 → Nat) a + S1x1x96x32.size a ≤ S1x10x96x32.size a
  h_S1x1x96x32 : 0 < S1x1x96x32.numel
  shapeCasts_S1x1x96x32_S96x32 : S1x1x96x32.ShapeCasts S96x32
  inb_S1x10x1x32_S1x1x1x32_0_0_0_0 : ∀ a, (![0, 0, 0, 0] : Fin 4 → Nat) a + S1x1x1x32.size a ≤ S1x10x1x32.size a
  concatenates_S19x32_S19x32_S19x32_S19x96_d1 : Shape.Concatenates [S19x32, S19x32, S19x32] S19x96 1
  inb_S1x10x96x32_S1x1x96x32_0_1_0_0 : ∀ a, (![0, 1, 0, 0] : Fin 4 → Nat) a + S1x1x96x32.size a ≤ S1x10x96x32.size a
  inb_S1x10x1x32_S1x1x1x32_0_1_0_0 : ∀ a, (![0, 1, 0, 0] : Fin 4 → Nat) a + S1x1x1x32.size a ≤ S1x10x1x32.size a
  inb_S1x5x96x32_S1x1x96x32_0_0_0_0 : ∀ a, (![0, 0, 0, 0] : Fin 4 → Nat) a + S1x1x96x32.size a ≤ S1x5x96x32.size a
  inb_S1x5x19x19_S1x1x19x19_0_1_0_0 : ∀ a, (![0, 1, 0, 0] : Fin 4 → Nat) a + S1x1x19x19.size a ≤ S1x5x19x19.size a
  inb_S1x5x19x64_S1x1x19x64_0_1_0_0 : ∀ a, (![0, 1, 0, 0] : Fin 4 → Nat) a + S1x1x19x64.size a ≤ S1x5x19x64.size a
  inb_S1x5x192x32_S1x1x192x32_0_1_0_0 : ∀ a, (![0, 1, 0, 0] : Fin 4 → Nat) a + S1x1x192x32.size a ≤ S1x5x192x32.size a
  inb_S1x5x1x32_S1x1x1x32_0_1_0_0 : ∀ a, (![0, 1, 0, 0] : Fin 4 → Nat) a + S1x1x1x32.size a ≤ S1x5x1x32.size a
  inb_S1x10x96x32_S1x1x96x32_0_2_0_0 : ∀ a, (![0, 2, 0, 0] : Fin 4 → Nat) a + S1x1x96x32.size a ≤ S1x10x96x32.size a
  inb_S1x10x1x32_S1x1x1x32_0_2_0_0 : ∀ a, (![0, 2, 0, 0] : Fin 4 → Nat) a + S1x1x1x32.size a ≤ S1x10x1x32.size a
  inb_S1x10x96x32_S1x1x96x32_0_3_0_0 : ∀ a, (![0, 3, 0, 0] : Fin 4 → Nat) a + S1x1x96x32.size a ≤ S1x10x96x32.size a
  inb_S1x10x1x32_S1x1x1x32_0_3_0_0 : ∀ a, (![0, 3, 0, 0] : Fin 4 → Nat) a + S1x1x1x32.size a ≤ S1x10x1x32.size a
  inb_S1x5x96x32_S1x1x96x32_0_1_0_0 : ∀ a, (![0, 1, 0, 0] : Fin 4 → Nat) a + S1x1x96x32.size a ≤ S1x5x96x32.size a
  inb_S1x5x19x19_S1x1x19x19_0_2_0_0 : ∀ a, (![0, 2, 0, 0] : Fin 4 → Nat) a + S1x1x19x19.size a ≤ S1x5x19x19.size a
  inb_S1x5x19x64_S1x1x19x64_0_2_0_0 : ∀ a, (![0, 2, 0, 0] : Fin 4 → Nat) a + S1x1x19x64.size a ≤ S1x5x19x64.size a
  inb_S1x5x192x32_S1x1x192x32_0_2_0_0 : ∀ a, (![0, 2, 0, 0] : Fin 4 → Nat) a + S1x1x192x32.size a ≤ S1x5x192x32.size a
  inb_S1x5x1x32_S1x1x1x32_0_2_0_0 : ∀ a, (![0, 2, 0, 0] : Fin 4 → Nat) a + S1x1x1x32.size a ≤ S1x5x1x32.size a
  inb_S1x10x96x32_S1x1x96x32_0_4_0_0 : ∀ a, (![0, 4, 0, 0] : Fin 4 → Nat) a + S1x1x96x32.size a ≤ S1x10x96x32.size a
  inb_S1x10x1x32_S1x1x1x32_0_4_0_0 : ∀ a, (![0, 4, 0, 0] : Fin 4 → Nat) a + S1x1x1x32.size a ≤ S1x10x1x32.size a
  inb_S1x10x96x32_S1x1x96x32_0_5_0_0 : ∀ a, (![0, 5, 0, 0] : Fin 4 → Nat) a + S1x1x96x32.size a ≤ S1x10x96x32.size a
  inb_S1x10x1x32_S1x1x1x32_0_5_0_0 : ∀ a, (![0, 5, 0, 0] : Fin 4 → Nat) a + S1x1x1x32.size a ≤ S1x10x1x32.size a
  inb_S1x5x96x32_S1x1x96x32_0_2_0_0 : ∀ a, (![0, 2, 0, 0] : Fin 4 → Nat) a + S1x1x96x32.size a ≤ S1x5x96x32.size a
  inb_S1x5x19x19_S1x1x19x19_0_3_0_0 : ∀ a, (![0, 3, 0, 0] : Fin 4 → Nat) a + S1x1x19x19.size a ≤ S1x5x19x19.size a
  inb_S1x5x19x64_S1x1x19x64_0_3_0_0 : ∀ a, (![0, 3, 0, 0] : Fin 4 → Nat) a + S1x1x19x64.size a ≤ S1x5x19x64.size a
  inb_S1x5x192x32_S1x1x192x32_0_3_0_0 : ∀ a, (![0, 3, 0, 0] : Fin 4 → Nat) a + S1x1x192x32.size a ≤ S1x5x192x32.size a
  inb_S1x5x1x32_S1x1x1x32_0_3_0_0 : ∀ a, (![0, 3, 0, 0] : Fin 4 → Nat) a + S1x1x1x32.size a ≤ S1x5x1x32.size a
  inb_S1x10x96x32_S1x1x96x32_0_6_0_0 : ∀ a, (![0, 6, 0, 0] : Fin 4 → Nat) a + S1x1x96x32.size a ≤ S1x10x96x32.size a
  inb_S1x10x1x32_S1x1x1x32_0_6_0_0 : ∀ a, (![0, 6, 0, 0] : Fin 4 → Nat) a + S1x1x1x32.size a ≤ S1x10x1x32.size a
  inb_S1x10x96x32_S1x1x96x32_0_7_0_0 : ∀ a, (![0, 7, 0, 0] : Fin 4 → Nat) a + S1x1x96x32.size a ≤ S1x10x96x32.size a
  inb_S1x10x1x32_S1x1x1x32_0_7_0_0 : ∀ a, (![0, 7, 0, 0] : Fin 4 → Nat) a + S1x1x1x32.size a ≤ S1x10x1x32.size a
  inb_S1x5x96x32_S1x1x96x32_0_3_0_0 : ∀ a, (![0, 3, 0, 0] : Fin 4 → Nat) a + S1x1x96x32.size a ≤ S1x5x96x32.size a
  inb_S1x5x19x19_S1x1x19x19_0_4_0_0 : ∀ a, (![0, 4, 0, 0] : Fin 4 → Nat) a + S1x1x19x19.size a ≤ S1x5x19x19.size a
  inb_S1x5x19x64_S1x1x19x64_0_4_0_0 : ∀ a, (![0, 4, 0, 0] : Fin 4 → Nat) a + S1x1x19x64.size a ≤ S1x5x19x64.size a
  inb_S1x5x192x32_S1x1x192x32_0_4_0_0 : ∀ a, (![0, 4, 0, 0] : Fin 4 → Nat) a + S1x1x192x32.size a ≤ S1x5x192x32.size a
  inb_S1x5x1x32_S1x1x1x32_0_4_0_0 : ∀ a, (![0, 4, 0, 0] : Fin 4 → Nat) a + S1x1x1x32.size a ≤ S1x5x1x32.size a
  inb_S1x10x96x32_S1x1x96x32_0_8_0_0 : ∀ a, (![0, 8, 0, 0] : Fin 4 → Nat) a + S1x1x96x32.size a ≤ S1x10x96x32.size a
  inb_S1x10x1x32_S1x1x1x32_0_8_0_0 : ∀ a, (![0, 8, 0, 0] : Fin 4 → Nat) a + S1x1x1x32.size a ≤ S1x10x1x32.size a
  inb_S1x10x96x32_S1x1x96x32_0_9_0_0 : ∀ a, (![0, 9, 0, 0] : Fin 4 → Nat) a + S1x1x96x32.size a ≤ S1x10x96x32.size a
  inb_S1x10x1x32_S1x1x1x32_0_9_0_0 : ∀ a, (![0, 9, 0, 0] : Fin 4 → Nat) a + S1x1x1x32.size a ≤ S1x10x1x32.size a
  inb_S1x5x96x32_S1x1x96x32_0_4_0_0 : ∀ a, (![0, 4, 0, 0] : Fin 4 → Nat) a + S1x1x96x32.size a ≤ S1x5x96x32.size a
  concatenates_S19x32_S19x32_S19x32_S19x32_S19x32_S19x160_d1 : Shape.Concatenates [S19x32, S19x32, S19x32, S19x32, S19x32] S19x160 1
  inb_S1x1x19x160_S1x1x19x160_0_0_0_0 : ∀ a, (![0, 0, 0, 0] : Fin 4 → Nat) a + S1x1x19x160.size a ≤ S1x1x19x160.size a
  h_S1x1x19x160 : 0 < S1x1x19x160.numel
  shapeCasts_S1x1x19x160_S19x160 : S1x1x19x160.ShapeCasts S19x160
  shapeCasts_S19x160_S1x1x19x160 : S19x160.ShapeCasts S1x1x19x160
  inb_S1x256x19x160_S1x1x19x160_0_0_0_0 : ∀ a, (![0, 0, 0, 0] : Fin 4 → Nat) a + S1x1x19x160.size a ≤ S1x256x19x160.size a
  inb_S1x3x19x1_S1x1x19x1_0_0_0_0 : ∀ a, (![0, 0, 0, 0] : Fin 4 → Nat) a + S1x1x19x1.size a ≤ S1x3x19x1.size a
  h_S1x1x19x1 : 0 < S1x1x19x1.numel
  shapeCasts_S1x1x19x1_S19x1 : S1x1x19x1.ShapeCasts S19x1
  broadcasts_S19x1_S19x160 : S19x1.Broadcasts S19x160
  reduces_S19x160_S160 : S19x160.Reduces [0] S160
  shapeCasts_S160_S1x160 : S160.ShapeCasts S1x160
  inb_S1x3x19x1_S1x1x19x1_0_1_0_0 : ∀ a, (![0, 1, 0, 0] : Fin 4 → Nat) a + S1x1x19x1.size a ≤ S1x3x19x1.size a
  inb_S1x3x19x1_S1x1x19x1_0_2_0_0 : ∀ a, (![0, 2, 0, 0] : Fin 4 → Nat) a + S1x1x19x1.size a ≤ S1x3x19x1.size a
  slices_S1x160_o0_0_S1x158 : S1x160.Slices ![0, 0] S1x158
  slices_S1x160_o0_1_S1x158 : S1x160.Slices ![0, 1] S1x158
  slices_S1x160_o0_2_S1x158 : S1x160.Slices ![0, 2] S1x158
  inb_S1x256x19x160_S1x1x19x160_0_1_0_0 : ∀ a, (![0, 1, 0, 0] : Fin 4 → Nat) a + S1x1x19x160.size a ≤ S1x256x19x160.size a
  inb_S1x256x19x160_S1x1x19x160_0_2_0_0 : ∀ a, (![0, 2, 0, 0] : Fin 4 → Nat) a + S1x1x19x160.size a ≤ S1x256x19x160.size a
  inb_S1x256x19x160_S1x1x19x160_0_3_0_0 : ∀ a, (![0, 3, 0, 0] : Fin 4 → Nat) a + S1x1x19x160.size a ≤ S1x256x19x160.size a
  inb_S1x256x19x160_S1x1x19x160_0_4_0_0 : ∀ a, (![0, 4, 0, 0] : Fin 4 → Nat) a + S1x1x19x160.size a ≤ S1x256x19x160.size a
  inb_S1x256x19x160_S1x1x19x160_0_5_0_0 : ∀ a, (![0, 5, 0, 0] : Fin 4 → Nat) a + S1x1x19x160.size a ≤ S1x256x19x160.size a
  inb_S1x256x19x160_S1x1x19x160_0_6_0_0 : ∀ a, (![0, 6, 0, 0] : Fin 4 → Nat) a + S1x1x19x160.size a ≤ S1x256x19x160.size a
  inb_S1x256x19x160_S1x1x19x160_0_7_0_0 : ∀ a, (![0, 7, 0, 0] : Fin 4 → Nat) a + S1x1x19x160.size a ≤ S1x256x19x160.size a
  inb_S1x256x19x160_S1x1x19x160_0_8_0_0 : ∀ a, (![0, 8, 0, 0] : Fin 4 → Nat) a + S1x1x19x160.size a ≤ S1x256x19x160.size a
  inb_S1x256x19x160_S1x1x19x160_0_9_0_0 : ∀ a, (![0, 9, 0, 0] : Fin 4 → Nat) a + S1x1x19x160.size a ≤ S1x256x19x160.size a
  inb_S1x256x19x160_S1x1x19x160_0_10_0_0 : ∀ a, (![0, 10, 0, 0] : Fin 4 → Nat) a + S1x1x19x160.size a ≤ S1x256x19x160.size a
  inb_S1x256x19x160_S1x1x19x160_0_11_0_0 : ∀ a, (![0, 11, 0, 0] : Fin 4 → Nat) a + S1x1x19x160.size a ≤ S1x256x19x160.size a
  inb_S1x256x19x160_S1x1x19x160_0_12_0_0 : ∀ a, (![0, 12, 0, 0] : Fin 4 → Nat) a + S1x1x19x160.size a ≤ S1x256x19x160.size a
  inb_S1x256x19x160_S1x1x19x160_0_13_0_0 : ∀ a, (![0, 13, 0, 0] : Fin 4 → Nat) a + S1x1x19x160.size a ≤ S1x256x19x160.size a
  inb_S1x256x19x160_S1x1x19x160_0_14_0_0 : ∀ a, (![0, 14, 0, 0] : Fin 4 → Nat) a + S1x1x19x160.size a ≤ S1x256x19x160.size a
  inb_S1x256x19x160_S1x1x19x160_0_15_0_0 : ∀ a, (![0, 15, 0, 0] : Fin 4 → Nat) a + S1x1x19x160.size a ≤ S1x256x19x160.size a
  inb_S1x256x19x160_S1x1x19x160_0_16_0_0 : ∀ a, (![0, 16, 0, 0] : Fin 4 → Nat) a + S1x1x19x160.size a ≤ S1x256x19x160.size a
  inb_S1x256x19x160_S1x1x19x160_0_17_0_0 : ∀ a, (![0, 17, 0, 0] : Fin 4 → Nat) a + S1x1x19x160.size a ≤ S1x256x19x160.size a
  inb_S1x256x19x160_S1x1x19x160_0_18_0_0 : ∀ a, (![0, 18, 0, 0] : Fin 4 → Nat) a + S1x1x19x160.size a ≤ S1x256x19x160.size a
  inb_S1x256x19x160_S1x1x19x160_0_19_0_0 : ∀ a, (![0, 19, 0, 0] : Fin 4 → Nat) a + S1x1x19x160.size a ≤ S1x256x19x160.size a
  inb_S1x256x19x160_S1x1x19x160_0_20_0_0 : ∀ a, (![0, 20, 0, 0] : Fin 4 → Nat) a + S1x1x19x160.size a ≤ S1x256x19x160.size a
  inb_S1x256x19x160_S1x1x19x160_0_21_0_0 : ∀ a, (![0, 21, 0, 0] : Fin 4 → Nat) a + S1x1x19x160.size a ≤ S1x256x19x160.size a
  inb_S1x256x19x160_S1x1x19x160_0_22_0_0 : ∀ a, (![0, 22, 0, 0] : Fin 4 → Nat) a + S1x1x19x160.size a ≤ S1x256x19x160.size a
  inb_S1x256x19x160_S1x1x19x160_0_23_0_0 : ∀ a, (![0, 23, 0, 0] : Fin 4 → Nat) a + S1x1x19x160.size a ≤ S1x256x19x160.size a
  inb_S1x256x19x160_S1x1x19x160_0_24_0_0 : ∀ a, (![0, 24, 0, 0] : Fin 4 → Nat) a + S1x1x19x160.size a ≤ S1x256x19x160.size a
  inb_S1x256x19x160_S1x1x19x160_0_25_0_0 : ∀ a, (![0, 25, 0, 0] : Fin 4 → Nat) a + S1x1x19x160.size a ≤ S1x256x19x160.size a
  inb_S1x256x19x160_S1x1x19x160_0_26_0_0 : ∀ a, (![0, 26, 0, 0] : Fin 4 → Nat) a + S1x1x19x160.size a ≤ S1x256x19x160.size a
  inb_S1x256x19x160_S1x1x19x160_0_27_0_0 : ∀ a, (![0, 27, 0, 0] : Fin 4 → Nat) a + S1x1x19x160.size a ≤ S1x256x19x160.size a
  inb_S1x256x19x160_S1x1x19x160_0_28_0_0 : ∀ a, (![0, 28, 0, 0] : Fin 4 → Nat) a + S1x1x19x160.size a ≤ S1x256x19x160.size a
  inb_S1x256x19x160_S1x1x19x160_0_29_0_0 : ∀ a, (![0, 29, 0, 0] : Fin 4 → Nat) a + S1x1x19x160.size a ≤ S1x256x19x160.size a
  inb_S1x256x19x160_S1x1x19x160_0_30_0_0 : ∀ a, (![0, 30, 0, 0] : Fin 4 → Nat) a + S1x1x19x160.size a ≤ S1x256x19x160.size a
  inb_S1x256x19x160_S1x1x19x160_0_31_0_0 : ∀ a, (![0, 31, 0, 0] : Fin 4 → Nat) a + S1x1x19x160.size a ≤ S1x256x19x160.size a
  inb_S1x256x19x160_S1x1x19x160_0_32_0_0 : ∀ a, (![0, 32, 0, 0] : Fin 4 → Nat) a + S1x1x19x160.size a ≤ S1x256x19x160.size a
  inb_S1x256x19x160_S1x1x19x160_0_33_0_0 : ∀ a, (![0, 33, 0, 0] : Fin 4 → Nat) a + S1x1x19x160.size a ≤ S1x256x19x160.size a
  inb_S1x256x19x160_S1x1x19x160_0_34_0_0 : ∀ a, (![0, 34, 0, 0] : Fin 4 → Nat) a + S1x1x19x160.size a ≤ S1x256x19x160.size a
  inb_S1x256x19x160_S1x1x19x160_0_35_0_0 : ∀ a, (![0, 35, 0, 0] : Fin 4 → Nat) a + S1x1x19x160.size a ≤ S1x256x19x160.size a
  inb_S1x256x19x160_S1x1x19x160_0_36_0_0 : ∀ a, (![0, 36, 0, 0] : Fin 4 → Nat) a + S1x1x19x160.size a ≤ S1x256x19x160.size a
  inb_S1x256x19x160_S1x1x19x160_0_37_0_0 : ∀ a, (![0, 37, 0, 0] : Fin 4 → Nat) a + S1x1x19x160.size a ≤ S1x256x19x160.size a
  inb_S1x256x19x160_S1x1x19x160_0_38_0_0 : ∀ a, (![0, 38, 0, 0] : Fin 4 → Nat) a + S1x1x19x160.size a ≤ S1x256x19x160.size a
  inb_S1x256x19x160_S1x1x19x160_0_39_0_0 : ∀ a, (![0, 39, 0, 0] : Fin 4 → Nat) a + S1x1x19x160.size a ≤ S1x256x19x160.size a
  inb_S1x256x19x160_S1x1x19x160_0_40_0_0 : ∀ a, (![0, 40, 0, 0] : Fin 4 → Nat) a + S1x1x19x160.size a ≤ S1x256x19x160.size a
  inb_S1x256x19x160_S1x1x19x160_0_41_0_0 : ∀ a, (![0, 41, 0, 0] : Fin 4 → Nat) a + S1x1x19x160.size a ≤ S1x256x19x160.size a
  inb_S1x256x19x160_S1x1x19x160_0_42_0_0 : ∀ a, (![0, 42, 0, 0] : Fin 4 → Nat) a + S1x1x19x160.size a ≤ S1x256x19x160.size a
  inb_S1x256x19x160_S1x1x19x160_0_43_0_0 : ∀ a, (![0, 43, 0, 0] : Fin 4 → Nat) a + S1x1x19x160.size a ≤ S1x256x19x160.size a
  inb_S1x256x19x160_S1x1x19x160_0_44_0_0 : ∀ a, (![0, 44, 0, 0] : Fin 4 → Nat) a + S1x1x19x160.size a ≤ S1x256x19x160.size a
  inb_S1x256x19x160_S1x1x19x160_0_45_0_0 : ∀ a, (![0, 45, 0, 0] : Fin 4 → Nat) a + S1x1x19x160.size a ≤ S1x256x19x160.size a
  inb_S1x256x19x160_S1x1x19x160_0_46_0_0 : ∀ a, (![0, 46, 0, 0] : Fin 4 → Nat) a + S1x1x19x160.size a ≤ S1x256x19x160.size a
  inb_S1x256x19x160_S1x1x19x160_0_47_0_0 : ∀ a, (![0, 47, 0, 0] : Fin 4 → Nat) a + S1x1x19x160.size a ≤ S1x256x19x160.size a
  inb_S1x256x19x160_S1x1x19x160_0_48_0_0 : ∀ a, (![0, 48, 0, 0] : Fin 4 → Nat) a + S1x1x19x160.size a ≤ S1x256x19x160.size a
  inb_S1x256x19x160_S1x1x19x160_0_49_0_0 : ∀ a, (![0, 49, 0, 0] : Fin 4 → Nat) a + S1x1x19x160.size a ≤ S1x256x19x160.size a
  inb_S1x256x19x160_S1x1x19x160_0_50_0_0 : ∀ a, (![0, 50, 0, 0] : Fin 4 → Nat) a + S1x1x19x160.size a ≤ S1x256x19x160.size a
  inb_S1x256x19x160_S1x1x19x160_0_51_0_0 : ∀ a, (![0, 51, 0, 0] : Fin 4 → Nat) a + S1x1x19x160.size a ≤ S1x256x19x160.size a
  inb_S1x256x19x160_S1x1x19x160_0_52_0_0 : ∀ a, (![0, 52, 0, 0] : Fin 4 → Nat) a + S1x1x19x160.size a ≤ S1x256x19x160.size a
  inb_S1x256x19x160_S1x1x19x160_0_53_0_0 : ∀ a, (![0, 53, 0, 0] : Fin 4 → Nat) a + S1x1x19x160.size a ≤ S1x256x19x160.size a
  inb_S1x256x19x160_S1x1x19x160_0_54_0_0 : ∀ a, (![0, 54, 0, 0] : Fin 4 → Nat) a + S1x1x19x160.size a ≤ S1x256x19x160.size a
  inb_S1x256x19x160_S1x1x19x160_0_55_0_0 : ∀ a, (![0, 55, 0, 0] : Fin 4 → Nat) a + S1x1x19x160.size a ≤ S1x256x19x160.size a
  inb_S1x256x19x160_S1x1x19x160_0_56_0_0 : ∀ a, (![0, 56, 0, 0] : Fin 4 → Nat) a + S1x1x19x160.size a ≤ S1x256x19x160.size a
  inb_S1x256x19x160_S1x1x19x160_0_57_0_0 : ∀ a, (![0, 57, 0, 0] : Fin 4 → Nat) a + S1x1x19x160.size a ≤ S1x256x19x160.size a
  inb_S1x256x19x160_S1x1x19x160_0_58_0_0 : ∀ a, (![0, 58, 0, 0] : Fin 4 → Nat) a + S1x1x19x160.size a ≤ S1x256x19x160.size a
  inb_S1x256x19x160_S1x1x19x160_0_59_0_0 : ∀ a, (![0, 59, 0, 0] : Fin 4 → Nat) a + S1x1x19x160.size a ≤ S1x256x19x160.size a
  inb_S1x256x19x160_S1x1x19x160_0_60_0_0 : ∀ a, (![0, 60, 0, 0] : Fin 4 → Nat) a + S1x1x19x160.size a ≤ S1x256x19x160.size a
  inb_S1x256x19x160_S1x1x19x160_0_61_0_0 : ∀ a, (![0, 61, 0, 0] : Fin 4 → Nat) a + S1x1x19x160.size a ≤ S1x256x19x160.size a
  inb_S1x256x19x160_S1x1x19x160_0_62_0_0 : ∀ a, (![0, 62, 0, 0] : Fin 4 → Nat) a + S1x1x19x160.size a ≤ S1x256x19x160.size a
  inb_S1x256x19x160_S1x1x19x160_0_63_0_0 : ∀ a, (![0, 63, 0, 0] : Fin 4 → Nat) a + S1x1x19x160.size a ≤ S1x256x19x160.size a
  inb_S1x256x19x160_S1x1x19x160_0_64_0_0 : ∀ a, (![0, 64, 0, 0] : Fin 4 → Nat) a + S1x1x19x160.size a ≤ S1x256x19x160.size a
  inb_S1x256x19x160_S1x1x19x160_0_65_0_0 : ∀ a, (![0, 65, 0, 0] : Fin 4 → Nat) a + S1x1x19x160.size a ≤ S1x256x19x160.size a
  inb_S1x256x19x160_S1x1x19x160_0_66_0_0 : ∀ a, (![0, 66, 0, 0] : Fin 4 → Nat) a + S1x1x19x160.size a ≤ S1x256x19x160.size a
  inb_S1x256x19x160_S1x1x19x160_0_67_0_0 : ∀ a, (![0, 67, 0, 0] : Fin 4 → Nat) a + S1x1x19x160.size a ≤ S1x256x19x160.size a
  inb_S1x256x19x160_S1x1x19x160_0_68_0_0 : ∀ a, (![0, 68, 0, 0] : Fin 4 → Nat) a + S1x1x19x160.size a ≤ S1x256x19x160.size a
  inb_S1x256x19x160_S1x1x19x160_0_69_0_0 : ∀ a, (![0, 69, 0, 0] : Fin 4 → Nat) a + S1x1x19x160.size a ≤ S1x256x19x160.size a
  inb_S1x256x19x160_S1x1x19x160_0_70_0_0 : ∀ a, (![0, 70, 0, 0] : Fin 4 → Nat) a + S1x1x19x160.size a ≤ S1x256x19x160.size a
  inb_S1x256x19x160_S1x1x19x160_0_71_0_0 : ∀ a, (![0, 71, 0, 0] : Fin 4 → Nat) a + S1x1x19x160.size a ≤ S1x256x19x160.size a
  inb_S1x256x19x160_S1x1x19x160_0_72_0_0 : ∀ a, (![0, 72, 0, 0] : Fin 4 → Nat) a + S1x1x19x160.size a ≤ S1x256x19x160.size a
  inb_S1x256x19x160_S1x1x19x160_0_73_0_0 : ∀ a, (![0, 73, 0, 0] : Fin 4 → Nat) a + S1x1x19x160.size a ≤ S1x256x19x160.size a
  inb_S1x256x19x160_S1x1x19x160_0_74_0_0 : ∀ a, (![0, 74, 0, 0] : Fin 4 → Nat) a + S1x1x19x160.size a ≤ S1x256x19x160.size a
  inb_S1x256x19x160_S1x1x19x160_0_75_0_0 : ∀ a, (![0, 75, 0, 0] : Fin 4 → Nat) a + S1x1x19x160.size a ≤ S1x256x19x160.size a
  inb_S1x256x19x160_S1x1x19x160_0_76_0_0 : ∀ a, (![0, 76, 0, 0] : Fin 4 → Nat) a + S1x1x19x160.size a ≤ S1x256x19x160.size a
  inb_S1x256x19x160_S1x1x19x160_0_77_0_0 : ∀ a, (![0, 77, 0, 0] : Fin 4 → Nat) a + S1x1x19x160.size a ≤ S1x256x19x160.size a
  inb_S1x256x19x160_S1x1x19x160_0_78_0_0 : ∀ a, (![0, 78, 0, 0] : Fin 4 → Nat) a + S1x1x19x160.size a ≤ S1x256x19x160.size a
  inb_S1x256x19x160_S1x1x19x160_0_79_0_0 : ∀ a, (![0, 79, 0, 0] : Fin 4 → Nat) a + S1x1x19x160.size a ≤ S1x256x19x160.size a
  inb_S1x256x19x160_S1x1x19x160_0_80_0_0 : ∀ a, (![0, 80, 0, 0] : Fin 4 → Nat) a + S1x1x19x160.size a ≤ S1x256x19x160.size a
  inb_S1x256x19x160_S1x1x19x160_0_81_0_0 : ∀ a, (![0, 81, 0, 0] : Fin 4 → Nat) a + S1x1x19x160.size a ≤ S1x256x19x160.size a
  inb_S1x256x19x160_S1x1x19x160_0_82_0_0 : ∀ a, (![0, 82, 0, 0] : Fin 4 → Nat) a + S1x1x19x160.size a ≤ S1x256x19x160.size a
  inb_S1x256x19x160_S1x1x19x160_0_83_0_0 : ∀ a, (![0, 83, 0, 0] : Fin 4 → Nat) a + S1x1x19x160.size a ≤ S1x256x19x160.size a
  inb_S1x256x19x160_S1x1x19x160_0_84_0_0 : ∀ a, (![0, 84, 0, 0] : Fin 4 → Nat) a + S1x1x19x160.size a ≤ S1x256x19x160.size a
  inb_S1x256x19x160_S1x1x19x160_0_85_0_0 : ∀ a, (![0, 85, 0, 0] : Fin 4 → Nat) a + S1x1x19x160.size a ≤ S1x256x19x160.size a
  inb_S1x256x19x160_S1x1x19x160_0_86_0_0 : ∀ a, (![0, 86, 0, 0] : Fin 4 → Nat) a + S1x1x19x160.size a ≤ S1x256x19x160.size a
  inb_S1x256x19x160_S1x1x19x160_0_87_0_0 : ∀ a, (![0, 87, 0, 0] : Fin 4 → Nat) a + S1x1x19x160.size a ≤ S1x256x19x160.size a
  inb_S1x256x19x160_S1x1x19x160_0_88_0_0 : ∀ a, (![0, 88, 0, 0] : Fin 4 → Nat) a + S1x1x19x160.size a ≤ S1x256x19x160.size a
  inb_S1x256x19x160_S1x1x19x160_0_89_0_0 : ∀ a, (![0, 89, 0, 0] : Fin 4 → Nat) a + S1x1x19x160.size a ≤ S1x256x19x160.size a
  inb_S1x256x19x160_S1x1x19x160_0_90_0_0 : ∀ a, (![0, 90, 0, 0] : Fin 4 → Nat) a + S1x1x19x160.size a ≤ S1x256x19x160.size a
  inb_S1x256x19x160_S1x1x19x160_0_91_0_0 : ∀ a, (![0, 91, 0, 0] : Fin 4 → Nat) a + S1x1x19x160.size a ≤ S1x256x19x160.size a
  inb_S1x256x19x160_S1x1x19x160_0_92_0_0 : ∀ a, (![0, 92, 0, 0] : Fin 4 → Nat) a + S1x1x19x160.size a ≤ S1x256x19x160.size a
  inb_S1x256x19x160_S1x1x19x160_0_93_0_0 : ∀ a, (![0, 93, 0, 0] : Fin 4 → Nat) a + S1x1x19x160.size a ≤ S1x256x19x160.size a
  inb_S1x256x19x160_S1x1x19x160_0_94_0_0 : ∀ a, (![0, 94, 0, 0] : Fin 4 → Nat) a + S1x1x19x160.size a ≤ S1x256x19x160.size a
  inb_S1x256x19x160_S1x1x19x160_0_95_0_0 : ∀ a, (![0, 95, 0, 0] : Fin 4 → Nat) a + S1x1x19x160.size a ≤ S1x256x19x160.size a
  inb_S1x256x19x160_S1x1x19x160_0_96_0_0 : ∀ a, (![0, 96, 0, 0] : Fin 4 → Nat) a + S1x1x19x160.size a ≤ S1x256x19x160.size a
  inb_S1x256x19x160_S1x1x19x160_0_97_0_0 : ∀ a, (![0, 97, 0, 0] : Fin 4 → Nat) a + S1x1x19x160.size a ≤ S1x256x19x160.size a
  inb_S1x256x19x160_S1x1x19x160_0_98_0_0 : ∀ a, (![0, 98, 0, 0] : Fin 4 → Nat) a + S1x1x19x160.size a ≤ S1x256x19x160.size a
  inb_S1x256x19x160_S1x1x19x160_0_99_0_0 : ∀ a, (![0, 99, 0, 0] : Fin 4 → Nat) a + S1x1x19x160.size a ≤ S1x256x19x160.size a
  inb_S1x256x19x160_S1x1x19x160_0_100_0_0 : ∀ a, (![0, 100, 0, 0] : Fin 4 → Nat) a + S1x1x19x160.size a ≤ S1x256x19x160.size a
  inb_S1x256x19x160_S1x1x19x160_0_101_0_0 : ∀ a, (![0, 101, 0, 0] : Fin 4 → Nat) a + S1x1x19x160.size a ≤ S1x256x19x160.size a
  inb_S1x256x19x160_S1x1x19x160_0_102_0_0 : ∀ a, (![0, 102, 0, 0] : Fin 4 → Nat) a + S1x1x19x160.size a ≤ S1x256x19x160.size a
  inb_S1x256x19x160_S1x1x19x160_0_103_0_0 : ∀ a, (![0, 103, 0, 0] : Fin 4 → Nat) a + S1x1x19x160.size a ≤ S1x256x19x160.size a
  inb_S1x256x19x160_S1x1x19x160_0_104_0_0 : ∀ a, (![0, 104, 0, 0] : Fin 4 → Nat) a + S1x1x19x160.size a ≤ S1x256x19x160.size a
  inb_S1x256x19x160_S1x1x19x160_0_105_0_0 : ∀ a, (![0, 105, 0, 0] : Fin 4 → Nat) a + S1x1x19x160.size a ≤ S1x256x19x160.size a
  inb_S1x256x19x160_S1x1x19x160_0_106_0_0 : ∀ a, (![0, 106, 0, 0] : Fin 4 → Nat) a + S1x1x19x160.size a ≤ S1x256x19x160.size a
  inb_S1x256x19x160_S1x1x19x160_0_107_0_0 : ∀ a, (![0, 107, 0, 0] : Fin 4 → Nat) a + S1x1x19x160.size a ≤ S1x256x19x160.size a
  inb_S1x256x19x160_S1x1x19x160_0_108_0_0 : ∀ a, (![0, 108, 0, 0] : Fin 4 → Nat) a + S1x1x19x160.size a ≤ S1x256x19x160.size a
  inb_S1x256x19x160_S1x1x19x160_0_109_0_0 : ∀ a, (![0, 109, 0, 0] : Fin 4 → Nat) a + S1x1x19x160.size a ≤ S1x256x19x160.size a
  inb_S1x256x19x160_S1x1x19x160_0_110_0_0 : ∀ a, (![0, 110, 0, 0] : Fin 4 → Nat) a + S1x1x19x160.size a ≤ S1x256x19x160.size a
  inb_S1x256x19x160_S1x1x19x160_0_111_0_0 : ∀ a, (![0, 111, 0, 0] : Fin 4 → Nat) a + S1x1x19x160.size a ≤ S1x256x19x160.size a
  inb_S1x256x19x160_S1x1x19x160_0_112_0_0 : ∀ a, (![0, 112, 0, 0] : Fin 4 → Nat) a + S1x1x19x160.size a ≤ S1x256x19x160.size a
  inb_S1x256x19x160_S1x1x19x160_0_113_0_0 : ∀ a, (![0, 113, 0, 0] : Fin 4 → Nat) a + S1x1x19x160.size a ≤ S1x256x19x160.size a
  inb_S1x256x19x160_S1x1x19x160_0_114_0_0 : ∀ a, (![0, 114, 0, 0] : Fin 4 → Nat) a + S1x1x19x160.size a ≤ S1x256x19x160.size a
  inb_S1x256x19x160_S1x1x19x160_0_115_0_0 : ∀ a, (![0, 115, 0, 0] : Fin 4 → Nat) a + S1x1x19x160.size a ≤ S1x256x19x160.size a
  inb_S1x256x19x160_S1x1x19x160_0_116_0_0 : ∀ a, (![0, 116, 0, 0] : Fin 4 → Nat) a + S1x1x19x160.size a ≤ S1x256x19x160.size a
  inb_S1x256x19x160_S1x1x19x160_0_117_0_0 : ∀ a, (![0, 117, 0, 0] : Fin 4 → Nat) a + S1x1x19x160.size a ≤ S1x256x19x160.size a
  inb_S1x256x19x160_S1x1x19x160_0_118_0_0 : ∀ a, (![0, 118, 0, 0] : Fin 4 → Nat) a + S1x1x19x160.size a ≤ S1x256x19x160.size a
  inb_S1x256x19x160_S1x1x19x160_0_119_0_0 : ∀ a, (![0, 119, 0, 0] : Fin 4 → Nat) a + S1x1x19x160.size a ≤ S1x256x19x160.size a
  inb_S1x256x19x160_S1x1x19x160_0_120_0_0 : ∀ a, (![0, 120, 0, 0] : Fin 4 → Nat) a + S1x1x19x160.size a ≤ S1x256x19x160.size a
  inb_S1x256x19x160_S1x1x19x160_0_121_0_0 : ∀ a, (![0, 121, 0, 0] : Fin 4 → Nat) a + S1x1x19x160.size a ≤ S1x256x19x160.size a
  inb_S1x256x19x160_S1x1x19x160_0_122_0_0 : ∀ a, (![0, 122, 0, 0] : Fin 4 → Nat) a + S1x1x19x160.size a ≤ S1x256x19x160.size a
  inb_S1x256x19x160_S1x1x19x160_0_123_0_0 : ∀ a, (![0, 123, 0, 0] : Fin 4 → Nat) a + S1x1x19x160.size a ≤ S1x256x19x160.size a
  inb_S1x256x19x160_S1x1x19x160_0_124_0_0 : ∀ a, (![0, 124, 0, 0] : Fin 4 → Nat) a + S1x1x19x160.size a ≤ S1x256x19x160.size a
  inb_S1x256x19x160_S1x1x19x160_0_125_0_0 : ∀ a, (![0, 125, 0, 0] : Fin 4 → Nat) a + S1x1x19x160.size a ≤ S1x256x19x160.size a
  inb_S1x256x19x160_S1x1x19x160_0_126_0_0 : ∀ a, (![0, 126, 0, 0] : Fin 4 → Nat) a + S1x1x19x160.size a ≤ S1x256x19x160.size a
  inb_S1x256x19x160_S1x1x19x160_0_127_0_0 : ∀ a, (![0, 127, 0, 0] : Fin 4 → Nat) a + S1x1x19x160.size a ≤ S1x256x19x160.size a
  inb_S1x256x19x160_S1x1x19x160_0_128_0_0 : ∀ a, (![0, 128, 0, 0] : Fin 4 → Nat) a + S1x1x19x160.size a ≤ S1x256x19x160.size a
  inb_S1x256x19x160_S1x1x19x160_0_129_0_0 : ∀ a, (![0, 129, 0, 0] : Fin 4 → Nat) a + S1x1x19x160.size a ≤ S1x256x19x160.size a
  inb_S1x256x19x160_S1x1x19x160_0_130_0_0 : ∀ a, (![0, 130, 0, 0] : Fin 4 → Nat) a + S1x1x19x160.size a ≤ S1x256x19x160.size a
  inb_S1x256x19x160_S1x1x19x160_0_131_0_0 : ∀ a, (![0, 131, 0, 0] : Fin 4 → Nat) a + S1x1x19x160.size a ≤ S1x256x19x160.size a
  inb_S1x256x19x160_S1x1x19x160_0_132_0_0 : ∀ a, (![0, 132, 0, 0] : Fin 4 → Nat) a + S1x1x19x160.size a ≤ S1x256x19x160.size a
  inb_S1x256x19x160_S1x1x19x160_0_133_0_0 : ∀ a, (![0, 133, 0, 0] : Fin 4 → Nat) a + S1x1x19x160.size a ≤ S1x256x19x160.size a
  inb_S1x256x19x160_S1x1x19x160_0_134_0_0 : ∀ a, (![0, 134, 0, 0] : Fin 4 → Nat) a + S1x1x19x160.size a ≤ S1x256x19x160.size a
  inb_S1x256x19x160_S1x1x19x160_0_135_0_0 : ∀ a, (![0, 135, 0, 0] : Fin 4 → Nat) a + S1x1x19x160.size a ≤ S1x256x19x160.size a
  inb_S1x256x19x160_S1x1x19x160_0_136_0_0 : ∀ a, (![0, 136, 0, 0] : Fin 4 → Nat) a + S1x1x19x160.size a ≤ S1x256x19x160.size a
  inb_S1x256x19x160_S1x1x19x160_0_137_0_0 : ∀ a, (![0, 137, 0, 0] : Fin 4 → Nat) a + S1x1x19x160.size a ≤ S1x256x19x160.size a
  inb_S1x256x19x160_S1x1x19x160_0_138_0_0 : ∀ a, (![0, 138, 0, 0] : Fin 4 → Nat) a + S1x1x19x160.size a ≤ S1x256x19x160.size a
  inb_S1x256x19x160_S1x1x19x160_0_139_0_0 : ∀ a, (![0, 139, 0, 0] : Fin 4 → Nat) a + S1x1x19x160.size a ≤ S1x256x19x160.size a
  inb_S1x256x19x160_S1x1x19x160_0_140_0_0 : ∀ a, (![0, 140, 0, 0] : Fin 4 → Nat) a + S1x1x19x160.size a ≤ S1x256x19x160.size a
  inb_S1x256x19x160_S1x1x19x160_0_141_0_0 : ∀ a, (![0, 141, 0, 0] : Fin 4 → Nat) a + S1x1x19x160.size a ≤ S1x256x19x160.size a
  inb_S1x256x19x160_S1x1x19x160_0_142_0_0 : ∀ a, (![0, 142, 0, 0] : Fin 4 → Nat) a + S1x1x19x160.size a ≤ S1x256x19x160.size a
  inb_S1x256x19x160_S1x1x19x160_0_143_0_0 : ∀ a, (![0, 143, 0, 0] : Fin 4 → Nat) a + S1x1x19x160.size a ≤ S1x256x19x160.size a
  inb_S1x256x19x160_S1x1x19x160_0_144_0_0 : ∀ a, (![0, 144, 0, 0] : Fin 4 → Nat) a + S1x1x19x160.size a ≤ S1x256x19x160.size a
  inb_S1x256x19x160_S1x1x19x160_0_145_0_0 : ∀ a, (![0, 145, 0, 0] : Fin 4 → Nat) a + S1x1x19x160.size a ≤ S1x256x19x160.size a
  inb_S1x256x19x160_S1x1x19x160_0_146_0_0 : ∀ a, (![0, 146, 0, 0] : Fin 4 → Nat) a + S1x1x19x160.size a ≤ S1x256x19x160.size a
  inb_S1x256x19x160_S1x1x19x160_0_147_0_0 : ∀ a, (![0, 147, 0, 0] : Fin 4 → Nat) a + S1x1x19x160.size a ≤ S1x256x19x160.size a
  inb_S1x256x19x160_S1x1x19x160_0_148_0_0 : ∀ a, (![0, 148, 0, 0] : Fin 4 → Nat) a + S1x1x19x160.size a ≤ S1x256x19x160.size a
  inb_S1x256x19x160_S1x1x19x160_0_149_0_0 : ∀ a, (![0, 149, 0, 0] : Fin 4 → Nat) a + S1x1x19x160.size a ≤ S1x256x19x160.size a
  inb_S1x256x19x160_S1x1x19x160_0_150_0_0 : ∀ a, (![0, 150, 0, 0] : Fin 4 → Nat) a + S1x1x19x160.size a ≤ S1x256x19x160.size a
  inb_S1x256x19x160_S1x1x19x160_0_151_0_0 : ∀ a, (![0, 151, 0, 0] : Fin 4 → Nat) a + S1x1x19x160.size a ≤ S1x256x19x160.size a
  inb_S1x256x19x160_S1x1x19x160_0_152_0_0 : ∀ a, (![0, 152, 0, 0] : Fin 4 → Nat) a + S1x1x19x160.size a ≤ S1x256x19x160.size a
  inb_S1x256x19x160_S1x1x19x160_0_153_0_0 : ∀ a, (![0, 153, 0, 0] : Fin 4 → Nat) a + S1x1x19x160.size a ≤ S1x256x19x160.size a
  inb_S1x256x19x160_S1x1x19x160_0_154_0_0 : ∀ a, (![0, 154, 0, 0] : Fin 4 → Nat) a + S1x1x19x160.size a ≤ S1x256x19x160.size a
  inb_S1x256x19x160_S1x1x19x160_0_155_0_0 : ∀ a, (![0, 155, 0, 0] : Fin 4 → Nat) a + S1x1x19x160.size a ≤ S1x256x19x160.size a
  inb_S1x256x19x160_S1x1x19x160_0_156_0_0 : ∀ a, (![0, 156, 0, 0] : Fin 4 → Nat) a + S1x1x19x160.size a ≤ S1x256x19x160.size a
  inb_S1x256x19x160_S1x1x19x160_0_157_0_0 : ∀ a, (![0, 157, 0, 0] : Fin 4 → Nat) a + S1x1x19x160.size a ≤ S1x256x19x160.size a
  inb_S1x256x19x160_S1x1x19x160_0_158_0_0 : ∀ a, (![0, 158, 0, 0] : Fin 4 → Nat) a + S1x1x19x160.size a ≤ S1x256x19x160.size a
  inb_S1x256x19x160_S1x1x19x160_0_159_0_0 : ∀ a, (![0, 159, 0, 0] : Fin 4 → Nat) a + S1x1x19x160.size a ≤ S1x256x19x160.size a
  inb_S1x256x19x160_S1x1x19x160_0_160_0_0 : ∀ a, (![0, 160, 0, 0] : Fin 4 → Nat) a + S1x1x19x160.size a ≤ S1x256x19x160.size a
  inb_S1x256x19x160_S1x1x19x160_0_161_0_0 : ∀ a, (![0, 161, 0, 0] : Fin 4 → Nat) a + S1x1x19x160.size a ≤ S1x256x19x160.size a
  inb_S1x256x19x160_S1x1x19x160_0_162_0_0 : ∀ a, (![0, 162, 0, 0] : Fin 4 → Nat) a + S1x1x19x160.size a ≤ S1x256x19x160.size a
  inb_S1x256x19x160_S1x1x19x160_0_163_0_0 : ∀ a, (![0, 163, 0, 0] : Fin 4 → Nat) a + S1x1x19x160.size a ≤ S1x256x19x160.size a
  inb_S1x256x19x160_S1x1x19x160_0_164_0_0 : ∀ a, (![0, 164, 0, 0] : Fin 4 → Nat) a + S1x1x19x160.size a ≤ S1x256x19x160.size a
  inb_S1x256x19x160_S1x1x19x160_0_165_0_0 : ∀ a, (![0, 165, 0, 0] : Fin 4 → Nat) a + S1x1x19x160.size a ≤ S1x256x19x160.size a
  inb_S1x256x19x160_S1x1x19x160_0_166_0_0 : ∀ a, (![0, 166, 0, 0] : Fin 4 → Nat) a + S1x1x19x160.size a ≤ S1x256x19x160.size a
  inb_S1x256x19x160_S1x1x19x160_0_167_0_0 : ∀ a, (![0, 167, 0, 0] : Fin 4 → Nat) a + S1x1x19x160.size a ≤ S1x256x19x160.size a
  inb_S1x256x19x160_S1x1x19x160_0_168_0_0 : ∀ a, (![0, 168, 0, 0] : Fin 4 → Nat) a + S1x1x19x160.size a ≤ S1x256x19x160.size a
  inb_S1x256x19x160_S1x1x19x160_0_169_0_0 : ∀ a, (![0, 169, 0, 0] : Fin 4 → Nat) a + S1x1x19x160.size a ≤ S1x256x19x160.size a
  inb_S1x256x19x160_S1x1x19x160_0_170_0_0 : ∀ a, (![0, 170, 0, 0] : Fin 4 → Nat) a + S1x1x19x160.size a ≤ S1x256x19x160.size a
  inb_S1x256x19x160_S1x1x19x160_0_171_0_0 : ∀ a, (![0, 171, 0, 0] : Fin 4 → Nat) a + S1x1x19x160.size a ≤ S1x256x19x160.size a
  inb_S1x256x19x160_S1x1x19x160_0_172_0_0 : ∀ a, (![0, 172, 0, 0] : Fin 4 → Nat) a + S1x1x19x160.size a ≤ S1x256x19x160.size a
  inb_S1x256x19x160_S1x1x19x160_0_173_0_0 : ∀ a, (![0, 173, 0, 0] : Fin 4 → Nat) a + S1x1x19x160.size a ≤ S1x256x19x160.size a
  inb_S1x256x19x160_S1x1x19x160_0_174_0_0 : ∀ a, (![0, 174, 0, 0] : Fin 4 → Nat) a + S1x1x19x160.size a ≤ S1x256x19x160.size a
  inb_S1x256x19x160_S1x1x19x160_0_175_0_0 : ∀ a, (![0, 175, 0, 0] : Fin 4 → Nat) a + S1x1x19x160.size a ≤ S1x256x19x160.size a
  inb_S1x256x19x160_S1x1x19x160_0_176_0_0 : ∀ a, (![0, 176, 0, 0] : Fin 4 → Nat) a + S1x1x19x160.size a ≤ S1x256x19x160.size a
  inb_S1x256x19x160_S1x1x19x160_0_177_0_0 : ∀ a, (![0, 177, 0, 0] : Fin 4 → Nat) a + S1x1x19x160.size a ≤ S1x256x19x160.size a
  inb_S1x256x19x160_S1x1x19x160_0_178_0_0 : ∀ a, (![0, 178, 0, 0] : Fin 4 → Nat) a + S1x1x19x160.size a ≤ S1x256x19x160.size a
  inb_S1x256x19x160_S1x1x19x160_0_179_0_0 : ∀ a, (![0, 179, 0, 0] : Fin 4 → Nat) a + S1x1x19x160.size a ≤ S1x256x19x160.size a
  inb_S1x256x19x160_S1x1x19x160_0_180_0_0 : ∀ a, (![0, 180, 0, 0] : Fin 4 → Nat) a + S1x1x19x160.size a ≤ S1x256x19x160.size a
  inb_S1x256x19x160_S1x1x19x160_0_181_0_0 : ∀ a, (![0, 181, 0, 0] : Fin 4 → Nat) a + S1x1x19x160.size a ≤ S1x256x19x160.size a
  inb_S1x256x19x160_S1x1x19x160_0_182_0_0 : ∀ a, (![0, 182, 0, 0] : Fin 4 → Nat) a + S1x1x19x160.size a ≤ S1x256x19x160.size a
  inb_S1x256x19x160_S1x1x19x160_0_183_0_0 : ∀ a, (![0, 183, 0, 0] : Fin 4 → Nat) a + S1x1x19x160.size a ≤ S1x256x19x160.size a
  inb_S1x256x19x160_S1x1x19x160_0_184_0_0 : ∀ a, (![0, 184, 0, 0] : Fin 4 → Nat) a + S1x1x19x160.size a ≤ S1x256x19x160.size a
  inb_S1x256x19x160_S1x1x19x160_0_185_0_0 : ∀ a, (![0, 185, 0, 0] : Fin 4 → Nat) a + S1x1x19x160.size a ≤ S1x256x19x160.size a
  inb_S1x256x19x160_S1x1x19x160_0_186_0_0 : ∀ a, (![0, 186, 0, 0] : Fin 4 → Nat) a + S1x1x19x160.size a ≤ S1x256x19x160.size a
  inb_S1x256x19x160_S1x1x19x160_0_187_0_0 : ∀ a, (![0, 187, 0, 0] : Fin 4 → Nat) a + S1x1x19x160.size a ≤ S1x256x19x160.size a
  inb_S1x256x19x160_S1x1x19x160_0_188_0_0 : ∀ a, (![0, 188, 0, 0] : Fin 4 → Nat) a + S1x1x19x160.size a ≤ S1x256x19x160.size a
  inb_S1x256x19x160_S1x1x19x160_0_189_0_0 : ∀ a, (![0, 189, 0, 0] : Fin 4 → Nat) a + S1x1x19x160.size a ≤ S1x256x19x160.size a
  inb_S1x256x19x160_S1x1x19x160_0_190_0_0 : ∀ a, (![0, 190, 0, 0] : Fin 4 → Nat) a + S1x1x19x160.size a ≤ S1x256x19x160.size a
  inb_S1x256x19x160_S1x1x19x160_0_191_0_0 : ∀ a, (![0, 191, 0, 0] : Fin 4 → Nat) a + S1x1x19x160.size a ≤ S1x256x19x160.size a
  inb_S1x256x19x160_S1x1x19x160_0_192_0_0 : ∀ a, (![0, 192, 0, 0] : Fin 4 → Nat) a + S1x1x19x160.size a ≤ S1x256x19x160.size a
  inb_S1x256x19x160_S1x1x19x160_0_193_0_0 : ∀ a, (![0, 193, 0, 0] : Fin 4 → Nat) a + S1x1x19x160.size a ≤ S1x256x19x160.size a
  inb_S1x256x19x160_S1x1x19x160_0_194_0_0 : ∀ a, (![0, 194, 0, 0] : Fin 4 → Nat) a + S1x1x19x160.size a ≤ S1x256x19x160.size a
  inb_S1x256x19x160_S1x1x19x160_0_195_0_0 : ∀ a, (![0, 195, 0, 0] : Fin 4 → Nat) a + S1x1x19x160.size a ≤ S1x256x19x160.size a
  inb_S1x256x19x160_S1x1x19x160_0_196_0_0 : ∀ a, (![0, 196, 0, 0] : Fin 4 → Nat) a + S1x1x19x160.size a ≤ S1x256x19x160.size a
  inb_S1x256x19x160_S1x1x19x160_0_197_0_0 : ∀ a, (![0, 197, 0, 0] : Fin 4 → Nat) a + S1x1x19x160.size a ≤ S1x256x19x160.size a
  inb_S1x256x19x160_S1x1x19x160_0_198_0_0 : ∀ a, (![0, 198, 0, 0] : Fin 4 → Nat) a + S1x1x19x160.size a ≤ S1x256x19x160.size a
  inb_S1x256x19x160_S1x1x19x160_0_199_0_0 : ∀ a, (![0, 199, 0, 0] : Fin 4 → Nat) a + S1x1x19x160.size a ≤ S1x256x19x160.size a
  inb_S1x256x19x160_S1x1x19x160_0_200_0_0 : ∀ a, (![0, 200, 0, 0] : Fin 4 → Nat) a + S1x1x19x160.size a ≤ S1x256x19x160.size a
  inb_S1x256x19x160_S1x1x19x160_0_201_0_0 : ∀ a, (![0, 201, 0, 0] : Fin 4 → Nat) a + S1x1x19x160.size a ≤ S1x256x19x160.size a
  inb_S1x256x19x160_S1x1x19x160_0_202_0_0 : ∀ a, (![0, 202, 0, 0] : Fin 4 → Nat) a + S1x1x19x160.size a ≤ S1x256x19x160.size a
  inb_S1x256x19x160_S1x1x19x160_0_203_0_0 : ∀ a, (![0, 203, 0, 0] : Fin 4 → Nat) a + S1x1x19x160.size a ≤ S1x256x19x160.size a
  inb_S1x256x19x160_S1x1x19x160_0_204_0_0 : ∀ a, (![0, 204, 0, 0] : Fin 4 → Nat) a + S1x1x19x160.size a ≤ S1x256x19x160.size a
  inb_S1x256x19x160_S1x1x19x160_0_205_0_0 : ∀ a, (![0, 205, 0, 0] : Fin 4 → Nat) a + S1x1x19x160.size a ≤ S1x256x19x160.size a
  inb_S1x256x19x160_S1x1x19x160_0_206_0_0 : ∀ a, (![0, 206, 0, 0] : Fin 4 → Nat) a + S1x1x19x160.size a ≤ S1x256x19x160.size a
  inb_S1x256x19x160_S1x1x19x160_0_207_0_0 : ∀ a, (![0, 207, 0, 0] : Fin 4 → Nat) a + S1x1x19x160.size a ≤ S1x256x19x160.size a
  inb_S1x256x19x160_S1x1x19x160_0_208_0_0 : ∀ a, (![0, 208, 0, 0] : Fin 4 → Nat) a + S1x1x19x160.size a ≤ S1x256x19x160.size a
  inb_S1x256x19x160_S1x1x19x160_0_209_0_0 : ∀ a, (![0, 209, 0, 0] : Fin 4 → Nat) a + S1x1x19x160.size a ≤ S1x256x19x160.size a
  inb_S1x256x19x160_S1x1x19x160_0_210_0_0 : ∀ a, (![0, 210, 0, 0] : Fin 4 → Nat) a + S1x1x19x160.size a ≤ S1x256x19x160.size a
  inb_S1x256x19x160_S1x1x19x160_0_211_0_0 : ∀ a, (![0, 211, 0, 0] : Fin 4 → Nat) a + S1x1x19x160.size a ≤ S1x256x19x160.size a
  inb_S1x256x19x160_S1x1x19x160_0_212_0_0 : ∀ a, (![0, 212, 0, 0] : Fin 4 → Nat) a + S1x1x19x160.size a ≤ S1x256x19x160.size a
  inb_S1x256x19x160_S1x1x19x160_0_213_0_0 : ∀ a, (![0, 213, 0, 0] : Fin 4 → Nat) a + S1x1x19x160.size a ≤ S1x256x19x160.size a
  inb_S1x256x19x160_S1x1x19x160_0_214_0_0 : ∀ a, (![0, 214, 0, 0] : Fin 4 → Nat) a + S1x1x19x160.size a ≤ S1x256x19x160.size a
  inb_S1x256x19x160_S1x1x19x160_0_215_0_0 : ∀ a, (![0, 215, 0, 0] : Fin 4 → Nat) a + S1x1x19x160.size a ≤ S1x256x19x160.size a
  inb_S1x256x19x160_S1x1x19x160_0_216_0_0 : ∀ a, (![0, 216, 0, 0] : Fin 4 → Nat) a + S1x1x19x160.size a ≤ S1x256x19x160.size a
  inb_S1x256x19x160_S1x1x19x160_0_217_0_0 : ∀ a, (![0, 217, 0, 0] : Fin 4 → Nat) a + S1x1x19x160.size a ≤ S1x256x19x160.size a
  inb_S1x256x19x160_S1x1x19x160_0_218_0_0 : ∀ a, (![0, 218, 0, 0] : Fin 4 → Nat) a + S1x1x19x160.size a ≤ S1x256x19x160.size a
  inb_S1x256x19x160_S1x1x19x160_0_219_0_0 : ∀ a, (![0, 219, 0, 0] : Fin 4 → Nat) a + S1x1x19x160.size a ≤ S1x256x19x160.size a
  inb_S1x256x19x160_S1x1x19x160_0_220_0_0 : ∀ a, (![0, 220, 0, 0] : Fin 4 → Nat) a + S1x1x19x160.size a ≤ S1x256x19x160.size a
  inb_S1x256x19x160_S1x1x19x160_0_221_0_0 : ∀ a, (![0, 221, 0, 0] : Fin 4 → Nat) a + S1x1x19x160.size a ≤ S1x256x19x160.size a
  inb_S1x256x19x160_S1x1x19x160_0_222_0_0 : ∀ a, (![0, 222, 0, 0] : Fin 4 → Nat) a + S1x1x19x160.size a ≤ S1x256x19x160.size a
  inb_S1x256x19x160_S1x1x19x160_0_223_0_0 : ∀ a, (![0, 223, 0, 0] : Fin 4 → Nat) a + S1x1x19x160.size a ≤ S1x256x19x160.size a
  inb_S1x256x19x160_S1x1x19x160_0_224_0_0 : ∀ a, (![0, 224, 0, 0] : Fin 4 → Nat) a + S1x1x19x160.size a ≤ S1x256x19x160.size a
  inb_S1x256x19x160_S1x1x19x160_0_225_0_0 : ∀ a, (![0, 225, 0, 0] : Fin 4 → Nat) a + S1x1x19x160.size a ≤ S1x256x19x160.size a
  inb_S1x256x19x160_S1x1x19x160_0_226_0_0 : ∀ a, (![0, 226, 0, 0] : Fin 4 → Nat) a + S1x1x19x160.size a ≤ S1x256x19x160.size a
  inb_S1x256x19x160_S1x1x19x160_0_227_0_0 : ∀ a, (![0, 227, 0, 0] : Fin 4 → Nat) a + S1x1x19x160.size a ≤ S1x256x19x160.size a
  inb_S1x256x19x160_S1x1x19x160_0_228_0_0 : ∀ a, (![0, 228, 0, 0] : Fin 4 → Nat) a + S1x1x19x160.size a ≤ S1x256x19x160.size a
  inb_S1x256x19x160_S1x1x19x160_0_229_0_0 : ∀ a, (![0, 229, 0, 0] : Fin 4 → Nat) a + S1x1x19x160.size a ≤ S1x256x19x160.size a
  inb_S1x256x19x160_S1x1x19x160_0_230_0_0 : ∀ a, (![0, 230, 0, 0] : Fin 4 → Nat) a + S1x1x19x160.size a ≤ S1x256x19x160.size a
  inb_S1x256x19x160_S1x1x19x160_0_231_0_0 : ∀ a, (![0, 231, 0, 0] : Fin 4 → Nat) a + S1x1x19x160.size a ≤ S1x256x19x160.size a
  inb_S1x256x19x160_S1x1x19x160_0_232_0_0 : ∀ a, (![0, 232, 0, 0] : Fin 4 → Nat) a + S1x1x19x160.size a ≤ S1x256x19x160.size a
  inb_S1x256x19x160_S1x1x19x160_0_233_0_0 : ∀ a, (![0, 233, 0, 0] : Fin 4 → Nat) a + S1x1x19x160.size a ≤ S1x256x19x160.size a
  inb_S1x256x19x160_S1x1x19x160_0_234_0_0 : ∀ a, (![0, 234, 0, 0] : Fin 4 → Nat) a + S1x1x19x160.size a ≤ S1x256x19x160.size a
  inb_S1x256x19x160_S1x1x19x160_0_235_0_0 : ∀ a, (![0, 235, 0, 0] : Fin 4 → Nat) a + S1x1x19x160.size a ≤ S1x256x19x160.size a
  inb_S1x256x19x160_S1x1x19x160_0_236_0_0 : ∀ a, (![0, 236, 0, 0] : Fin 4 → Nat) a + S1x1x19x160.size a ≤ S1x256x19x160.size a
  inb_S1x256x19x160_S1x1x19x160_0_237_0_0 : ∀ a, (![0, 237, 0, 0] : Fin 4 → Nat) a + S1x1x19x160.size a ≤ S1x256x19x160.size a
  inb_S1x256x19x160_S1x1x19x160_0_238_0_0 : ∀ a, (![0, 238, 0, 0] : Fin 4 → Nat) a + S1x1x19x160.size a ≤ S1x256x19x160.size a
  inb_S1x256x19x160_S1x1x19x160_0_239_0_0 : ∀ a, (![0, 239, 0, 0] : Fin 4 → Nat) a + S1x1x19x160.size a ≤ S1x256x19x160.size a
  inb_S1x256x19x160_S1x1x19x160_0_240_0_0 : ∀ a, (![0, 240, 0, 0] : Fin 4 → Nat) a + S1x1x19x160.size a ≤ S1x256x19x160.size a
  inb_S1x256x19x160_S1x1x19x160_0_241_0_0 : ∀ a, (![0, 241, 0, 0] : Fin 4 → Nat) a + S1x1x19x160.size a ≤ S1x256x19x160.size a
  inb_S1x256x19x160_S1x1x19x160_0_242_0_0 : ∀ a, (![0, 242, 0, 0] : Fin 4 → Nat) a + S1x1x19x160.size a ≤ S1x256x19x160.size a
  inb_S1x256x19x160_S1x1x19x160_0_243_0_0 : ∀ a, (![0, 243, 0, 0] : Fin 4 → Nat) a + S1x1x19x160.size a ≤ S1x256x19x160.size a
  inb_S1x256x19x160_S1x1x19x160_0_244_0_0 : ∀ a, (![0, 244, 0, 0] : Fin 4 → Nat) a + S1x1x19x160.size a ≤ S1x256x19x160.size a
  inb_S1x256x19x160_S1x1x19x160_0_245_0_0 : ∀ a, (![0, 245, 0, 0] : Fin 4 → Nat) a + S1x1x19x160.size a ≤ S1x256x19x160.size a
  inb_S1x256x19x160_S1x1x19x160_0_246_0_0 : ∀ a, (![0, 246, 0, 0] : Fin 4 → Nat) a + S1x1x19x160.size a ≤ S1x256x19x160.size a
  inb_S1x256x19x160_S1x1x19x160_0_247_0_0 : ∀ a, (![0, 247, 0, 0] : Fin 4 → Nat) a + S1x1x19x160.size a ≤ S1x256x19x160.size a
  inb_S1x256x19x160_S1x1x19x160_0_248_0_0 : ∀ a, (![0, 248, 0, 0] : Fin 4 → Nat) a + S1x1x19x160.size a ≤ S1x256x19x160.size a
  inb_S1x256x19x160_S1x1x19x160_0_249_0_0 : ∀ a, (![0, 249, 0, 0] : Fin 4 → Nat) a + S1x1x19x160.size a ≤ S1x256x19x160.size a
  inb_S1x256x19x160_S1x1x19x160_0_250_0_0 : ∀ a, (![0, 250, 0, 0] : Fin 4 → Nat) a + S1x1x19x160.size a ≤ S1x256x19x160.size a
  inb_S1x256x19x160_S1x1x19x160_0_251_0_0 : ∀ a, (![0, 251, 0, 0] : Fin 4 → Nat) a + S1x1x19x160.size a ≤ S1x256x19x160.size a
  inb_S1x256x19x160_S1x1x19x160_0_252_0_0 : ∀ a, (![0, 252, 0, 0] : Fin 4 → Nat) a + S1x1x19x160.size a ≤ S1x256x19x160.size a
  inb_S1x256x19x160_S1x1x19x160_0_253_0_0 : ∀ a, (![0, 253, 0, 0] : Fin 4 → Nat) a + S1x1x19x160.size a ≤ S1x256x19x160.size a
  inb_S1x256x19x160_S1x1x19x160_0_254_0_0 : ∀ a, (![0, 254, 0, 0] : Fin 4 → Nat) a + S1x1x19x160.size a ≤ S1x256x19x160.size a
  inb_S1x256x19x160_S1x1x19x160_0_255_0_0 : ∀ a, (![0, 255, 0, 0] : Fin 4 → Nat) a + S1x1x19x160.size a ≤ S1x256x19x160.size a
  concatenates_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S1x158_S256x158_d0 : Shape.Concatenates (S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: S1x158 :: []) S256x158 0
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S256x158 : S1x1.Broadcasts S256x158
  reduces_S256x158_S158 : S256x158.Reduces [0] S158
  shapeCasts_S158_S1x158 : S158.ShapeCasts S1x158
  broadcasts_S1x158_S256x158 : S1x158.Broadcasts S256x158
  inb_S1x1x158_S1x1x158_0_0_0 : ∀ a, (![0, 0, 0] : Fin 3 → Nat) a + S1x1x158.size a ≤ S1x1x158.size a
  h_S1x1x158 : 0 < S1x1x158.numel
  shapeCasts_S1x1x158_S1x158 : S1x1x158.ShapeCasts S1x158
  inb_S1x158x8_S1x158x8_0_0_0 : ∀ a, (![0, 0, 0] : Fin 3 → Nat) a + S1x158x8.size a ≤ S1x158x8.size a
  h_S1x158x8 : 0 < S1x158x8.numel
  shapeCasts_S1x158x8_S158x8 : S1x158x8.ShapeCasts S158x8
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  broadcasts_S1x8_S256x8 : S1x8.Broadcasts S256x8
  inb_S1x256x8_S1x256x8_0_0_0 : ∀ a, (![0, 0, 0] : Fin 3 → Nat) a + S1x256x8.size a ≤ S1x256x8.size a
  h_S1x256x8 : 0 < S1x256x8.numel
  shapeCasts_S1x256x8_S256x8 : S1x256x8.ShapeCasts S256x8
  shapeCasts_S256x8_S1x256x8 : S256x8.ShapeCasts S1x256x8
  reducesTo_S64x256x8_S256x8_d0 : S64x256x8.ReducesTo [0] S256x8
  h_S_ : 0 < S_.numel
  bcast_S_S256x8 : S_.BroadcastsInDim S256x8 (![] : Fin 0 → Fin S256x8.rank)
  dot_S19x19_S19x64_S19x64_1_0_0_1_n_n_wf : DotDims.WF S19x19 S19x64 S19x64 [1] [0] [0] [1] [] []
  dot_S19x192_S192x32_S19x32_1_0_0_1_n_n_wf : DotDims.WF S19x192 S192x32 S19x32 [1] [0] [0] [1] [] []
  dot_S19x19_S19x32_S19x32_1_0_0_1_n_n_wf : DotDims.WF S19x19 S19x32 S19x32 [1] [0] [0] [1] [] []
  dot_S19x96_S96x32_S19x32_1_0_0_1_n_n_wf : DotDims.WF S19x96 S96x32 S19x32 [1] [0] [0] [1] [] []
  dot_S256x158_S158x8_S256x8_1_0_0_1_n_n_wf : DotDims.WF S256x158 S158x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5x19x64.size a ≤ S256x5x19x64.size a
  hwx0_0 : ∀ i : grid0.Coords, EltTy.bits .f32 = 32 ∨ (Rect.block (s := S256x5x19x64) S1x5x19x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x19x19.size a ≤ S256x5x19x19.size a
  hwx0_1 : ∀ i : grid0.Coords, EltTy.bits .f32 = 32 ∨ (Rect.block (s := S256x5x19x19) S1x5x19x19.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x192x32.size a ≤ S64x5x192x32.size a
  hwx0_2 : ∀ i : grid0.Coords, EltTy.bits .f32 = 32 ∨ (Rect.block (s := S64x5x192x32) S1x5x192x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x1x32.size a ≤ S64x5x1x32.size a
  hwx0_3 : ∀ i : grid0.Coords, EltTy.bits .f32 = 32 ∨ (Rect.block (s := S64x5x1x32) S1x5x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10x96x32.size a ≤ S64x10x96x32.size a
  hwx0_4 : ∀ i : grid0.Coords, EltTy.bits .f32 = 32 ∨ (Rect.block (s := S64x10x96x32) S1x10x96x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10x1x32.size a ≤ S64x10x1x32.size a
  hwx0_5 : ∀ i : grid0.Coords, EltTy.bits .f32 = 32 ∨ (Rect.block (s := S64x10x1x32) S1x10x1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x5x96x32.size a ≤ S64x5x96x32.size a
  hwx0_6 : ∀ i : grid0.Coords, EltTy.bits .f32 = 32 ∨ (Rect.block (s := S64x5x96x32) S1x5x96x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x5x1x32.size a ≤ S64x5x1x32.size a
  hwx0_7 : ∀ i : grid0.Coords, EltTy.bits .f32 = 32 ∨ (Rect.block (s := S64x5x1x32) S1x5x1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x19x160.size a ≤ S64x256x19x160.size a
  hwx0_8 : ∀ i : grid0.Coords, EltTy.bits .f32 = 32 ∨ (Rect.block (s := S64x256x19x160) S1x1x19x160.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x19x160.size a ≤ S64x256x19x160.size a
  hwx1_0 : ∀ i : grid1.Coords, EltTy.bits .f32 = 32 ∨ (Rect.block (s := S64x256x19x160) S1x256x19x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x19x1.size a ≤ S64x3x19x1.size a
  hwx1_1 : ∀ i : grid1.Coords, EltTy.bits .f32 = 32 ∨ (Rect.block (s := S64x3x19x1) S1x3x19x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S64x1x1.size a
  hwx1_2 : ∀ i : grid1.Coords, EltTy.bits .f32 = 32 ∨ (Rect.block (s := S64x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x158.size a ≤ S64x1x158.size a
  hwx1_3 : ∀ i : grid1.Coords, EltTy.bits .f32 = 32 ∨ (Rect.block (s := S64x1x158) S1x1x158.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x158.size a ≤ S64x1x158.size a
  hwx1_4 : ∀ i : grid1.Coords, EltTy.bits .f32 = 32 ∨ (Rect.block (s := S64x1x158) S1x1x158.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x158x8.size a ≤ S64x158x8.size a
  hwx1_5 : ∀ i : grid1.Coords, EltTy.bits .f32 = 32 ∨ (Rect.block (s := S64x158x8) S1x158x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x8.size a ≤ S64x1x8.size a
  hwx1_6 : ∀ i : grid1.Coords, EltTy.bits .f32 = 32 ∨ (Rect.block (s := S64x1x8) S1x1x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x8.size a ≤ S64x256x8.size a
  hwx1_7 : ∀ i : grid1.Coords, EltTy.bits .f32 = 32 ∨ (Rect.block (s := S64x256x8) S1x256x8.size (cc1_transform_7 i) (hinb1_7 i)).WholeWords (EltTy.packing .f32)

variable [Facts₀]

def dot_S19x19_S19x64_S19x64_1_0_0_1_n_n : DotDims S19x19 S19x64 S19x64 where
  lhsContracting := [1]
  rhsContracting := [0]
  lhsNonContracting := [0]
  rhsNonContracting := [1]
  lhsBatch := []
  rhsBatch := []
  wf := dot_S19x19_S19x64_S19x64_1_0_0_1_n_n_wf
def dot_S19x192_S192x32_S19x32_1_0_0_1_n_n : DotDims S19x192 S192x32 S19x32 where
  lhsContracting := [1]
  rhsContracting := [0]
  lhsNonContracting := [0]
  rhsNonContracting := [1]
  lhsBatch := []
  rhsBatch := []
  wf := dot_S19x192_S192x32_S19x32_1_0_0_1_n_n_wf
def dot_S19x19_S19x32_S19x32_1_0_0_1_n_n : DotDims S19x19 S19x32 S19x32 where
  lhsContracting := [1]
  rhsContracting := [0]
  lhsNonContracting := [0]
  rhsNonContracting := [1]
  lhsBatch := []
  rhsBatch := []
  wf := dot_S19x19_S19x32_S19x32_1_0_0_1_n_n_wf
def dot_S19x96_S96x32_S19x32_1_0_0_1_n_n : DotDims S19x96 S96x32 S19x32 where
  lhsContracting := [1]
  rhsContracting := [0]
  lhsNonContracting := [0]
  rhsNonContracting := [1]
  lhsBatch := []
  rhsBatch := []
  wf := dot_S19x96_S96x32_S19x32_1_0_0_1_n_n_wf
def dot_S256x158_S158x8_S256x8_1_0_0_1_n_n : DotDims S256x158 S158x8 S256x8 where
  lhsContracting := [1]
  rhsContracting := [0]
  lhsNonContracting := [0]
  rhsNonContracting := [1]
  lhsBatch := []
  rhsBatch := []
  wf := dot_S256x158_S158x8_S256x8_1_0_0_1_n_n_wf

abbrev win0_0 : Pipeline.Window sig grid0 :=
  Pipeline.Window.ofSpec (Memref.whole main_v0) S1x5x19x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x5x19x19.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x5x192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x5x1x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x10x96x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x10x1x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x5x96x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x5x1x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x1x19x160.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v1) S1x256x19x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x3x19x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1x1x158.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S1x1x158.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S1x158x8.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S1x1x8.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x256x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.Spec.lean ====
/-
  The mathematics both programs compute, stated once over plain indexed families of extended reals.

  For ensemble member `m`, graph `b` and frequency band `band` a graph has 19 nodes, a laplacian `L` (19 × 19) and node
  features `H` (19 × k).  One Chebyshev layer of order three forms `[H | L·H | 2·L·(L·H) − H]` (19 × 3k), applies a
  linear map (3k × o) and adds a bias; four such layers (the first three followed by `max · 0`) give 32 output features
  per band, the five bands side by side 160 (`gcn`).  A three-tap filter along the 160 features, each tap a weighted sum
  over the 19 nodes, leaves 158 values per graph, plus a bias (`feats`).  Nothing here depends on how a program lays
  the graphs out in memory: the kernel stacks 32 graphs per block and multiplies by block-diagonal matrices, the
  reference treats one graph per grid point, and both are proved against these definitions.
-/
import Idealize.ShloMosaic.PureOps.Ideal
import Idealize.ShloMosaic.Lib.ValueIdx

noncomputable section

namespace Cert.Spec

open Idealize.ShloMosaic Idealize.ShloMosaic.ValueIdx

/-- The float literal `0.0` as it denotes. -/
abbrev c0 : EReal := Ideal.ofBits .f32 0x00000000#32
/-- The float literal `2.0` as it denotes. -/
abbrev c2 : EReal := Ideal.ofBits .f32 0x40000000#32

/-- A graph's laplacian applied to its node features: entry `(n, f)` of `L · H`. -/
def mv {k : Nat} (L : Fin 19 → Fin 19 → EReal) (H : Fin 19 → Fin k → EReal) : Fin 19 → Fin k → EReal :=
  fun n f => ∑ n' : Fin 19, L n n' * H n' f

/-- The third Chebyshev term `2 · L · (L · H) − H`. -/
def cheb2 {k : Nat} (L : Fin 19 → Fin 19 → EReal) (H : Fin 19 → Fin k → EReal) : Fin 19 → Fin k → EReal :=
  fun n f => c2 * mv L (mv L H) n f - H n f

/-- Three feature blocks of width `k` side by side: column `j` of `[H | X1 | X2]`. -/
def cat3 {k q : Nat} (hq : q = 3 * k) (H X1 X2 : Fin 19 → Fin k → EReal) : Fin 19 → Fin q → EReal :=
  fun n j => if h1 : j.val < k then H n ⟨j.val, h1⟩
    else if h2 : j.val < 2 * k then X1 n ⟨j.val - k, by omega⟩
    else X2 n ⟨j.val - 2 * k, by have := j.isLt; omega⟩

/-- A linear map on the features plus a bias: entry `(n, f)` of `XC · W + B`. -/
def lin {q o : Nat} (XC : Fin 19 → Fin q → EReal) (W : Fin q → Fin o → EReal) (B : Fin o → EReal) : Fin 19 → Fin o → EReal :=
  fun n f => (∑ j : Fin q, XC n j * W j f) + B f

/-- One Chebyshev layer before its activation. -/
def layer {k q o : Nat} (hq : q = 3 * k) (L : Fin 19 → Fin 19 → EReal) (H : Fin 19 → Fin k → EReal)
    (W : Fin q → Fin o → EReal) (B : Fin o → EReal) : Fin 19 → Fin o → EReal :=
  lin (cat3 hq H (mv L H) (cheb2 L H)) W B

/-- The activation `max · 0`. -/
def relu {o : Nat} (Y : Fin 19 → Fin o → EReal) : Fin 19 → Fin o → EReal := fun n f => max (Y n f) c0

/-- The hidden layer `l` of band `band` in the stacked hidden weights (two hidden layers per band). -/
def hid (band : Fin 5) (l : Fin 2) : Fin 10 := ⟨2 * band.val + l.val, by omega⟩

section Model

variable (x : (⟨4, ![256, 19, 64, 5]⟩ : Shape).Idx → EReal) (A : (⟨4, ![256, 5, 19, 19]⟩ : Shape).Idx → EReal)
  (wi : (⟨4, ![64, 5, 192, 32]⟩ : Shape).Idx → EReal) (bi : (⟨4, ![64, 5, 1, 32]⟩ : Shape).Idx → EReal)
  (wh : (⟨4, ![64, 10, 96, 32]⟩ : Shape).Idx → EReal) (bh : (⟨4, ![64, 10, 1, 32]⟩ : Shape).Idx → EReal)
  (wo : (⟨4, ![64, 5, 96, 32]⟩ : Shape).Idx → EReal) (bo : (⟨4, ![64, 5, 1, 32]⟩ : Shape).Idx → EReal)
  (wtap : (⟨4, ![64, 3, 19, 1]⟩ : Shape).Idx → EReal) (bconv : (⟨3, ![64, 1, 1]⟩ : Shape).Idx → EReal)

/-- Graph `b`'s laplacian in band `band`. -/
def lap (b : Fin 256) (band : Fin 5) : Fin 19 → Fin 19 → EReal := fun n n' => A (ix4 b band n n')
/-- Graph `b`'s input node features in band `band`. -/
def feat0 (b : Fin 256) (band : Fin 5) : Fin 19 → Fin 64 → EReal := fun n f => x (ix4 b n f band)
/-- The input's three Chebyshev terms side by side (19 × 192): what the first layer's linear map is applied to. -/
def xc0 (b : Fin 256) (band : Fin 5) : Fin 19 → Fin 192 → EReal :=
  cat3 (k := 64) (q := 192) rfl (feat0 x b band) (mv (lap A b band) (feat0 x b band)) (cheb2 (lap A b band) (feat0 x b band))

/-- After the input layer. -/
def h1 (m : Fin 64) (b : Fin 256) (band : Fin 5) : Fin 19 → Fin 32 → EReal :=
  relu (lin (xc0 x A b band) (fun j f => wi (ix4 m band j f)) (fun f => bi (ix4 m band 0 f)))
/-- After the first hidden layer. -/
def h2 (m : Fin 64) (b : Fin 256) (band : Fin 5) : Fin 19 → Fin 32 → EReal :=
  relu (layer (k := 32) (q := 96) rfl (lap A b band) (h1 x A wi bi m b band)
    (fun j f => wh (ix4 m (hid band 0) j f)) (fun f => bh (ix4 m (hid band 0) 0 f)))
/-- After the second hidden layer. -/
def h3 (m : Fin 64) (b : Fin 256) (band : Fin 5) : Fin 19 → Fin 32 → EReal :=
  relu (layer (k := 32) (q := 96) rfl (lap A b band) (h2 x A wi bi wh bh m b band)
    (fun j f => wh (ix4 m (hid band 1) j f)) (fun f => bh (ix4 m (hid band 1) 0 f)))
/-- After the output layer (no activation). -/
def h4 (m : Fin 64) (b : Fin 256) (band : Fin 5) : Fin 19 → Fin 32 → EReal :=
  layer (k := 32) (q := 96) rfl (lap A b band) (h3 x A wi bi wh bh m b band)
    (fun j f => wo (ix4 m band j f)) (fun f => bo (ix4 m band 0 f))

/-- The five bands' outputs side by side: node `n`, feature `j` of 160. -/
def gcn (m : Fin 64) (b : Fin 256) (n : Fin 19) (j : Fin 160) : EReal :=
  h4 x A wi bi wh bh wo bo m b ⟨j.val / 32, by have := j.isLt; omega⟩ n ⟨j.val % 32, Nat.mod_lt _ (by decide)⟩

/-- Filter tap `k`: the nodes' weighted sum at feature `j`. -/
def tap (m : Fin 64) (b : Fin 256) (k : Fin 3) (j : Fin 160) : EReal :=
  ∑ n : Fin 19, gcn x A wi bi wh bh wo bo m b n j * wtap (ix4 m k n 0)

/-- The three taps added at offsets 0, 1, 2 from a zero, plus the filter's bias. -/
def feats (m : Fin 64) (b : Fin 256) (l : Fin 158) : EReal :=
  (((c0 + tap x A wi bi wh bh wo bo wtap m b 0 ⟨l.val, by have := l.isLt; omega⟩)
      + tap x A wi bi wh bh wo bo wtap m b 1 ⟨l.val + 1, by have := l.isLt; omega⟩)
      + tap x A wi bi wh bh wo bo wtap m b 2 ⟨l.val + 2, by have := l.isLt; omega⟩)
    + bconv (ix3 m 0 0)

/-- Member `m`'s `feats` as a 256 × 158 array. -/
def featsVec (m : Fin 64) : (⟨2, ![256, 158]⟩ : Shape).Idx → EReal :=
  fun i => feats x A wi bi wh bh wo bo wtap bconv m (i 0) (i 1)

end Model

/-! ## The arrays the programs pass between their kernels, as functions of the inputs

A row `R` of a 4864-row array is node `R % 19` of graph `R / 19` (the kernel flattens graphs and nodes onto one axis). -/

/-- The graph a flattened row belongs to. -/
def gOf (R : Fin 4864) : Fin 256 := ⟨R.val / 19, by have := R.isLt; omega⟩
/-- The node a flattened row is. -/
def nOf (R : Fin 4864) : Fin 19 := ⟨R.val % 19, Nat.mod_lt _ (by decide)⟩

section Arrays

variable (x : (⟨4, ![256, 19, 64, 5]⟩ : Shape).Idx → EReal) (A : (⟨4, ![256, 5, 19, 19]⟩ : Shape).Idx → EReal)
  (wi : (⟨4, ![64, 5, 192, 32]⟩ : Shape).Idx → EReal) (bi : (⟨4, ![64, 5, 1, 32]⟩ : Shape).Idx → EReal)
  (wh : (⟨4, ![64, 10, 96, 32]⟩ : Shape).Idx → EReal) (bh : (⟨4, ![64, 10, 1, 32]⟩ : Shape).Idx → EReal)
  (wo : (⟨4, ![64, 5, 96, 32]⟩ : Shape).Idx → EReal) (bo : (⟨4, ![64, 5, 1, 32]⟩ : Shape).Idx → EReal)
  (wtap : (⟨4, ![64, 3, 19, 1]⟩ : Shape).Idx → EReal) (bconv : (⟨3, ![64, 1, 1]⟩ : Shape).Idx → EReal)

/-- The kernel's band-major, row-flattened copy of the node features: `[band, graph·19 + node, feature]`. -/
def XBarr : (⟨3, ![5, 4864, 64]⟩ : Shape).Idx → EReal := fun i => x (ix4 (gOf (i 1)) (nOf (i 1)) (i 2) (i 0))
/-- The kernel's band-major, row-flattened copy of the laplacians: `[band, graph·19 + node, node']`. -/
def ABarr : (⟨3, ![5, 4864, 19]⟩ : Shape).Idx → EReal := fun i => A (ix4 (gOf (i 1)) (i 0) (nOf (i 1)) (i 2))
/-- The reference's band-major copy of the node features: `[graph, band, node, feature]`. -/
def XBANDSarr : (⟨4, ![256, 5, 19, 64]⟩ : Shape).Idx → EReal := fun i => x (ix4 (i 0) (i 2) (i 3) (i 1))
/-- The filter taps repeated for the 32 graphs of a block: `[member, tap, (graph in block)·19 + node, 0]`. -/
def SELarr : (⟨4, ![64, 3, 608, 1]⟩ : Shape).Idx → EReal :=
  fun i => wtap (ix4 (i 0) (i 1) ⟨(i 2).val % 19, Nat.mod_lt _ (by decide)⟩ 0)
/-- The first kernel's first output: every graph's three input Chebyshev terms, rows flattened. -/
def XCarr : (⟨3, ![5, 4864, 192]⟩ : Shape).Idx → EReal := fun i => xc0 x A (gOf (i 1)) (i 0) (nOf (i 1)) (i 2)
/-- The first kernel's second output: in each run of 152 rows (8 graphs) the 8 laplacians on the diagonal of a
    152 × 152 matrix, zero elsewhere — column `cc` is node `cc % 19` of the run's graph number `cc / 19`. -/
def BDarr : (⟨3, ![5, 4864, 152]⟩ : Shape).Idx → EReal :=
  fun i => if (i 2).val / 19 = (i 1).val / 19 % 8
    then A (ix4 (gOf (i 1)) (i 0) (nOf (i 1)) ⟨(i 2).val % 19, Nat.mod_lt _ (by decide)⟩) else c0
/-- The graph-convolution output as the reference stores it: `[member, graph, node, feature]`. -/
def GCNarr : (⟨4, ![64, 256, 19, 160]⟩ : Shape).Idx → EReal := fun i => gcn x A wi bi wh bh wo bo (i 0) (i 1) (i 2) (i 3)
/-- The filtered features as the kernel stores them: `[member, graph, 158]`. -/
def FEATSarr : (⟨3, ![64, 256, 158]⟩ : Shape).Idx → EReal := fun i => feats x A wi bi wh bh wo bo wtap bconv (i 0) (i 1) (i 2)

end Arrays

end Cert.Spec

end
-- ==== Proof.LibBlockDiagSum.lean ====
/-
  A row of a block-diagonal matrix times a vector.  Eight 19 × 19 blocks sit on the diagonal of a 152 × 152 matrix; in
  the row of block `g` only the 19 columns of block `g` are non-zero, so the 152-term product is the block's own 19-term
  product: the other terms are zero times something, which is zero on the extended reals whatever the something is.
-/
import Idealize.ShloMosaic.PureOps.Ideal

noncomputable section

namespace Cert.Spec

open Idealize.ShloMosaic

/-- `∑ cc < 152, (if cc / 19 = g then a (cc % 19) else 0) · y cc = ∑ n' < 19, a n' · y (19·g + n')`. -/
theorem blockdiag_row_sum (g : Fin 8) (a : Fin 19 → EReal) (y : Fin 152 → EReal) :
    (∑ cc : Fin 152, (if cc.val / 19 = g.val then a ⟨cc.val % 19, Nat.mod_lt _ (by decide)⟩ else (0 : EReal)) * y cc)
      = ∑ n' : Fin 19, a n' * y ⟨19 * g.val + n'.val, by have := g.isLt; have := n'.isLt; omega⟩ := by
  -- split a column as (block, position in the block)
  let e : Fin 8 × Fin 19 ≃ Fin 152 :=
    { toFun := fun p => ⟨19 * p.1.val + p.2.val, by have := p.1.isLt; have := p.2.isLt; omega⟩
      invFun := fun cc => (⟨cc.val / 19, by have := cc.isLt; omega⟩, ⟨cc.val % 19, Nat.mod_lt _ (by decide)⟩)
      left_inv := fun p => by
        have h1 := p.1.isLt; have h2 := p.2.isLt
        refine Prod.ext (Fin.ext ?_) (Fin.ext ?_)
        · show (19 * p.1.val + p.2.val) / 19 = p.1.val; omega
        · show (19 * p.1.val + p.2.val) % 19 = p.2.val; omega
      right_inv := fun cc => Fin.ext (by show 19 * (cc.val / 19) + cc.val % 19 = cc.val; omega) }
  rw [← Equiv.sum_comp e, Fintype.sum_prod_type, Finset.sum_eq_single g]
  · refine Finset.sum_congr rfl fun n' _ => ?_
    have hn := n'.isLt; have hg := g.isLt
    have h1 : (e (g, n')).val / 19 = g.val := by show (19 * g.val + n'.val) / 19 = g.val; omega
    have h2 : (⟨(e (g, n')).val % 19, Nat.mod_lt _ (by decide)⟩ : Fin 19) = n' :=
      Fin.ext (by show (19 * g.val + n'.val) % 19 = n'.val; omega)
    rw [if_pos h1, h2]
    rfl
  · intro g' _ hne
    refine Finset.sum_eq_zero fun n' _ => ?_
    have hn := n'.isLt; have hg := g'.isLt
    have h1 : ¬ (e (g', n')).val / 19 = g.val := by
      show ¬ (19 * g'.val + n'.val) / 19 = g.val
      intro h; apply hne; apply Fin.ext; omega
    rw [if_neg h1, zero_mul]
  · intro h; exact absurd (Finset.mem_univ g) h

end Cert.Spec

end
-- ==== Proof.KCheb.lean ====
/-
  The first kernel: for every band and every run of 8 graphs it builds the 152 × 152 block-diagonal matrix of the
  graphs' laplacians and the three Chebyshev terms of the input features, `[X | L·X | 2·L·(L·X) − X]`.  Its two
  output arrays are `Cert.Spec.XCarr` and `Cert.Spec.BDarr` of the inputs.
-/
import proofs.«124497_g2000206817317674_pallasbulk_294_10_alg».proof.Proof.Gen.KernelIdeal.Frame
import proofs.«124497_g2000206817317674_pallasbulk_294_10_alg».proof.Proof.Spec
import proofs.«124497_g2000206817317674_pallasbulk_294_10_alg».proof.Proof.LibBlockDiagSum
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

namespace Cert.KernelIdeal.Cheb

open Idealize.ShloMosaic Idealize.ShloMosaic.TcCoe Idealize.ShloMosaic.ValueIdx Idealize.SL.Sem
open Cert.KernelIdeal Cert.KernelIdeal.Gen
open Cert.Spec (blockdiag_row_sum)

variable {F : FTy → Type} [FloatOps F]

/-! ## The body as vector functions -/

/-- Floor division by 19 of a vector of 32-bit integers: the truncated quotient, lowered by one where the signs of
    the operand and of 19 differ and the remainder is not zero. -/
def fdiv19 (x : IVec S152x152 32) : IVec S152x152 32 :=
  select
    (andi
      (cmpi .ne
        (subi (extui 32 (cmpi .sgt x (broadcast S152x152 0#32)) natLt_1_32) (extui 32 (cmpi .slt x (broadcast S152x152 0#32)) natLt_1_32))
        (broadcast S152x152 (Scalar.subi (Scalar.extui (Scalar.cmpi .sgt 19#32 0#32)) (Scalar.extui (Scalar.cmpi .slt 19#32 0#32)))))
      (cmpi .ne (remsi x (broadcast S152x152 19#32)) (broadcast S152x152 0#32)))
    (subi (divsi x (broadcast S152x152 19#32)) (broadcast S152x152 1#32))
    (divsi x (broadcast S152x152 19#32))

/-- The block-diagonal pattern: entry (r, cc) is set when row r and column cc belong to the same graph of the run of 8. -/
def mask : IVec S152x152 1 :=
  cmpi .eq (fdiv19 (iota .tc S152x152 32 [0] iota_S152x152_d0_w32)) (fdiv19 (iota .tc S152x152 32 [1] iota_S152x152_d1_w32))

/-- The 152 × 152 block-diagonal matrix of 8 stacked laplacians: the slab repeated 8 times along the columns, zero off the pattern. -/
def bd (a : FVec F S152x19 .f32) : FVec F S152x152 .f32 :=
  select mask (concatenate S152x152 1 [⟨S152x19, a⟩, ⟨S152x19, a⟩, ⟨S152x19, a⟩, ⟨S152x19, a⟩, ⟨S152x19, a⟩, ⟨S152x19, a⟩, ⟨S152x19, a⟩, ⟨S152x19, a⟩] concatenates_S152x19_S152x19_S152x19_S152x19_S152x19_S152x19_S152x19_S152x19_S152x152_d1)
    (broadcast S152x152 (Scalar.ofBits .f32 0x00000000#32))

/-- `b · xs` on one run of 8 graphs. -/
def x1 (b : FVec F S152x152 .f32) (xs : FVec F S152x64 .f32) : FVec F S152x64 .f32 :=
  matmul dot_S152x152_S152x64_S152x64_1_0_0_1_n_n none b xs (constant S152x64 .f32 0x00000000#32)

/-- `2 · b · (b · xs) − xs` on one run of 8 graphs. -/
def x2 (b : FVec F S152x152 .f32) (xs : FVec F S152x64 .f32) : FVec F S152x64 .f32 :=
  subf (mulf (broadcast S152x64 (Scalar.ofBits .f32 0x40000000#32))
    (matmul dot_S152x152_S152x64_S152x64_1_0_0_1_n_n none b (x1 b xs) (constant S152x64 .f32 0x00000000#32))) xs

/-- The four runs of 152 rows (8 graphs) of a band's laplacian block and of its feature block. -/
def as0 (a : FVec F S608x19 .f32) : FVec F S152x19 .f32 := extractStridedSlice S152x19 ![0, 0] a slices_S608x19_o0_0_S152x19
def as1 (a : FVec F S608x19 .f32) : FVec F S152x19 .f32 := extractStridedSlice S152x19 ![152, 0] a slices_S608x19_o152_0_S152x19
def as2 (a : FVec F S608x19 .f32) : FVec F S152x19 .f32 := extractStridedSlice S152x19 ![304, 0] a slices_S608x19_o304_0_S152x19
def as3 (a : FVec F S608x19 .f32) : FVec F S152x19 .f32 := extractStridedSlice S152x19 ![456, 0] a slices_S608x19_o456_0_S152x19
def xs0 (x : FVec F S608x64 .f32) : FVec F S152x64 .f32 := extractStridedSlice S152x64 ![0, 0] x slices_S608x64_o0_0_S152x64
def xs1 (x : FVec F S608x64 .f32) : FVec F S152x64 .f32 := extractStridedSlice S152x64 ![152, 0] x slices_S608x64_o152_0_S152x64
def xs2 (x : FVec F S608x64 .f32) : FVec F S152x64 .f32 := extractStridedSlice S152x64 ![304, 0] x slices_S608x64_o304_0_S152x64
def xs3 (x : FVec F S608x64 .f32) : FVec F S152x64 .f32 := extractStridedSlice S152x64 ![456, 0] x slices_S608x64_o456_0_S152x64

/-- A band's Chebyshev features `[x | bd·x | 2·bd·(bd·x) − x]`, the products taken run by run. -/
def xc (x : FVec F S608x64 .f32) (a : FVec F S608x19 .f32) : FVec F S608x192 .f32 :=
  concatenate S608x192 1 [⟨S608x64, x⟩,
    ⟨S608x64, concatenate S608x64 0 [⟨S152x64, x1 (bd (as0 a)) (xs0 x)⟩, ⟨S152x64, x1 (bd (as1 a)) (xs1 x)⟩, ⟨S152x64, x1 (bd (as2 a)) (xs2 x)⟩, ⟨S152x64, x1 (bd (as3 a)) (xs3 x)⟩] concatenates_S152x64_S152x64_S152x64_S152x64_S608x64_d0⟩,
    ⟨S608x64, concatenate S608x64 0 [⟨S152x64, x2 (bd (as0 a)) (xs0 x)⟩, ⟨S152x64, x2 (bd (as1 a)) (xs1 x)⟩, ⟨S152x64, x2 (bd (as2 a)) (xs2 x)⟩, ⟨S152x64, x2 (bd (as3 a)) (xs3 x)⟩] concatenates_S152x64_S152x64_S152x64_S152x64_S608x64_d0⟩]
    concatenates_S608x64_S608x64_S608x64_S608x192_d1

/-- A band's four block-diagonal matrices stacked. -/
def bds (a : FVec F S608x19 .f32) : FVec F S608x152 .f32 :=
  concatenate S608x152 0 [⟨S152x152, bd (as0 a)⟩, ⟨S152x152, bd (as1 a)⟩, ⟨S152x152, bd (as2 a)⟩, ⟨S152x152, bd (as3 a)⟩] concatenates_S152x152_S152x152_S152x152_S152x152_S608x152_d0

/-- What a band stores into the first output, from its loaded blocks. -/
def xcBand (xb : Vec F S1x608x64 .f32) (ab : Vec F S1x608x19 .f32) : FVec F S1x608x192 .f32 :=
  shapeCast S1x608x192 (xc (shapeCast S608x64 xb shapeCasts_S1x608x64_S608x64) (shapeCast S608x19 ab shapeCasts_S1x608x19_S608x19)) shapeCasts_S608x192_S1x608x192

/-- What a band stores into the second output, from its loaded block of laplacians. -/
def bdBand (ab : Vec F S1x608x19 .f32) : FVec F S1x608x152 .f32 :=
  shapeCast S1x608x152 (bds (shapeCast S608x19 ab shapeCasts_S1x608x19_S608x19)) shapeCasts_S608x152_S1x608x152

/-- The body's five stores into the first output are the five bands' blocks, by unfolding. -/
theorem out2_eq (x0 : Vec F S5x608x64 .f32) (x1' : Vec F S5x608x19 .f32) :
    out0_2 x0 x1' = View.canon [⟨r0_18, xcBand (View.ld x0 r0_16) (View.ld x1' r0_17)⟩, ⟨r0_14, xcBand (View.ld x0 r0_12) (View.ld x1' r0_13)⟩,
      ⟨r0_10, xcBand (View.ld x0 r0_8) (View.ld x1' r0_9)⟩, ⟨r0_6, xcBand (View.ld x0 r0_4) (View.ld x1' r0_5)⟩, ⟨r0_2, xcBand (View.ld x0 r0_0) (View.ld x1' r0_1)⟩] := rfl

/-- Likewise its five stores into the second output. -/
theorem out3_eq (x0 : Vec F S5x608x64 .f32) (x1' : Vec F S5x608x19 .f32) :
    out0_3 x0 x1' = View.canon [⟨r0_19, bdBand (View.ld x1' r0_17)⟩, ⟨r0_15, bdBand (View.ld x1' r0_13)⟩,
      ⟨r0_11, bdBand (View.ld x1' r0_9)⟩, ⟨r0_7, bdBand (View.ld x1' r0_5)⟩, ⟨r0_3, bdBand (View.ld x1' r0_1)⟩] := rfl

/-! ## The block-diagonal pattern at an index -/

/-- The floor-division sequence on one 32-bit word. -/
def fdivS (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 19#32 0#32)) (Scalar.extui (Scalar.cmpi .slt 19#32 0#32))))
      (IntOp.cmpi .ne (IntOp.remsi .vector x 19#32) 0#32))
    (IntOp.subi (IntOp.divsi .vector x 19#32) 1#32)
    (IntOp.divsi .vector x 19#32)

/-- The vector sequence acts word by word. -/
theorem fdiv19_apply (x : IVec S152x152 32) (i : S152x152.Idx) : fdiv19 x i = fdivS (x i) := rfl

/-- On the words 0 … 151 the sequence is the natural quotient by 19. -/
theorem fdivS_ofNat : ∀ n : Fin 152, fdivS (BitVec.ofNat 32 n.val) = BitVec.ofNat 32 (n.val / 19) := by decide +kernel

/-- Two graph numbers below 8 are equal words exactly when they are equal. -/
theorem eq_words : ∀ a b : Fin 8, IntOp.cmpi .eq (BitVec.ofNat 32 a.val) (BitVec.ofNat 32 b.val) = if b.val = a.val then 1#1 else 0#1 := by decide

/-- Entry (r, cc) of the pattern is set exactly when column cc lies in the graph of row r. -/
theorem mask_apply (r cc : Fin 152) : mask (ix2 r cc) = if cc.val / 19 = r.val / 19 then 1#1 else 0#1 := by
  have h : mask (ix2 r cc) = IntOp.cmpi .eq (fdivS (iota .tc S152x152 32 [0] iota_S152x152_d0_w32 (ix2 r cc)))
      (fdivS (iota .tc S152x152 32 [1] iota_S152x152_d1_w32 (ix2 r cc))) := rfl
  rw [h, iota_single_apply, iota_single_apply]
  show IntOp.cmpi .eq (fdivS (BitVec.ofNat 32 r.val)) (fdivS (BitVec.ofNat 32 cc.val)) = _
  rw [fdivS_ofNat r, fdivS_ofNat cc]
  exact eq_words ⟨r.val / 19, by have := r.isLt; omega⟩ ⟨cc.val / 19, by have := cc.isLt; omega⟩

/-! ## The block-diagonal matrix at an index -/

/-- The slab repeated 8 times along the columns: column 19·k + n is the slab's column n. -/
theorem tiled_apply (a : FVec Ideal S152x19 .f32) (r cc : Fin 152) (k : Fin 8) (n : Fin 19) (h : cc.val = 19 * k.val + n.val) :
    concatenate S152x152 1 [⟨S152x19, a⟩, ⟨S152x19, a⟩, ⟨S152x19, a⟩, ⟨S152x19, a⟩, ⟨S152x19, a⟩, ⟨S152x19, a⟩, ⟨S152x19, a⟩, ⟨S152x19, a⟩] concatenates_S152x19_S152x19_S152x19_S152x19_S152x19_S152x19_S152x19_S152x19_S152x152_d1 (ix2 r cc) = a (ix2 r n) := by
  have hi : ∀ (c' : Fin 152) (b : Fin S152x19.rank), b.cast rfl ≠ (1 : Fin S152x152.rank) →
      ((ix2 r n : S152x19.Idx) b).val = ((ix2 r c' : S152x152.Idx) (b.cast rfl)).val := by
    intro c' b hb
    match b with
    | ⟨0, _⟩ => rfl
    | ⟨1, _⟩ => exact absurd rfl hb
  match k with
  | ⟨0, _⟩ => exact concatenate_apply_piece (1 : Fin S152x152.rank) _ _ _ 0 (by show (0 : Nat) < 8; omega) S152x19 a rfl rfl 0 rfl (ix2 r n) (hi cc) (by show 0 + n.val = cc.val; have h' : cc.val = 19 * 0 + n.val := h; omega)
  | ⟨1, _⟩ => exact concatenate_apply_piece (1 : Fin S152x152.rank) _ _ _ 1 (by show (1 : Nat) < 8; omega) S152x19 a rfl rfl 19 rfl (ix2 r n) (hi cc) (by show 19 + n.val = cc.val; have h' : cc.val = 19 * 1 + n.val := h; omega)
  | ⟨2, _⟩ => exact concatenate_apply_piece (1 : Fin S152x152.rank) _ _ _ 2 (by show (2 : Nat) < 8; omega) S152x19 a rfl rfl 38 rfl (ix2 r n) (hi cc) (by show 38 + n.val = cc.val; have h' : cc.val = 19 * 2 + n.val := h; omega)
  | ⟨3, _⟩ => exact concatenate_apply_piece (1 : Fin S152x152.rank) _ _ _ 3 (by show (3 : Nat) < 8; omega) S152x19 a rfl rfl 57 rfl (ix2 r n) (hi cc) (by show 57 + n.val = cc.val; have h' : cc.val = 19 * 3 + n.val := h; omega)
  | ⟨4, _⟩ => exact concatenate_apply_piece (1 : Fin S152x152.rank) _ _ _ 4 (by show (4 : Nat) < 8; omega) S152x19 a rfl rfl 76 rfl (ix2 r n) (hi cc) (by show 76 + n.val = cc.val; have h' : cc.val = 19 * 4 + n.val := h; omega)
  | ⟨5, _⟩ => exact concatenate_apply_piece (1 : Fin S152x152.rank) _ _ _ 5 (by show (5 : Nat) < 8; omega) S152x19 a rfl rfl 95 rfl (ix2 r n) (hi cc) (by show 95 + n.val = cc.val; have h' : cc.val = 19 * 5 + n.val := h; omega)
  | ⟨6, _⟩ => exact concatenate_apply_piece (1 : Fin S152x152.rank) _ _ _ 6 (by show (6 : Nat) < 8; omega) S152x19 a rfl rfl 114 rfl (ix2 r n) (hi cc) (by show 114 + n.val = cc.val; have h' : cc.val = 19 * 6 + n.val := h; omega)
  | ⟨7, _⟩ => exact concatenate_apply_piece (1 : Fin S152x152.rank) _ _ _ 7 (by show (7 : Nat) < 8; omega) S152x19 a rfl rfl 133 rfl (ix2 r n) (hi cc) (by show 133 + n.val = cc.val; have h' : cc.val = 19 * 7 + n.val := h; omega)

/-- Entry (r, cc) of the block-diagonal matrix: the laplacian entry when column cc lies in the graph of row r, zero otherwise. -/
theorem bd_apply (a : FVec Ideal S152x19 .f32) (r cc : Fin 152) :
    bd a (ix2 r cc) = if cc.val / 19 = r.val / 19 then a (ix2 r ⟨cc.val % 19, Nat.mod_lt _ (by decide)⟩) else (0 : EReal) := by
  have h : bd a (ix2 r cc) = Scalar.select (mask (ix2 r cc))
      (concatenate S152x152 1 [⟨S152x19, a⟩, ⟨S152x19, a⟩, ⟨S152x19, a⟩, ⟨S152x19, a⟩, ⟨S152x19, a⟩, ⟨S152x19, a⟩, ⟨S152x19, a⟩, ⟨S152x19, a⟩] concatenates_S152x19_S152x19_S152x19_S152x19_S152x19_S152x19_S152x19_S152x19_S152x152_d1 (ix2 r cc))
      (Ideal.ofBits .f32 0x00000000#32) := rfl
  rw [h, mask_apply]
  by_cases hg : cc.val / 19 = r.val / 19
  · rw [if_pos hg, if_pos hg]
    rw [select_one]
    exact tiled_apply a r cc ⟨cc.val / 19, by have := cc.isLt; omega⟩ ⟨cc.val % 19, Nat.mod_lt _ (by decide)⟩ (by show cc.val = 19 * (cc.val / 19) + cc.val % 19; omega)
  · rw [if_neg hg, if_neg hg]
    rw [select_zero]
    exact Ideal.ofBits_zero_f32

/-! ## A product with a 152 × 152 matrix at an index -/

/-- The product's left operand is read at (the result's row, the contraction position) and its right operand at
    (the contraction position, the result's column). -/
theorem lhs_row (j : S152x64.Idx) (k : dot_S152x152_S152x64_S152x64_1_0_0_1_n_n.contr.Idx) : (dot_S152x152_S152x64_S152x64_1_0_0_1_n_n.lhsIdx j k 0).val = (j 0).val := by
  simp [DotDims.lhsIdx, dot_S152x152_S152x64_S152x64_1_0_0_1_n_n]
  rfl
theorem lhs_col (j : S152x64.Idx) (k : dot_S152x152_S152x64_S152x64_1_0_0_1_n_n.contr.Idx) : (dot_S152x152_S152x64_S152x64_1_0_0_1_n_n.lhsIdx j k 1).val = (k ⟨0, by decide⟩).val :=
  DotDims.lhsIdx_val_of_single _ rfl j k
theorem rhs_row (j : S152x64.Idx) (k : dot_S152x152_S152x64_S152x64_1_0_0_1_n_n.contr.Idx) : (dot_S152x152_S152x64_S152x64_1_0_0_1_n_n.rhsIdx j k 0).val = (k ⟨0, by decide⟩).val :=
  DotDims.rhsIdx_val_of_single _ rfl j k
theorem rhs_col (j : S152x64.Idx) (k : dot_S152x152_S152x64_S152x64_1_0_0_1_n_n.contr.Idx) : (dot_S152x152_S152x64_S152x64_1_0_0_1_n_n.rhsIdx j k 1).val = (j 1).val := by
  simp [DotDims.rhsIdx, dot_S152x152_S152x64_S152x64_1_0_0_1_n_n]
  rfl

/-- Entry (r, f) of `b · xs` is the sum over the 152 columns of b's row r. -/
theorem x1_apply (b : FVec Ideal S152x152 .f32) (xs : FVec Ideal S152x64 .f32) (r : Fin 152) (f : Fin 64) :
    x1 b xs (ix2 r f) = ∑ cc : Fin 152, b (ix2 r cc) * xs (ix2 cc f) := by
  unfold x1
  refine (Ideal.matmul_constant_zero_apply dot_S152x152_S152x64_S152x64_1_0_0_1_n_n none b xs (ix2 r f)).trans ?_
  rw [← Equiv.sum_comp (contrEquiv1 dot_S152x152_S152x64_S152x64_1_0_0_1_n_n 152 rfl rfl).symm]
  refine Finset.sum_congr rfl fun cc _ => ?_
  have hl : dot_S152x152_S152x64_S152x64_1_0_0_1_n_n.lhsIdx (ix2 r f) ((contrEquiv1 dot_S152x152_S152x64_S152x64_1_0_0_1_n_n 152 rfl rfl).symm cc) = ix2 r cc := by
    funext a; apply Fin.ext
    match a with
    | ⟨0, _⟩ => exact lhs_row _ _
    | ⟨1, _⟩ => exact (lhs_col _ _).trans (contrEquiv1_symm_val _ 152 rfl rfl cc)
  have hr : dot_S152x152_S152x64_S152x64_1_0_0_1_n_n.rhsIdx (ix2 r f) ((contrEquiv1 dot_S152x152_S152x64_S152x64_1_0_0_1_n_n 152 rfl rfl).symm cc) = ix2 cc f := by
    funext a; apply Fin.ext
    match a with
    | ⟨0, _⟩ => exact (rhs_row _ _).trans (contrEquiv1_symm_val _ 152 rfl rfl cc)
    | ⟨1, _⟩ => exact rhs_col _ _
  rw [hl, hr]

/-! ## A row of the block-diagonal products -/

/-- Row r of `bd a · xs`: only the 19 columns of r's graph contribute, the other 133 terms being zero times something. -/
theorem x1_bd_apply (a : FVec Ideal S152x19 .f32) (xs : FVec Ideal S152x64 .f32) (r : Fin 152) (f : Fin 64) :
    x1 (bd a) xs (ix2 r f) = ∑ n' : Fin 19, a (ix2 r n') *
      xs (ix2 (⟨19 * (r.val / 19) + n'.val, by have := r.isLt; have := n'.isLt; omega⟩ : Fin 152) f) := by
  rw [x1_apply]
  simp only [bd_apply]
  exact blockdiag_row_sum ⟨r.val / 19, by have := r.isLt; omega⟩ (fun n' => a (ix2 r n')) (fun cc => xs (ix2 cc f))

/-- The third term at an index: twice the product of the product, less the operand. -/
theorem x2_eq (b : FVec Ideal S152x152 .f32) (xs : FVec Ideal S152x64 .f32) (i : S152x64.Idx) :
    x2 b xs i = Ideal.ofBits .f32 0x40000000#32 * x1 b (x1 b xs) i - xs i := rfl

/-! ## Rows of a band's block -/

/-- Rows o … o + 151 of the band's laplacian block. -/
theorem slab19_apply (o : Nat) (a : FVec Ideal S608x19 .f32) (h : S608x19.Slices ![o, 0] S152x19) (r : Fin 152) (n : Fin 19)
    (R : Fin 608) (hR : R.val = o + r.val) : extractStridedSlice S152x19 ![o, 0] a h (ix2 r n) = a (ix2 R n) := by
  refine extractStridedSlice_apply _ _ _ _ (ix2 R n) fun ax => ?_
  match ax with
  | ⟨0, _⟩ => exact hR
  | ⟨1, _⟩ => exact (Nat.zero_add _).symm

/-- Rows o … o + 151 of the band's feature block. -/
theorem slab64_apply (o : Nat) (x : FVec Ideal S608x64 .f32) (h : S608x64.Slices ![o, 0] S152x64) (r : Fin 152) (f : Fin 64)
    (R : Fin 608) (hR : R.val = o + r.val) : extractStridedSlice S152x64 ![o, 0] x h (ix2 r f) = x (ix2 R f) := by
  refine extractStridedSlice_apply _ _ _ _ (ix2 R f) fun ax => ?_
  match ax with
  | ⟨0, _⟩ => exact hR
  | ⟨1, _⟩ => exact (Nat.zero_add _).symm

/-! ## A band's block as functions of its rows -/

/-- Node n' of the graph that row R of the block belongs to. -/
def rowOf (R : Fin 608) (n' : Fin 19) : Fin 608 := ⟨19 * (R.val / 19) + n'.val, by have := R.isLt; have := n'.isLt; omega⟩

/-- `L · X` on a block of whole graphs: row R sums over the 19 nodes of its own graph. -/
def mvRow (X : Fin 608 → Fin 64 → EReal) (L : Fin 608 → Fin 19 → EReal) (R : Fin 608) (f : Fin 64) : EReal :=
  ∑ n' : Fin 19, L R n' * X (rowOf R n') f

/-- `[X | L·X | 2·L·(L·X) − X]` on a block of whole graphs. -/
def xcRow (X : Fin 608 → Fin 64 → EReal) (L : Fin 608 → Fin 19 → EReal) (R : Fin 608) (j : Fin 192) : EReal :=
  if h1 : j.val < 64 then X R ⟨j.val, h1⟩
  else if h2 : j.val < 128 then mvRow X L R ⟨j.val - 64, by omega⟩
  else Cert.Spec.c2 * (∑ n' : Fin 19, L R n' * mvRow X L (rowOf R n') ⟨j.val - 128, by have := j.isLt; omega⟩)
    - X R ⟨j.val - 128, by have := j.isLt; omega⟩

/-- The block-diagonal rows: column cc of row R holds the laplacian entry when cc's graph in the run of 8 is R's. -/
def bdRow (L : Fin 608 → Fin 19 → EReal) (R : Fin 608) (cc : Fin 152) : EReal :=
  if cc.val / 19 = R.val / 19 % 8 then L R ⟨cc.val % 19, Nat.mod_lt _ (by decide)⟩ else 0

/-- `bd · x` on the run of 8 graphs that starts at row o of the block. -/
theorem sub1_apply (o : Nat) (ho : o % 152 = 0) (x : FVec Ideal S608x64 .f32) (a : FVec Ideal S608x19 .f32)
    (hx : S608x64.Slices ![o, 0] S152x64) (ha : S608x19.Slices ![o, 0] S152x19) (r : Fin 152) (f : Fin 64) (R : Fin 608)
    (hR : R.val = o + r.val) :
    x1 (bd (extractStridedSlice S152x19 ![o, 0] a ha)) (extractStridedSlice S152x64 ![o, 0] x hx) (ix2 r f)
      = mvRow (fun R f => x (ix2 R f)) (fun R n => a (ix2 R n)) R f := by
  rw [x1_bd_apply]
  refine Finset.sum_congr rfl fun n' _ => ?_
  rw [slab19_apply o a ha r n' R hR, slab64_apply o x hx _ f (rowOf R n')
    (by show 19 * (R.val / 19) + n'.val = o + (19 * (r.val / 19) + n'.val); have := r.isLt; omega)]

/-- `2 · bd · (bd · x) − x` on the run of 8 graphs that starts at row o of the block. -/
theorem sub2_apply (o : Nat) (ho : o % 152 = 0) (x : FVec Ideal S608x64 .f32) (a : FVec Ideal S608x19 .f32)
    (hx : S608x64.Slices ![o, 0] S152x64) (ha : S608x19.Slices ![o, 0] S152x19) (r : Fin 152) (f : Fin 64) (R : Fin 608)
    (hR : R.val = o + r.val) :
    x2 (bd (extractStridedSlice S152x19 ![o, 0] a ha)) (extractStridedSlice S152x64 ![o, 0] x hx) (ix2 r f)
      = Cert.Spec.c2 * (∑ n' : Fin 19, a (ix2 R n') * mvRow (fun R f => x (ix2 R f)) (fun R n => a (ix2 R n)) (rowOf R n') f)
        - x (ix2 R f) := by
  rw [x2_eq, x1_bd_apply]
  refine congrArg₂ (· - ·) (congrArg (Cert.Spec.c2 * ·) (Finset.sum_congr rfl fun n' _ => ?_)) (slab64_apply o x hx r f R hR)
  rw [slab19_apply o a ha r n' R hR]
  exact congrArg (a (ix2 R n') * ·) (sub1_apply o ho x a hx ha _ f (rowOf R n')
    (by show 19 * (R.val / 19) + n'.val = o + (19 * (r.val / 19) + n'.val); have := r.isLt; omega))

/-- A row of the block-diagonal matrix of the run of 8 graphs that starts at row o of the block. -/
theorem sub3_apply (o : Nat) (ho : o % 152 = 0) (a : FVec Ideal S608x19 .f32) (ha : S608x19.Slices ![o, 0] S152x19)
    (r cc : Fin 152) (R : Fin 608) (hR : R.val = o + r.val) :
    bd (extractStridedSlice S152x19 ![o, 0] a ha) (ix2 r cc) = bdRow (fun R n => a (ix2 R n)) R cc := by
  have e : r.val / 19 = R.val / 19 % 8 := by have := r.isLt; omega
  rw [bd_apply, slab19_apply o a ha r _ R hR, e]
  rfl

/-- Four runs of 152 rows stacked are one function of the block's row when each run is. -/
theorem rows4_eq {α : Type} {w : Nat} (p0 p1 p2 p3 : (⟨2, ![152, w]⟩ : Shape).Idx → α)
    (h : Shape.Concatenates [(⟨2, ![152, w]⟩ : Shape), ⟨2, ![152, w]⟩, ⟨2, ![152, w]⟩, ⟨2, ![152, w]⟩] ⟨2, ![608, w]⟩ 0)
    (G : Fin 608 → Fin w → α)
    (h0 : ∀ (r : Fin 152) (f : Fin w) (R : Fin 608), R.val = 0 + r.val → p0 (ix2 r f) = G R f)
    (h1 : ∀ (r : Fin 152) (f : Fin w) (R : Fin 608), R.val = 152 + r.val → p1 (ix2 r f) = G R f)
    (h2 : ∀ (r : Fin 152) (f : Fin w) (R : Fin 608), R.val = 304 + r.val → p2 (ix2 r f) = G R f)
    (h3 : ∀ (r : Fin 152) (f : Fin w) (R : Fin 608), R.val = 456 + r.val → p3 (ix2 r f) = G R f)
    (R : Fin 608) (f : Fin w) :
    concatenate ⟨2, ![608, w]⟩ 0 [⟨⟨2, ![152, w]⟩, p0⟩, ⟨⟨2, ![152, w]⟩, p1⟩, ⟨⟨2, ![152, w]⟩, p2⟩, ⟨⟨2, ![152, w]⟩, p3⟩] h (ix2 R f) = G R f := by
  have hi : ∀ (r : Fin 152) (b : Fin 2), b.cast rfl ≠ (0 : Fin 2) →
      ((ix2 r f : (⟨2, ![152, w]⟩ : Shape).Idx) b).val = ((ix2 R f : (⟨2, ![608, w]⟩ : Shape).Idx) (b.cast rfl)).val := by
    intro r b hb
    match b with
    | ⟨0, _⟩ => exact absurd rfl hb
    | ⟨1, _⟩ => rfl
  have hR := R.isLt
  rcases (by omega : R.val < 152 ∨ (152 ≤ R.val ∧ R.val < 304) ∨ (304 ≤ R.val ∧ R.val < 456) ∨ 456 ≤ R.val) with c | c | c | c
  · refine (concatenate_apply_piece (0 : Fin 2) _ _ (ix2 R f) 0 ?_ _ p0 rfl rfl 0 rfl
      (ix2 (⟨R.val - 0, by omega⟩ : Fin 152) f) ?_ ?_).trans (h0 _ f R ?_)
    · show (0 : Nat) < 4; omega
    · exact hi _
    · show 0 + (R.val - 0) = R.val; omega
    · show R.val = 0 + (R.val - 0); omega
  · refine (concatenate_apply_piece (0 : Fin 2) _ _ (ix2 R f) 1 ?_ _ p1 rfl rfl 152 rfl
      (ix2 (⟨R.val - 152, by omega⟩ : Fin 152) f) ?_ ?_).trans (h1 _ f R ?_)
    · show (1 : Nat) < 4; omega
    · exact hi _
    · show 152 + (R.val - 152) = R.val; omega
    · show R.val = 152 + (R.val - 152); omega
  · refine (concatenate_apply_piece (0 : Fin 2) _ _ (ix2 R f) 2 ?_ _ p2 rfl rfl 304 rfl
      (ix2 (⟨R.val - 304, by omega⟩ : Fin 152) f) ?_ ?_).trans (h2 _ f R ?_)
    · show (2 : Nat) < 4; omega
    · exact hi _
    · show 304 + (R.val - 304) = R.val; omega
    · show R.val = 304 + (R.val - 304); omega
  · refine (concatenate_apply_piece (0 : Fin 2) _ _ (ix2 R f) 3 ?_ _ p3 rfl rfl 456 rfl
      (ix2 (⟨R.val - 456, by omega⟩ : Fin 152) f) ?_ ?_).trans (h3 _ f R ?_)
    · show (3 : Nat) < 4; omega
    · exact hi _
    · show 456 + (R.val - 456) = R.val; omega
    · show R.val = 456 + (R.val - 456); omega

/-- A band's stored Chebyshev features at row R, column j. -/
theorem xc_apply (x : FVec Ideal S608x64 .f32) (a : FVec Ideal S608x19 .f32) (R : Fin 608) (j : Fin 192) :
    xc x a (ix2 R j) = xcRow (fun R f => x (ix2 R f)) (fun R n => a (ix2 R n)) R j := by
  have hi : ∀ (f : Fin 64) (b : Fin 2), b.cast rfl ≠ (1 : Fin 2) →
      ((ix2 R f : S608x64.Idx) b).val = ((ix2 R j : S608x192.Idx) (b.cast rfl)).val := by
    intro f b hb
    match b with
    | ⟨0, _⟩ => rfl
    | ⟨1, _⟩ => exact absurd rfl hb
  have hj := j.isLt
  unfold xc xcRow as0 as1 as2 as3 xs0 xs1 xs2 xs3
  by_cases h1 : j.val < 64
  · rw [dif_pos h1]
    refine concatenate_apply_piece (1 : Fin 2) _ _ (ix2 R j) 0 ?_ S608x64 x ?_ rfl 0 rfl (ix2 R (⟨j.val, h1⟩ : Fin 64)) ?_ ?_
    · show (0 : Nat) < 3; omega
    · rfl
    · exact hi _
    · show 0 + j.val = j.val; omega
  · rw [dif_neg h1]
    by_cases h2 : j.val < 128
    · rw [dif_pos h2]
      refine (concatenate_apply_piece (1 : Fin 2) _ _ (ix2 R j) 1 ?_ S608x64 _ rfl rfl 64 rfl
        (ix2 R (⟨j.val - 64, by omega⟩ : Fin 64)) ?_ ?_).trans ?_
      · show (1 : Nat) < 3; omega
      · exact hi _
      · show 64 + (j.val - 64) = j.val; omega
      · exact rows4_eq _ _ _ _ _ (fun R f => mvRow (fun R f => x (ix2 R f)) (fun R n => a (ix2 R n)) R f)
          (fun r f R hR => sub1_apply 0 rfl x a _ _ r f R hR) (fun r f R hR => sub1_apply 152 rfl x a _ _ r f R hR)
          (fun r f R hR => sub1_apply 304 rfl x a _ _ r f R hR) (fun r f R hR => sub1_apply 456 rfl x a _ _ r f R hR) R _
    · rw [dif_neg h2]
      refine (concatenate_apply_piece (1 : Fin 2) _ _ (ix2 R j) 2 ?_ S608x64 _ rfl rfl 128 rfl
        (ix2 R (⟨j.val - 128, by omega⟩ : Fin 64)) ?_ ?_).trans ?_
      · show (2 : Nat) < 3; omega
      · exact hi _
      · show 128 + (j.val - 128) = j.val; omega
      · exact rows4_eq _ _ _ _ _ (fun R f => Cert.Spec.c2 * (∑ n' : Fin 19, a (ix2 R n') *
            mvRow (fun R f => x (ix2 R f)) (fun R n => a (ix2 R n)) (rowOf R n') f) - x (ix2 R f))
          (fun r f R hR => sub2_apply 0 rfl x a _ _ r f R hR) (fun r f R hR => sub2_apply 152 rfl x a _ _ r f R hR)
          (fun r f R hR => sub2_apply 304 rfl x a _ _ r f R hR) (fun r f R hR => sub2_apply 456 rfl x a _ _ r f R hR) R _

/-- A band's stored block-diagonal matrices at row R, column cc. -/
theorem bds_apply (a : FVec Ideal S608x19 .f32) (R : Fin 608) (cc : Fin 152) :
    bds a (ix2 R cc) = bdRow (fun R n => a (ix2 R n)) R cc := by
  unfold bds as0 as1 as2 as3
  exact rows4_eq _ _ _ _ _ (fun R cc => bdRow (fun R n => a (ix2 R n)) R cc)
    (fun r cc R hR => sub3_apply 0 rfl a _ r cc R hR) (fun r cc R hR => sub3_apply 152 rfl a _ r cc R hR)
    (fun r cc R hR => sub3_apply 304 rfl a _ r cc R hR) (fun r cc R hR => sub3_apply 456 rfl a _ r cc R hR) R cc

/-! ## The blocks the body leaves, entry by entry -/

/-- The first output's block as a function of the two input blocks. -/
def xcBlk (X0 : S5x608x64.Idx → EReal) (A0 : S5x608x19.Idx → EReal) : S5x608x192.Idx → EReal :=
  fun y => xcRow (fun R f => X0 (ix3 (y 0 : Fin 5) R f)) (fun R n => A0 (ix3 (y 0 : Fin 5) R n)) (y 1 : Fin 608) (y 2 : Fin 192)

/-- The second output's block as a function of the laplacians' block. -/
def bdBlk (A0 : S5x608x19.Idx → EReal) : S5x608x152.Idx → EReal :=
  fun y => bdRow (fun R n => A0 (ix3 (y 0 : Fin 5) R n)) (y 1 : Fin 608) (y 2 : Fin 152)

/-- Band b of the feature block, its unit axis dropped. -/
theorem ld_band64 (X0 : Vec Ideal S5x608x64 .f32) (b : Nat) (hb : b < 5)
    (inb : ∀ a, (![b, 0, 0] : Fin 3 → Nat) a + S1x608x64.size a ≤ S5x608x64.size a) (R : Fin 608) (f : Fin 64) :
    shapeCast S608x64 (View.ld X0 (Rect.unit (s := S5x608x64) ![b, 0, 0] S1x608x64.size inb)) shapeCasts_S1x608x64_S608x64 (ix2 R f)
      = X0 (ix3 (⟨b, hb⟩ : Fin 5) R f) := by
  refine (shapeCast_1ab_ab_apply (a := 608) (b := 64) _ _ R f).trans ?_
  show X0 ((Rect.unit (s := S5x608x64) ![b, 0, 0] S1x608x64.size inb).idx (ix3 (0 : Fin 1) R f)) = _
  congr 1
  funext a; apply Fin.ext
  match a with
  | ⟨0, _⟩ => show b + 1 * 0 = b; omega
  | ⟨1, _⟩ => show 0 + 1 * R.val = R.val; omega
  | ⟨2, _⟩ => show 0 + 1 * f.val = f.val; omega

/-- Band b of the laplacians' block, its unit axis dropped. -/
theorem ld_band19 (A0 : Vec Ideal S5x608x19 .f32) (b : Nat) (hb : b < 5)
    (inb : ∀ a, (![b, 0, 0] : Fin 3 → Nat) a + S1x608x19.size a ≤ S5x608x19.size a) (R : Fin 608) (n : Fin 19) :
    shapeCast S608x19 (View.ld A0 (Rect.unit (s := S5x608x19) ![b, 0, 0] S1x608x19.size inb)) shapeCasts_S1x608x19_S608x19 (ix2 R n)
      = A0 (ix3 (⟨b, hb⟩ : Fin 5) R n) := by
  refine (shapeCast_1ab_ab_apply (a := 608) (b := 19) _ _ R n).trans ?_
  show A0 ((Rect.unit (s := S5x608x19) ![b, 0, 0] S1x608x19.size inb).idx (ix3 (0 : Fin 1) R n)) = _
  congr 1
  funext a; apply Fin.ext
  match a with
  | ⟨0, _⟩ => show b + 1 * 0 = b; omega
  | ⟨1, _⟩ => show 0 + 1 * R.val = R.val; omega
  | ⟨2, _⟩ => show 0 + 1 * n.val = n.val; omega

/-- What band b stores into the first output is the block function on the band's rectangle. -/
theorem band_piece2 (X0 : Vec Ideal S5x608x64 .f32) (A0 : Vec Ideal S5x608x19 .f32) (b : Nat) (hb : b < 5)
    (inbx : ∀ a, (![b, 0, 0] : Fin 3 → Nat) a + S1x608x64.size a ≤ S5x608x64.size a)
    (inba : ∀ a, (![b, 0, 0] : Fin 3 → Nat) a + S1x608x19.size a ≤ S5x608x19.size a)
    (inbo : ∀ a, (![b, 0, 0] : Fin 3 → Nat) a + S1x608x192.size a ≤ S5x608x192.size a) (x' : S1x608x192.Idx) :
    xcBand (View.ld X0 (Rect.unit (s := S5x608x64) ![b, 0, 0] S1x608x64.size inbx))
        (View.ld A0 (Rect.unit (s := S5x608x19) ![b, 0, 0] S1x608x19.size inba)) x'
      = xcBlk X0 A0 ((Rect.unit (s := S5x608x192) ![b, 0, 0] S1x608x192.size inbo).emb x') := by
  obtain ⟨z, R, j, rfl⟩ : ∃ (z : Fin 1) (R : Fin 608) (j : Fin 192), x' = ix3 z R j := ⟨x' 0, x' 1, x' 2, eq_ix3 x'⟩
  have e : (Rect.unit (s := S5x608x192) ![b, 0, 0] S1x608x192.size inbo).emb (ix3 z R j) = ix3 (⟨b, hb⟩ : Fin 5) R j := by
    funext a; apply Fin.ext
    match a with
    | ⟨0, _⟩ => show b + 1 * z.val = b; omega
    | ⟨1, _⟩ => show 0 + 1 * R.val = R.val; omega
    | ⟨2, _⟩ => show 0 + 1 * j.val = j.val; omega
  rw [e]
  unfold xcBand
  refine (shapeCast_ab_1ab_apply (a := 608) (b := 192) _ _ z R j).trans ?_
  rw [xc_apply]
  show xcRow _ _ R j = xcRow (fun R f => X0 (ix3 (⟨b, hb⟩ : Fin 5) R f)) (fun R n => A0 (ix3 (⟨b, hb⟩ : Fin 5) R n)) R j
  congr 1
  · funext R f; exact ld_band64 X0 b hb inbx R f
  · funext R n; exact ld_band19 A0 b hb inba R n

/-- What band b stores into the second output is the block function on the band's rectangle. -/
theorem band_piece3 (A0 : Vec Ideal S5x608x19 .f32) (b : Nat) (hb : b < 5)
    (inba : ∀ a, (![b, 0, 0] : Fin 3 → Nat) a + S1x608x19.size a ≤ S5x608x19.size a)
    (inbo : ∀ a, (![b, 0, 0] : Fin 3 → Nat) a + S1x608x152.size a ≤ S5x608x152.size a) (x' : S1x608x152.Idx) :
    bdBand (View.ld A0 (Rect.unit (s := S5x608x19) ![b, 0, 0] S1x608x19.size inba)) x'
      = bdBlk A0 ((Rect.unit (s := S5x608x152) ![b, 0, 0] S1x608x152.size inbo).emb x') := by
  obtain ⟨z, R, cc, rfl⟩ : ∃ (z : Fin 1) (R : Fin 608) (cc : Fin 152), x' = ix3 z R cc := ⟨x' 0, x' 1, x' 2, eq_ix3 x'⟩
  have e : (Rect.unit (s := S5x608x152) ![b, 0, 0] S1x608x152.size inbo).emb (ix3 z R cc) = ix3 (⟨b, hb⟩ : Fin 5) R cc := by
    funext a; apply Fin.ext
    match a with
    | ⟨0, _⟩ => show b + 1 * z.val = b; omega
    | ⟨1, _⟩ => show 0 + 1 * R.val = R.val; omega
    | ⟨2, _⟩ => show 0 + 1 * cc.val = cc.val; omega
  rw [e]
  unfold bdBand
  refine (shapeCast_ab_1ab_apply (a := 608) (b := 152) _ _ z R cc).trans ?_
  rw [bds_apply]
  show bdRow _ R cc = bdRow (fun R n => A0 (ix3 (⟨b, hb⟩ : Fin 5) R n)) R cc
  congr 1
  funext R n; exact ld_band19 A0 b hb inba R n

/-- The first output's block after the body: the five bands' stores are pieces of one function. -/
theorem out2_apply (X0 : Vec Ideal S5x608x64 .f32) (A0 : Vec Ideal S5x608x19 .f32) : out0_2 X0 A0 = xcBlk X0 A0 := by
  funext y
  rw [out2_eq]
  refine View.canon_apply_of_pieces (Val := Elt Ideal) (xcBlk X0 A0) _ ?_ y (cover0_2 _ _ _ _ _ y)
  intro p hp x'
  simp only [List.mem_cons, List.not_mem_nil, or_false] at hp
  rcases hp with rfl | rfl | rfl | rfl | rfl
  · exact band_piece2 X0 A0 4 (by omega) inb_S5x608x64_S1x608x64_4_0_0 inb_S5x608x19_S1x608x19_4_0_0 inb_S5x608x192_S1x608x192_4_0_0 x'
  · exact band_piece2 X0 A0 3 (by omega) inb_S5x608x64_S1x608x64_3_0_0 inb_S5x608x19_S1x608x19_3_0_0 inb_S5x608x192_S1x608x192_3_0_0 x'
  · exact band_piece2 X0 A0 2 (by omega) inb_S5x608x64_S1x608x64_2_0_0 inb_S5x608x19_S1x608x19_2_0_0 inb_S5x608x192_S1x608x192_2_0_0 x'
  · exact band_piece2 X0 A0 1 (by omega) inb_S5x608x64_S1x608x64_1_0_0 inb_S5x608x19_S1x608x19_1_0_0 inb_S5x608x192_S1x608x192_1_0_0 x'
  · exact band_piece2 X0 A0 0 (by omega) inb_S5x608x64_S1x608x64_0_0_0 inb_S5x608x19_S1x608x19_0_0_0 inb_S5x608x192_S1x608x192_0_0_0 x'

/-- The second output's block after the body. -/
theorem out3_apply (X0 : Vec Ideal S5x608x64 .f32) (A0 : Vec Ideal S5x608x19 .f32) : out0_3 X0 A0 = bdBlk A0 := by
  funext y
  rw [out3_eq]
  refine View.canon_apply_of_pieces (Val := Elt Ideal) (bdBlk A0) _ ?_ y (cover0_3 _ _ _ _ _ y)
  intro p hp x'
  simp only [List.mem_cons, List.not_mem_nil, or_false] at hp
  rcases hp with rfl | rfl | rfl | rfl | rfl
  · exact band_piece3 A0 4 (by omega) inb_S5x608x19_S1x608x19_4_0_0 inb_S5x608x152_S1x608x152_4_0_0 x'
  · exact band_piece3 A0 3 (by omega) inb_S5x608x19_S1x608x19_3_0_0 inb_S5x608x152_S1x608x152_3_0_0 x'
  · exact band_piece3 A0 2 (by omega) inb_S5x608x19_S1x608x19_2_0_0 inb_S5x608x152_S1x608x152_2_0_0 x'
  · exact band_piece3 A0 1 (by omega) inb_S5x608x19_S1x608x19_1_0_0 inb_S5x608x152_S1x608x152_1_0_0 x'
  · exact band_piece3 A0 0 (by omega) inb_S5x608x19_S1x608x19_0_0_0 inb_S5x608x152_S1x608x152_0_0_0 x'

/-! ## The blocks against the specification -/

/-- The array row that row R of grid point t's block is. -/
def glob (t : Fin 8) (R : Fin 608) : Fin 4864 := ⟨608 * t.val + R.val, by have := t.isLt; have := R.isLt; omega⟩

/-- A block holds 32 whole graphs: node n' of row R's graph is in R's graph, -/
theorem gOf_rowOf (t : Fin 8) (R : Fin 608) (n' : Fin 19) : Cert.Spec.gOf (glob t (rowOf R n')) = Cert.Spec.gOf (glob t R) :=
  Fin.ext (by
    show (608 * t.val + (19 * (R.val / 19) + n'.val)) / 19 = (608 * t.val + R.val) / 19
    have := n'.isLt; omega)

/-- and is node n'. -/
theorem nOf_rowOf (t : Fin 8) (R : Fin 608) (n' : Fin 19) : Cert.Spec.nOf (glob t (rowOf R n')) = n' :=
  Fin.ext (by
    show (608 * t.val + (19 * (R.val / 19) + n'.val)) % 19 = n'.val
    have := n'.isLt; omega)

/-- When the input blocks are grid point t's blocks of the flattened features and laplacians, the first output's block is
    the block of the graphs' three Chebyshev terms. -/
theorem xc_block_eq (x : (⟨4, ![256, 19, 64, 5]⟩ : Shape).Idx → EReal) (A : (⟨4, ![256, 5, 19, 19]⟩ : Shape).Idx → EReal)
    (t : Fin 8) (B0 : S5x608x64.Idx → EReal) (B1 : S5x608x19.Idx → EReal)
    (h0 : ∀ (b : Fin 5) (R : Fin 608) (f : Fin 64), B0 (ix3 b R f) = Cert.Spec.XBarr x (ix3 b (glob t R) f))
    (h1 : ∀ (b : Fin 5) (R : Fin 608) (n : Fin 19), B1 (ix3 b R n) = Cert.Spec.ABarr A (ix3 b (glob t R) n))
    (b : Fin 5) (R : Fin 608) (j : Fin 192) :
    xcBlk B0 B1 (ix3 b R j) = Cert.Spec.XCarr x A (ix3 b (glob t R) j) := by
  have hX : ∀ (R : Fin 608) (f : Fin 64),
      B0 (ix3 b R f) = Cert.Spec.feat0 x (Cert.Spec.gOf (glob t R)) b (Cert.Spec.nOf (glob t R)) f := fun R f => h0 b R f
  have hL : ∀ (R : Fin 608) (n : Fin 19),
      B1 (ix3 b R n) = Cert.Spec.lap A (Cert.Spec.gOf (glob t R)) b (Cert.Spec.nOf (glob t R)) n := fun R n => h1 b R n
  have hmv : ∀ (R : Fin 608) (f : Fin 64), mvRow (fun R f => B0 (ix3 b R f)) (fun R n => B1 (ix3 b R n)) R f
      = Cert.Spec.mv (Cert.Spec.lap A (Cert.Spec.gOf (glob t R)) b) (Cert.Spec.feat0 x (Cert.Spec.gOf (glob t R)) b)
          (Cert.Spec.nOf (glob t R)) f := by
    intro R f
    unfold mvRow Cert.Spec.mv
    refine Finset.sum_congr rfl fun n' _ => ?_
    show B1 (ix3 b R n') * B0 (ix3 b (rowOf R n') f) = _
    rw [hL, hX, gOf_rowOf, nOf_rowOf]
  show xcRow (fun R f => B0 (ix3 b R f)) (fun R n => B1 (ix3 b R n)) R j
    = Cert.Spec.xc0 x A (Cert.Spec.gOf (glob t R)) b (Cert.Spec.nOf (glob t R)) j
  have hj := j.isLt
  unfold xcRow Cert.Spec.xc0 Cert.Spec.cat3
  by_cases c1 : j.val < 64
  · rw [dif_pos c1, dif_pos c1]
    exact hX R _
  · rw [dif_neg c1, dif_neg c1]
    by_cases c2 : j.val < 128
    · rw [dif_pos c2, dif_pos (show j.val < 2 * 64 by omega)]
      exact hmv R _
    · rw [dif_neg c2, dif_neg (show ¬ j.val < 2 * 64 by omega)]
      unfold Cert.Spec.cheb2
      refine congrArg₂ (· - ·) (congrArg (Cert.Spec.c2 * ·) ?_) (hX R _)
      show (∑ n' : Fin 19, B1 (ix3 b R n') * mvRow (fun R f => B0 (ix3 b R f)) (fun R n => B1 (ix3 b R n)) (rowOf R n') _)
        = ∑ n' : Fin 19, Cert.Spec.lap A (Cert.Spec.gOf (glob t R)) b (Cert.Spec.nOf (glob t R)) n'
            * Cert.Spec.mv (Cert.Spec.lap A (Cert.Spec.gOf (glob t R)) b) (Cert.Spec.feat0 x (Cert.Spec.gOf (glob t R)) b) n' _
      refine Finset.sum_congr rfl fun n' _ => ?_
      rw [hL, hmv, gOf_rowOf, nOf_rowOf]

/-- Likewise the second output's block is the block of the block-diagonal laplacians. -/
theorem bd_block_eq (A : (⟨4, ![256, 5, 19, 19]⟩ : Shape).Idx → EReal) (t : Fin 8) (B1 : S5x608x19.Idx → EReal)
    (h1 : ∀ (b : Fin 5) (R : Fin 608) (n : Fin 19), B1 (ix3 b R n) = Cert.Spec.ABarr A (ix3 b (glob t R) n))
    (b : Fin 5) (R : Fin 608) (cc : Fin 152) :
    bdBlk B1 (ix3 b R cc) = Cert.Spec.BDarr A (ix3 b (glob t R) cc) := by
  have hc : (cc.val / 19 = R.val / 19 % 8) ↔ (cc.val / 19 = (608 * t.val + R.val) / 19 % 8) := by omega
  show (if cc.val / 19 = R.val / 19 % 8 then B1 (ix3 b R ⟨cc.val % 19, Nat.mod_lt _ (by decide)⟩) else (0 : EReal))
    = if cc.val / 19 = (608 * t.val + R.val) / 19 % 8
        then A (ix4 (Cert.Spec.gOf (glob t R)) b (Cert.Spec.nOf (glob t R)) ⟨cc.val % 19, Nat.mod_lt _ (by decide)⟩) else Cert.Spec.c0
  by_cases h : cc.val / 19 = R.val / 19 % 8
  · rw [if_pos h, if_pos (hc.mp h)]
    exact h1 b R _
  · rw [if_neg h, if_neg (fun h' => h (hc.mpr h'))]
    exact Ideal.ofBits_zero_f32.symm

/-! ## From the blocks to the arrays -/

/-- The index maps over the grid: every window's block index is (0, t, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- The grid has 8 points. -/
theorem lt8 (t : Fin cfg0.N) : t.val < 8 := Nat.lt_of_lt_of_eq (show t.val < grid0.N from t.isLt) N_0

section Blocks

variable (V : (c : Dev nD) → (b : Ref sig .tc) → Buf (Elt Ideal) ((c : Thread nD τ).loc b)) (c : Dev nD)

/-- The feature window's block at point t is rows 608·t … 608·t + 607 of the flattened features. -/
theorem iblk0_0_apply (t : Fin cfg0.N) (b : Fin 5) (R : Fin 608) (f : Fin 64) :
    (iblk0 (F := Ideal) V c 0 t : S5x608x64.Idx → EReal) (ix3 b R f)
      = (V c main_v1 : S5x4864x64.Idx → EReal) (ix3 b (glob ⟨t.val, lt8 t⟩ R) f) := by
  obtain ⟨e0, e1, e2, -⟩ := idx_facts t
  unfold iblk0
  rw [View.read_apply]
  show (V c main_v1 : S5x4864x64.Idx → EReal) _ = _
  congr 1
  funext a; apply Fin.ext
  match a with
  | ⟨0, _⟩ => show win0_0.index t (0 : Fin 3) * 5 + 1 * b.val = b.val; rw [e0]; omega
  | ⟨1, _⟩ => show win0_0.index t (1 : Fin 3) * 608 + 1 * R.val = 608 * t.val + R.val; rw [e1]; omega
  | ⟨2, _⟩ => show win0_0.index t (2 : Fin 3) * 64 + 1 * f.val = f.val; rw [e2]; omega

/-- The laplacian window's block at point t is rows 608·t … 608·t + 607 of the flattened laplacians. -/
theorem iblk0_1_apply (t : Fin cfg0.N) (b : Fin 5) (R : Fin 608) (n : Fin 19) :
    (iblk0 (F := Ideal) V c 1 t : S5x608x19.Idx → EReal) (ix3 b R n)
      = (V c main_v3 : S5x4864x19.Idx → EReal) (ix3 b (glob ⟨t.val, lt8 t⟩ R) n) := by
  obtain ⟨-, -, -, e0, e1, e2, -⟩ := idx_facts t
  unfold iblk0
  rw [View.read_apply]
  show (V c main_v3 : S5x4864x19.Idx → EReal) _ = _
  congr 1
  funext a; apply Fin.ext
  match a with
  | ⟨0, _⟩ => show win0_1.index t (0 : Fin 3) * 5 + 1 * b.val = b.val; rw [e0]; omega
  | ⟨1, _⟩ => show win0_1.index t (1 : Fin 3) * 608 + 1 * R.val = 608 * t.val + R.val; rw [e1]; omega
  | ⟨2, _⟩ => show win0_1.index t (2 : Fin 3) * 19 + 1 * n.val = n.val; rw [e2]; omega

variable (x : (⟨4, ![256, 19, 64, 5]⟩ : Shape).Idx → EReal) (A : (⟨4, ![256, 5, 19, 19]⟩ : Shape).Idx → EReal)

/-- What point t writes back of the first output is block t of the Chebyshev features. -/
theorem flushed2_eq (hx : (V c main_v1 : S5x4864x64.Idx → EReal) = Cert.Spec.XBarr x)
    (ha : (V c main_v3 : S5x4864x19.Idx → EReal) = Cert.Spec.ABarr A) (t : Fin cfg0.N) :
    (dat0 (F := Ideal) V c).flushed 2 t = ((cfg0.win 2).blk t).view.read (Elt Ideal) (Cert.Spec.XCarr x A) := by
  show (cfg0.win 2).cut (grid0.coords t) ((dat0 (F := Ideal) V c).after 2 t) = _
  rw [after0_2, out2_apply]
  obtain ⟨-, -, -, -, -, -, e0, e1, e2, -⟩ := idx_facts t
  funext y
  show xcBlk (iblk0 (F := Ideal) V c 0 t) (iblk0 (F := Ideal) V c 1 t) y = Cert.Spec.XCarr x A (((cfg0.win 2).blk t).view.emb y)
  have hb : ((cfg0.win 2).blk t).view.emb y = ix3 (y 0 : Fin 5) (glob ⟨t.val, lt8 t⟩ (y 1 : Fin 608)) (y 2 : Fin 192) := by
    funext a; apply Fin.ext
    match a with
    | ⟨0, _⟩ => show win0_2.index t (0 : Fin 3) * 5 + 1 * (y 0).val = (y 0).val; rw [e0]; omega
    | ⟨1, _⟩ => show win0_2.index t (1 : Fin 3) * 608 + 1 * (y 1).val = 608 * t.val + (y 1).val; rw [e1]; omega
    | ⟨2, _⟩ => show win0_2.index t (2 : Fin 3) * 192 + 1 * (y 2).val = (y 2).val; rw [e2]; omega
  rw [hb]
  refine (congrArg (xcBlk _ _) (eq_ix3 (n0 := 5) (n1 := 608) (n2 := 192) y)).trans ?_
  exact xc_block_eq x A ⟨t.val, lt8 t⟩ _ _
    (fun b R f => (iblk0_0_apply V c t b R f).trans (congrFun hx _))
    (fun b R n => (iblk0_1_apply V c t b R n).trans (congrFun ha _)) _ _ _

/-- What point t writes back of the second output is block t of the block-diagonal laplacians. -/
theorem flushed3_eq (ha : (V c main_v3 : S5x4864x19.Idx → EReal) = Cert.Spec.ABarr A) (t : Fin cfg0.N) :
    (dat0 (F := Ideal) V c).flushed 3 t = ((cfg0.win 3).blk t).view.read (Elt Ideal) (Cert.Spec.BDarr A) := by
  show (cfg0.win 3).cut (grid0.coords t) ((dat0 (F := Ideal) V c).after 3 t) = _
  rw [after0_3, out3_apply]
  obtain ⟨-, -, -, -, -, -, -, -, -, e0, e1, e2⟩ := idx_facts t
  funext y
  show bdBlk (iblk0 (F := Ideal) V c 1 t) y = Cert.Spec.BDarr A (((cfg0.win 3).blk t).view.emb y)
  have hb : ((cfg0.win 3).blk t).view.emb y = ix3 (y 0 : Fin 5) (glob ⟨t.val, lt8 t⟩ (y 1 : Fin 608)) (y 2 : Fin 152) := by
    funext a; apply Fin.ext
    match a with
    | ⟨0, _⟩ => show win0_3.index t (0 : Fin 3) * 5 + 1 * (y 0).val = (y 0).val; rw [e0]; omega
    | ⟨1, _⟩ => show win0_3.index t (1 : Fin 3) * 608 + 1 * (y 1).val = 608 * t.val + (y 1).val; rw [e1]; omega
    | ⟨2, _⟩ => show win0_3.index t (2 : Fin 3) * 152 + 1 * (y 2).val = (y 2).val; rw [e2]; omega
  rw [hb]
  refine (congrArg (bdBlk _) (eq_ix3 (n0 := 5) (n1 := 608) (n2 := 152) y)).trans ?_
  exact bd_block_eq A ⟨t.val, lt8 t⟩ _ (fun b R n => (iblk0_1_apply V c t b R n).trans (congrFun ha _)) _ _ _

end Blocks

/-- An index of the array is in point t's block of output 1 iff each coordinate is in the block's range. -/
theorem mem_blk2 (t : Fin cfg0.N) (i : S5x4864x192.Idx) :
    i ∈ ((cfg0.win 2).blk t).view.set ↔ ∀ a : Fin 3, win0_2.index t a * S5x608x192.size a ≤ (i a).val
      ∧ (i a).val < win0_2.index t a * S5x608x192.size a + S5x608x192.size a := by
  show i ∈ ((View.whole main_v7_0).slice (win0_2.rect t)).set ↔ _
  rw [View.set_slice_whole, Rect.mem_set_unit]
  exact Iff.rfl

/-- Row R of the array lies in the block of point R / 608. -/
theorem cover2 (i : S5x4864x192.Idx) : ∃ t : Fin cfg0.N, (cfg0.win 2).flush t = true ∧ i ∈ ((cfg0.win 2).blk t).view.set := by
  have h0 : (i 0).val < 5 := (i 0).isLt
  have h1 : (i 1).val < 4864 := (i 1).isLt
  have h2 : (i 2).val < 192 := (i 2).isLt
  have ht : (i 1).val / 608 < cfg0.N := by rw [show cfg0.N = 8 from N_0]; omega
  obtain ⟨-, -, -, -, -, -, e0, e1, e2, -⟩ := idx_facts ⟨(i 1).val / 608, ht⟩
  refine ⟨⟨(i 1).val / 608, ht⟩, flush0_2 _, ?_⟩
  rw [mem_blk2]
  intro a
  match a with
  | ⟨0, _⟩ =>
    show win0_2.index ⟨(i 1).val / 608, ht⟩ (0 : Fin 3) * 5 ≤ (i 0).val ∧ (i 0).val < win0_2.index ⟨(i 1).val / 608, ht⟩ (0 : Fin 3) * 5 + 5
    rw [e0]; omega
  | ⟨1, _⟩ =>
    show win0_2.index ⟨(i 1).val / 608, ht⟩ (1 : Fin 3) * 608 ≤ (i 1).val ∧ (i 1).val < win0_2.index ⟨(i 1).val / 608, ht⟩ (1 : Fin 3) * 608 + 608
    rw [e1]
    show (i 1).val / 608 * 608 ≤ (i 1).val ∧ (i 1).val < (i 1).val / 608 * 608 + 608
    omega
  | ⟨2, _⟩ =>
    show win0_2.index ⟨(i 1).val / 608, ht⟩ (2 : Fin 3) * 192 ≤ (i 2).val ∧ (i 2).val < win0_2.index ⟨(i 1).val / 608, ht⟩ (2 : Fin 3) * 192 + 192
    rw [e2]; omega

/-- An index of the array is in point t's block of output 2 iff each coordinate is in the block's range. -/
theorem mem_blk3 (t : Fin cfg0.N) (i : S5x4864x152.Idx) :
    i ∈ ((cfg0.win 3).blk t).view.set ↔ ∀ a : Fin 3, win0_3.index t a * S5x608x152.size a ≤ (i a).val
      ∧ (i a).val < win0_3.index t a * S5x608x152.size a + S5x608x152.size a := by
  show i ∈ ((View.whole main_v7_1).slice (win0_3.rect t)).set ↔ _
  rw [View.set_slice_whole, Rect.mem_set_unit]
  exact Iff.rfl

/-- Row R of the array lies in the block of point R / 608. -/
theorem cover3 (i : S5x4864x152.Idx) : ∃ t : Fin cfg0.N, (cfg0.win 3).flush t = true ∧ i ∈ ((cfg0.win 3).blk t).view.set := by
  have h0 : (i 0).val < 5 := (i 0).isLt
  have h1 : (i 1).val < 4864 := (i 1).isLt
  have h2 : (i 2).val < 152 := (i 2).isLt
  have ht : (i 1).val / 608 < cfg0.N := by rw [show cfg0.N = 8 from N_0]; omega
  obtain ⟨-, -, -, -, -, -, -, -, -, e0, e1, e2⟩ := idx_facts ⟨(i 1).val / 608, ht⟩
  refine ⟨⟨(i 1).val / 608, ht⟩, flush0_3 _, ?_⟩
  rw [mem_blk3]
  intro a
  match a with
  | ⟨0, _⟩ =>
    show win0_3.index ⟨(i 1).val / 608, ht⟩ (0 : Fin 3) * 5 ≤ (i 0).val ∧ (i 0).val < win0_3.index ⟨(i 1).val / 608, ht⟩ (0 : Fin 3) * 5 + 5
    rw [e0]; omega
  | ⟨1, _⟩ =>
    show win0_3.index ⟨(i 1).val / 608, ht⟩ (1 : Fin 3) * 608 ≤ (i 1).val ∧ (i 1).val < win0_3.index ⟨(i 1).val / 608, ht⟩ (1 : Fin 3) * 608 + 608
    rw [e1]
    show (i 1).val / 608 * 608 ≤ (i 1).val ∧ (i 1).val < (i 1).val / 608 * 608 + 608
    omega
  | ⟨2, _⟩ =>
    show win0_3.index ⟨(i 1).val / 608, ht⟩ (2 : Fin 3) * 152 ≤ (i 2).val ∧ (i 2).val < win0_3.index ⟨(i 1).val / 608, ht⟩ (2 : Fin 3) * 152 + 152
    rw [e2]; omega

/-- Entered with the flattened features and laplacians, the region leaves the Chebyshev features and the
    block-diagonal laplacians of every graph. -/
theorem final (V : (c : Dev nD) → (b : Ref sig .tc) → Buf (Elt Ideal) ((c : Thread nD τ).loc b)) (c : Dev nD)
    (x : (⟨4, ![256, 19, 64, 5]⟩ : Shape).Idx → EReal) (A : (⟨4, ![256, 5, 19, 19]⟩ : Shape).Idx → EReal)
    (hx : (V c main_v1 : S5x4864x64.Idx → EReal) = Cert.Spec.XBarr x)
    (ha : (V c main_v3 : S5x4864x19.Idx → EReal) = Cert.Spec.ABarr A) :
    ((dat0 (F := Ideal) V c).arrAt 2 cfg0.N : S5x4864x192.Idx → EReal) = Cert.Spec.XCarr x A
    ∧ ((dat0 (F := Ideal) V c).arrAt 3 cfg0.N : S5x4864x152.Idx → EReal) = Cert.Spec.BDarr A :=
  ⟨(dat0 (F := Ideal) V c).arrAt_eq_of_cover 2 (Cert.Spec.XCarr x A) (fun t _ => flushed2_eq V c x A hx ha t) cover2,
   (dat0 (F := Ideal) V c).arrAt_eq_of_cover 3 (Cert.Spec.BDarr A) (fun t _ => flushed3_eq V c A ha t) cover3⟩

end Cert.KernelIdeal.Cheb

end
-- ==== Proof.KStack.lean ====
/-
  The body of the second kernel (the graph-convolution stack on a block of 32 graphs, 608 rows) written as a few
  vector functions: a Chebyshev step on one sub-block of 8 graphs with its 152 × 152 block-diagonal laplacian, a layer
  on the four sub-blocks, the four layers of a band, the three filter taps and the bias.  The generated payloads are
  these functions, by unfolding.
-/
import proofs.«124497_g2000206817317674_pallasbulk_294_10_alg».proof.Proof.Gen.KernelIdeal.Frame

set_option maxRecDepth 65536

noncomputable section

namespace Cert.KernelIdeal.Stack

open Idealize.ShloMosaic Idealize.ShloMosaic.TcCoe Idealize.SL.Sem
open Cert.KernelIdeal Cert.KernelIdeal.Gen

variable {F : FTy → Type} [FloatOps F]

/-- `bd · hs` on one sub-block. -/
def x1 (bd : FVec F S152x152 .f32) (hs : FVec F S152x32 .f32) : FVec F S152x32 .f32 :=
  matmul dot_S152x152_S152x32_S152x32_1_0_0_1_n_n none bd hs (constant S152x32 .f32 0x00000000#32)

/-- `2 · bd · (bd · hs) − hs` on one sub-block. -/
def x2 (bd : FVec F S152x152 .f32) (hs : FVec F S152x32 .f32) : FVec F S152x32 .f32 :=
  subf (mulf (broadcast S152x32 (Scalar.ofBits .f32 0x40000000#32))
    (matmul dot_S152x152_S152x32_S152x32_1_0_0_1_n_n none bd (x1 bd hs) (constant S152x32 .f32 0x00000000#32))) hs

def hs0 (h : FVec F S608x32 .f32) : FVec F S152x32 .f32 := extractStridedSlice S152x32 ![0, 0] h slices_S608x32_o0_0_S152x32
def hs1 (h : FVec F S608x32 .f32) : FVec F S152x32 .f32 := extractStridedSlice S152x32 ![152, 0] h slices_S608x32_o152_0_S152x32
def hs2 (h : FVec F S608x32 .f32) : FVec F S152x32 .f32 := extractStridedSlice S152x32 ![304, 0] h slices_S608x32_o304_0_S152x32
def hs3 (h : FVec F S608x32 .f32) : FVec F S152x32 .f32 := extractStridedSlice S152x32 ![456, 0] h slices_S608x32_o456_0_S152x32
def bs0 (bd : FVec F S608x152 .f32) : FVec F S152x152 .f32 := extractStridedSlice S152x152 ![0, 0] bd slices_S608x152_o0_0_S152x152
def bs1 (bd : FVec F S608x152 .f32) : FVec F S152x152 .f32 := extractStridedSlice S152x152 ![152, 0] bd slices_S608x152_o152_0_S152x152
def bs2 (bd : FVec F S608x152 .f32) : FVec F S152x152 .f32 := extractStridedSlice S152x152 ![304, 0] bd slices_S608x152_o304_0_S152x152
def bs3 (bd : FVec F S608x152 .f32) : FVec F S152x152 .f32 := extractStridedSlice S152x152 ![456, 0] bd slices_S608x152_o456_0_S152x152

/-- `[h | bd·h | 2·bd·(bd·h) − h]`, the products taken sub-block by sub-block. -/
def xc (bd : FVec F S608x152 .f32) (h : FVec F S608x32 .f32) : FVec F S608x96 .f32 :=
  concatenate S608x96 1 [⟨S608x32, h⟩,
    ⟨S608x32, concatenate S608x32 0 [⟨S152x32, x1 (bs0 bd) (hs0 h)⟩, ⟨S152x32, x1 (bs1 bd) (hs1 h)⟩, ⟨S152x32, x1 (bs2 bd) (hs2 h)⟩, ⟨S152x32, x1 (bs3 bd) (hs3 h)⟩] concatenates_S152x32_S152x32_S152x32_S152x32_S608x32_d0⟩,
    ⟨S608x32, concatenate S608x32 0 [⟨S152x32, x2 (bs0 bd) (hs0 h)⟩, ⟨S152x32, x2 (bs1 bd) (hs1 h)⟩, ⟨S152x32, x2 (bs2 bd) (hs2 h)⟩, ⟨S152x32, x2 (bs3 bd) (hs3 h)⟩] concatenates_S152x32_S152x32_S152x32_S152x32_S608x32_d0⟩]
    concatenates_S608x32_S608x32_S608x32_S608x96_d1

/-- A layer before its activation. -/
def pre (bd : FVec F S608x152 .f32) (h : FVec F S608x32 .f32) (w : FVec F S96x32 .f32) (b : FVec F S1x32 .f32) : FVec F S608x32 .f32 :=
  addf (matmul dot_S608x96_S96x32_S608x32_1_0_0_1_n_n none (xc bd h) w (constant S608x32 .f32 0x00000000#32))
    (broadcastTo S608x32 b broadcasts_S1x32_S608x32)

/-- The activation. -/
def act (y : FVec F S608x32 .f32) : FVec F S608x32 .f32 := maximumf y (broadcast S608x32 (Scalar.ofBits .f32 0x00000000#32))

/-- The input layer on the stored Chebyshev features. -/
def first (xcb : FVec F S608x192 .f32) (wi : FVec F S192x32 .f32) (bi : FVec F S1x32 .f32) : FVec F S608x32 .f32 :=
  act (addf (matmul dot_S608x192_S192x32_S608x32_1_0_0_1_n_n none xcb wi (constant S608x32 .f32 0x00000000#32))
    (broadcastTo S608x32 bi broadcasts_S1x32_S608x32))

/-- One band's four layers, from the loaded blocks. -/
def band (bdb : Vec F S1x608x152 .f32) (xcb : Vec F S1x608x192 .f32) (wi : Vec F S1x1x192x32 .f32) (bi : Vec F S1x1x1x32 .f32)
    (w0 : Vec F S1x1x96x32 .f32) (c0 : Vec F S1x1x1x32 .f32) (w1 : Vec F S1x1x96x32 .f32) (c1 : Vec F S1x1x1x32 .f32)
    (wo : Vec F S1x1x96x32 .f32) (bo : Vec F S1x1x1x32 .f32) : FVec F S608x32 .f32 :=
  pre (shapeCast S608x152 bdb shapeCasts_S1x608x152_S608x152)
    (act (pre (shapeCast S608x152 bdb shapeCasts_S1x608x152_S608x152)
      (act (pre (shapeCast S608x152 bdb shapeCasts_S1x608x152_S608x152)
        (first (shapeCast S608x192 xcb shapeCasts_S1x608x192_S608x192) (shapeCast S192x32 wi shapeCasts_S1x1x192x32_S192x32) (shapeCast S1x32 bi shapeCasts_S1x1x1x32_S1x32))
        (shapeCast S96x32 w0 shapeCasts_S1x1x96x32_S96x32) (shapeCast S1x32 c0 shapeCasts_S1x1x1x32_S1x32)))
      (shapeCast S96x32 w1 shapeCasts_S1x1x96x32_S96x32) (shapeCast S1x32 c1 shapeCasts_S1x1x1x32_S1x32)))
    (shapeCast S96x32 wo shapeCasts_S1x1x96x32_S96x32) (shapeCast S1x32 bo shapeCasts_S1x1x1x32_S1x32)

/-- A filter tap: the rows weighted, the 19 rows of each graph summed. -/
def tapV (g : FVec F S608x160 .f32) (s : Vec F S1x1x608x1 .f32) : FVec F S32x160 .f32 :=
  multiReduction .add [1] S32x160
    (shapeCast S32x19x160 (mulf g (broadcastTo S608x160 (shapeCast S608x1 s shapeCasts_S1x1x608x1_S608x1) broadcasts_S608x1_S608x160)) shapeCasts_S608x160_S32x19x160)
    0x00000000#32 reduces_S32x19x160_S32x160 (.inl rfl) rfl

/-- The block the body stores: the five bands side by side, three taps at offsets 0, 1, 2 from zero, the bias. -/
def body (g0 g1 g2 g3 g4 : FVec F S608x32 .f32) (s0 s1 s2 : Vec F S1x1x608x1 .f32) (bc : Vec F S1x1x1 .f32) : FVec F S1x32x158 .f32 :=
  shapeCast S1x32x158
    (addf (addf (addf (addf (broadcast S32x158 (Scalar.ofBits .f32 0x00000000#32))
        (extractStridedSlice S32x158 ![0, 0] (tapV (concatenate S608x160 1 [⟨S608x32, g0⟩, ⟨S608x32, g1⟩, ⟨S608x32, g2⟩, ⟨S608x32, g3⟩, ⟨S608x32, g4⟩] concatenates_S608x32_S608x32_S608x32_S608x32_S608x32_S608x160_d1) s0) slices_S32x160_o0_0_S32x158))
        (extractStridedSlice S32x158 ![0, 1] (tapV (concatenate S608x160 1 [⟨S608x32, g0⟩, ⟨S608x32, g1⟩, ⟨S608x32, g2⟩, ⟨S608x32, g3⟩, ⟨S608x32, g4⟩] concatenates_S608x32_S608x32_S608x32_S608x32_S608x32_S608x160_d1) s1) slices_S32x160_o0_1_S32x158))
        (extractStridedSlice S32x158 ![0, 2] (tapV (concatenate S608x160 1 [⟨S608x32, g0⟩, ⟨S608x32, g1⟩, ⟨S608x32, g2⟩, ⟨S608x32, g3⟩, ⟨S608x32, g4⟩] concatenates_S608x32_S608x32_S608x32_S608x32_S608x32_S608x160_d1) s2) slices_S32x160_o0_2_S32x158))
      (broadcastTo S32x158 (shapeCast S1x1 bc shapeCasts_S1x1x1_S1x1) broadcasts_S1x1_S32x158))
    shapeCasts_S32x158_S1x32x158

/-- What the generated frame leaves in the output block is `body` of the five `band`s of the loaded blocks. -/
theorem out_eq (x0 : Vec F S5x608x192 .f32) (x1' : Vec F S5x608x152 .f32) (x2' : Vec F S1x5x192x32 .f32) (x3 : Vec F S1x5x1x32 .f32)
    (x4 : Vec F S1x10x96x32 .f32) (x5 : Vec F S1x10x1x32 .f32) (x6 : Vec F S1x5x96x32 .f32) (x7 : Vec F S1x5x1x32 .f32)
    (x8 : Vec F S1x3x608x1 .f32) (x9 : Vec F S1x1x1 .f32) :
    out1_10 x0 x1' x2' x3 x4 x5 x6 x7 x8 x9 = View.canon [⟨r1_49, body
      (band (View.ld x1' r1_0) (View.ld x0 r1_1) (View.ld x2' r1_2) (View.ld x3 r1_3) (View.ld x4 r1_4) (View.ld x5 r1_5) (View.ld x4 r1_6) (View.ld x5 r1_7) (View.ld x6 r1_8) (View.ld x7 r1_3))
      (band (View.ld x1' r1_9) (View.ld x0 r1_10) (View.ld x2' r1_11) (View.ld x3 r1_12) (View.ld x4 r1_13) (View.ld x5 r1_14) (View.ld x4 r1_15) (View.ld x5 r1_16) (View.ld x6 r1_17) (View.ld x7 r1_12))
      (band (View.ld x1' r1_18) (View.ld x0 r1_19) (View.ld x2' r1_20) (View.ld x3 r1_21) (View.ld x4 r1_22) (View.ld x5 r1_23) (View.ld x4 r1_24) (View.ld x5 r1_25) (View.ld x6 r1_26) (View.ld x7 r1_21))
      (band (View.ld x1' r1_27) (View.ld x0 r1_28) (View.ld x2' r1_29) (View.ld x3 r1_30) (View.ld x4 r1_31) (View.ld x5 r1_32) (View.ld x4 r1_33) (View.ld x5 r1_34) (View.ld x6 r1_35) (View.ld x7 r1_30))
      (band (View.ld x1' r1_36) (View.ld x0 r1_37) (View.ld x2' r1_38) (View.ld x3 r1_39) (View.ld x4 r1_40) (View.ld x5 r1_41) (View.ld x4 r1_42) (View.ld x5 r1_43) (View.ld x6 r1_44) (View.ld x7 r1_39))
      (View.ld x8 r1_45) (View.ld x8 r1_46) (View.ld x8 r1_47) (View.ld x9 r1_48)⟩] := rfl

end Cert.KernelIdeal.Stack

end
-- ==== Proof.KLayer.lean ====
/-
  A block of the second kernel holds 32 graphs on 608 rows (row g·19 + n is node n of the block's graph g), and its
  608 × 152 laplacian operand holds, for every run of 8 graphs, their 19 × 19 laplacians on the diagonal of a 152 × 152
  matrix.  A product with that matrix is, row by row, the graph's own 19-term product (the off-diagonal terms are
  zero times something, which is zero on the extended reals), so one layer on the block is the layer of `Cert.Spec` on
  every graph of it.
-/
import proofs.«124497_g2000206817317674_pallasbulk_294_10_alg».proof.Proof.Gen.KernelIdeal.Frame
import proofs.«124497_g2000206817317674_pallasbulk_294_10_alg».proof.Proof.KStack
import proofs.«124497_g2000206817317674_pallasbulk_294_10_alg».proof.Proof.Spec
import proofs.«124497_g2000206817317674_pallasbulk_294_10_alg».proof.Proof.LibBlockDiagSum
import Idealize.ShloMosaic.Lib.ValueIdx
import Idealize.ShloMosaic.Lib.Pipeline.Value
import Idealize.ShloMosaic.PureOps.Ideal.Laws

noncomputable section

namespace Cert.KernelIdeal.Stack

open Idealize.ShloMosaic Idealize.ShloMosaic.ValueIdx
open Cert.KernelIdeal
open Cert.Spec (blockdiag_row_sum)

/-- Row `g·19 + n` of a 608-row block. -/
def brow (g : Fin 32) (n : Fin 19) : Fin 608 := ⟨g.val * 19 + n.val, by have := g.isLt; have := n.isLt; omega⟩

/-- A 608-row block holds the per-graph families `H g` row-wise. -/
def Rows {k : Nat} (h : (⟨2, ![608, k]⟩ : Shape).Idx → EReal) (H : Fin 32 → Fin 19 → Fin k → EReal) : Prop :=
  ∀ (g : Fin 32) (n : Fin 19) (f : Fin k), h (ix2 (brow g n) f) = H g n f

/-- A 608 × 152 operand holds the graphs' laplacians `L g` block-diagonally within each run of 8 graphs. -/
def BlockDiag (bd : (⟨2, ![608, 152]⟩ : Shape).Idx → EReal) (L : Fin 32 → Fin 19 → Fin 19 → EReal) : Prop :=
  ∀ (g : Fin 32) (n : Fin 19) (cc : Fin 152), bd (ix2 (brow g n) cc)
    = if cc.val / 19 = g.val % 8 then L g n ⟨cc.val % 19, Nat.mod_lt _ (by decide)⟩ else Cert.Spec.c0

/-! ## A product read at an index -/

/-- A product of an `m × k` by a `k × n` operand into a zero accumulator, read at `(i, j)`: the sum over the
    contracted coordinate of the row's entries times the column's. -/
theorem mm_apply {m k n : Nat} (d : DotDims ⟨2, ![m, k]⟩ ⟨2, ![k, n]⟩ ⟨2, ![m, n]⟩)
    (hr : d.contr.rank = 1) (hs : d.contr.size ⟨0, by omega⟩ = k)
    (hl : ∀ (i : Fin m) (j : Fin n) (q : Fin k), d.lhsIdx (ix2 i j) ((contrEquiv1 d k hr hs).symm q) = ix2 i q)
    (hrt : ∀ (i : Fin m) (j : Fin n) (q : Fin k), d.rhsIdx (ix2 i j) ((contrEquiv1 d k hr hs).symm q) = ix2 q j)
    (A : FVec Ideal ⟨2, ![m, k]⟩ .f32) (B : FVec Ideal ⟨2, ![k, n]⟩ .f32) (i : Fin m) (j : Fin n) :
    matmul d none A B (constant ⟨2, ![m, n]⟩ .f32 0x00000000#32) (ix2 i j) = ∑ q : Fin k, A (ix2 i q) * B (ix2 q j) := by
  refine (Ideal.matmul_constant_zero_apply d none A B (ix2 i j)).trans ?_
  rw [← Equiv.sum_comp (contrEquiv1 d k hr hs).symm]
  exact Finset.sum_congr rfl fun q _ => by rw [hl i j q, hrt i j q]

/-- The sub-block product `B · y` at `(i, f)` is `∑ q < 152, B (i, q) · y (q, f)`. -/
theorem x1_apply (B : FVec Ideal S152x152 .f32) (y : FVec Ideal S152x32 .f32) (i : Fin 152) (f : Fin 32) :
    x1 B y (ix2 i f) = ∑ q : Fin 152, B (ix2 i q) * y (ix2 q f) := by
  unfold x1
  refine mm_apply dot_S152x152_S152x32_S152x32_1_0_0_1_n_n rfl rfl ?_ ?_ B y i f
  · intro i j q; funext a; match a with | ⟨0, _⟩ => rfl | ⟨1, _⟩ => rfl
  · intro i j q; funext a; match a with | ⟨0, _⟩ => rfl | ⟨1, _⟩ => rfl

/-! ## One sub-block: 8 graphs on 152 rows -/

/-- Row `19·g8 + n` of a 152-row sub-block: node `n` of the sub-block's graph `g8`. -/
def srow (g8 : Fin 8) (n : Fin 19) : Fin 152 := ⟨19 * g8.val + n.val, by have := g8.isLt; have := n.isLt; omega⟩

/-- A 152-row sub-block holds the per-graph families `H8 g8` row-wise. -/
def Rows8 (y : (⟨2, ![152, 32]⟩ : Shape).Idx → EReal) (H8 : Fin 8 → Fin 19 → Fin 32 → EReal) : Prop :=
  ∀ (g8 : Fin 8) (n : Fin 19) (f : Fin 32), y (ix2 (srow g8 n) f) = H8 g8 n f

/-- A 152 × 152 operand holds the 8 laplacians `L8 g8` on its diagonal and zero elsewhere. -/
def BlockDiag8 (B : (⟨2, ![152, 152]⟩ : Shape).Idx → EReal) (L8 : Fin 8 → Fin 19 → Fin 19 → EReal) : Prop :=
  ∀ (g8 : Fin 8) (n : Fin 19) (cc : Fin 152), B (ix2 (srow g8 n) cc)
    = if cc.val / 19 = g8.val then L8 g8 n ⟨cc.val % 19, Nat.mod_lt _ (by decide)⟩ else Cert.Spec.c0

/-- The block-diagonal product is each graph's own laplacian applied to its own rows. -/
theorem x1_rows8 (B : FVec Ideal S152x152 .f32) (y : FVec Ideal S152x32 .f32)
    (L8 : Fin 8 → Fin 19 → Fin 19 → EReal) (H8 : Fin 8 → Fin 19 → Fin 32 → EReal)
    (hB : BlockDiag8 B L8) (hy : Rows8 y H8) : Rows8 (x1 B y) (fun g8 => Cert.Spec.mv (L8 g8) (H8 g8)) := by
  intro g8 n f
  have hc : Cert.Spec.c0 = 0 := Ideal.ofBits_zero_f32
  rw [x1_apply, Finset.sum_congr rfl fun q _ => by rw [hB g8 n q, hc],
    blockdiag_row_sum g8 (L8 g8 n) fun q => y (ix2 q f)]
  exact Finset.sum_congr rfl fun n' _ => by rw [← hy g8 n' f]; rfl

/-- The third Chebyshev term on a sub-block is each graph's own. -/
theorem x2_rows8 (B : FVec Ideal S152x152 .f32) (y : FVec Ideal S152x32 .f32)
    (L8 : Fin 8 → Fin 19 → Fin 19 → EReal) (H8 : Fin 8 → Fin 19 → Fin 32 → EReal)
    (hB : BlockDiag8 B L8) (hy : Rows8 y H8) : Rows8 (x2 B y) (fun g8 => Cert.Spec.cheb2 (L8 g8) (H8 g8)) := by
  intro g8 n f
  have h2 := x1_rows8 B (x1 B y) L8 _ hB (x1_rows8 B y L8 H8 hB hy) g8 n f
  show Ideal.ofBits .f32 0x40000000#32 * x1 B (x1 B y) (ix2 (srow g8 n) f) - y (ix2 (srow g8 n) f) = _
  rw [h2, hy g8 n f]
  rfl

/-! ## The four sub-blocks of a block -/

/-- Graph `8·s + g8` of the block: graph `g8` of sub-block `s`. -/
def gidx (s : Fin 4) (g8 : Fin 8) : Fin 32 := ⟨8 * s.val + g8.val, by have := s.isLt; have := g8.isLt; omega⟩

/-- Row `152·s + r` of the block: row `r` of sub-block `s`. -/
def prow (s : Fin 4) (r : Fin 152) : Fin 608 := ⟨152 * s.val + r.val, by have := s.isLt; have := r.isLt; omega⟩

/-- Node `n` of graph `8·s + g8` sits at row `19·g8 + n` of sub-block `s`. -/
theorem brow_gidx (s : Fin 4) (g8 : Fin 8) (n : Fin 19) : brow (gidx s g8) n = prow s (srow g8 n) :=
  Fin.ext (by
    have := s.isLt; have := g8.isLt; have := n.isLt
    show (8 * s.val + g8.val) * 19 + n.val = 152 * s.val + (19 * g8.val + n.val); omega)

/-- Every graph of the block is graph `g8` of some sub-block `s`. -/
theorem exists_gidx (g : Fin 32) : ∃ (s : Fin 4) (g8 : Fin 8), g = gidx s g8 :=
  ⟨⟨g.val / 8, by have := g.isLt; omega⟩, ⟨g.val % 8, Nat.mod_lt _ (by decide)⟩,
    Fin.ext (by show g.val = 8 * (g.val / 8) + g.val % 8; omega)⟩

/-- The laplacian operand's rows of sub-block `s`. -/
def bsel (s : Fin 4) (bd : FVec Ideal S608x152 .f32) : FVec Ideal S152x152 .f32 :=
  match s with
  | ⟨0, _⟩ => bs0 bd
  | ⟨1, _⟩ => bs1 bd
  | ⟨2, _⟩ => bs2 bd
  | ⟨3, _⟩ => bs3 bd

/-- The features' rows of sub-block `s`. -/
def hsel (s : Fin 4) (h : FVec Ideal S608x32 .f32) : FVec Ideal S152x32 .f32 :=
  match s with
  | ⟨0, _⟩ => hs0 h
  | ⟨1, _⟩ => hs1 h
  | ⟨2, _⟩ => hs2 h
  | ⟨3, _⟩ => hs3 h

/-- Sub-block `s` of the laplacian operand at `(r, cc)` is the operand at row `152·s + r`. -/
theorem bsel_apply (s : Fin 4) (bd : FVec Ideal S608x152 .f32) (r cc : Fin 152) :
    bsel s bd (ix2 r cc) = bd (ix2 (prow s r) cc) := by
  match s with
  | ⟨0, _⟩ => exact extractStridedSlice_apply ![0, 0] bd Gen.slices_S608x152_o0_0_S152x152 (ix2 r cc) (ix2 (prow ⟨0, by omega⟩ r) cc) fun a => match a with | ⟨0, _⟩ => rfl | ⟨1, _⟩ => (Nat.zero_add _).symm
  | ⟨1, _⟩ => exact extractStridedSlice_apply ![152, 0] bd Gen.slices_S608x152_o152_0_S152x152 (ix2 r cc) (ix2 (prow ⟨1, by omega⟩ r) cc) fun a => match a with | ⟨0, _⟩ => rfl | ⟨1, _⟩ => (Nat.zero_add _).symm
  | ⟨2, _⟩ => exact extractStridedSlice_apply ![304, 0] bd Gen.slices_S608x152_o304_0_S152x152 (ix2 r cc) (ix2 (prow ⟨2, by omega⟩ r) cc) fun a => match a with | ⟨0, _⟩ => rfl | ⟨1, _⟩ => (Nat.zero_add _).symm
  | ⟨3, _⟩ => exact extractStridedSlice_apply ![456, 0] bd Gen.slices_S608x152_o456_0_S152x152 (ix2 r cc) (ix2 (prow ⟨3, by omega⟩ r) cc) fun a => match a with | ⟨0, _⟩ => rfl | ⟨1, _⟩ => (Nat.zero_add _).symm

/-- Sub-block `s` of the features at `(r, f)` is the block at row `152·s + r`. -/
theorem hsel_apply (s : Fin 4) (h : FVec Ideal S608x32 .f32) (r : Fin 152) (f : Fin 32) :
    hsel s h (ix2 r f) = h (ix2 (prow s r) f) := by
  match s with
  | ⟨0, _⟩ => exact extractStridedSlice_apply ![0, 0] h Gen.slices_S608x32_o0_0_S152x32 (ix2 r f) (ix2 (prow ⟨0, by omega⟩ r) f) fun a => match a with | ⟨0, _⟩ => rfl | ⟨1, _⟩ => (Nat.zero_add _).symm
  | ⟨1, _⟩ => exact extractStridedSlice_apply ![152, 0] h Gen.slices_S608x32_o152_0_S152x32 (ix2 r f) (ix2 (prow ⟨1, by omega⟩ r) f) fun a => match a with | ⟨0, _⟩ => rfl | ⟨1, _⟩ => (Nat.zero_add _).symm
  | ⟨2, _⟩ => exact extractStridedSlice_apply ![304, 0] h Gen.slices_S608x32_o304_0_S152x32 (ix2 r f) (ix2 (prow ⟨2, by omega⟩ r) f) fun a => match a with | ⟨0, _⟩ => rfl | ⟨1, _⟩ => (Nat.zero_add _).symm
  | ⟨3, _⟩ => exact extractStridedSlice_apply ![456, 0] h Gen.slices_S608x32_o456_0_S152x32 (ix2 r f) (ix2 (prow ⟨3, by omega⟩ r) f) fun a => match a with | ⟨0, _⟩ => rfl | ⟨1, _⟩ => (Nat.zero_add _).symm

/-- Sub-block `s` of a block-diagonal operand holds the laplacians of its 8 graphs on its diagonal. -/
theorem bsel_blockdiag (bd : FVec Ideal S608x152 .f32) (L : Fin 32 → Fin 19 → Fin 19 → EReal) (hbd : BlockDiag bd L) (s : Fin 4) :
    BlockDiag8 (bsel s bd) (fun g8 => L (gidx s g8)) := by
  intro g8 n cc
  have hm : (gidx s g8).val % 8 = g8.val := by
    have := g8.isLt
    show (8 * s.val + g8.val) % 8 = g8.val; omega
  rw [bsel_apply, ← brow_gidx, hbd (gidx s g8) n cc, hm]

/-- Sub-block `s` of row-wise features holds its 8 graphs row-wise. -/
theorem hsel_rows (h : FVec Ideal S608x32 .f32) (H : Fin 32 → Fin 19 → Fin 32 → EReal) (hh : Rows h H) (s : Fin 4) :
    Rows8 (hsel s h) (fun g8 => H (gidx s g8)) := by
  intro g8 n f
  rw [hsel_apply, ← brow_gidx, hh (gidx s g8) n f]

/-- Four sub-blocks stacked along the rows, read at row `152·s + r`: sub-block `s` at row `r`. -/
theorem stack4_apply (p : Fin 4 → FVec Ideal S152x32 .f32) (s : Fin 4) (r : Fin 152) (f : Fin 32) :
    concatenate S608x32 0 [⟨S152x32, p ⟨0, by omega⟩⟩, ⟨S152x32, p ⟨1, by omega⟩⟩, ⟨S152x32, p ⟨2, by omega⟩⟩, ⟨S152x32, p ⟨3, by omega⟩⟩]
        Gen.concatenates_S152x32_S152x32_S152x32_S152x32_S608x32_d0 (ix2 (prow s r) f)
      = p s (ix2 r f) := by
  have hi : ∀ b : Fin S152x32.rank, b.cast (rfl : S152x32.rank = S608x32.rank) ≠ (0 : Fin S608x32.rank) →
      ((ix2 r f : S152x32.Idx) b).val = ((ix2 (prow s r) f : S608x32.Idx) (b.cast rfl)).val :=
    fun b hb => match b with | ⟨0, _⟩ => absurd rfl hb | ⟨1, _⟩ => rfl
  match s with
  | ⟨0, _⟩ =>
    refine concatenate_apply_piece (t := S608x32) 0 _ _ _ 0 ?_ S152x32 (p ⟨0, by omega⟩) ?_ rfl 0 ?_ (ix2 r f) hi ?_
    · exact (by decide : (0 : Nat) < 4)
    · rfl
    · rfl
    · rfl
  | ⟨1, _⟩ =>
    refine concatenate_apply_piece (t := S608x32) 0 _ _ _ 1 ?_ S152x32 (p ⟨1, by omega⟩) ?_ rfl 152 ?_ (ix2 r f) hi ?_
    · exact (by decide : (1 : Nat) < 4)
    · rfl
    · rfl
    · rfl
  | ⟨2, _⟩ =>
    refine concatenate_apply_piece (t := S608x32) 0 _ _ _ 2 ?_ S152x32 (p ⟨2, by omega⟩) ?_ rfl 304 ?_ (ix2 r f) hi ?_
    · exact (by decide : (2 : Nat) < 4)
    · rfl
    · rfl
    · rfl
  | ⟨3, _⟩ =>
    refine concatenate_apply_piece (t := S608x32) 0 _ _ _ 3 ?_ S152x32 (p ⟨3, by omega⟩) ?_ rfl 456 ?_ (ix2 r f) hi ?_
    · exact (by decide : (3 : Nat) < 4)
    · rfl
    · rfl
    · rfl

/-- Three 32-column blocks side by side, read at column `j`: the block `j` falls in, at `j` less the columns before it. -/
theorem side3_apply (p0 p1 p2 : FVec Ideal S608x32 .f32) (R : Fin 608) (j : Fin 96) :
    concatenate S608x96 1 [⟨S608x32, p0⟩, ⟨S608x32, p1⟩, ⟨S608x32, p2⟩] Gen.concatenates_S608x32_S608x32_S608x32_S608x96_d1 (ix2 R j)
      = if h1 : j.val < 32 then p0 (ix2 R ⟨j.val, h1⟩)
        else if h2 : j.val < 2 * 32 then p1 (ix2 R ⟨j.val - 32, by omega⟩)
        else p2 (ix2 R ⟨j.val - 2 * 32, by have := j.isLt; omega⟩) := by
  have hj := j.isLt
  have hi : ∀ (c : Fin 32) (b : Fin S608x32.rank), b.cast (rfl : S608x32.rank = S608x96.rank) ≠ (1 : Fin S608x96.rank) →
      ((ix2 R c : S608x32.Idx) b).val = ((ix2 R j : S608x96.Idx) (b.cast rfl)).val :=
    fun c b hb => match b with | ⟨0, _⟩ => rfl | ⟨1, _⟩ => absurd rfl hb
  by_cases h1 : j.val < 32
  · rw [dif_pos h1]
    refine concatenate_apply_piece (t := S608x96) 1 _ _ _ 0 ?_ S608x32 p0 ?_ rfl 0 ?_ (ix2 R ⟨j.val, h1⟩) (hi _) ?_
    · exact (by decide : (0 : Nat) < 3)
    · rfl
    · rfl
    · exact Nat.zero_add _
  · rw [dif_neg h1]
    by_cases h2 : j.val < 2 * 32
    · rw [dif_pos h2]
      refine concatenate_apply_piece (t := S608x96) 1 _ _ _ 1 ?_ S608x32 p1 ?_ rfl 32 ?_ (ix2 R ⟨j.val - 32, by omega⟩) (hi _) ?_
      · exact (by decide : (1 : Nat) < 3)
      · rfl
      · rfl
      · show 32 + (j.val - 32) = j.val; omega
    · rw [dif_neg h2]
      refine concatenate_apply_piece (t := S608x96) 1 _ _ _ 2 ?_ S608x32 p2 ?_ rfl 64 ?_ (ix2 R ⟨j.val - 2 * 32, by omega⟩) (hi _) ?_
      · exact (by decide : (2 : Nat) < 3)
      · rfl
      · rfl
      · show 64 + (j.val - 2 * 32) = j.val; omega

/-- The three Chebyshev terms side by side on the block are each graph's own three terms side by side. -/
theorem xc_rows (bd : FVec Ideal S608x152 .f32) (h : FVec Ideal S608x32 .f32)
    (L : Fin 32 → Fin 19 → Fin 19 → EReal) (H : Fin 32 → Fin 19 → Fin 32 → EReal) (hbd : BlockDiag bd L) (hh : Rows h H) :
    Rows (xc bd h) (fun g => Cert.Spec.cat3 (k := 32) (q := 96) rfl (H g) (Cert.Spec.mv (L g) (H g)) (Cert.Spec.cheb2 (L g) (H g))) := by
  intro g n j
  obtain ⟨s, g8, rfl⟩ := exists_gidx g
  have e1 := fun f => (stack4_apply (fun s => x1 (bsel s bd) (hsel s h)) s (srow g8 n) f).trans
    (x1_rows8 _ _ _ _ (bsel_blockdiag bd L hbd s) (hsel_rows h H hh s) g8 n f)
  have e2 := fun f => (stack4_apply (fun s => x2 (bsel s bd) (hsel s h)) s (srow g8 n) f).trans
    (x2_rows8 _ _ _ _ (bsel_blockdiag bd L hbd s) (hsel_rows h H hh s) g8 n f)
  show xc bd h (ix2 (brow (gidx s g8) n) j) = Cert.Spec.cat3 (k := 32) (q := 96) rfl (H (gidx s g8))
    (Cert.Spec.mv (L (gidx s g8)) (H (gidx s g8))) (Cert.Spec.cheb2 (L (gidx s g8)) (H (gidx s g8))) n j
  unfold xc Cert.Spec.cat3
  rw [side3_apply]
  by_cases h1 : j.val < 32
  · rw [dif_pos h1, dif_pos h1]; exact hh _ _ _
  · rw [dif_neg h1, dif_neg h1]
    by_cases h2 : j.val < 2 * 32
    · rw [dif_pos h2, dif_pos h2, brow_gidx]; exact e1 _
    · rw [dif_neg h2, dif_neg h2, brow_gidx]; exact e2 _

/-! ## The linear map and the bias -/

/-- A 608-row block times a weight matrix plus a bias row is, on each graph's rows, the graph's own linear map. -/
theorem lin_rows {q : Nat} (d : DotDims ⟨2, ![608, q]⟩ ⟨2, ![q, 32]⟩ ⟨2, ![608, 32]⟩)
    (hr : d.contr.rank = 1) (hs : d.contr.size ⟨0, by omega⟩ = q)
    (hl : ∀ (i : Fin 608) (j : Fin 32) (k : Fin q), d.lhsIdx (ix2 i j) ((contrEquiv1 d q hr hs).symm k) = ix2 i k)
    (hrt : ∀ (i : Fin 608) (j : Fin 32) (k : Fin q), d.rhsIdx (ix2 i j) ((contrEquiv1 d q hr hs).symm k) = ix2 k j)
    (xcv : FVec Ideal ⟨2, ![608, q]⟩ .f32) (w : FVec Ideal ⟨2, ![q, 32]⟩ .f32) (b : FVec Ideal S1x32 .f32)
    (XC : Fin 32 → Fin 19 → Fin q → EReal) (W : Fin q → Fin 32 → EReal) (B : Fin 32 → EReal)
    (hxc : Rows xcv XC) (hw : ∀ j f, w (ix2 j f) = W j f) (hb : ∀ f, b (ix2 0 f) = B f) :
    Rows (addf (matmul d none xcv w (constant S608x32 .f32 0x00000000#32)) (broadcastTo S608x32 b Gen.broadcasts_S1x32_S608x32))
      (fun g => Cert.Spec.lin (XC g) W B) := by
  intro g n f
  show _ = Cert.Spec.lin (XC g) W B n f
  rw [addf_apply, mm_apply d hr hs hl hrt xcv w (brow g n) f,
    broadcastTo_apply b Gen.broadcasts_S1x32_S608x32 (ix2 (brow g n) f) (ix2 0 f)
      (fun a => match a with | ⟨0, _⟩ => rfl | ⟨1, _⟩ => rfl), hb f]
  unfold Cert.Spec.lin
  exact congrArg (· + B f) (Finset.sum_congr rfl fun k _ => by rw [hxc g n k, hw k f])

/-- The activation acts row-wise. -/
theorem act_rows (y : FVec Ideal S608x32 .f32) (Y : Fin 32 → Fin 19 → Fin 32 → EReal) (hy : Rows y Y) :
    Rows (act y) (fun g => Cert.Spec.relu (Y g)) := by
  intro g n f
  unfold act
  rw [maximumf_apply, broadcast_apply, hy g n f]
  rfl

/-- The input layer on stored Chebyshev features: each graph's linear map, bias and activation. -/
theorem first_rows (xcb : FVec Ideal S608x192 .f32) (wi : FVec Ideal S192x32 .f32) (bi : FVec Ideal S1x32 .f32)
    (XC : Fin 32 → Fin 19 → Fin 192 → EReal) (W : Fin 192 → Fin 32 → EReal) (B : Fin 32 → EReal)
    (hxc : Rows xcb XC) (hw : ∀ j f, wi (ix2 j f) = W j f) (hb : ∀ f, bi (ix2 0 f) = B f) :
    Rows (first xcb wi bi) (fun g => Cert.Spec.relu (Cert.Spec.lin (XC g) W B)) := by
  unfold first
  refine act_rows _ _ (lin_rows dot_S608x192_S192x32_S608x32_1_0_0_1_n_n rfl rfl ?_ ?_ xcb wi bi XC W B hxc hw hb)
  · intro i j q; funext a; match a with | ⟨0, _⟩ => rfl | ⟨1, _⟩ => rfl
  · intro i j q; funext a; match a with | ⟨0, _⟩ => rfl | ⟨1, _⟩ => rfl

/-- One layer before its activation: each graph's Chebyshev layer with its own laplacian. -/
theorem pre_rows (bd : FVec Ideal S608x152 .f32) (h : FVec Ideal S608x32 .f32) (w : FVec Ideal S96x32 .f32) (b : FVec Ideal S1x32 .f32)
    (L : Fin 32 → Fin 19 → Fin 19 → EReal) (H : Fin 32 → Fin 19 → Fin 32 → EReal) (W : Fin 96 → Fin 32 → EReal) (B : Fin 32 → EReal)
    (hbd : BlockDiag bd L) (hh : Rows h H) (hw : ∀ j f, w (ix2 j f) = W j f) (hb : ∀ f, b (ix2 0 f) = B f) :
    Rows (pre bd h w b) (fun g => Cert.Spec.layer (k := 32) (q := 96) rfl (L g) (H g) W B) := by
  unfold pre
  refine lin_rows dot_S608x96_S96x32_S608x32_1_0_0_1_n_n rfl rfl ?_ ?_ (xc bd h) w b _ W B (xc_rows bd h L H hbd hh) hw hb
  · intro i j q; funext a; match a with | ⟨0, _⟩ => rfl | ⟨1, _⟩ => rfl
  · intro i j q; funext a; match a with | ⟨0, _⟩ => rfl | ⟨1, _⟩ => rfl

end Cert.KernelIdeal.Stack

end
-- ==== Proof.KStackVal.lean ====
/-
  The second kernel on the whole arrays: grid point (block of 32 graphs, ensemble member) writes rows
  32·bt … 32·bt + 31 of member m's filtered features, and every entry is `Cert.Spec.feats` of the inputs.

  A block's row 19·g + n is node n of the block's graph g, which is graph 32·bt + g of the batch; the loaded laplacian
  operand is block-diagonal with those graphs' laplacians, so each band's four layers are `Cert.Spec.h4` of every graph
  row-wise.  The five bands side by side are `Cert.Spec.gcn`; a tap multiplies each row by its node's weight and adds the
  19 rows of a graph; the three taps at feature offsets 0, 1, 2 are added from zero in that order and the bias last,
  which is `Cert.Spec.feats`.  The 8 × 64 points' blocks tile the output array.
-/
import proofs.«124497_g2000206817317674_pallasbulk_294_10_alg».proof.Proof.Gen.KernelIdeal.Frame
import proofs.«124497_g2000206817317674_pallasbulk_294_10_alg».proof.Proof.KStack
import proofs.«124497_g2000206817317674_pallasbulk_294_10_alg».proof.Proof.KLayer
import proofs.«124497_g2000206817317674_pallasbulk_294_10_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StackVal

open Idealize.ShloMosaic Idealize.ShloMosaic.TcCoe Idealize.ShloMosaic.ValueIdx Idealize.SL.Sem
open Cert.KernelIdeal Cert.KernelIdeal.Gen Cert.KernelIdeal.Stack

/-! ## The end of the body: the bands side by side, the taps, the bias -/

/-- The five bands side by side: column `j` of the 160 is column `j % 32` of band `j / 32`. -/
theorem cat_rows (g0 g1 g2 g3 g4 : FVec Ideal S608x32 .f32) (Gb : Fin 5 → Fin 32 → Fin 19 → Fin 32 → EReal)
    (h0 : Rows g0 (Gb 0)) (h1 : Rows g1 (Gb 1)) (h2 : Rows g2 (Gb 2)) (h3 : Rows g3 (Gb 3)) (h4 : Rows g4 (Gb 4))
    (tb : Fin 32) (n : Fin 19) (j : Fin 160) :
    concatenate S608x160 1 [⟨S608x32, g0⟩, ⟨S608x32, g1⟩, ⟨S608x32, g2⟩, ⟨S608x32, g3⟩, ⟨S608x32, g4⟩]
        concatenates_S608x32_S608x32_S608x32_S608x32_S608x32_S608x160_d1 (ix2 (brow tb n) j)
      = Gb ⟨j.val / 32, by have := j.isLt; omega⟩ tb n ⟨j.val % 32, Nat.mod_lt _ (by decide)⟩ := by
  have hj := j.isLt
  have hi : ∀ b : Fin S608x32.rank, b.cast (rfl : S608x32.rank = S608x160.rank) ≠ (1 : Fin S608x160.rank) →
      ((ix2 (brow tb n) (⟨j.val % 32, Nat.mod_lt _ (by decide)⟩ : Fin 32) : S608x32.Idx) b).val
        = ((ix2 (brow tb n) j : S608x160.Idx) (b.cast rfl)).val := fun b hb => by
    match b, hb with
    | ⟨0, _⟩, _ => rfl
    | ⟨1, _⟩, hb => exact absurd rfl hb
  have hc : j.val / 32 = 0 ∨ j.val / 32 = 1 ∨ j.val / 32 = 2 ∨ j.val / 32 = 3 ∨ j.val / 32 = 4 := by omega
  rcases hc with h | h | h | h | h
  · refine (concatenate_apply_piece (1 : Fin S608x160.rank) _ _ (ix2 (brow tb n) j) 0 (by show _ < 5; decide) S608x32 g0 rfl rfl 0 rfl
      (ix2 (brow tb n) ⟨j.val % 32, Nat.mod_lt _ (by decide)⟩) hi (by show 0 + j.val % 32 = j.val; omega)).trans ?_
    rw [h0]; congr 1; exact Fin.ext h.symm
  · refine (concatenate_apply_piece (1 : Fin S608x160.rank) _ _ (ix2 (brow tb n) j) 1 (by show _ < 5; decide) S608x32 g1 rfl rfl 32 rfl
      (ix2 (brow tb n) ⟨j.val % 32, Nat.mod_lt _ (by decide)⟩) hi (by show 32 + j.val % 32 = j.val; omega)).trans ?_
    rw [h1]; congr 1; exact Fin.ext h.symm
  · refine (concatenate_apply_piece (1 : Fin S608x160.rank) _ _ (ix2 (brow tb n) j) 2 (by show _ < 5; decide) S608x32 g2 rfl rfl 64 rfl
      (ix2 (brow tb n) ⟨j.val % 32, Nat.mod_lt _ (by decide)⟩) hi (by show 64 + j.val % 32 = j.val; omega)).trans ?_
    rw [h2]; congr 1; exact Fin.ext h.symm
  · refine (concatenate_apply_piece (1 : Fin S608x160.rank) _ _ (ix2 (brow tb n) j) 3 (by show _ < 5; decide) S608x32 g3 rfl rfl 96 rfl
      (ix2 (brow tb n) ⟨j.val % 32, Nat.mod_lt _ (by decide)⟩) hi (by show 96 + j.val % 32 = j.val; omega)).trans ?_
    rw [h3]; congr 1; exact Fin.ext h.symm
  · refine (concatenate_apply_piece (1 : Fin S608x160.rank) _ _ (ix2 (brow tb n) j) 4 (by show _ < 5; decide) S608x32 g4 rfl rfl 128 rfl
      (ix2 (brow tb n) ⟨j.val % 32, Nat.mod_lt _ (by decide)⟩) hi (by show 128 + j.val % 32 = j.val; omega)).trans ?_
    rw [h4]; congr 1; exact Fin.ext h.symm

/-- A filter tap at graph `tb` of the block and feature `j`: the graph's 19 rows, each weighted by its row of the column. -/
theorem tapV_apply (g : FVec Ideal S608x160 .f32) (s : Vec Ideal S1x1x608x1 .f32) (tb : Fin 32) (j : Fin 160) :
    tapV g s (ix2 tb j) = ∑ n : Fin 19, g (ix2 (brow tb n) j) * s (ix4 0 0 (brow tb n) 0) := by
  unfold tapV
  refine (Ideal.multiReduction_add_single _ 0x00000000#32 reduces_S32x19x160_S32x160 (.inl rfl) rfl (ix2 tb j)).trans ?_
  show ∑ n : Fin 19, _ = _
  refine Finset.sum_congr rfl fun n _ => ?_
  refine (shapeCast_apply _ shapeCasts_S608x160_S32x19x160 _ (ix2 (brow tb n) j) (by
    rw [Shape.rowMajor_val_two, Shape.rowMajor_val_three]
    show (tb.val * 19 + n.val) * 160 + j.val = (tb.val * 19 + n.val) * 160 + j.val
    rfl)).trans ?_
  rw [mulf_apply]
  congr 1
  refine (broadcastTo_apply _ broadcasts_S608x1_S608x160 (ix2 (brow tb n) j) (ix2 (brow tb n) (0 : Fin 1)) (fun a => by
    match a with
    | ⟨0, _⟩ => rfl
    | ⟨1, _⟩ => rfl)).trans ?_
  exact shapeCast_apply _ shapeCasts_S1x1x608x1_S608x1 _ (ix4 0 0 (brow tb n) 0) (by
    rw [Shape.rowMajor_val_four, Shape.rowMajor_val_two]
    show ((0 * 1 + 0) * 608 + (tb.val * 19 + n.val)) * 1 + 0 = (tb.val * 19 + n.val) * 1 + 0
    omega)

/-- The stored block at graph `tb` of the block and output feature `l`: the three taps at features `l`, `l + 1`, `l + 2`
    added from zero in that order, then the bias. -/
theorem body_apply (g0 g1 g2 g3 g4 : FVec Ideal S608x32 .f32) (s0 s1 s2 : Vec Ideal S1x1x608x1 .f32) (bc : Vec Ideal S1x1x1 .f32)
    (Gb : Fin 5 → Fin 32 → Fin 19 → Fin 32 → EReal)
    (h0 : Rows g0 (Gb 0)) (h1 : Rows g1 (Gb 1)) (h2 : Rows g2 (Gb 2)) (h3 : Rows g3 (Gb 3)) (h4 : Rows g4 (Gb 4))
    (tb : Fin 32) (l : Fin 158) :
    body g0 g1 g2 g3 g4 s0 s1 s2 bc (ix3 0 tb l)
      = (((Cert.Spec.c0
            + ∑ n : Fin 19, Gb ⟨l.val / 32, by have := l.isLt; omega⟩ tb n ⟨l.val % 32, Nat.mod_lt _ (by decide)⟩ * s0 (ix4 0 0 (brow tb n) 0))
          + ∑ n : Fin 19, Gb ⟨(l.val + 1) / 32, by have := l.isLt; omega⟩ tb n ⟨(l.val + 1) % 32, Nat.mod_lt _ (by decide)⟩ * s1 (ix4 0 0 (brow tb n) 0))
        + ∑ n : Fin 19, Gb ⟨(l.val + 2) / 32, by have := l.isLt; omega⟩ tb n ⟨(l.val + 2) % 32, Nat.mod_lt _ (by decide)⟩ * s2 (ix4 0 0 (brow tb n) 0))
      + bc (ix3 0 0 0) := by
  have hl := l.isLt
  unfold body
  refine (shapeCast_ab_1ab_apply _ shapeCasts_S32x158_S1x32x158 0 tb l).trans ?_
  rw [addf_apply, addf_apply, addf_apply, addf_apply, broadcast_apply]
  rw [slice2_axis1_apply 0 _ slices_S32x160_o0_0_S32x158 tb l ⟨l.val, by omega⟩ (by show l.val = 0 + l.val; omega),
    slice2_axis1_apply 1 _ slices_S32x160_o0_1_S32x158 tb l ⟨l.val + 1, by omega⟩ (by show l.val + 1 = 1 + l.val; omega),
    slice2_axis1_apply 2 _ slices_S32x160_o0_2_S32x158 tb l ⟨l.val + 2, by omega⟩ (by show l.val + 2 = 2 + l.val; omega)]
  rw [tapV_apply, tapV_apply, tapV_apply]
  simp only [cat_rows g0 g1 g2 g3 g4 Gb h0 h1 h2 h3 h4]
  congr 1
  refine (broadcastTo_apply _ broadcasts_S1x1_S32x158 (ix2 tb l) (ix2 (0 : Fin 1) (0 : Fin 1)) (fun a => by
    match a with
    | ⟨0, _⟩ => rfl
    | ⟨1, _⟩ => rfl)).trans ?_
  exact shapeCast_apply _ shapeCasts_S1x1x1_S1x1 _ (ix3 0 0 0) (by
    rw [Shape.rowMajor_val_three, Shape.rowMajor_val_two]; rfl)

/-! ## The loads and one band -/

/-- A load through a rectangle that fixes the leading coordinate of a rank-3 array at `o` reads that slab. -/
theorem ld3_apply {n0 n1 n2 : Nat} (X : (⟨3, ![n0, n1, n2]⟩ : Shape).Idx → EReal) (o : Nat)
    (inb : ∀ a, (![o, 0, 0] : Fin 3 → Nat) a + (![1, n1, n2] : Fin 3 → Nat) a ≤ (⟨3, ![n0, n1, n2]⟩ : Shape).size a)
    (u : Fin 1) (r : Fin n1) (f : Fin n2) (k : Fin n0) (hk : k.val = o) :
    View.ld (Val := Elt Ideal) (e' := .f32) X (Rect.unit (s := ⟨3, ![n0, n1, n2]⟩) ![o, 0, 0] ![1, n1, n2] inb) (ix3 u r f) = X (ix3 k r f) := by
  refine congrArg X (funext fun a => Fin.ext ?_)
  match a with
  | ⟨0, _⟩ => show o + 1 * u.val = k.val; have := u.isLt; omega
  | ⟨1, _⟩ => show 0 + 1 * r.val = r.val; omega
  | ⟨2, _⟩ => show 0 + 1 * f.val = f.val; omega

/-- A load through a rectangle that fixes the second coordinate of a rank-4 array with one leading slab at `o`. -/
theorem ld4_apply {n1 n2 n3 : Nat} (X : (⟨4, ![1, n1, n2, n3]⟩ : Shape).Idx → EReal) (o : Nat)
    (inb : ∀ a, (![0, o, 0, 0] : Fin 4 → Nat) a + (![1, 1, n2, n3] : Fin 4 → Nat) a ≤ (⟨4, ![1, n1, n2, n3]⟩ : Shape).size a)
    (u v : Fin 1) (r : Fin n2) (f : Fin n3) (k : Fin n1) (hk : k.val = o) :
    View.ld (Val := Elt Ideal) (e' := .f32) X (Rect.unit (s := ⟨4, ![1, n1, n2, n3]⟩) ![0, o, 0, 0] ![1, 1, n2, n3] inb) (ix4 u v r f) = X (ix4 0 k r f) := by
  refine congrArg X (funext fun a => Fin.ext ?_)
  match a with
  | ⟨0, _⟩ => show 0 + 1 * u.val = 0; have := u.isLt; omega
  | ⟨1, _⟩ => show o + 1 * v.val = k.val; have := v.isLt; omega
  | ⟨2, _⟩ => show 0 + 1 * r.val = r.val; omega
  | ⟨3, _⟩ => show 0 + 1 * f.val = f.val; omega

/-- Two leading unit axes dropped by a shape cast. -/
theorem shapeCast_11ab_ab_apply {a b : ℕ} (x : (⟨4, ![1, 1, a, b]⟩ : Shape).Idx → EReal)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- One band on a block: when the loaded laplacian block is block-diagonal with the graphs' laplacians and the loaded
    feature block holds the graphs' stored Chebyshev features row-wise, the band's four layers are the four layers of
    each graph. -/
theorem band_rows (bdb : Vec Ideal S1x608x152 .f32) (xcb : Vec Ideal S1x608x192 .f32) (wi' : Vec Ideal S1x1x192x32 .f32) (bi' : Vec Ideal S1x1x1x32 .f32)
    (w0 : Vec Ideal S1x1x96x32 .f32) (c0' : Vec Ideal S1x1x1x32 .f32) (w1 : Vec Ideal S1x1x96x32 .f32) (c1' : Vec Ideal S1x1x1x32 .f32)
    (wo' : Vec Ideal S1x1x96x32 .f32) (bo' : Vec Ideal S1x1x1x32 .f32)
    (L : Fin 32 → Fin 19 → Fin 19 → EReal) (XC : Fin 32 → Fin 19 → Fin 192 → EReal)
    (Wi : Fin 192 → Fin 32 → EReal) (Bi : Fin 32 → EReal) (W0 : Fin 96 → Fin 32 → EReal) (B0 : Fin 32 → EReal)
    (W1 : Fin 96 → Fin 32 → EReal) (B1 : Fin 32 → EReal) (Wo : Fin 96 → Fin 32 → EReal) (Bo : Fin 32 → EReal)
    (hbd : ∀ (g : Fin 32) (n : Fin 19) (cc : Fin 152), bdb (ix3 0 (brow g n) cc)
      = if cc.val / 19 = g.val % 8 then L g n ⟨cc.val % 19, Nat.mod_lt _ (by decide)⟩ else Cert.Spec.c0)
    (hxc : ∀ (g : Fin 32) (n : Fin 19) (f : Fin 192), xcb (ix3 0 (brow g n) f) = XC g n f)
    (hwi : ∀ j f, wi' (ix4 0 0 j f) = Wi j f) (hbi : ∀ f, bi' (ix4 0 0 0 f) = Bi f)
    (hw0 : ∀ j f, w0 (ix4 0 0 j f) = W0 j f) (hb0 : ∀ f, c0' (ix4 0 0 0 f) = B0 f)
    (hw1 : ∀ j f, w1 (ix4 0 0 j f) = W1 j f) (hb1 : ∀ f, c1' (ix4 0 0 0 f) = B1 f)
    (hwo : ∀ j f, wo' (ix4 0 0 j f) = Wo j f) (hbo : ∀ f, bo' (ix4 0 0 0 f) = Bo f) :
    Rows (band bdb xcb wi' bi' w0 c0' w1 c1' wo' bo')
      (fun g => Cert.Spec.layer (k := 32) (q := 96) rfl (L g)
        (Cert.Spec.relu (Cert.Spec.layer (k := 32) (q := 96) rfl (L g)
          (Cert.Spec.relu (Cert.Spec.layer (k := 32) (q := 96) rfl (L g)
            (Cert.Spec.relu (Cert.Spec.lin (XC g) Wi Bi)) W0 B0)) W1 B1)) Wo Bo) := by
  have hBD : BlockDiag (shapeCast S608x152 bdb shapeCasts_S1x608x152_S608x152) L := fun g n cc =>
    (shapeCast_1ab_ab_apply bdb shapeCasts_S1x608x152_S608x152 (brow g n) cc).trans (hbd g n cc)
  have hXC : Rows (shapeCast S608x192 xcb shapeCasts_S1x608x192_S608x192) XC := fun g n f =>
    (shapeCast_1ab_ab_apply xcb shapeCasts_S1x608x192_S608x192 (brow g n) f).trans (hxc g n f)
  have hW : ∀ (w : Vec Ideal S1x1x96x32 .f32) (W : Fin 96 → Fin 32 → EReal), (∀ j f, w (ix4 0 0 j f) = W j f) →
      ∀ j f, shapeCast S96x32 w shapeCasts_S1x1x96x32_S96x32 (ix2 j f) = W j f := fun w W h j f =>
    (shapeCast_11ab_ab_apply w shapeCasts_S1x1x96x32_S96x32 j f).trans (h j f)
  have hB : ∀ (b : Vec Ideal S1x1x1x32 .f32) (B : Fin 32 → EReal), (∀ f, b (ix4 0 0 0 f) = B f) →
      ∀ f, shapeCast S1x32 b shapeCasts_S1x1x1x32_S1x32 (ix2 0 f) = B f := fun b B h f =>
    (shapeCast_11ab_ab_apply b shapeCasts_S1x1x1x32_S1x32 0 f).trans (h f)
  have hWi : ∀ j f, shapeCast S192x32 wi' shapeCasts_S1x1x192x32_S192x32 (ix2 j f) = Wi j f := fun j f =>
    (shapeCast_11ab_ab_apply wi' shapeCasts_S1x1x192x32_S192x32 j f).trans (hwi j f)
  unfold band
  exact pre_rows _ _ _ _ L _ Wo Bo hBD
    (act_rows _ _ (pre_rows _ _ _ _ L _ W1 B1 hBD
      (act_rows _ _ (pre_rows _ _ _ _ L _ W0 B0 hBD
        (first_rows _ _ _ XC Wi Bi hXC hWi (hB bi' Bi hbi)) (hW w0 W0 hw0) (hB c0' B0 hb0)))
      (hW w1 W1 hw1) (hB c1' B1 hb1)))
    (hW wo' Wo hwo) (hB bo' Bo hbo)

/-- Band `bnd` of the block of tile `bt` for member `m`: from the blocks of the first kernel's two arrays and of member
    `m`'s weights, its four layers give `Cert.Spec.h4` of graph `32·bt + g` on the rows of graph `g` of the block.  Row
    `r` of the tile is row `608·bt + r` of the arrays, so row `19·g + n` is node `n` of graph `32·bt + g`, and its run of 8
    graphs is `g % 8`. -/
theorem band_at (x0 : Vec Ideal S5x608x192 .f32) (x1 : Vec Ideal S5x608x152 .f32) (x2 : Vec Ideal S1x5x192x32 .f32) (x3 : Vec Ideal S1x5x1x32 .f32)
    (x4 : Vec Ideal S1x10x96x32 .f32) (x5 : Vec Ideal S1x10x1x32 .f32) (x6 : Vec Ideal S1x5x96x32 .f32) (x7 : Vec Ideal S1x5x1x32 .f32)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (bt : Fin 8) (m : Fin 64)
    (e0 : ∀ (b : Fin 5) (r : Fin 608) (f : Fin 192), x0 (ix3 b r f)
      = Cert.Spec.xc0 x A (Cert.Spec.gOf ⟨608 * bt.val + r.val, by have := bt.isLt; have := r.isLt; omega⟩) b
          (Cert.Spec.nOf ⟨608 * bt.val + r.val, by have := bt.isLt; have := r.isLt; omega⟩) f)
    (e1 : ∀ (b : Fin 5) (r : Fin 608) (cc : Fin 152), x1 (ix3 b r cc)
      = if cc.val / 19 = (608 * bt.val + r.val) / 19 % 8
        then A (ix4 (Cert.Spec.gOf ⟨608 * bt.val + r.val, by have := bt.isLt; have := r.isLt; omega⟩) b
          (Cert.Spec.nOf ⟨608 * bt.val + r.val, by have := bt.isLt; have := r.isLt; omega⟩) ⟨cc.val % 19, Nat.mod_lt _ (by decide)⟩)
        else Cert.Spec.c0)
    (e2 : ∀ (b : Fin 5) (j : Fin 192) (f : Fin 32), x2 (ix4 0 b j f) = wi (ix4 m b j f))
    (e3 : ∀ (b : Fin 5) (f : Fin 32), x3 (ix4 0 b 0 f) = bi (ix4 m b 0 f))
    (e4 : ∀ (q : Fin 10) (j : Fin 96) (f : Fin 32), x4 (ix4 0 q j f) = wh (ix4 m q j f))
    (e5 : ∀ (q : Fin 10) (f : Fin 32), x5 (ix4 0 q 0 f) = bh (ix4 m q 0 f))
    (e6 : ∀ (b : Fin 5) (j : Fin 96) (f : Fin 32), x6 (ix4 0 b j f) = wo (ix4 m b j f))
    (e7 : ∀ (b : Fin 5) (f : Fin 32), x7 (ix4 0 b 0 f) = bo (ix4 m b 0 f))
    (bnd : Fin 5) (o oa ob : Nat) (ho : bnd.val = o) (hoa : (Cert.Spec.hid bnd 0).val = oa) (hob : (Cert.Spec.hid bnd 1).val = ob)
    (i1 : ∀ a, (![o, 0, 0] : Fin 3 → Nat) a + S1x608x152.size a ≤ S5x608x152.size a)
    (i0 : ∀ a, (![o, 0, 0] : Fin 3 → Nat) a + S1x608x192.size a ≤ S5x608x192.size a)
    (i2 : ∀ a, (![0, o, 0, 0] : Fin 4 → Nat) a + S1x1x192x32.size a ≤ S1x5x192x32.size a)
    (i3 : ∀ a, (![0, o, 0, 0] : Fin 4 → Nat) a + S1x1x1x32.size a ≤ S1x5x1x32.size a)
    (i4a : ∀ a, (![0, oa, 0, 0] : Fin 4 → Nat) a + S1x1x96x32.size a ≤ S1x10x96x32.size a)
    (i5a : ∀ a, (![0, oa, 0, 0] : Fin 4 → Nat) a + S1x1x1x32.size a ≤ S1x10x1x32.size a)
    (i4b : ∀ a, (![0, ob, 0, 0] : Fin 4 → Nat) a + S1x1x96x32.size a ≤ S1x10x96x32.size a)
    (i5b : ∀ a, (![0, ob, 0, 0] : Fin 4 → Nat) a + S1x1x1x32.size a ≤ S1x10x1x32.size a)
    (i6 : ∀ a, (![0, o, 0, 0] : Fin 4 → Nat) a + S1x1x96x32.size a ≤ S1x5x96x32.size a)
    (i7 : ∀ a, (![0, o, 0, 0] : Fin 4 → Nat) a + S1x1x1x32.size a ≤ S1x5x1x32.size a) :
    Rows (band (View.ld x1 (Rect.unit (s := S5x608x152) ![o, 0, 0] S1x608x152.size i1))
        (View.ld x0 (Rect.unit (s := S5x608x192) ![o, 0, 0] S1x608x192.size i0))
        (View.ld x2 (Rect.unit (s := S1x5x192x32) ![0, o, 0, 0] S1x1x192x32.size i2))
        (View.ld x3 (Rect.unit (s := S1x5x1x32) ![0, o, 0, 0] S1x1x1x32.size i3))
        (View.ld x4 (Rect.unit (s := S1x10x96x32) ![0, oa, 0, 0] S1x1x96x32.size i4a))
        (View.ld x5 (Rect.unit (s := S1x10x1x32) ![0, oa, 0, 0] S1x1x1x32.size i5a))
        (View.ld x4 (Rect.unit (s := S1x10x96x32) ![0, ob, 0, 0] S1x1x96x32.size i4b))
        (View.ld x5 (Rect.unit (s := S1x10x1x32) ![0, ob, 0, 0] S1x1x1x32.size i5b))
        (View.ld x6 (Rect.unit (s := S1x5x96x32) ![0, o, 0, 0] S1x1x96x32.size i6))
        (View.ld x7 (Rect.unit (s := S1x5x1x32) ![0, o, 0, 0] S1x1x1x32.size i7)))
      (fun g => Cert.Spec.h4 x A wi bi wh bh wo bo m ⟨32 * bt.val + g.val, by have := bt.isLt; have := g.isLt; omega⟩ bnd) := by
  have hbt := bt.isLt
  have hg : ∀ (g : Fin 32) (n : Fin 19),
      Cert.Spec.gOf ⟨608 * bt.val + (brow g n).val, by have := (brow g n).isLt; omega⟩
        = ⟨32 * bt.val + g.val, by have := g.isLt; omega⟩ := fun g n => Fin.ext (by
    show (608 * bt.val + (g.val * 19 + n.val)) / 19 = 32 * bt.val + g.val
    have := n.isLt; omega)
  have hn : ∀ (g : Fin 32) (n : Fin 19),
      Cert.Spec.nOf ⟨608 * bt.val + (brow g n).val, by have := (brow g n).isLt; omega⟩ = n := fun g n => Fin.ext (by
    show (608 * bt.val + (g.val * 19 + n.val)) % 19 = n.val
    have := n.isLt; omega)
  refine band_rows _ _ _ _ _ _ _ _ _ _
    (fun g => Cert.Spec.lap A ⟨32 * bt.val + g.val, by have := g.isLt; omega⟩ bnd)
    (fun g => Cert.Spec.xc0 x A ⟨32 * bt.val + g.val, by have := g.isLt; omega⟩ bnd)
    (fun j f => wi (ix4 m bnd j f)) (fun f => bi (ix4 m bnd 0 f))
    (fun j f => wh (ix4 m (Cert.Spec.hid bnd 0) j f)) (fun f => bh (ix4 m (Cert.Spec.hid bnd 0) 0 f))
    (fun j f => wh (ix4 m (Cert.Spec.hid bnd 1) j f)) (fun f => bh (ix4 m (Cert.Spec.hid bnd 1) 0 f))
    (fun j f => wo (ix4 m bnd j f)) (fun f => bo (ix4 m bnd 0 f))
    ?_ ?_ ?_ ?_ ?_ ?_ ?_ ?_ ?_ ?_
  · intro g n cc
    refine (ld3_apply x1 o i1 0 (brow g n) cc bnd ho).trans ((e1 bnd (brow g n) cc).trans ?_)
    rw [hg g n, hn g n]
    refine if_congr ?_ rfl rfl
    show cc.val / 19 = (608 * bt.val + (g.val * 19 + n.val)) / 19 % 8 ↔ cc.val / 19 = g.val % 8
    have := n.isLt; omega
  · intro g n f
    refine (ld3_apply x0 o i0 0 (brow g n) f bnd ho).trans ((e0 bnd (brow g n) f).trans ?_)
    rw [hg g n, hn g n]
  · exact fun j f => (ld4_apply x2 o i2 0 0 j f bnd ho).trans (e2 bnd j f)
  · exact fun f => (ld4_apply x3 o i3 0 0 0 f bnd ho).trans (e3 bnd f)
  · exact fun j f => (ld4_apply x4 oa i4a 0 0 j f (Cert.Spec.hid bnd 0) hoa).trans (e4 _ j f)
  · exact fun f => (ld4_apply x5 oa i5a 0 0 0 f (Cert.Spec.hid bnd 0) hoa).trans (e5 _ f)
  · exact fun j f => (ld4_apply x4 ob i4b 0 0 j f (Cert.Spec.hid bnd 1) hob).trans (e4 _ j f)
  · exact fun f => (ld4_apply x5 ob i5b 0 0 0 f (Cert.Spec.hid bnd 1) hob).trans (e5 _ f)
  · exact fun j f => (ld4_apply x6 o i6 0 0 j f bnd ho).trans (e6 bnd j f)
  · exact fun f => (ld4_apply x7 o i7 0 0 0 f bnd ho).trans (e7 bnd f)

/-- The zero offsets of a whole rank-3 block. -/
theorem hz3 : (![0, 0, 0] : Fin 3 → Nat) = fun _ => 0 := funext fun a => by fin_cases a <;> rfl

/-- The body at tile `bt`, member `m`: entry (graph `g` of the block, feature `l`) of what it stores is
    `Cert.Spec.feats` of graph `32·bt + g`.  The five bands are `Cert.Spec.h4` of that graph row-wise, side by side
    `Cert.Spec.gcn`; row `19·g + n` of the repeated taps is the tap weight of node `n`. -/
theorem point (x0 : Vec Ideal S5x608x192 .f32) (x1 : Vec Ideal S5x608x152 .f32) (x2 : Vec Ideal S1x5x192x32 .f32) (x3 : Vec Ideal S1x5x1x32 .f32)
    (x4 : Vec Ideal S1x10x96x32 .f32) (x5 : Vec Ideal S1x10x1x32 .f32) (x6 : Vec Ideal S1x5x96x32 .f32) (x7 : Vec Ideal S1x5x1x32 .f32)
    (x8 : Vec Ideal S1x3x608x1 .f32) (x9 : Vec Ideal S1x1x1 .f32)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (wtap : (⟨4, ![64, 3, 19, 1]⟩ : Shape).Idx → EReal) (bconv : (⟨3, ![64, 1, 1]⟩ : Shape).Idx → EReal)
    (bt : Fin 8) (m : Fin 64)
    (e0 : ∀ (b : Fin 5) (r : Fin 608) (f : Fin 192), x0 (ix3 b r f)
      = Cert.Spec.xc0 x A (Cert.Spec.gOf ⟨608 * bt.val + r.val, by have := bt.isLt; have := r.isLt; omega⟩) b
          (Cert.Spec.nOf ⟨608 * bt.val + r.val, by have := bt.isLt; have := r.isLt; omega⟩) f)
    (e1 : ∀ (b : Fin 5) (r : Fin 608) (cc : Fin 152), x1 (ix3 b r cc)
      = if cc.val / 19 = (608 * bt.val + r.val) / 19 % 8
        then A (ix4 (Cert.Spec.gOf ⟨608 * bt.val + r.val, by have := bt.isLt; have := r.isLt; omega⟩) b
          (Cert.Spec.nOf ⟨608 * bt.val + r.val, by have := bt.isLt; have := r.isLt; omega⟩) ⟨cc.val % 19, Nat.mod_lt _ (by decide)⟩)
        else Cert.Spec.c0)
    (e2 : ∀ (b : Fin 5) (j : Fin 192) (f : Fin 32), x2 (ix4 0 b j f) = wi (ix4 m b j f))
    (e3 : ∀ (b : Fin 5) (f : Fin 32), x3 (ix4 0 b 0 f) = bi (ix4 m b 0 f))
    (e4 : ∀ (q : Fin 10) (j : Fin 96) (f : Fin 32), x4 (ix4 0 q j f) = wh (ix4 m q j f))
    (e5 : ∀ (q : Fin 10) (f : Fin 32), x5 (ix4 0 q 0 f) = bh (ix4 m q 0 f))
    (e6 : ∀ (b : Fin 5) (j : Fin 96) (f : Fin 32), x6 (ix4 0 b j f) = wo (ix4 m b j f))
    (e7 : ∀ (b : Fin 5) (f : Fin 32), x7 (ix4 0 b 0 f) = bo (ix4 m b 0 f))
    (e8 : ∀ (k : Fin 3) (r : Fin 608), x8 (ix4 0 k r 0) = wtap (ix4 m k ⟨r.val % 19, Nat.mod_lt _ (by decide)⟩ 0))
    (e9 : x9 (ix3 0 0 0) = bconv (ix3 m 0 0)) (g : Fin 32) (l : Fin 158) :
    out1_10 x0 x1 x2 x3 x4 x5 x6 x7 x8 x9 (ix3 0 g l)
      = Cert.Spec.feats x A wi bi wh bh wo bo wtap bconv m ⟨32 * bt.val + g.val, by have := bt.isLt; have := g.isLt; omega⟩ l := by
  rw [Stack.out_eq, View.canon_unit_zero hz3]
  have hs : ∀ (k : Fin 3) (o : Nat) (hk : k.val = o)
      (ik : ∀ a, (![0, o, 0, 0] : Fin 4 → Nat) a + S1x1x608x1.size a ≤ S1x3x608x1.size a) (n : Fin 19),
      View.ld x8 (Rect.unit (s := S1x3x608x1) ![0, o, 0, 0] S1x1x608x1.size ik) (ix4 0 0 (brow g n) 0) = wtap (ix4 m k n 0) :=
    fun k o hk ik n => by
      refine (ld4_apply x8 o ik 0 0 (brow g n) 0 k hk).trans ((e8 k (brow g n)).trans ?_)
      have hn : (⟨(brow g n).val % 19, Nat.mod_lt _ (by decide)⟩ : Fin 19) = n := Fin.ext (by
        show (g.val * 19 + n.val) % 19 = n.val
        have := n.isLt; omega)
      rw [hn]
  refine (body_apply _ _ _ _ _ _ _ _ _
    (fun bnd gg => Cert.Spec.h4 x A wi bi wh bh wo bo m ⟨32 * bt.val + gg.val, by have := bt.isLt; have := gg.isLt; omega⟩ bnd)
    (band_at x0 x1 x2 x3 x4 x5 x6 x7 x A wi bi wh bh wo bo bt m e0 e1 e2 e3 e4 e5 e6 e7 0 0 0 1 rfl rfl rfl
      inb_S5x608x152_S1x608x152_0_0_0 inb_S5x608x192_S1x608x192_0_0_0 inb_S1x5x192x32_S1x1x192x32_0_0_0_0 inb_S1x5x1x32_S1x1x1x32_0_0_0_0
      inb_S1x10x96x32_S1x1x96x32_0_0_0_0 inb_S1x10x1x32_S1x1x1x32_0_0_0_0 inb_S1x10x96x32_S1x1x96x32_0_1_0_0 inb_S1x10x1x32_S1x1x1x32_0_1_0_0
      inb_S1x5x96x32_S1x1x96x32_0_0_0_0 inb_S1x5x1x32_S1x1x1x32_0_0_0_0)
    (band_at x0 x1 x2 x3 x4 x5 x6 x7 x A wi bi wh bh wo bo bt m e0 e1 e2 e3 e4 e5 e6 e7 1 1 2 3 rfl rfl rfl
      inb_S5x608x152_S1x608x152_1_0_0 inb_S5x608x192_S1x608x192_1_0_0 inb_S1x5x192x32_S1x1x192x32_0_1_0_0 inb_S1x5x1x32_S1x1x1x32_0_1_0_0
      inb_S1x10x96x32_S1x1x96x32_0_2_0_0 inb_S1x10x1x32_S1x1x1x32_0_2_0_0 inb_S1x10x96x32_S1x1x96x32_0_3_0_0 inb_S1x10x1x32_S1x1x1x32_0_3_0_0
      inb_S1x5x96x32_S1x1x96x32_0_1_0_0 inb_S1x5x1x32_S1x1x1x32_0_1_0_0)
    (band_at x0 x1 x2 x3 x4 x5 x6 x7 x A wi bi wh bh wo bo bt m e0 e1 e2 e3 e4 e5 e6 e7 2 2 4 5 rfl rfl rfl
      inb_S5x608x152_S1x608x152_2_0_0 inb_S5x608x192_S1x608x192_2_0_0 inb_S1x5x192x32_S1x1x192x32_0_2_0_0 inb_S1x5x1x32_S1x1x1x32_0_2_0_0
      inb_S1x10x96x32_S1x1x96x32_0_4_0_0 inb_S1x10x1x32_S1x1x1x32_0_4_0_0 inb_S1x10x96x32_S1x1x96x32_0_5_0_0 inb_S1x10x1x32_S1x1x1x32_0_5_0_0
      inb_S1x5x96x32_S1x1x96x32_0_2_0_0 inb_S1x5x1x32_S1x1x1x32_0_2_0_0)
    (band_at x0 x1 x2 x3 x4 x5 x6 x7 x A wi bi wh bh wo bo bt m e0 e1 e2 e3 e4 e5 e6 e7 3 3 6 7 rfl rfl rfl
      inb_S5x608x152_S1x608x152_3_0_0 inb_S5x608x192_S1x608x192_3_0_0 inb_S1x5x192x32_S1x1x192x32_0_3_0_0 inb_S1x5x1x32_S1x1x1x32_0_3_0_0
      inb_S1x10x96x32_S1x1x96x32_0_6_0_0 inb_S1x10x1x32_S1x1x1x32_0_6_0_0 inb_S1x10x96x32_S1x1x96x32_0_7_0_0 inb_S1x10x1x32_S1x1x1x32_0_7_0_0
      inb_S1x5x96x32_S1x1x96x32_0_3_0_0 inb_S1x5x1x32_S1x1x1x32_0_3_0_0)
    (band_at x0 x1 x2 x3 x4 x5 x6 x7 x A wi bi wh bh wo bo bt m e0 e1 e2 e3 e4 e5 e6 e7 4 4 8 9 rfl rfl rfl
      inb_S5x608x152_S1x608x152_4_0_0 inb_S5x608x192_S1x608x192_4_0_0 inb_S1x5x192x32_S1x1x192x32_0_4_0_0 inb_S1x5x1x32_S1x1x1x32_0_4_0_0
      inb_S1x10x96x32_S1x1x96x32_0_8_0_0 inb_S1x10x1x32_S1x1x1x32_0_8_0_0 inb_S1x10x96x32_S1x1x96x32_0_9_0_0 inb_S1x10x1x32_S1x1x1x32_0_9_0_0
      inb_S1x5x96x32_S1x1x96x32_0_4_0_0 inb_S1x5x1x32_S1x1x1x32_0_4_0_0)
    g l).trans ?_
  unfold Cert.Spec.feats Cert.Spec.tap Cert.Spec.gcn
  refine congrArg₂ (· + ·) (congrArg₂ (· + ·) (congrArg₂ (· + ·) (congrArg₂ (· + ·) rfl ?_) ?_) ?_) ?_
  · exact Finset.sum_congr rfl fun n _ => congrArg₂ (· * ·) rfl (hs 0 0 rfl inb_S1x3x608x1_S1x1x608x1_0_0_0_0 n)
  · exact Finset.sum_congr rfl fun n _ => congrArg₂ (· * ·) rfl (hs 1 1 rfl inb_S1x3x608x1_S1x1x608x1_0_1_0_0 n)
  · exact Finset.sum_congr rfl fun n _ => congrArg₂ (· * ·) rfl (hs 2 2 rfl inb_S1x3x608x1_S1x1x608x1_0_2_0_0 n)
  · exact (ld3_apply x9 0 inb_S1x1x1_S1x1x1_0_0_0 0 0 0 0 rfl).trans e9

/-! ## From the blocks to the arrays

Point `t` of the 8 × 64 grid is tile `t / 64`, member `t % 64`.  A block's element sits in its array, on each axis, at the
block index times the block's size plus its own coordinate. -/

/-- The grid has 512 points. -/
theorem lt512 (t : Fin cfg1.N) : t.val < 512 := Nat.lt_of_lt_of_eq t.isLt N_1

/-- Window 0's block index at every point: the tile's block on the row axis, block zero on the others. -/
theorem idx0 : ∀ t : Fin cfg1.N, win1_0.index t (0 : Fin 3) = 0 ∧ win1_0.index t (1 : Fin 3) = t.val / 64 ∧ win1_0.index t (2 : Fin 3) = 0 :=
  (by decide +kernel : ∀ t : Fin grid1.N, _)
/-- Window 1's block index at every point: the tile's block on the row axis, block zero on the others. -/
theorem idx1 : ∀ t : Fin cfg1.N, win1_1.index t (0 : Fin 3) = 0 ∧ win1_1.index t (1 : Fin 3) = t.val / 64 ∧ win1_1.index t (2 : Fin 3) = 0 :=
  (by decide +kernel : ∀ t : Fin grid1.N, _)
/-- Window 2's block index at every point: the member's block on the first axis, block zero on the others. -/
theorem idx2 : ∀ t : Fin cfg1.N, win1_2.index t (0 : Fin 4) = t.val % 64 ∧ win1_2.index t (1 : Fin 4) = 0 ∧ win1_2.index t (2 : Fin 4) = 0 ∧ win1_2.index t (3 : Fin 4) = 0 :=
  (by decide +kernel : ∀ t : Fin grid1.N, _)
/-- Window 3's block index at every point: the member's block on the first axis, block zero on the others. -/
theorem idx3 : ∀ t : Fin cfg1.N, win1_3.index t (0 : Fin 4) = t.val % 64 ∧ win1_3.index t (1 : Fin 4) = 0 ∧ win1_3.index t (2 : Fin 4) = 0 ∧ win1_3.index t (3 : Fin 4) = 0 :=
  (by decide +kernel : ∀ t : Fin grid1.N, _)
/-- Window 4's block index at every point: the member's block on the first axis, block zero on the others. -/
theorem idx4 : ∀ t : Fin cfg1.N, win1_4.index t (0 : Fin 4) = t.val % 64 ∧ win1_4.index t (1 : Fin 4) = 0 ∧ win1_4.index t (2 : Fin 4) = 0 ∧ win1_4.index t (3 : Fin 4) = 0 :=
  (by decide +kernel : ∀ t : Fin grid1.N, _)
/-- Window 5's block index at every point: the member's block on the first axis, block zero on the others. -/
theorem idx5 : ∀ t : Fin cfg1.N, win1_5.index t (0 : Fin 4) = t.val % 64 ∧ win1_5.index t (1 : Fin 4) = 0 ∧ win1_5.index t (2 : Fin 4) = 0 ∧ win1_5.index t (3 : Fin 4) = 0 :=
  (by decide +kernel : ∀ t : Fin grid1.N, _)
/-- Window 6's block index at every point: the member's block on the first axis, block zero on the others. -/
theorem idx6 : ∀ t : Fin cfg1.N, win1_6.index t (0 : Fin 4) = t.val % 64 ∧ win1_6.index t (1 : Fin 4) = 0 ∧ win1_6.index t (2 : Fin 4) = 0 ∧ win1_6.index t (3 : Fin 4) = 0 :=
  (by decide +kernel : ∀ t : Fin grid1.N, _)
/-- Window 7's block index at every point: the member's block on the first axis, block zero on the others. -/
theorem idx7 : ∀ t : Fin cfg1.N, win1_7.index t (0 : Fin 4) = t.val % 64 ∧ win1_7.index t (1 : Fin 4) = 0 ∧ win1_7.index t (2 : Fin 4) = 0 ∧ win1_7.index t (3 : Fin 4) = 0 :=
  (by decide +kernel : ∀ t : Fin grid1.N, _)
/-- Window 8's block index at every point: the member's block on the first axis, block zero on the others. -/
theorem idx8 : ∀ t : Fin cfg1.N, win1_8.index t (0 : Fin 4) = t.val % 64 ∧ win1_8.index t (1 : Fin 4) = 0 ∧ win1_8.index t (2 : Fin 4) = 0 ∧ win1_8.index t (3 : Fin 4) = 0 :=
  (by decide +kernel : ∀ t : Fin grid1.N, _)
/-- Window 9's block index at every point: the member's block on the first axis, block zero on the others. -/
theorem idx9 : ∀ t : Fin cfg1.N, win1_9.index t (0 : Fin 3) = t.val % 64 ∧ win1_9.index t (1 : Fin 3) = 0 ∧ win1_9.index t (2 : Fin 3) = 0 :=
  (by decide +kernel : ∀ t : Fin grid1.N, _)
/-- Window 10's block index at every point: the member's block on the first axis, the tile's on the second. -/
theorem idx10 : ∀ t : Fin cfg1.N, win1_10.index t (0 : Fin 3) = t.val % 64 ∧ win1_10.index t (1 : Fin 3) = t.val / 64 ∧ win1_10.index t (2 : Fin 3) = 0 :=
  (by decide +kernel : ∀ t : Fin grid1.N, _)

section Blocks

variable (V : (c : Dev nD) → (b : Ref sig .tc) → Buf (Elt Ideal) ((c : Thread nD τ).loc b)) (c : Dev nD)

/-- Window 0's block at point `t`: row `r` of the tile's block is row `608·(t / 64) + r` of the array. -/
theorem blk0_apply (t : Fin cfg1.N) (b : Fin 5) (r : Fin 608) (f : Fin 192) :
    (iblk1 V c 0 t : Vec Ideal S5x608x192 .f32) (ix3 b r f)
      = (V c main_v7_0 : S5x4864x192.Idx → EReal) (ix3 b ⟨608 * (t.val / 64) + r.val, by have := lt512 t; have := r.isLt; omega⟩ f) := by
  obtain ⟨i0, i1, i2⟩ := idx0 t
  unfold iblk1
  rw [View.read_apply]
  show V c main_v7_0 _ = V c main_v7_0 _
  congr 1
  funext a; apply Fin.ext
  match a with
  | ⟨0, _⟩ => show win1_0.index t (0 : Fin 3) * 5 + 1 * b.val = b.val; rw [i0]; omega
  | ⟨1, _⟩ => show win1_0.index t (1 : Fin 3) * 608 + 1 * r.val = 608 * (t.val / 64) + r.val; rw [i1]; omega
  | ⟨2, _⟩ => show win1_0.index t (2 : Fin 3) * 192 + 1 * f.val = f.val; rw [i2]; omega

/-- Window 1's block at point `t`: row `r` of the tile's block is row `608·(t / 64) + r` of the array. -/
theorem blk1_apply (t : Fin cfg1.N) (b : Fin 5) (r : Fin 608) (f : Fin 152) :
    (iblk1 V c 1 t : Vec Ideal S5x608x152 .f32) (ix3 b r f)
      = (V c main_v7_1 : S5x4864x152.Idx → EReal) (ix3 b ⟨608 * (t.val / 64) + r.val, by have := lt512 t; have := r.isLt; omega⟩ f) := by
  obtain ⟨i0, i1, i2⟩ := idx1 t
  unfold iblk1
  rw [View.read_apply]
  show V c main_v7_1 _ = V c main_v7_1 _
  congr 1
  funext a; apply Fin.ext
  match a with
  | ⟨0, _⟩ => show win1_1.index t (0 : Fin 3) * 5 + 1 * b.val = b.val; rw [i0]; omega
  | ⟨1, _⟩ => show win1_1.index t (1 : Fin 3) * 608 + 1 * r.val = 608 * (t.val / 64) + r.val; rw [i1]; omega
  | ⟨2, _⟩ => show win1_1.index t (2 : Fin 3) * 152 + 1 * f.val = f.val; rw [i2]; omega

/-- Window 2's block at point `t`: the block is member `t % 64`'s slab of the array. -/
theorem blk2_apply (t : Fin cfg1.N) (u : Fin 1) (a1 : Fin 5) (a2 : Fin 192) (a3 : Fin 32) :
    (iblk1 V c 2 t : Vec Ideal S1x5x192x32 .f32) (ix4 u a1 a2 a3)
      = (V c main_arg2 : S64x5x192x32.Idx → EReal) (ix4 ⟨t.val % 64, Nat.mod_lt _ (by decide)⟩ a1 a2 a3) := by
  obtain ⟨i0, i1, i2, i3⟩ := idx2 t
  unfold iblk1
  rw [View.read_apply]
  show V c main_arg2 _ = V c main_arg2 _
  congr 1
  funext a; apply Fin.ext
  match a with
  | ⟨0, _⟩ => show win1_2.index t (0 : Fin 4) * 1 + 1 * u.val = t.val % 64; rw [i0]; have := u.isLt; omega
  | ⟨1, _⟩ => show win1_2.index t (1 : Fin 4) * 5 + 1 * a1.val = a1.val; rw [i1]; omega
  | ⟨2, _⟩ => show win1_2.index t (2 : Fin 4) * 192 + 1 * a2.val = a2.val; rw [i2]; omega
  | ⟨3, _⟩ => show win1_2.index t (3 : Fin 4) * 32 + 1 * a3.val = a3.val; rw [i3]; omega

/-- Window 3's block at point `t`: the block is member `t % 64`'s slab of the array. -/
theorem blk3_apply (t : Fin cfg1.N) (u : Fin 1) (a1 : Fin 5) (a2 : Fin 1) (a3 : Fin 32) :
    (iblk1 V c 3 t : Vec Ideal S1x5x1x32 .f32) (ix4 u a1 a2 a3)
      = (V c main_arg3 : S64x5x1x32.Idx → EReal) (ix4 ⟨t.val % 64, Nat.mod_lt _ (by decide)⟩ a1 a2 a3) := by
  obtain ⟨i0, i1, i2, i3⟩ := idx3 t
  unfold iblk1
  rw [View.read_apply]
  show V c main_arg3 _ = V c main_arg3 _
  congr 1
  funext a; apply Fin.ext
  match a with
  | ⟨0, _⟩ => show win1_3.index t (0 : Fin 4) * 1 + 1 * u.val = t.val % 64; rw [i0]; have := u.isLt; omega
  | ⟨1, _⟩ => show win1_3.index t (1 : Fin 4) * 5 + 1 * a1.val = a1.val; rw [i1]; omega
  | ⟨2, _⟩ => show win1_3.index t (2 : Fin 4) * 1 + 1 * a2.val = a2.val; rw [i2]; omega
  | ⟨3, _⟩ => show win1_3.index t (3 : Fin 4) * 32 + 1 * a3.val = a3.val; rw [i3]; omega

/-- Window 4's block at point `t`: the block is member `t % 64`'s slab of the array. -/
theorem blk4_apply (t : Fin cfg1.N) (u : Fin 1) (a1 : Fin 10) (a2 : Fin 96) (a3 : Fin 32) :
    (iblk1 V c 4 t : Vec Ideal S1x10x96x32 .f32) (ix4 u a1 a2 a3)
      = (V c main_arg4 : S64x10x96x32.Idx → EReal) (ix4 ⟨t.val % 64, Nat.mod_lt _ (by decide)⟩ a1 a2 a3) := by
  obtain ⟨i0, i1, i2, i3⟩ := idx4 t
  unfold iblk1
  rw [View.read_apply]
  show V c main_arg4 _ = V c main_arg4 _
  congr 1
  funext a; apply Fin.ext
  match a with
  | ⟨0, _⟩ => show win1_4.index t (0 : Fin 4) * 1 + 1 * u.val = t.val % 64; rw [i0]; have := u.isLt; omega
  | ⟨1, _⟩ => show win1_4.index t (1 : Fin 4) * 10 + 1 * a1.val = a1.val; rw [i1]; omega
  | ⟨2, _⟩ => show win1_4.index t (2 : Fin 4) * 96 + 1 * a2.val = a2.val; rw [i2]; omega
  | ⟨3, _⟩ => show win1_4.index t (3 : Fin 4) * 32 + 1 * a3.val = a3.val; rw [i3]; omega

/-- Window 5's block at point `t`: the block is member `t % 64`'s slab of the array. -/
theorem blk5_apply (t : Fin cfg1.N) (u : Fin 1) (a1 : Fin 10) (a2 : Fin 1) (a3 : Fin 32) :
    (iblk1 V c 5 t : Vec Ideal S1x10x1x32 .f32) (ix4 u a1 a2 a3)
      = (V c main_arg5 : S64x10x1x32.Idx → EReal) (ix4 ⟨t.val % 64, Nat.mod_lt _ (by decide)⟩ a1 a2 a3) := by
  obtain ⟨i0, i1, i2, i3⟩ := idx5 t
  unfold iblk1
  rw [View.read_apply]
  show V c main_arg5 _ = V c main_arg5 _
  congr 1
  funext a; apply Fin.ext
  match a with
  | ⟨0, _⟩ => show win1_5.index t (0 : Fin 4) * 1 + 1 * u.val = t.val % 64; rw [i0]; have := u.isLt; omega
  | ⟨1, _⟩ => show win1_5.index t (1 : Fin 4) * 10 + 1 * a1.val = a1.val; rw [i1]; omega
  | ⟨2, _⟩ => show win1_5.index t (2 : Fin 4) * 1 + 1 * a2.val = a2.val; rw [i2]; omega
  | ⟨3, _⟩ => show win1_5.index t (3 : Fin 4) * 32 + 1 * a3.val = a3.val; rw [i3]; omega

/-- Window 6's block at point `t`: the block is member `t % 64`'s slab of the array. -/
theorem blk6_apply (t : Fin cfg1.N) (u : Fin 1) (a1 : Fin 5) (a2 : Fin 96) (a3 : Fin 32) :
    (iblk1 V c 6 t : Vec Ideal S1x5x96x32 .f32) (ix4 u a1 a2 a3)
      = (V c main_arg6 : S64x5x96x32.Idx → EReal) (ix4 ⟨t.val % 64, Nat.mod_lt _ (by decide)⟩ a1 a2 a3) := by
  obtain ⟨i0, i1, i2, i3⟩ := idx6 t
  unfold iblk1
  rw [View.read_apply]
  show V c main_arg6 _ = V c main_arg6 _
  congr 1
  funext a; apply Fin.ext
  match a with
  | ⟨0, _⟩ => show win1_6.index t (0 : Fin 4) * 1 + 1 * u.val = t.val % 64; rw [i0]; have := u.isLt; omega
  | ⟨1, _⟩ => show win1_6.index t (1 : Fin 4) * 5 + 1 * a1.val = a1.val; rw [i1]; omega
  | ⟨2, _⟩ => show win1_6.index t (2 : Fin 4) * 96 + 1 * a2.val = a2.val; rw [i2]; omega
  | ⟨3, _⟩ => show win1_6.index t (3 : Fin 4) * 32 + 1 * a3.val = a3.val; rw [i3]; omega

/-- Window 7's block at point `t`: the block is member `t % 64`'s slab of the array. -/
theorem blk7_apply (t : Fin cfg1.N) (u : Fin 1) (a1 : Fin 5) (a2 : Fin 1) (a3 : Fin 32) :
    (iblk1 V c 7 t : Vec Ideal S1x5x1x32 .f32) (ix4 u a1 a2 a3)
      = (V c main_arg7 : S64x5x1x32.Idx → EReal) (ix4 ⟨t.val % 64, Nat.mod_lt _ (by decide)⟩ a1 a2 a3) := by
  obtain ⟨i0, i1, i2, i3⟩ := idx7 t
  unfold iblk1
  rw [View.read_apply]
  show V c main_arg7 _ = V c main_arg7 _
  congr 1
  funext a; apply Fin.ext
  match a with
  | ⟨0, _⟩ => show win1_7.index t (0 : Fin 4) * 1 + 1 * u.val = t.val % 64; rw [i0]; have := u.isLt; omega
  | ⟨1, _⟩ => show win1_7.index t (1 : Fin 4) * 5 + 1 * a1.val = a1.val; rw [i1]; omega
  | ⟨2, _⟩ => show win1_7.index t (2 : Fin 4) * 1 + 1 * a2.val = a2.val; rw [i2]; omega
  | ⟨3, _⟩ => show win1_7.index t (3 : Fin 4) * 32 + 1 * a3.val = a3.val; rw [i3]; omega

/-- Window 8's block at point `t`: the block is member `t % 64`'s slab of the array. -/
theorem blk8_apply (t : Fin cfg1.N) (u : Fin 1) (a1 : Fin 3) (a2 : Fin 608) (a3 : Fin 1) :
    (iblk1 V c 8 t : Vec Ideal S1x3x608x1 .f32) (ix4 u a1 a2 a3)
      = (V c main_v6 : S64x3x608x1.Idx → EReal) (ix4 ⟨t.val % 64, Nat.mod_lt _ (by decide)⟩ a1 a2 a3) := by
  obtain ⟨i0, i1, i2, i3⟩ := idx8 t
  unfold iblk1
  rw [View.read_apply]
  show V c main_v6 _ = V c main_v6 _
  congr 1
  funext a; apply Fin.ext
  match a with
  | ⟨0, _⟩ => show win1_8.index t (0 : Fin 4) * 1 + 1 * u.val = t.val % 64; rw [i0]; have := u.isLt; omega
  | ⟨1, _⟩ => show win1_8.index t (1 : Fin 4) * 3 + 1 * a1.val = a1.val; rw [i1]; omega
  | ⟨2, _⟩ => show win1_8.index t (2 : Fin 4) * 608 + 1 * a2.val = a2.val; rw [i2]; omega
  | ⟨3, _⟩ => show win1_8.index t (3 : Fin 4) * 1 + 1 * a3.val = a3.val; rw [i3]; omega

/-- Window 9's block at point `t`: the block is member `t % 64`'s slab of the array. -/
theorem blk9_apply (t : Fin cfg1.N) (u a1 a2 : Fin 1) :
    (iblk1 V c 9 t : Vec Ideal S1x1x1 .f32) (ix3 u a1 a2)
      = (V c main_arg9 : S64x1x1.Idx → EReal) (ix3 ⟨t.val % 64, Nat.mod_lt _ (by decide)⟩ a1 a2) := by
  obtain ⟨i0, i1, i2⟩ := idx9 t
  unfold iblk1
  rw [View.read_apply]
  show V c main_arg9 _ = V c main_arg9 _
  congr 1
  funext a; apply Fin.ext
  match a with
  | ⟨0, _⟩ => show win1_9.index t (0 : Fin 3) * 1 + 1 * u.val = t.val % 64; rw [i0]; have := u.isLt; omega
  | ⟨1, _⟩ => show win1_9.index t (1 : Fin 3) * 1 + 1 * a1.val = a1.val; rw [i1]; omega
  | ⟨2, _⟩ => show win1_9.index t (2 : Fin 3) * 1 + 1 * a2.val = a2.val; rw [i2]; omega

end Blocks

section Region

variable (V : (c : Dev nD) → (b : Ref sig .tc) → Buf (Elt Ideal) ((c : Thread nD τ).loc b)) (c : Dev nD)

/-- What point `t` writes back is its block of the filtered features: rows `32·(t / 64) …` of member `t % 64`. -/
theorem flushed_eq (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (wtap : (⟨4, ![64, 3, 19, 1]⟩ : Shape).Idx → EReal) (bconv : (⟨3, ![64, 1, 1]⟩ : Shape).Idx → EReal)
    (h0 : (V c main_v7_0 : S5x4864x192.Idx → EReal) = Cert.Spec.XCarr x A)
    (h1 : (V c main_v7_1 : S5x4864x152.Idx → EReal) = Cert.Spec.BDarr A)
    (h2 : (V c main_arg2 : S64x5x192x32.Idx → EReal) = wi) (h3 : (V c main_arg3 : S64x5x1x32.Idx → EReal) = bi)
    (h4 : (V c main_arg4 : S64x10x96x32.Idx → EReal) = wh) (h5 : (V c main_arg5 : S64x10x1x32.Idx → EReal) = bh)
    (h6 : (V c main_arg6 : S64x5x96x32.Idx → EReal) = wo) (h7 : (V c main_arg7 : S64x5x1x32.Idx → EReal) = bo)
    (h8 : (V c main_v6 : S64x3x608x1.Idx → EReal) = Cert.Spec.SELarr wtap)
    (h9 : (V c main_arg9 : S64x1x1.Idx → EReal) = bconv) (t : Fin cfg1.N) :
    (dat1 (F := Ideal) V c).flushed 10 t
      = ((cfg1.win 10).blk t).view.read (Elt Ideal) (Cert.Spec.FEATSarr x A wi bi wh bh wo bo wtap bconv) := by
  have ht := lt512 t
  obtain ⟨j0, j1, j2⟩ := idx10 t
  show (cfg1.win 10).cut (grid1.coords t) ((dat1 V c).after 10 t) = _
  rw [after1_10]
  funext y
  have hy0 : (y 0).val < 1 := (y 0).isLt
  have hy1 : (y 1).val < 32 := (y 1).isLt
  have hy2 : (y 2).val < 158 := (y 2).isLt
  have e : ((cfg1.win 10).xinj (grid1.coords t) y : S1x32x158.Idx) = ix3 0 ⟨(y 1).val, hy1⟩ ⟨(y 2).val, hy2⟩ :=
    funext fun a => Fin.ext (by
      match a with
      | ⟨0, _⟩ => show (y 0).val = 0; omega
      | ⟨1, _⟩ => rfl
      | ⟨2, _⟩ => rfl)
  refine (congrArg (out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) e).trans ?_
  refine (point (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) x A wi bi wh bh wo bo wtap bconv
    ⟨t.val / 64, by omega⟩ ⟨t.val % 64, Nat.mod_lt _ (by decide)⟩
    (fun b r f => (blk0_apply V c t b r f).trans (congrFun h0 _))
    (fun b r cc => (blk1_apply V c t b r cc).trans (congrFun h1 _))
    (fun b j f => (blk2_apply V c t 0 b j f).trans (congrFun h2 _))
    (fun b f => (blk3_apply V c t 0 b 0 f).trans (congrFun h3 _))
    (fun q j f => (blk4_apply V c t 0 q j f).trans (congrFun h4 _))
    (fun q f => (blk5_apply V c t 0 q 0 f).trans (congrFun h5 _))
    (fun b j f => (blk6_apply V c t 0 b j f).trans (congrFun h6 _))
    (fun b f => (blk7_apply V c t 0 b 0 f).trans (congrFun h7 _))
    (fun k r => (blk8_apply V c t 0 k r 0).trans (congrFun h8 _))
    ((blk9_apply V c t 0 0 0).trans (congrFun h9 _))
    ⟨(y 1).val, hy1⟩ ⟨(y 2).val, hy2⟩).trans ?_
  rw [View.read_apply]
  show Cert.Spec.FEATSarr x A wi bi wh bh wo bo wtap bconv
      (ix3 ⟨t.val % 64, Nat.mod_lt _ (by decide)⟩ ⟨32 * (t.val / 64) + (y 1).val, by omega⟩ ⟨(y 2).val, hy2⟩)
    = Cert.Spec.FEATSarr x A wi bi wh bh wo bo wtap bconv (((cfg1.win 10).blk t).view.emb y)
  congr 1
  funext a; apply Fin.ext
  match a with
  | ⟨0, _⟩ => show t.val % 64 = win1_10.index t (0 : Fin 3) * 1 + 1 * (y 0).val; rw [j0]; omega
  | ⟨1, _⟩ => show 32 * (t.val / 64) + (y 1).val = win1_10.index t (1 : Fin 3) * 32 + 1 * (y 1).val; rw [j1]; omega
  | ⟨2, _⟩ => show (y 2).val = win1_10.index t (2 : Fin 3) * 158 + 1 * (y 2).val; rw [j2]; omega

/-- An index of the output array is in point `t`'s block iff each coordinate is in the block's range on its axis. -/
theorem mem_blk (t : Fin cfg1.N) (i : S64x256x158.Idx) :
    i ∈ ((cfg1.win 10).blk t).view.set
      ↔ ∀ a : Fin 3, win1_10.index t a * S1x32x158.size a ≤ (i a).val ∧ (i a).val < win1_10.index t a * S1x32x158.size a + S1x32x158.size a := by
  show i ∈ ((View.whole main_v8).slice (win1_10.rect t)).set ↔ _
  rw [View.set_slice_whole, Rect.mem_set_unit]
  exact Iff.rfl

end Region

/-- Entered with the first kernel's two arrays, the weights and the repeated taps, the region leaves the filtered
    features of every member and graph. -/
theorem final (V : (c : Dev nD) → (b : Ref sig .tc) → Buf (Elt Ideal) ((c : Thread nD τ).loc b)) (c : Dev nD)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (wtap : (⟨4, ![64, 3, 19, 1]⟩ : Shape).Idx → EReal) (bconv : (⟨3, ![64, 1, 1]⟩ : Shape).Idx → EReal)
    (h0 : (V c main_v7_0 : S5x4864x192.Idx → EReal) = Cert.Spec.XCarr x A)
    (h1 : (V c main_v7_1 : S5x4864x152.Idx → EReal) = Cert.Spec.BDarr A)
    (h2 : (V c main_arg2 : S64x5x192x32.Idx → EReal) = wi) (h3 : (V c main_arg3 : S64x5x1x32.Idx → EReal) = bi)
    (h4 : (V c main_arg4 : S64x10x96x32.Idx → EReal) = wh) (h5 : (V c main_arg5 : S64x10x1x32.Idx → EReal) = bh)
    (h6 : (V c main_arg6 : S64x5x96x32.Idx → EReal) = wo) (h7 : (V c main_arg7 : S64x5x1x32.Idx → EReal) = bo)
    (h8 : (V c main_v6 : S64x3x608x1.Idx → EReal) = Cert.Spec.SELarr wtap)
    (h9 : (V c main_arg9 : S64x1x1.Idx → EReal) = bconv) :
    ((dat1 (F := Ideal) V c).arrAt 10 cfg1.N : S64x256x158.Idx → EReal) = Cert.Spec.FEATSarr x A wi bi wh bh wo bo wtap bconv := by
  refine (dat1 (F := Ideal) V c).arrAt_eq_of_cover 10 (Cert.Spec.FEATSarr x A wi bi wh bh wo bo wtap bconv)
    (fun t _ => flushed_eq V c x A wi bi wh bh wo bo wtap bconv h0 h1 h2 h3 h4 h5 h6 h7 h8 h9 t) fun i => ?_
  have hi0 : (i 0).val < 64 := (i 0).isLt
  have hi1 : (i 1).val < 256 := (i 1).isLt
  have hi2 : (i 2).val < 158 := (i 2).isLt
  have hN : cfg1.N = 512 := N_1
  refine ⟨⟨64 * ((i 1).val / 32) + (i 0).val, by rw [hN]; omega⟩, flush1_10 _, ?_⟩
  rw [mem_blk]
  obtain ⟨j0, j1, j2⟩ := idx10 ⟨64 * ((i 1).val / 32) + (i 0).val, by rw [hN]; omega⟩
  intro a
  match a with
  | ⟨0, _⟩ =>
    show win1_10.index _ (0 : Fin 3) * 1 ≤ (i 0).val ∧ (i 0).val < win1_10.index _ (0 : Fin 3) * 1 + 1
    rw [j0]; show (64 * ((i 1).val / 32) + (i 0).val) % 64 * 1 ≤ (i 0).val ∧ (i 0).val < (64 * ((i 1).val / 32) + (i 0).val) % 64 * 1 + 1
    omega
  | ⟨1, _⟩ =>
    show win1_10.index _ (1 : Fin 3) * 32 ≤ (i 1).val ∧ (i 1).val < win1_10.index _ (1 : Fin 3) * 32 + 32
    rw [j1]; show (64 * ((i 1).val / 32) + (i 0).val) / 64 * 32 ≤ (i 1).val ∧ (i 1).val < (64 * ((i 1).val / 32) + (i 0).val) / 64 * 32 + 32
    omega
  | ⟨2, _⟩ =>
    show win1_10.index _ (2 : Fin 3) * 158 ≤ (i 2).val ∧ (i 2).val < win1_10.index _ (2 : Fin 3) * 158 + 158
    rw [j2]; omega

end Cert.KernelIdeal.StackVal

end
-- ==== Proof.KHead.lean ====
/-
  The last kernel: per ensemble member, the 256 × 158 filtered features are normalised over the batch (mean and biased
  variance down each column, `(f − mean) · rsqrt(var + ε)`), scaled and shifted per column, and mapped to 8 logits by a
  158 × 8 matrix plus a bias.  Written as one vector function `head`; the generated payload is that function of the
  loaded blocks, by unfolding.  The function is never opened at an index: both programs apply the same one.
-/
import proofs.«124497_g2000206817317674_pallasbulk_294_10_alg».proof.Proof.Gen.KernelIdeal.Frame
import Idealize.ShloMosaic.Lib.ValueIdx
import Idealize.ShloMosaic.Lib.Pipeline.Value

set_option maxRecDepth 65536

noncomputable section

namespace Cert.KernelIdeal.Head

open Idealize.ShloMosaic Idealize.ShloMosaic.TcCoe Idealize.SL.Sem
open Idealize.ShloMosaic.ValueIdx
open Cert.KernelIdeal Cert.KernelIdeal.Gen

variable {F : FTy → Type} [FloatOps F]

/-- Batch normalisation down the columns, the per-column affine map, the final linear map and bias. -/
def head (f : FVec F S256x158 .f32) (g : FVec F S1x158 .f32) (be : FVec F S1x158 .f32) (w : FVec F S158x8 .f32) (cb : FVec F S1x8 .f32) :
    FVec F S256x8 .f32 :=
  have v2 : FVec F S158 .f32 := multiReduction .add [0] S158 f 0x00000000#32 reduces_S256x158_S158 (.inl rfl) rfl
  have v3 : FVec F S1x158 .f32 := shapeCast S1x158 v2 shapeCasts_S158_S1x158
  have v5 : FVec F S1x158 .f32 := divf v3 (broadcast S1x158 (Scalar.ofBits .f32 0x43800000#32))
  have v7 : FVec F S256x158 .f32 := subf f (broadcastTo S256x158 v5 broadcasts_S1x158_S256x158)
  have v8 : FVec F S256x158 .f32 := mulf v7 v7
  have v9 : FVec F S158 .f32 := multiReduction .add [0] S158 v8 0x00000000#32 reduces_S256x158_S158 (.inl rfl) rfl
  have v10 : FVec F S1x158 .f32 := shapeCast S1x158 v9 shapeCasts_S158_S1x158
  have v12 : FVec F S1x158 .f32 := divf v10 (broadcast S1x158 (Scalar.ofBits .f32 0x43800000#32))
  have v14 : FVec F S256x158 .f32 := subf f (broadcastTo S256x158 v5 broadcasts_S1x158_S256x158)
  have v16 : FVec F S1x158 .f32 := addf v12 (broadcast S1x158 (Scalar.ofBits .f32 0x3727C5AC#32))
  have v17 : FVec F S1x158 .f32 := rsqrt v16
  have v19 : FVec F S256x158 .f32 := mulf v14 (broadcastTo S256x158 v17 broadcasts_S1x158_S256x158)
  have v23 : FVec F S256x158 .f32 := mulf v19 (broadcastTo S256x158 g broadcasts_S1x158_S256x158)
  have v27 : FVec F S256x158 .f32 := addf v23 (broadcastTo S256x158 be broadcasts_S1x158_S256x158)
  have v30 : FVec F S256x8 .f32 := matmul dot_S256x158_S158x8_S256x8_1_0_0_1_n_n none v27 w (constant S256x8 .f32 0x00000000#32)
  addf v30 (broadcastTo S256x8 cb broadcasts_S1x8_S256x8)

/-- What the generated frame leaves in the output block: `head` of the loaded blocks with their unit axes dropped. -/
theorem out_eq (x0 : Vec F S1x256x158 .f32) (x1 : Vec F S1x1x158 .f32) (x2 : Vec F S1x1x158 .f32) (x3 : Vec F S1x158x8 .f32) (x4 : Vec F S1x1x8 .f32) :
    out2_5 x0 x1 x2 x3 x4 = View.canon [⟨r2_4, shapeCast S1x256x8
      (head (shapeCast S256x158 (View.ld x0 r2_0) shapeCasts_S1x256x158_S256x158)
        (shapeCast S1x158 (View.ld x1 r2_1) shapeCasts_S1x1x158_S1x158) (shapeCast S1x158 (View.ld x2 r2_1) shapeCasts_S1x1x158_S1x158)
        (shapeCast S158x8 (View.ld x3 r2_2) shapeCasts_S1x158x8_S158x8) (shapeCast S1x8 (View.ld x4 r2_3) shapeCasts_S1x1x8_S1x8))
      shapeCasts_S256x8_S1x256x8⟩] := rfl

/-- Every member's logits from the whole arrays: member `m`'s 256 × 8 block is `head` of member `m`'s slices. -/
def logits (f : (⟨3, ![64, 256, 158]⟩ : Shape).Idx → EReal) (ga be : (⟨3, ![64, 1, 158]⟩ : Shape).Idx → EReal)
    (fw : (⟨3, ![64, 158, 8]⟩ : Shape).Idx → EReal) (fb : (⟨3, ![64, 1, 8]⟩ : Shape).Idx → EReal) :
    (⟨3, ![64, 256, 8]⟩ : Shape).Idx → EReal :=
  fun i => head (F := Ideal) (fun j => f (ix3 (i 0) (j 0) (j 1))) (fun j => ga (ix3 (i 0) (j 0) (j 1)))
    (fun j => be (ix3 (i 0) (j 0) (j 1))) (fun j => fw (ix3 (i 0) (j 0) (j 1))) (fun j => fb (ix3 (i 0) (j 0) (j 1))) (ix2 (i 1) (i 2))

/-! ## From blocks to the whole arrays

Every window of this kernel has a block of extent one along the member axis and the array's full extent on the other two,
and steps along the member axis with the grid: grid point t reads member t's slice of each input and writes member
t's 256 × 8 logits. -/

/-- The zero offsets of a whole rank-3 block. -/
theorem zero3 : (![0, 0, 0] : Fin 3 → Nat) = fun _ => 0 := funext fun a => by fin_cases a <;> rfl

/-- At grid point t each window's block index is (t, 0, 0) (decided over the 64 points). -/
theorem index_eq : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0)
    ∧ (win2_4.index t (0 : Fin 3) = t.val ∧ win2_4.index t (1 : Fin 3) = 0 ∧ win2_4.index t (2 : Fin 3) = 0)
    ∧ (win2_5.index t (0 : Fin 3) = t.val ∧ win2_5.index t (1 : Fin 3) = 0 ∧ win2_5.index t (2 : Fin 3) = 0) :=
  (by decide +kernel : ∀ t : Fin grid2.N, _)

/-- The ensemble member grid point t works on. -/
def member (t : Fin cfg2.N) : Fin 64 := ⟨t.val, t.isLt.trans_eq N_2⟩

/-- A block of extent one along its first axis, that axis dropped, read at (p, q) is the block at (0, p, q). -/
theorem dropUnit_apply {α : Type} {n1 n2 : Nat} (x : (⟨3, ![1, n1, n2]⟩ : Shape).Idx → α)
    (h : (⟨3, ![1, n1, n2]⟩ : Shape).ShapeCasts ⟨2, ![n1, n2]⟩) (p : Fin n1) (q : Fin n2) :
    shapeCast ⟨2, ![n1, n2]⟩ x h (ix2 p q) = x (ix3 (0 : Fin 1) p q) := by
  refine shapeCast_apply x h (ix2 p q) (ix3 (0 : Fin 1) p q) ?_
  rw [Shape.rowMajor_val_three, Shape.rowMajor_val_two]
  show (0 * n1 + p.val) * n2 + q.val = p.val * n2 + q.val
  rw [Nat.zero_mul, Nat.zero_add]

/-- A 2-axis value stored as a block of extent one along a new first axis, read at y, is the value at (y 1, y 2). -/
theorem addUnit_apply {α : Type} {n1 n2 : Nat} (v : (⟨2, ![n1, n2]⟩ : Shape).Idx → α)
    (h : (⟨2, ![n1, n2]⟩ : Shape).ShapeCasts ⟨3, ![1, n1, n2]⟩) (y : (⟨3, ![1, n1, n2]⟩ : Shape).Idx) :
    shapeCast ⟨3, ![1, n1, n2]⟩ v h y = v (ix2 (y 1) (y 2)) := by
  refine shapeCast_apply v h y (ix2 (y 1) (y 2)) ?_
  have h0 : (y 0).val = 0 := Nat.lt_one_iff.mp (y 0).isLt
  rw [Shape.rowMajor_val_three, Shape.rowMajor_val_two, h0]
  show (y 1).val * n2 + (y 2).val = (0 * n1 + (y 1).val) * n2 + (y 2).val
  rw [Nat.zero_mul, Nat.zero_add]

section Blocks

variable (V : (c : Dev nD) → (b : Ref sig .tc) → Buf (Elt Ideal) ((c : Thread nD τ).loc b)) (c : Dev nD) (t : Fin cfg2.N)

/-- The feature block at grid point t is member t's 256 × 158 slice of its array. -/
theorem block0_apply (p : Fin 256) (q : Fin 158) :
    (iblk2 (F := Ideal) V c 0 t : S1x256x158.Idx → EReal) (ix3 (0 : Fin 1) p q)
      = (V c main_v8 : S64x256x158.Idx → EReal) (ix3 (member t) p q) := by
  obtain ⟨⟨e0, e1, e2⟩, -, -, -, -, -⟩ := index_eq t
  unfold iblk2
  rw [View.read_apply]
  show (V c main_v8 : S64x256x158.Idx → EReal) _ = (V c main_v8 : S64x256x158.Idx → EReal) _
  refine congrArg _ (funext fun a => Fin.ext ?_)
  match a with
  | ⟨0, _⟩ => show win2_0.index t (0 : Fin 3) * 1 + 1 * 0 = t.val; omega
  | ⟨1, _⟩ => show win2_0.index t (1 : Fin 3) * 256 + 1 * p.val = p.val; omega
  | ⟨2, _⟩ => show win2_0.index t (2 : Fin 3) * 158 + 1 * q.val = q.val; omega

/-- So that block, loaded whole and its unit axis dropped, is the member's slice as a function of two coordinates. -/
theorem arg0 :
    (shapeCast S256x158 (View.ld (Val := Elt Ideal) (S := S1x256x158) (e' := .f32) (iblk2 (F := Ideal) V c 0 t) r2_0) shapeCasts_S1x256x158_S256x158 : FVec Ideal S256x158 .f32)
      = fun j => (V c main_v8 : S64x256x158.Idx → EReal) (ix3 (member t) (j 0) (j 1)) := by
  funext j
  obtain ⟨p, q, rfl⟩ : ∃ (p : Fin 256) (q : Fin 158), j = ix2 p q := ⟨j 0, j 1, eq_ix2 j⟩
  rw [View.ld_unit_zero (S := S1x256x158) zero3]
  exact (dropUnit_apply _ _ p q).trans (block0_apply V c t p q)

/-- The scale block at grid point t is member t's 1 × 158 slice of its array. -/
theorem block1_apply (p : Fin 1) (q : Fin 158) :
    (iblk2 (F := Ideal) V c 1 t : S1x1x158.Idx → EReal) (ix3 (0 : Fin 1) p q)
      = (V c main_arg10 : S64x1x158.Idx → EReal) (ix3 (member t) p q) := by
  obtain ⟨-, ⟨e0, e1, e2⟩, -, -, -, -⟩ := index_eq t
  unfold iblk2
  rw [View.read_apply]
  show (V c main_arg10 : S64x1x158.Idx → EReal) _ = (V c main_arg10 : S64x1x158.Idx → EReal) _
  refine congrArg _ (funext fun a => Fin.ext ?_)
  match a with
  | ⟨0, _⟩ => show win2_1.index t (0 : Fin 3) * 1 + 1 * 0 = t.val; omega
  | ⟨1, _⟩ => show win2_1.index t (1 : Fin 3) * 1 + 1 * p.val = p.val; omega
  | ⟨2, _⟩ => show win2_1.index t (2 : Fin 3) * 158 + 1 * q.val = q.val; omega

/-- So that block, loaded whole and its unit axis dropped, is the member's slice as a function of two coordinates. -/
theorem arg1 :
    (shapeCast S1x158 (View.ld (Val := Elt Ideal) (S := S1x1x158) (e' := .f32) (iblk2 (F := Ideal) V c 1 t) r2_1) shapeCasts_S1x1x158_S1x158 : FVec Ideal S1x158 .f32)
      = fun j => (V c main_arg10 : S64x1x158.Idx → EReal) (ix3 (member t) (j 0) (j 1)) := by
  funext j
  obtain ⟨p, q, rfl⟩ : ∃ (p : Fin 1) (q : Fin 158), j = ix2 p q := ⟨j 0, j 1, eq_ix2 j⟩
  rw [View.ld_unit_zero (S := S1x1x158) zero3]
  exact (dropUnit_apply _ _ p q).trans (block1_apply V c t p q)

/-- The shift block at grid point t is member t's 1 × 158 slice of its array. -/
theorem block2_apply (p : Fin 1) (q : Fin 158) :
    (iblk2 (F := Ideal) V c 2 t : S1x1x158.Idx → EReal) (ix3 (0 : Fin 1) p q)
      = (V c main_arg11 : S64x1x158.Idx → EReal) (ix3 (member t) p q) := by
  obtain ⟨-, -, ⟨e0, e1, e2⟩, -, -, -⟩ := index_eq t
  unfold iblk2
  rw [View.read_apply]
  show (V c main_arg11 : S64x1x158.Idx → EReal) _ = (V c main_arg11 : S64x1x158.Idx → EReal) _
  refine congrArg _ (funext fun a => Fin.ext ?_)
  match a with
  | ⟨0, _⟩ => show win2_2.index t (0 : Fin 3) * 1 + 1 * 0 = t.val; omega
  | ⟨1, _⟩ => show win2_2.index t (1 : Fin 3) * 1 + 1 * p.val = p.val; omega
  | ⟨2, _⟩ => show win2_2.index t (2 : Fin 3) * 158 + 1 * q.val = q.val; omega

/-- So that block, loaded whole and its unit axis dropped, is the member's slice as a function of two coordinates. -/
theorem arg2 :
    (shapeCast S1x158 (View.ld (Val := Elt Ideal) (S := S1x1x158) (e' := .f32) (iblk2 (F := Ideal) V c 2 t) r2_1) shapeCasts_S1x1x158_S1x158 : FVec Ideal S1x158 .f32)
      = fun j => (V c main_arg11 : S64x1x158.Idx → EReal) (ix3 (member t) (j 0) (j 1)) := by
  funext j
  obtain ⟨p, q, rfl⟩ : ∃ (p : Fin 1) (q : Fin 158), j = ix2 p q := ⟨j 0, j 1, eq_ix2 j⟩
  rw [View.ld_unit_zero (S := S1x1x158) zero3]
  exact (dropUnit_apply _ _ p q).trans (block2_apply V c t p q)

/-- The weight block at grid point t is member t's 158 × 8 slice of its array. -/
theorem block3_apply (p : Fin 158) (q : Fin 8) :
    (iblk2 (F := Ideal) V c 3 t : S1x158x8.Idx → EReal) (ix3 (0 : Fin 1) p q)
      = (V c main_arg12 : S64x158x8.Idx → EReal) (ix3 (member t) p q) := by
  obtain ⟨-, -, -, ⟨e0, e1, e2⟩, -, -⟩ := index_eq t
  unfold iblk2
  rw [View.read_apply]
  show (V c main_arg12 : S64x158x8.Idx → EReal) _ = (V c main_arg12 : S64x158x8.Idx → EReal) _
  refine congrArg _ (funext fun a => Fin.ext ?_)
  match a with
  | ⟨0, _⟩ => show win2_3.index t (0 : Fin 3) * 1 + 1 * 0 = t.val; omega
  | ⟨1, _⟩ => show win2_3.index t (1 : Fin 3) * 158 + 1 * p.val = p.val; omega
  | ⟨2, _⟩ => show win2_3.index t (2 : Fin 3) * 8 + 1 * q.val = q.val; omega

/-- So that block, loaded whole and its unit axis dropped, is the member's slice as a function of two coordinates. -/
theorem arg3 :
    (shapeCast S158x8 (View.ld (Val := Elt Ideal) (S := S1x158x8) (e' := .f32) (iblk2 (F := Ideal) V c 3 t) r2_2) shapeCasts_S1x158x8_S158x8 : FVec Ideal S158x8 .f32)
      = fun j => (V c main_arg12 : S64x158x8.Idx → EReal) (ix3 (member t) (j 0) (j 1)) := by
  funext j
  obtain ⟨p, q, rfl⟩ : ∃ (p : Fin 158) (q : Fin 8), j = ix2 p q := ⟨j 0, j 1, eq_ix2 j⟩
  rw [View.ld_unit_zero (S := S1x158x8) zero3]
  exact (dropUnit_apply _ _ p q).trans (block3_apply V c t p q)

/-- The bias block at grid point t is member t's 1 × 8 slice of its array. -/
theorem block4_apply (p : Fin 1) (q : Fin 8) :
    (iblk2 (F := Ideal) V c 4 t : S1x1x8.Idx → EReal) (ix3 (0 : Fin 1) p q)
      = (V c main_arg13 : S64x1x8.Idx → EReal) (ix3 (member t) p q) := by
  obtain ⟨-, -, -, -, ⟨e0, e1, e2⟩, -⟩ := index_eq t
  unfold iblk2
  rw [View.read_apply]
  show (V c main_arg13 : S64x1x8.Idx → EReal) _ = (V c main_arg13 : S64x1x8.Idx → EReal) _
  refine congrArg _ (funext fun a => Fin.ext ?_)
  match a with
  | ⟨0, _⟩ => show win2_4.index t (0 : Fin 3) * 1 + 1 * 0 = t.val; omega
  | ⟨1, _⟩ => show win2_4.index t (1 : Fin 3) * 1 + 1 * p.val = p.val; omega
  | ⟨2, _⟩ => show win2_4.index t (2 : Fin 3) * 8 + 1 * q.val = q.val; omega

/-- So that block, loaded whole and its unit axis dropped, is the member's slice as a function of two coordinates. -/
theorem arg4 :
    (shapeCast S1x8 (View.ld (Val := Elt Ideal) (S := S1x1x8) (e' := .f32) (iblk2 (F := Ideal) V c 4 t) r2_3) shapeCasts_S1x1x8_S1x8 : FVec Ideal S1x8 .f32)
      = fun j => (V c main_arg13 : S64x1x8.Idx → EReal) (ix3 (member t) (j 0) (j 1)) := by
  funext j
  obtain ⟨p, q, rfl⟩ : ∃ (p : Fin 1) (q : Fin 8), j = ix2 p q := ⟨j 0, j 1, eq_ix2 j⟩
  rw [View.ld_unit_zero (S := S1x1x8) zero3]
  exact (dropUnit_apply _ _ p q).trans (block4_apply V c t p q)

/-- An element of the output block at grid point t sits in the logits array at member t, same row and column. -/
theorem out_emb (y : ((cfg2.win 5).xblock (cfg2.grid.coords t)).Idx) :
    (((cfg2.win 5).blk t).view.emb y : S64x256x8.Idx) = ix3 (member t) (y 1) (y 2) := by
  obtain ⟨-, -, -, -, -, e0, e1, e2⟩ := index_eq t
  have h0 : (y 0).val < 1 := (y 0).isLt
  funext a
  apply Fin.ext
  match a with
  | ⟨0, _⟩ => show win2_5.index t (0 : Fin 3) * 1 + 1 * (y 0).val = t.val; omega
  | ⟨1, _⟩ => show win2_5.index t (1 : Fin 3) * 256 + 1 * (y 1).val = (y 1).val; omega
  | ⟨2, _⟩ => show win2_5.index t (2 : Fin 3) * 8 + 1 * (y 2).val = (y 2).val; omega

/-- What grid point t writes back is member t's block of the logits of the whole arrays. -/
theorem flushed_eq :
    (dat2 (F := Ideal) V c).flushed 5 t = ((cfg2.win 5).blk t).view.read (Elt Ideal)
      (logits (V c main_v8) (V c main_arg10) (V c main_arg11) (V c main_arg12) (V c main_arg13)) := by
  show (cfg2.win 5).cut (grid2.coords t) ((dat2 (F := Ideal) V c).after 5 t) = _
  rw [after2_5, out_eq, View.canon_unit_zero zero3, arg0 V c t, arg1 V c t, arg2 V c t, arg3 V c t, arg4 V c t]
  funext y
  rw [View.read_apply]
  show shapeCast S1x256x8 (head (F := Ideal) _ _ _ _ _) shapeCasts_S256x8_S1x256x8 y
    = logits (V c main_v8) (V c main_arg10) (V c main_arg11) (V c main_arg12) (V c main_arg13) (((cfg2.win 5).blk t).view.emb y)
  rw [out_emb t y]
  exact addUnit_apply _ _ y

end Blocks

/-- An index of the logits array lies in grid point t's block iff each coordinate lies in the block's range on its axis. -/
theorem mem_block (t : Fin cfg2.N) (i : S64x256x8.Idx) :
    i ∈ ((cfg2.win 5).blk t).view.set ↔ ∀ a : Fin 3, win2_5.index t a * S1x256x8.size a ≤ (i a).val
      ∧ (i a).val < win2_5.index t a * S1x256x8.size a + S1x256x8.size a := by
  show i ∈ ((View.whole main_v9).slice (win2_5.rect t)).set ↔ _
  rw [View.set_slice_whole, Rect.mem_set_unit]
  exact Iff.rfl

/-- Every index of the logits array lies in the block of the grid point numbered by its member. -/
theorem cover (i : S64x256x8.Idx) :
    ∃ t : Fin cfg2.N, (cfg2.win 5).flush t = true ∧ i ∈ ((cfg2.win 5).blk t).view.set := by
  have h0 : (i 0).val < 64 := (i 0).isLt
  have h1 : (i 1).val < 256 := (i 1).isLt
  have h2 : (i 2).val < 8 := (i 2).isLt
  obtain ⟨-, -, -, -, -, e0, e1, e2⟩ := index_eq ⟨(i 0).val, h0.trans_eq N_2.symm⟩
  have e0' : win2_5.index ⟨(i 0).val, h0.trans_eq N_2.symm⟩ (0 : Fin 3) = (i 0).val := e0
  refine ⟨⟨(i 0).val, h0.trans_eq N_2.symm⟩, flush2_5 _, ?_⟩
  rw [mem_block]
  intro a
  match a with
  | ⟨0, _⟩ =>
    show win2_5.index ⟨(i 0).val, h0.trans_eq N_2.symm⟩ (0 : Fin 3) * 1 ≤ (i 0).val
      ∧ (i 0).val < win2_5.index ⟨(i 0).val, h0.trans_eq N_2.symm⟩ (0 : Fin 3) * 1 + 1
    omega
  | ⟨1, _⟩ =>
    show win2_5.index ⟨(i 0).val, h0.trans_eq N_2.symm⟩ (1 : Fin 3) * 256 ≤ (i 1).val
      ∧ (i 1).val < win2_5.index ⟨(i 0).val, h0.trans_eq N_2.symm⟩ (1 : Fin 3) * 256 + 256
    omega
  | ⟨2, _⟩ =>
    show win2_5.index ⟨(i 0).val, h0.trans_eq N_2.symm⟩ (2 : Fin 3) * 8 ≤ (i 2).val
      ∧ (i 2).val < win2_5.index ⟨(i 0).val, h0.trans_eq N_2.symm⟩ (2 : Fin 3) * 8 + 8
    omega

/-- The region on the whole arrays: grid point `m` writes member `m`'s block of logits. -/
theorem final (V : (c : Dev nD) → (b : Ref sig .tc) → Buf (Elt Ideal) ((c : Thread nD τ).loc b)) (c : Dev nD) :
    ((dat2 (F := Ideal) V c).arrAt 5 cfg2.N : S64x256x8.Idx → EReal)
      = logits (V c main_v8) (V c main_arg10) (V c main_arg11) (V c main_arg12) (V c main_arg13) :=
  (dat2 (F := Ideal) V c).arrAt_eq_of_cover 5
    (logits (V c main_v8) (V c main_arg10) (V c main_arg11) (V c main_arg12) (V c main_arg13))
    (fun t _ => flushed_eq V c t) cover

end Cert.KernelIdeal.Head

end
-- ==== Proof.KVal.lean ====
/-
  The kernel program end to end: the host re-lays the inputs (band-major, graphs and nodes flattened; the taps
  repeated for a block's 32 graphs), the three kernels run, the host averages over the ensemble.  The result buffer
  holds the average of the members' logits, each member's logits the `head` of its `Cert.Spec.feats`.
-/
import proofs.«124497_g2000206817317674_pallasbulk_294_10_alg».proof.Proof.Gen.KernelIdeal.Frame
import proofs.«124497_g2000206817317674_pallasbulk_294_10_alg».proof.Proof.KCheb
import proofs.«124497_g2000206817317674_pallasbulk_294_10_alg».proof.Proof.KStackVal
import proofs.«124497_g2000206817317674_pallasbulk_294_10_alg».proof.Proof.KHead
import proofs.«124497_g2000206817317674_pallasbulk_294_10_alg».proof.Proof.Spec
import Idealize.ShloMosaic.Lib.ValueIdx
import Idealize.ShloMosaic.Lib.Pipeline.Value
import Idealize.ShloMosaic.Lib.StableHlo.Run

noncomputable section

namespace Cert.KernelIdeal.Val

open Idealize.ShloMosaic Idealize.ShloMosaic.TcCoe Idealize.ShloMosaic.ValueIdx Idealize.SL.Sem
open Cert.KernelIdeal Cert.KernelIdeal.Gen

/-- The ensemble average: the 64 members' logits summed and divided by 64 (the host operations after the last kernel). -/
def meanOver (Lg : (⟨3, ![64, 256, 8]⟩ : Shape).Idx → EReal) : (⟨2, ![256, 8]⟩ : Shape).Idx → EReal :=
  Host.divf (F := Ideal) (Host.reduceAdd (F := Ideal) Lg (constant (F := Ideal) S_ .f32 0x00000000#32) reducesTo_S64x256x8_S256x8_d0 h_S_)
    (broadcastInDim S256x8 ![] bcast_S_S256x8 (constant (F := Ideal) S_ .f32 0x42800000#32))

/-! ## Indices of rank 8

The host repeats the filter taps for the 32 graphs of a block through two arrays of eight axes. -/

/-- A rank-8 row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

section Run

variable (m : (ℓ : Loc nD τ sig) → Buf (Elt Ideal) ℓ) (ρ : Dev nD → PrngReg) (c : Dev nD)

/-! ## Before the first kernel: the host's three re-layouts -/

/-- A buffer none of the host's seven re-layout operations writes holds, when the first kernel is entered, what it held
    at launch. -/
theorem W1_of_ne (b : Ref sig .tc) (h0 : b ≠ main_v0) (h1 : b ≠ main_v1) (h2 : b ≠ main_v2) (h3 : b ≠ main_v3)
    (h4 : b ≠ main_v4) (h5 : b ≠ main_v5) (h6 : b ≠ main_v6) :
    W1 m ρ c (Proc.devRef .tc b) = m ((c.tc : Thread nD τ).loc b) :=
  calc W1 m ρ c (Proc.devRef .tc b)
    _ = W0 m ρ c (Proc.devRef .tc b) := StableHlo.after_of_forall_not_mem (b := Proc.devRef .tc b) _ _ (List.forall_iff_forall_mem.mp (by
          simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
          exact ⟨StableHlo.devRef_ne_of_ne h0, StableHlo.devRef_ne_of_ne h1, StableHlo.devRef_ne_of_ne h2,
            StableHlo.devRef_ne_of_ne h3, StableHlo.devRef_ne_of_ne h4, StableHlo.devRef_ne_of_ne h5,
            StableHlo.devRef_ne_of_ne h6⟩))
    _ = m ((c.tc : Thread nD τ).loc b) := rfl

/-- The features handed to the first kernel: the argument with its band axis moved to the front, graphs and nodes
    flattened onto one axis. -/
theorem v1_ops : (V1 m ρ c main_v1 : S5x4864x64.Idx → EReal)
    = shapeCast S5x4864x64 (transpose S5x256x19x64 [3, 0, 1, 2]
        (m ((c.tc : Thread nD τ).loc main_arg0) : S256x19x64x5.Idx → EReal) transposes_S256x19x64x5_S5x256x19x64_3_0_1_2)
        shapeCasts_S5x256x19x64_S5x4864x64 := by
  show StableHlo.after hostOps0 (W0 m ρ c) (Proc.devRef .tc main_v1) = _
  after_results
  all_goals rfl

/-- Row R of band b of that array is node R % 19 of graph R / 19: the flattened position (b · 256 + R / 19) · 19 + R % 19
    is b · 4864 + R. -/
theorem v1_eq : (V1 m ρ c main_v1 : S5x4864x64.Idx → EReal) = Cert.Spec.XBarr (m ((c.tc : Thread nD τ).loc main_arg0)) := by
  rw [v1_ops]
  funext i
  obtain ⟨b, R, f, rfl⟩ : ∃ (b : Fin 5) (R : Fin 4864) (f : Fin 64), i = ix3 b R f := ⟨i 0, i 1, i 2, eq_ix3 i⟩
  have hR : R.val < 4864 := R.isLt
  refine (shapeCast_apply _ _ (ix3 b R f) (ix4 b (Cert.Spec.gOf R) (Cert.Spec.nOf R) f) ?_).trans ?_
  · rw [Shape.rowMajor_val_four, Shape.rowMajor_val_three]
    show ((b.val * 256 + R.val / 19) * 19 + R.val % 19) * 64 + f.val = (b.val * 4864 + R.val) * 64 + f.val
    omega
  · exact transpose_apply _ _ _ (ix4 b (Cert.Spec.gOf R) (Cert.Spec.nOf R) f) (ix4 (Cert.Spec.gOf R) (Cert.Spec.nOf R) f b)
      (fun a => match a with | ⟨0, _⟩ => rfl | ⟨1, _⟩ => rfl | ⟨2, _⟩ => rfl | ⟨3, _⟩ => rfl)

/-- The laplacians handed to the first kernel: the argument with its band axis moved to the front, graphs and rows
    flattened onto one axis. -/
theorem v3_ops : (V1 m ρ c main_v3 : S5x4864x19.Idx → EReal)
    = shapeCast S5x4864x19 (transpose S5x256x19x19 [1, 0, 2, 3]
        (m ((c.tc : Thread nD τ).loc main_arg1) : S256x5x19x19.Idx → EReal) transposes_S256x5x19x19_S5x256x19x19_1_0_2_3)
        shapeCasts_S5x256x19x19_S5x4864x19 := by
  show StableHlo.after hostOps0 (W0 m ρ c) (Proc.devRef .tc main_v3) = _
  after_results
  all_goals rfl

/-- Row R of band b of that array is row R % 19 of graph R / 19's laplacian in band b. -/
theorem v3_eq : (V1 m ρ c main_v3 : S5x4864x19.Idx → EReal) = Cert.Spec.ABarr (m ((c.tc : Thread nD τ).loc main_arg1)) := by
  rw [v3_ops]
  funext i
  obtain ⟨b, R, n', rfl⟩ : ∃ (b : Fin 5) (R : Fin 4864) (n' : Fin 19), i = ix3 b R n' := ⟨i 0, i 1, i 2, eq_ix3 i⟩
  have hR : R.val < 4864 := R.isLt
  refine (shapeCast_apply _ _ (ix3 b R n') (ix4 b (Cert.Spec.gOf R) (Cert.Spec.nOf R) n') ?_).trans ?_
  · rw [Shape.rowMajor_val_four, Shape.rowMajor_val_three]
    show ((b.val * 256 + R.val / 19) * 19 + R.val % 19) * 19 + n'.val = (b.val * 4864 + R.val) * 19 + n'.val
    omega
  · exact transpose_apply _ _ _ (ix4 b (Cert.Spec.gOf R) (Cert.Spec.nOf R) n') (ix4 (Cert.Spec.gOf R) b (Cert.Spec.nOf R) n')
      (fun a => match a with | ⟨0, _⟩ => rfl | ⟨1, _⟩ => rfl | ⟨2, _⟩ => rfl | ⟨3, _⟩ => rfl)

/-- The taps handed to the second kernel: the argument given a new axis of extent one between its tap and node axes,
    that axis repeated 32 times, then tap-copy and node flattened onto one axis of 608. -/
theorem v6_ops : (W1 m ρ c (Proc.devRef .tc main_v6) : S64x3x608x1.Idx → EReal)
    = shapeCast S64x3x608x1 (broadcastInDim S1x64x1x3x32x19x1x1 ![0, 1, 2, 3, 4, 5, 6, 7]
        bcast_S1x64x1x3x1x19x1x1_S1x64x1x3x32x19x1x1_0_1_2_3_4_5_6_7
        (shapeCast S1x64x1x3x1x19x1x1 (m ((c.tc : Thread nD τ).loc main_arg8) : S64x3x19x1.Idx → EReal)
          shapeCasts_S64x3x19x1_S1x64x1x3x1x19x1x1))
        shapeCasts_S1x64x1x3x32x19x1x1_S64x3x608x1 := by
  show StableHlo.after hostOps0 (W0 m ρ c) (Proc.devRef .tc main_v6) = _
  after_results
  all_goals rfl

/-- Entry r of the 608 is copy r / 19 of node r % 19's tap: position (copy · 19 + node) in the flattened axis, and a
    repeated axis reads the same value at every copy. -/
theorem v6_eq : (W1 m ρ c (Proc.devRef .tc main_v6) : S64x3x608x1.Idx → EReal) = Cert.Spec.SELarr (m ((c.tc : Thread nD τ).loc main_arg8)) := by
  rw [v6_ops]
  funext i
  obtain ⟨mm, k, r, z, rfl⟩ : ∃ (mm : Fin 64) (k : Fin 3) (r : Fin 608) (z : Fin 1), i = ix4 mm k r z :=
    ⟨i 0, i 1, i 2, i 3, eq_ix4 i⟩
  have hr : r.val < 608 := r.isLt
  have hz : z.val = 0 := Nat.lt_one_iff.mp z.isLt
  refine (shapeCast_apply _ _ (ix4 mm k r z)
    (ix8 (0 : Fin 1) mm (0 : Fin 1) k (⟨r.val / 19, by omega⟩ : Fin 32) (⟨r.val % 19, Nat.mod_lt _ (by decide)⟩ : Fin 19)
      (0 : Fin 1) (0 : Fin 1)) ?_).trans ?_
  · rw [rowMajor_val_eight, Shape.rowMajor_val_four]
    show ((((((0 * 64 + mm.val) * 1 + 0) * 3 + k.val) * 32 + r.val / 19) * 19 + r.val % 19) * 1 + 0) * 1 + 0
      = ((mm.val * 3 + k.val) * 608 + r.val) * 1 + z.val
    omega
  refine (broadcastInDim_apply _ _ _
    (ix8 (0 : Fin 1) mm (0 : Fin 1) k (⟨r.val / 19, by omega⟩ : Fin 32) (⟨r.val % 19, Nat.mod_lt _ (by decide)⟩ : Fin 19)
      (0 : Fin 1) (0 : Fin 1))
    (ix8 (0 : Fin 1) mm (0 : Fin 1) k (0 : Fin 1) (⟨r.val % 19, Nat.mod_lt _ (by decide)⟩ : Fin 19) (0 : Fin 1) (0 : Fin 1))
    (fun a => match a with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => rfl)).trans ?_
  refine (shapeCast_apply _ _
    (ix8 (0 : Fin 1) mm (0 : Fin 1) k (0 : Fin 1) (⟨r.val % 19, Nat.mod_lt _ (by decide)⟩ : Fin 19) (0 : Fin 1) (0 : Fin 1))
    (ix4 mm k (⟨r.val % 19, Nat.mod_lt _ (by decide)⟩ : Fin 19) (0 : Fin 1)) ?_).trans rfl
  rw [Shape.rowMajor_val_four, rowMajor_val_eight]
  show ((mm.val * 3 + k.val) * 19 + r.val % 19) * 1 + 0
    = ((((((0 * 64 + mm.val) * 1 + 0) * 3 + k.val) * 1 + 0) * 19 + r.val % 19) * 1 + 0) * 1 + 0
  omega

/-! ## After the last kernel: the ensemble average -/

/-- The result buffer is the ensemble average of what the last kernel left in its output array. -/
theorem tail_eq : (W5 m ρ c (Proc.devRef .tc main_v12) : S256x8.Idx → EReal)
    = meanOver (W4 m ρ c (Proc.devRef .tc main_v9) : S64x256x8.Idx → EReal) := by
  show StableHlo.after hostOps3 (W4 m ρ c) (Proc.devRef .tc main_v12) = _
  unfold meanOver
  after_results
  all_goals rfl

end Run

section Walk

variable (m : (ℓ : Loc nD τ sig) → Buf (Elt Ideal) ℓ) (ρ : Dev nD → PrngReg) (c : Dev nD)

/-! ## Through the three kernels

A kernel rewrites only its own output arrays, so a buffer that is no window of a kernel passes through it unchanged. -/

/-- A buffer that is no window of the first kernel and that the host's re-layouts do not write holds, when the second
    kernel is entered, what it held at launch. -/
theorem V2_of_ne (b : Ref sig .tc) (hw : ∀ w, Pipeline.arrRef spec0 w ≠ b) (h0 : b ≠ main_v0) (h1 : b ≠ main_v1)
    (h2 : b ≠ main_v2) (h3 : b ≠ main_v3) (h4 : b ≠ main_v4) (h5 : b ≠ main_v5) (h6 : b ≠ main_v6) :
    V2 m ρ c b = m ((c.tc : Thread nD τ).loc b) :=
  (W2_of_ne m ρ c b hw).trans (W1_of_ne m ρ c b h0 h1 h2 h3 h4 h5 h6)

/-- The same when the last kernel is entered, for a buffer that is no window of the second kernel either. -/
theorem V3_of_ne (b : Ref sig .tc) (hw1 : ∀ w, Pipeline.arrRef spec1 w ≠ b) (hw0 : ∀ w, Pipeline.arrRef spec0 w ≠ b)
    (h0 : b ≠ main_v0) (h1 : b ≠ main_v1) (h2 : b ≠ main_v2) (h3 : b ≠ main_v3) (h4 : b ≠ main_v4) (h5 : b ≠ main_v5)
    (h6 : b ≠ main_v6) : V3 m ρ c b = m ((c.tc : Thread nD τ).loc b) :=
  (W3_of_ne m ρ c b hw1).trans (V2_of_ne m ρ c b hw0 h0 h1 h2 h3 h4 h5 h6)

/-- The first kernel leaves the input's Chebyshev terms and the block-diagonal laplacians. -/
theorem v7_eq : (V2 m ρ c main_v7_0 : S5x4864x192.Idx → EReal) = Cert.Spec.XCarr (m ((c.tc : Thread nD τ).loc main_arg0)) (m ((c.tc : Thread nD τ).loc main_arg1))
    ∧ (V2 m ρ c main_v7_1 : S5x4864x152.Idx → EReal) = Cert.Spec.BDarr (m ((c.tc : Thread nD τ).loc main_arg1)) := by
  obtain ⟨e2, e3⟩ := Cert.KernelIdeal.Cheb.final (V1 m ρ) c (m ((c.tc : Thread nD τ).loc main_arg0)) (m ((c.tc : Thread nD τ).loc main_arg1)) (v1_eq m ρ c) (v3_eq m ρ c)
  exact ⟨(W2_arr m ρ c 2).trans e2, (W2_arr m ρ c 3).trans e3⟩

/-- The second kernel leaves every member's and graph's filtered features. -/
theorem v8_eq : (V3 m ρ c main_v8 : S64x256x158.Idx → EReal)
    = Cert.Spec.FEATSarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W3_arr m ρ c 10).trans (Cert.KernelIdeal.StackVal.final (V2 m ρ) c
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (v7_eq m ρ c).1 (v7_eq m ρ c).2
    (V2_of_ne m ρ c main_arg2 (by decide) (by decide) (by decide) (by decide) (by decide) (by decide) (by decide) (by decide))
    (V2_of_ne m ρ c main_arg3 (by decide) (by decide) (by decide) (by decide) (by decide) (by decide) (by decide) (by decide))
    (V2_of_ne m ρ c main_arg4 (by decide) (by decide) (by decide) (by decide) (by decide) (by decide) (by decide) (by decide))
    (V2_of_ne m ρ c main_arg5 (by decide) (by decide) (by decide) (by decide) (by decide) (by decide) (by decide) (by decide))
    (V2_of_ne m ρ c main_arg6 (by decide) (by decide) (by decide) (by decide) (by decide) (by decide) (by decide) (by decide))
    (V2_of_ne m ρ c main_arg7 (by decide) (by decide) (by decide) (by decide) (by decide) (by decide) (by decide) (by decide))
    ((W2_of_ne m ρ c main_v6 (by decide)).trans (v6_eq m ρ c))
    (V2_of_ne m ρ c main_arg9 (by decide) (by decide) (by decide) (by decide) (by decide) (by decide) (by decide) (by decide)))

/-- The last kernel leaves every member's logits: the head of its filtered features. -/
theorem v9_eq : (W4 m ρ c (Proc.devRef .tc main_v9) : S64x256x8.Idx → EReal)
    = Cert.KernelIdeal.Head.logits (Cert.Spec.FEATSarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
        (m ((c.tc : Thread nD τ).loc main_arg10)) (m ((c.tc : Thread nD τ).loc main_arg11)) (m ((c.tc : Thread nD τ).loc main_arg12)) (m ((c.tc : Thread nD τ).loc main_arg13)) := by
  refine ((W4_arr m ρ c 5).trans (Cert.KernelIdeal.Head.final (V3 m ρ) c)).trans ?_
  rw [v8_eq m ρ c, (V3_of_ne m ρ c main_arg10 (by decide) (by decide) (by decide) (by decide) (by decide) (by decide) (by decide) (by decide) (by decide)),
    (V3_of_ne m ρ c main_arg11 (by decide) (by decide) (by decide) (by decide) (by decide) (by decide) (by decide) (by decide) (by decide)),
    (V3_of_ne m ρ c main_arg12 (by decide) (by decide) (by decide) (by decide) (by decide) (by decide) (by decide) (by decide) (by decide)),
    (V3_of_ne m ρ c main_arg13 (by decide) (by decide) (by decide) (by decide) (by decide) (by decide) (by decide) (by decide) (by decide))]

end Walk

/-- What the result buffer holds at the last boundary, as a function of the argument arrays. -/
theorem result (m : (ℓ : Loc nD τ sig) → Buf (Elt Ideal) ℓ) (ρ : Dev nD → PrngReg) (c : Dev nD) :
    (W5 m ρ c (Proc.devRef .tc main_v12) : S256x8.Idx → EReal)
      = meanOver (Cert.KernelIdeal.Head.logits (Cert.Spec.FEATSarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg10)) (m ((c.tc : Thread nD τ).loc main_arg11)) (m ((c.tc : Thread nD τ).loc main_arg12)) (m ((c.tc : Thread nD τ).loc main_arg13))) :=
  (tail_eq m ρ c).trans (congrArg meanOver (v9_eq m ρ c))

end Cert.KernelIdeal.Val

end
-- ==== Proof.RGcn.lean ====
/-
  The reference's first kernel: one grid point per (ensemble member, graph); it runs the four Chebyshev layers of the
  five bands on the graph's 19 nodes and stores the 19 × 160 result.  The output array is `Cert.Spec.GCNarr` of the inputs.
-/
import proofs.«124497_g2000206817317674_pallasbulk_294_10_alg».proof.Proof.RFrame
import proofs.«124497_g2000206817317674_pallasbulk_294_10_alg».proof.Proof.Spec
import Idealize.ShloMosaic.Lib.ValueIdx
import Idealize.ShloMosaic.Lib.Pipeline.Value
import Idealize.ShloMosaic.PureOps.Ideal.Laws

set_option maxRecDepth 65536

noncomputable section

namespace Cert.ReferenceIdeal.Gcn

open Idealize.ShloMosaic Idealize.ShloMosaic.TcCoe Idealize.ShloMosaic.ValueIdx Idealize.SL.Sem
open Cert.ReferenceIdeal Cert.ReferenceIdeal.Gen

/-! ## The body as vector functions

One Chebyshev layer on a graph's 19 nodes: `L · H`, then `2 · L · (L · H) − H`, the three blocks side by side, a linear
map and a bias row; the first three layers of a band are followed by `max · 0`.  The first layer has 64 input
features, the others 32. -/

section Clean

variable {F : FTy → Type} [FloatOps F]

/-- `L · H` on 64 features. -/
def mv64 (lap : FVec F S19x19 .f32) (h : FVec F S19x64 .f32) : FVec F S19x64 .f32 :=
  matmul dot_S19x19_S19x64_S19x64_1_0_0_1_n_n none lap h (constant S19x64 .f32 0x00000000#32)

/-- `L · H` on 32 features. -/
def mv32 (lap : FVec F S19x19 .f32) (h : FVec F S19x32 .f32) : FVec F S19x32 .f32 :=
  matmul dot_S19x19_S19x32_S19x32_1_0_0_1_n_n none lap h (constant S19x32 .f32 0x00000000#32)

/-- `[H | L·H | 2·L·(L·H) − H]` on 64 features: 19 × 192. -/
def xc64 (lap : FVec F S19x19 .f32) (h : FVec F S19x64 .f32) : FVec F S19x192 .f32 :=
  concatenate S19x192 1 [⟨S19x64, h⟩, ⟨S19x64, mv64 lap h⟩,
    ⟨S19x64, subf (mulf (broadcast S19x64 (Scalar.ofBits .f32 0x40000000#32)) (mv64 lap (mv64 lap h))) h⟩]
    concatenates_S19x64_S19x64_S19x64_S19x192_d1

/-- `[H | L·H | 2·L·(L·H) − H]` on 32 features: 19 × 96. -/
def xc32 (lap : FVec F S19x19 .f32) (h : FVec F S19x32 .f32) : FVec F S19x96 .f32 :=
  concatenate S19x96 1 [⟨S19x32, h⟩, ⟨S19x32, mv32 lap h⟩,
    ⟨S19x32, subf (mulf (broadcast S19x32 (Scalar.ofBits .f32 0x40000000#32)) (mv32 lap (mv32 lap h))) h⟩]
    concatenates_S19x32_S19x32_S19x32_S19x96_d1

/-- The first layer before its activation: `XC · W + B` with `XC` 19 × 192. -/
def pre64 (lap : FVec F S19x19 .f32) (h : FVec F S19x64 .f32) (w : FVec F S192x32 .f32) (b : FVec F S1x32 .f32) : FVec F S19x32 .f32 :=
  addf (matmul dot_S19x192_S192x32_S19x32_1_0_0_1_n_n none (xc64 lap h) w (constant S19x32 .f32 0x00000000#32))
    (broadcastTo S19x32 b broadcasts_S1x32_S19x32)

/-- A later layer before its activation: `XC · W + B` with `XC` 19 × 96. -/
def pre32 (lap : FVec F S19x19 .f32) (h : FVec F S19x32 .f32) (w : FVec F S96x32 .f32) (b : FVec F S1x32 .f32) : FVec F S19x32 .f32 :=
  addf (matmul dot_S19x96_S96x32_S19x32_1_0_0_1_n_n none (xc32 lap h) w (constant S19x32 .f32 0x00000000#32))
    (broadcastTo S19x32 b broadcasts_S1x32_S19x32)

/-- The activation `max · 0`. -/
def act (y : FVec F S19x32 .f32) : FVec F S19x32 .f32 := maximumf y (broadcast S19x32 (Scalar.ofBits .f32 0x00000000#32))

/-- One band's four layers, from the loaded blocks (each a 1 × 1 × … slab of its window's block). -/
def band (lapb : Vec F S1x1x19x19 .f32) (xb : Vec F S1x1x19x64 .f32) (wi : Vec F S1x1x192x32 .f32) (bi : Vec F S1x1x1x32 .f32)
    (w0 : Vec F S1x1x96x32 .f32) (c0 : Vec F S1x1x1x32 .f32) (w1 : Vec F S1x1x96x32 .f32) (c1 : Vec F S1x1x1x32 .f32)
    (wo : Vec F S1x1x96x32 .f32) (bo : Vec F S1x1x1x32 .f32) : FVec F S19x32 .f32 :=
  pre32 (shapeCast S19x19 lapb shapeCasts_S1x1x19x19_S19x19)
    (act (pre32 (shapeCast S19x19 lapb shapeCasts_S1x1x19x19_S19x19)
      (act (pre32 (shapeCast S19x19 lapb shapeCasts_S1x1x19x19_S19x19)
        (act (pre64 (shapeCast S19x19 lapb shapeCasts_S1x1x19x19_S19x19) (shapeCast S19x64 xb shapeCasts_S1x1x19x64_S19x64)
          (shapeCast S192x32 wi shapeCasts_S1x1x192x32_S192x32) (shapeCast S1x32 bi shapeCasts_S1x1x1x32_S1x32)))
        (shapeCast S96x32 w0 shapeCasts_S1x1x96x32_S96x32) (shapeCast S1x32 c0 shapeCasts_S1x1x1x32_S1x32)))
      (shapeCast S96x32 w1 shapeCasts_S1x1x96x32_S96x32) (shapeCast S1x32 c1 shapeCasts_S1x1x1x32_S1x32)))
    (shapeCast S96x32 wo shapeCasts_S1x1x96x32_S96x32) (shapeCast S1x32 bo shapeCasts_S1x1x1x32_S1x32)

/-- The block the body stores: the five bands' 19 × 32 outputs side by side, as a 1 × 1 × 19 × 160 block. -/
def body (g0 g1 g2 g3 g4 : FVec F S19x32 .f32) : FVec F S1x1x19x160 .f32 :=
  shapeCast S1x1x19x160
    (concatenate S19x160 1 [⟨S19x32, g0⟩, ⟨S19x32, g1⟩, ⟨S19x32, g2⟩, ⟨S19x32, g3⟩, ⟨S19x32, g4⟩]
      concatenates_S19x32_S19x32_S19x32_S19x32_S19x32_S19x160_d1)
    shapeCasts_S19x160_S1x1x19x160

end Clean

/-! ## The four products' operand indices

Each product contracts the left operand's columns with the right operand's rows: at output entry `(n, f)` and
contraction position `q` the left operand is read at `(n, q)` and the right at `(q, f)`. -/

theorem lhs_lap64_0 (i : S19x64.Idx) (q : dot_S19x19_S19x64_S19x64_1_0_0_1_n_n.contr.Idx) :
    (dot_S19x19_S19x64_S19x64_1_0_0_1_n_n.lhsIdx i q 0).val = (i 0).val := by
  unfold DotDims.lhsIdx
  rw [dif_neg (show ¬(0 : Fin S19x19.rank) ∈ dot_S19x19_S19x64_S19x64_1_0_0_1_n_n.lhsBatch by decide),
    dif_pos (show (0 : Fin S19x19.rank) ∈ dot_S19x19_S19x64_S19x64_1_0_0_1_n_n.lhsNonContracting by decide)]
  rfl
theorem lhs_lap64_1 (i : S19x64.Idx) (q : dot_S19x19_S19x64_S19x64_1_0_0_1_n_n.contr.Idx) :
    (dot_S19x19_S19x64_S19x64_1_0_0_1_n_n.lhsIdx i q 1).val = (q ⟨0, by decide⟩).val :=
  dot_S19x19_S19x64_S19x64_1_0_0_1_n_n.lhsIdx_val_of_single rfl i q
theorem rhs_lap64_0 (i : S19x64.Idx) (q : dot_S19x19_S19x64_S19x64_1_0_0_1_n_n.contr.Idx) :
    (dot_S19x19_S19x64_S19x64_1_0_0_1_n_n.rhsIdx i q 0).val = (q ⟨0, by decide⟩).val :=
  dot_S19x19_S19x64_S19x64_1_0_0_1_n_n.rhsIdx_val_of_single rfl i q
theorem rhs_lap64_1 (i : S19x64.Idx) (q : dot_S19x19_S19x64_S19x64_1_0_0_1_n_n.contr.Idx) :
    (dot_S19x19_S19x64_S19x64_1_0_0_1_n_n.rhsIdx i q 1).val = (i 1).val := by
  unfold DotDims.rhsIdx
  rw [dif_neg (show ¬(1 : Fin S19x64.rank) ∈ dot_S19x19_S19x64_S19x64_1_0_0_1_n_n.rhsBatch by decide),
    dif_pos (show (1 : Fin S19x64.rank) ∈ dot_S19x19_S19x64_S19x64_1_0_0_1_n_n.rhsNonContracting by decide)]
  rfl

theorem lhs_lap32_0 (i : S19x32.Idx) (q : dot_S19x19_S19x32_S19x32_1_0_0_1_n_n.contr.Idx) :
    (dot_S19x19_S19x32_S19x32_1_0_0_1_n_n.lhsIdx i q 0).val = (i 0).val := by
  unfold DotDims.lhsIdx
  rw [dif_neg (show ¬(0 : Fin S19x19.rank) ∈ dot_S19x19_S19x32_S19x32_1_0_0_1_n_n.lhsBatch by decide),
    dif_pos (show (0 : Fin S19x19.rank) ∈ dot_S19x19_S19x32_S19x32_1_0_0_1_n_n.lhsNonContracting by decide)]
  rfl
theorem lhs_lap32_1 (i : S19x32.Idx) (q : dot_S19x19_S19x32_S19x32_1_0_0_1_n_n.contr.Idx) :
    (dot_S19x19_S19x32_S19x32_1_0_0_1_n_n.lhsIdx i q 1).val = (q ⟨0, by decide⟩).val :=
  dot_S19x19_S19x32_S19x32_1_0_0_1_n_n.lhsIdx_val_of_single rfl i q
theorem rhs_lap32_0 (i : S19x32.Idx) (q : dot_S19x19_S19x32_S19x32_1_0_0_1_n_n.contr.Idx) :
    (dot_S19x19_S19x32_S19x32_1_0_0_1_n_n.rhsIdx i q 0).val = (q ⟨0, by decide⟩).val :=
  dot_S19x19_S19x32_S19x32_1_0_0_1_n_n.rhsIdx_val_of_single rfl i q
theorem rhs_lap32_1 (i : S19x32.Idx) (q : dot_S19x19_S19x32_S19x32_1_0_0_1_n_n.contr.Idx) :
    (dot_S19x19_S19x32_S19x32_1_0_0_1_n_n.rhsIdx i q 1).val = (i 1).val := by
  unfold DotDims.rhsIdx
  rw [dif_neg (show ¬(1 : Fin S19x32.rank) ∈ dot_S19x19_S19x32_S19x32_1_0_0_1_n_n.rhsBatch by decide),
    dif_pos (show (1 : Fin S19x32.rank) ∈ dot_S19x19_S19x32_S19x32_1_0_0_1_n_n.rhsNonContracting by decide)]
  rfl

theorem lhs_lin192_0 (i : S19x32.Idx) (q : dot_S19x192_S192x32_S19x32_1_0_0_1_n_n.contr.Idx) :
    (dot_S19x192_S192x32_S19x32_1_0_0_1_n_n.lhsIdx i q 0).val = (i 0).val := by
  unfold DotDims.lhsIdx
  rw [dif_neg (show ¬(0 : Fin S19x192.rank) ∈ dot_S19x192_S192x32_S19x32_1_0_0_1_n_n.lhsBatch by decide),
    dif_pos (show (0 : Fin S19x192.rank) ∈ dot_S19x192_S192x32_S19x32_1_0_0_1_n_n.lhsNonContracting by decide)]
  rfl
theorem lhs_lin192_1 (i : S19x32.Idx) (q : dot_S19x192_S192x32_S19x32_1_0_0_1_n_n.contr.Idx) :
    (dot_S19x192_S192x32_S19x32_1_0_0_1_n_n.lhsIdx i q 1).val = (q ⟨0, by decide⟩).val :=
  dot_S19x192_S192x32_S19x32_1_0_0_1_n_n.lhsIdx_val_of_single rfl i q
theorem rhs_lin192_0 (i : S19x32.Idx) (q : dot_S19x192_S192x32_S19x32_1_0_0_1_n_n.contr.Idx) :
    (dot_S19x192_S192x32_S19x32_1_0_0_1_n_n.rhsIdx i q 0).val = (q ⟨0, by decide⟩).val :=
  dot_S19x192_S192x32_S19x32_1_0_0_1_n_n.rhsIdx_val_of_single rfl i q
theorem rhs_lin192_1 (i : S19x32.Idx) (q : dot_S19x192_S192x32_S19x32_1_0_0_1_n_n.contr.Idx) :
    (dot_S19x192_S192x32_S19x32_1_0_0_1_n_n.rhsIdx i q 1).val = (i 1).val := by
  unfold DotDims.rhsIdx
  rw [dif_neg (show ¬(1 : Fin S192x32.rank) ∈ dot_S19x192_S192x32_S19x32_1_0_0_1_n_n.rhsBatch by decide),
    dif_pos (show (1 : Fin S192x32.rank) ∈ dot_S19x192_S192x32_S19x32_1_0_0_1_n_n.rhsNonContracting by decide)]
  rfl

theorem lhs_lin96_0 (i : S19x32.Idx) (q : dot_S19x96_S96x32_S19x32_1_0_0_1_n_n.contr.Idx) :
    (dot_S19x96_S96x32_S19x32_1_0_0_1_n_n.lhsIdx i q 0).val = (i 0).val := by
  unfold DotDims.lhsIdx
  rw [dif_neg (show ¬(0 : Fin S19x96.rank) ∈ dot_S19x96_S96x32_S19x32_1_0_0_1_n_n.lhsBatch by decide),
    dif_pos (show (0 : Fin S19x96.rank) ∈ dot_S19x96_S96x32_S19x32_1_0_0_1_n_n.lhsNonContracting by decide)]
  rfl
theorem lhs_lin96_1 (i : S19x32.Idx) (q : dot_S19x96_S96x32_S19x32_1_0_0_1_n_n.contr.Idx) :
    (dot_S19x96_S96x32_S19x32_1_0_0_1_n_n.lhsIdx i q 1).val = (q ⟨0, by decide⟩).val :=
  dot_S19x96_S96x32_S19x32_1_0_0_1_n_n.lhsIdx_val_of_single rfl i q
theorem rhs_lin96_0 (i : S19x32.Idx) (q : dot_S19x96_S96x32_S19x32_1_0_0_1_n_n.contr.Idx) :
    (dot_S19x96_S96x32_S19x32_1_0_0_1_n_n.rhsIdx i q 0).val = (q ⟨0, by decide⟩).val :=
  dot_S19x96_S96x32_S19x32_1_0_0_1_n_n.rhsIdx_val_of_single rfl i q
theorem rhs_lin96_1 (i : S19x32.Idx) (q : dot_S19x96_S96x32_S19x32_1_0_0_1_n_n.contr.Idx) :
    (dot_S19x96_S96x32_S19x32_1_0_0_1_n_n.rhsIdx i q 1).val = (i 1).val := by
  unfold DotDims.rhsIdx
  rw [dif_neg (show ¬(1 : Fin S96x32.rank) ∈ dot_S19x96_S96x32_S19x32_1_0_0_1_n_n.rhsBatch by decide),
    dif_pos (show (1 : Fin S96x32.rank) ∈ dot_S19x96_S96x32_S19x32_1_0_0_1_n_n.rhsNonContracting by decide)]
  rfl

/-! ## The products at an entry -/

/-- `(L · H) n f = ∑ n', L n n' · H n' f` on 64 features. -/
theorem mv64_apply (lap : FVec Ideal S19x19 .f32) (h : FVec Ideal S19x64 .f32) (n : Fin 19) (f : Fin 64) :
    mv64 lap h (ix2 n f) = ∑ n' : Fin 19, lap (ix2 n n') * h (ix2 n' f) := by
  unfold mv64
  refine (Ideal.matmul_constant_zero_apply _ _ _ _ _).trans ?_
  rw [← Equiv.sum_comp (contrEquiv1 dot_S19x19_S19x64_S19x64_1_0_0_1_n_n 19 rfl rfl).symm]
  refine Finset.sum_congr rfl fun k _ => ?_
  have hk := contrEquiv1_symm_val dot_S19x19_S19x64_S19x64_1_0_0_1_n_n 19 rfl rfl k
  have el : dot_S19x19_S19x64_S19x64_1_0_0_1_n_n.lhsIdx (ix2 n f) ((contrEquiv1 dot_S19x19_S19x64_S19x64_1_0_0_1_n_n 19 rfl rfl).symm k) = ix2 n k :=
    funext fun a => Fin.ext (by
      match a with
      | ⟨0, _⟩ => exact lhs_lap64_0 _ _
      | ⟨1, _⟩ => exact (lhs_lap64_1 _ _).trans hk)
  have er : dot_S19x19_S19x64_S19x64_1_0_0_1_n_n.rhsIdx (ix2 n f) ((contrEquiv1 dot_S19x19_S19x64_S19x64_1_0_0_1_n_n 19 rfl rfl).symm k) = ix2 k f :=
    funext fun a => Fin.ext (by
      match a with
      | ⟨0, _⟩ => exact (rhs_lap64_0 _ _).trans hk
      | ⟨1, _⟩ => exact rhs_lap64_1 _ _)
  rw [el, er]

/-- `(L · H) n f = ∑ n', L n n' · H n' f` on 32 features. -/
theorem mv32_apply (lap : FVec Ideal S19x19 .f32) (h : FVec Ideal S19x32 .f32) (n : Fin 19) (f : Fin 32) :
    mv32 lap h (ix2 n f) = ∑ n' : Fin 19, lap (ix2 n n') * h (ix2 n' f) := by
  unfold mv32
  refine (Ideal.matmul_constant_zero_apply _ _ _ _ _).trans ?_
  rw [← Equiv.sum_comp (contrEquiv1 dot_S19x19_S19x32_S19x32_1_0_0_1_n_n 19 rfl rfl).symm]
  refine Finset.sum_congr rfl fun k _ => ?_
  have hk := contrEquiv1_symm_val dot_S19x19_S19x32_S19x32_1_0_0_1_n_n 19 rfl rfl k
  have el : dot_S19x19_S19x32_S19x32_1_0_0_1_n_n.lhsIdx (ix2 n f) ((contrEquiv1 dot_S19x19_S19x32_S19x32_1_0_0_1_n_n 19 rfl rfl).symm k) = ix2 n k :=
    funext fun a => Fin.ext (by
      match a with
      | ⟨0, _⟩ => exact lhs_lap32_0 _ _
      | ⟨1, _⟩ => exact (lhs_lap32_1 _ _).trans hk)
  have er : dot_S19x19_S19x32_S19x32_1_0_0_1_n_n.rhsIdx (ix2 n f) ((contrEquiv1 dot_S19x19_S19x32_S19x32_1_0_0_1_n_n 19 rfl rfl).symm k) = ix2 k f :=
    funext fun a => Fin.ext (by
      match a with
      | ⟨0, _⟩ => exact (rhs_lap32_0 _ _).trans hk
      | ⟨1, _⟩ => exact rhs_lap32_1 _ _)
  rw [el, er]

/-- `(XC · W) n f = ∑ j, XC n j · W j f` with 192 columns. -/
theorem lin192_apply (xc : FVec Ideal S19x192 .f32) (w : FVec Ideal S192x32 .f32) (n : Fin 19) (f : Fin 32) :
    matmul dot_S19x192_S192x32_S19x32_1_0_0_1_n_n none xc w (constant S19x32 .f32 0x00000000#32) (ix2 n f)
      = ∑ j : Fin 192, xc (ix2 n j) * w (ix2 j f) := by
  refine (Ideal.matmul_constant_zero_apply _ _ _ _ _).trans ?_
  rw [← Equiv.sum_comp (contrEquiv1 dot_S19x192_S192x32_S19x32_1_0_0_1_n_n 192 rfl rfl).symm]
  refine Finset.sum_congr rfl fun k _ => ?_
  have hk := contrEquiv1_symm_val dot_S19x192_S192x32_S19x32_1_0_0_1_n_n 192 rfl rfl k
  have el : dot_S19x192_S192x32_S19x32_1_0_0_1_n_n.lhsIdx (ix2 n f) ((contrEquiv1 dot_S19x192_S192x32_S19x32_1_0_0_1_n_n 192 rfl rfl).symm k) = ix2 n k :=
    funext fun a => Fin.ext (by
      match a with
      | ⟨0, _⟩ => exact lhs_lin192_0 _ _
      | ⟨1, _⟩ => exact (lhs_lin192_1 _ _).trans hk)
  have er : dot_S19x192_S192x32_S19x32_1_0_0_1_n_n.rhsIdx (ix2 n f) ((contrEquiv1 dot_S19x192_S192x32_S19x32_1_0_0_1_n_n 192 rfl rfl).symm k) = ix2 k f :=
    funext fun a => Fin.ext (by
      match a with
      | ⟨0, _⟩ => exact (rhs_lin192_0 _ _).trans hk
      | ⟨1, _⟩ => exact rhs_lin192_1 _ _)
  rw [el, er]

/-- `(XC · W) n f = ∑ j, XC n j · W j f` with 96 columns. -/
theorem lin96_apply (xc : FVec Ideal S19x96 .f32) (w : FVec Ideal S96x32 .f32) (n : Fin 19) (f : Fin 32) :
    matmul dot_S19x96_S96x32_S19x32_1_0_0_1_n_n none xc w (constant S19x32 .f32 0x00000000#32) (ix2 n f)
      = ∑ j : Fin 96, xc (ix2 n j) * w (ix2 j f) := by
  refine (Ideal.matmul_constant_zero_apply _ _ _ _ _).trans ?_
  rw [← Equiv.sum_comp (contrEquiv1 dot_S19x96_S96x32_S19x32_1_0_0_1_n_n 96 rfl rfl).symm]
  refine Finset.sum_congr rfl fun k _ => ?_
  have hk := contrEquiv1_symm_val dot_S19x96_S96x32_S19x32_1_0_0_1_n_n 96 rfl rfl k
  have el : dot_S19x96_S96x32_S19x32_1_0_0_1_n_n.lhsIdx (ix2 n f) ((contrEquiv1 dot_S19x96_S96x32_S19x32_1_0_0_1_n_n 96 rfl rfl).symm k) = ix2 n k :=
    funext fun a => Fin.ext (by
      match a with
      | ⟨0, _⟩ => exact lhs_lin96_0 _ _
      | ⟨1, _⟩ => exact (lhs_lin96_1 _ _).trans hk)
  have er : dot_S19x96_S96x32_S19x32_1_0_0_1_n_n.rhsIdx (ix2 n f) ((contrEquiv1 dot_S19x96_S96x32_S19x32_1_0_0_1_n_n 96 rfl rfl).symm k) = ix2 k f :=
    funext fun a => Fin.ext (by
      match a with
      | ⟨0, _⟩ => exact (rhs_lin96_0 _ _).trans hk
      | ⟨1, _⟩ => exact rhs_lin96_1 _ _)
  rw [el, er]

/-! ## The layer against the specification

A 19 × k vector is read as the matrix of its entries; each vector function above is then the specification's
function of the same name on matrices. -/

/-- A two-axis vector of extended reals as a matrix. -/
def mat {a b : Nat} (v : (⟨2, ![a, b]⟩ : Shape).Idx → EReal) : Fin a → Fin b → EReal := fun i j => v (ix2 i j)

theorem mat_mv64 (lap : FVec Ideal S19x19 .f32) (h : FVec Ideal S19x64 .f32) :
    mat (mv64 lap h) = Cert.Spec.mv (mat lap) (mat h) := by
  funext n f; exact mv64_apply lap h n f

theorem mat_mv32 (lap : FVec Ideal S19x19 .f32) (h : FVec Ideal S19x32 .f32) :
    mat (mv32 lap h) = Cert.Spec.mv (mat lap) (mat h) := by
  funext n f; exact mv32_apply lap h n f

/-- The third Chebyshev term on 64 features. -/
theorem mat_cheb64 (lap : FVec Ideal S19x19 .f32) (h : FVec Ideal S19x64 .f32) :
    mat (subf (mulf (broadcast S19x64 (Scalar.ofBits .f32 0x40000000#32)) (mv64 lap (mv64 lap h))) h)
      = Cert.Spec.cheb2 (mat lap) (mat h) := by
  have e : mat (mv64 lap (mv64 lap h)) = Cert.Spec.mv (mat lap) (Cert.Spec.mv (mat lap) (mat h)) := by
    rw [mat_mv64, mat_mv64]
  funext n f
  show Cert.Spec.c2 * mat (mv64 lap (mv64 lap h)) n f - mat h n f = _
  rw [e]; rfl

/-- The third Chebyshev term on 32 features. -/
theorem mat_cheb32 (lap : FVec Ideal S19x19 .f32) (h : FVec Ideal S19x32 .f32) :
    mat (subf (mulf (broadcast S19x32 (Scalar.ofBits .f32 0x40000000#32)) (mv32 lap (mv32 lap h))) h)
      = Cert.Spec.cheb2 (mat lap) (mat h) := by
  have e : mat (mv32 lap (mv32 lap h)) = Cert.Spec.mv (mat lap) (Cert.Spec.mv (mat lap) (mat h)) := by
    rw [mat_mv32, mat_mv32]
  funext n f
  show Cert.Spec.c2 * mat (mv32 lap (mv32 lap h)) n f - mat h n f = _
  rw [e]; rfl

/-- Three 19 × 64 blocks side by side: column `j` is column `j`, `j − 64` or `j − 128` of the block it falls in. -/
theorem mat_cat64 (v0 v1 v2 : FVec Ideal S19x64 .f32) :
    mat (concatenate S19x192 1 [⟨S19x64, v0⟩, ⟨S19x64, v1⟩, ⟨S19x64, v2⟩] concatenates_S19x64_S19x64_S19x64_S19x192_d1)
      = Cert.Spec.cat3 (k := 64) (q := 192) rfl (mat v0) (mat v1) (mat v2) := by
  funext n j
  unfold Cert.Spec.cat3
  show concatenate S19x192 1 [⟨S19x64, v0⟩, ⟨S19x64, v1⟩, ⟨S19x64, v2⟩] concatenates_S19x64_S19x64_S19x64_S19x192_d1 (ix2 n j) = _
  have hj := j.isLt
  by_cases h1 : j.val < 64
  · rw [dif_pos h1]
    refine concatenate_apply_piece (1 : Fin S19x192.rank) _ _ (ix2 n j) 0 (by show 0 < 3; omega) S19x64 v0 rfl rfl 0 rfl (ix2 n ⟨j.val, h1⟩) ?_ ?_
    · intro b hb
      match b with
      | ⟨0, _⟩ => rfl
      | ⟨1, _⟩ => exact absurd (Fin.ext rfl) hb
    · show 0 + j.val = j.val; omega
  · rw [dif_neg h1]
    by_cases h2 : j.val < 2 * 64
    · rw [dif_pos h2]
      refine concatenate_apply_piece (1 : Fin S19x192.rank) _ _ (ix2 n j) 1 (by show 1 < 3; omega) S19x64 v1 rfl rfl 64 rfl (ix2 n ⟨j.val - 64, by omega⟩) ?_ ?_
      · intro b hb
        match b with
        | ⟨0, _⟩ => rfl
        | ⟨1, _⟩ => exact absurd (Fin.ext rfl) hb
      · show 64 + (j.val - 64) = j.val; omega
    · rw [dif_neg h2]
      refine concatenate_apply_piece (1 : Fin S19x192.rank) _ _ (ix2 n j) 2 (by show 2 < 3; omega) S19x64 v2 rfl rfl 128 rfl (ix2 n ⟨j.val - 2 * 64, by omega⟩) ?_ ?_
      · intro b hb
        match b with
        | ⟨0, _⟩ => rfl
        | ⟨1, _⟩ => exact absurd (Fin.ext rfl) hb
      · show 128 + (j.val - 2 * 64) = j.val; omega

/-- Three 19 × 32 blocks side by side. -/
theorem mat_cat32 (v0 v1 v2 : FVec Ideal S19x32 .f32) :
    mat (concatenate S19x96 1 [⟨S19x32, v0⟩, ⟨S19x32, v1⟩, ⟨S19x32, v2⟩] concatenates_S19x32_S19x32_S19x32_S19x96_d1)
      = Cert.Spec.cat3 (k := 32) (q := 96) rfl (mat v0) (mat v1) (mat v2) := by
  funext n j
  unfold Cert.Spec.cat3
  show concatenate S19x96 1 [⟨S19x32, v0⟩, ⟨S19x32, v1⟩, ⟨S19x32, v2⟩] concatenates_S19x32_S19x32_S19x32_S19x96_d1 (ix2 n j) = _
  have hj := j.isLt
  by_cases h1 : j.val < 32
  · rw [dif_pos h1]
    refine concatenate_apply_piece (1 : Fin S19x96.rank) _ _ (ix2 n j) 0 (by show 0 < 3; omega) S19x32 v0 rfl rfl 0 rfl (ix2 n ⟨j.val, h1⟩) ?_ ?_
    · intro b hb
      match b with
      | ⟨0, _⟩ => rfl
      | ⟨1, _⟩ => exact absurd (Fin.ext rfl) hb
    · show 0 + j.val = j.val; omega
  · rw [dif_neg h1]
    by_cases h2 : j.val < 2 * 32
    · rw [dif_pos h2]
      refine concatenate_apply_piece (1 : Fin S19x96.rank) _ _ (ix2 n j) 1 (by show 1 < 3; omega) S19x32 v1 rfl rfl 32 rfl (ix2 n ⟨j.val - 32, by omega⟩) ?_ ?_
      · intro b hb
        match b with
        | ⟨0, _⟩ => rfl
        | ⟨1, _⟩ => exact absurd (Fin.ext rfl) hb
      · show 32 + (j.val - 32) = j.val; omega
    · rw [dif_neg h2]
      refine concatenate_apply_piece (1 : Fin S19x96.rank) _ _ (ix2 n j) 2 (by show 2 < 3; omega) S19x32 v2 rfl rfl 64 rfl (ix2 n ⟨j.val - 2 * 32, by omega⟩) ?_ ?_
      · intro b hb
        match b with
        | ⟨0, _⟩ => rfl
        | ⟨1, _⟩ => exact absurd (Fin.ext rfl) hb
      · show 64 + (j.val - 2 * 32) = j.val; omega

theorem mat_xc64 (lap : FVec Ideal S19x19 .f32) (h : FVec Ideal S19x64 .f32) :
    mat (xc64 lap h) = Cert.Spec.cat3 (k := 64) (q := 192) rfl (mat h) (Cert.Spec.mv (mat lap) (mat h)) (Cert.Spec.cheb2 (mat lap) (mat h)) := by
  unfold xc64
  rw [mat_cat64, mat_mv64, mat_cheb64]

theorem mat_xc32 (lap : FVec Ideal S19x19 .f32) (h : FVec Ideal S19x32 .f32) :
    mat (xc32 lap h) = Cert.Spec.cat3 (k := 32) (q := 96) rfl (mat h) (Cert.Spec.mv (mat lap) (mat h)) (Cert.Spec.cheb2 (mat lap) (mat h)) := by
  unfold xc32
  rw [mat_cat32, mat_mv32, mat_cheb32]

/-- A bias row read down every node's row. -/
theorem bias_apply (b : FVec Ideal S1x32 .f32) (n : Fin 19) (f : Fin 32) :
    broadcastTo S19x32 b broadcasts_S1x32_S19x32 (ix2 n f) = b (ix2 0 f) :=
  broadcastTo_apply b broadcasts_S1x32_S19x32 (ix2 n f) (ix2 0 f) fun a => by
    match a with
    | ⟨0, _⟩ => rfl
    | ⟨1, _⟩ => rfl

/-- The first layer before its activation is the specification's layer on the matrices. -/
theorem mat_pre64 (lap : FVec Ideal S19x19 .f32) (h : FVec Ideal S19x64 .f32) (w : FVec Ideal S192x32 .f32) (b : FVec Ideal S1x32 .f32) :
    mat (pre64 lap h w b) = Cert.Spec.layer (k := 64) (q := 192) rfl (mat lap) (mat h) (mat w) (fun f => b (ix2 0 f)) := by
  funext n f
  unfold Cert.Spec.layer Cert.Spec.lin
  rw [← mat_xc64]
  show matmul dot_S19x192_S192x32_S19x32_1_0_0_1_n_n none (xc64 lap h) w (constant S19x32 .f32 0x00000000#32) (ix2 n f)
      + broadcastTo S19x32 b broadcasts_S1x32_S19x32 (ix2 n f) = _
  rw [lin192_apply, bias_apply]
  rfl

/-- A later layer before its activation is the specification's layer on the matrices. -/
theorem mat_pre32 (lap : FVec Ideal S19x19 .f32) (h : FVec Ideal S19x32 .f32) (w : FVec Ideal S96x32 .f32) (b : FVec Ideal S1x32 .f32) :
    mat (pre32 lap h w b) = Cert.Spec.layer (k := 32) (q := 96) rfl (mat lap) (mat h) (mat w) (fun f => b (ix2 0 f)) := by
  funext n f
  unfold Cert.Spec.layer Cert.Spec.lin
  rw [← mat_xc32]
  show matmul dot_S19x96_S96x32_S19x32_1_0_0_1_n_n none (xc32 lap h) w (constant S19x32 .f32 0x00000000#32) (ix2 n f)
      + broadcastTo S19x32 b broadcasts_S1x32_S19x32 (ix2 n f) = _
  rw [lin96_apply, bias_apply]
  rfl

/-- The activation is the specification's. -/
theorem mat_act (y : FVec Ideal S19x32 .f32) : mat (act y) = Cert.Spec.relu (mat y) := rfl

/-! ## A band and the stored block against the specification -/

/-- A 1 × 1 × a × b slab with its two unit axes dropped, as a matrix: entry `(i, j)` is the slab's `(0, 0, i, j)`. -/
theorem mat_drop2 {a b : Nat} (v : (⟨4, ![1, 1, a, b]⟩ : Shape).Idx → EReal)
    (h : (⟨4, ![1, 1, a, b]⟩ : Shape).ShapeCasts ⟨2, ![a, b]⟩) :
    mat (shapeCast ⟨2, ![a, b]⟩ v h) = fun i j => v (ix4 0 0 i j) := by
  funext i j
  refine shapeCast_apply v h (ix2 i j) (ix4 0 0 i j) ?_
  rw [Shape.rowMajor_val_four, Shape.rowMajor_val_two]
  show ((0 * 1 + 0) * a + i.val) * b + j.val = i.val * b + j.val
  simp

/-- The bias row of such a slab. -/
theorem row_drop2 {b : Nat} (v : (⟨4, ![1, 1, 1, b]⟩ : Shape).Idx → EReal)
    (h : (⟨4, ![1, 1, 1, b]⟩ : Shape).ShapeCasts ⟨2, ![1, b]⟩) :
    (fun f => shapeCast ⟨2, ![1, b]⟩ v h (ix2 0 f)) = fun f => v (ix4 0 0 0 f) := by
  funext f
  exact congrFun (congrFun (mat_drop2 v h) 0) f

/-- One band: four layers of the specification on the slabs' matrices, the first three activated. -/
theorem mat_band (lapb : Vec Ideal S1x1x19x19 .f32) (xb : Vec Ideal S1x1x19x64 .f32) (wi : Vec Ideal S1x1x192x32 .f32) (bi : Vec Ideal S1x1x1x32 .f32)
    (w0 : Vec Ideal S1x1x96x32 .f32) (c0 : Vec Ideal S1x1x1x32 .f32) (w1 : Vec Ideal S1x1x96x32 .f32) (c1 : Vec Ideal S1x1x1x32 .f32)
    (wo : Vec Ideal S1x1x96x32 .f32) (bo : Vec Ideal S1x1x1x32 .f32) :
    mat (band lapb xb wi bi w0 c0 w1 c1 wo bo)
      = Cert.Spec.layer (k := 32) (q := 96) rfl (fun n n' => lapb (ix4 0 0 n n'))
          (Cert.Spec.relu (Cert.Spec.layer (k := 32) (q := 96) rfl (fun n n' => lapb (ix4 0 0 n n'))
            (Cert.Spec.relu (Cert.Spec.layer (k := 32) (q := 96) rfl (fun n n' => lapb (ix4 0 0 n n'))
              (Cert.Spec.relu (Cert.Spec.layer (k := 64) (q := 192) rfl (fun n n' => lapb (ix4 0 0 n n')) (fun n f => xb (ix4 0 0 n f))
                (fun j f => wi (ix4 0 0 j f)) (fun f => bi (ix4 0 0 0 f))))
              (fun j f => w0 (ix4 0 0 j f)) (fun f => c0 (ix4 0 0 0 f))))
            (fun j f => w1 (ix4 0 0 j f)) (fun f => c1 (ix4 0 0 0 f))))
          (fun j f => wo (ix4 0 0 j f)) (fun f => bo (ix4 0 0 0 f)) := by
  unfold band
  rw [mat_pre32, mat_act, mat_pre32, mat_act, mat_pre32, mat_act, mat_pre64]
  rw [mat_drop2 lapb, mat_drop2 xb, mat_drop2 wi, mat_drop2 w0, mat_drop2 w1, mat_drop2 wo,
    row_drop2 bi, row_drop2 c0, row_drop2 c1, row_drop2 bo]

/-- The stored block: entry `(0, 0, n, j)` is entry `(n, j mod 32)` of band `j / 32`. -/
theorem body_apply (g0 g1 g2 g3 g4 : FVec Ideal S19x32 .f32) (n : Fin 19) (j : Fin 160) (hq : j.val / 32 < 5) :
    body g0 g1 g2 g3 g4 (ix4 0 0 n j)
      = (![g0, g1, g2, g3, g4] : Fin 5 → FVec Ideal S19x32 .f32) ⟨j.val / 32, hq⟩ (ix2 n ⟨j.val % 32, Nat.mod_lt _ (by decide)⟩) := by
  unfold body
  refine (shapeCast_apply _ shapeCasts_S19x160_S1x1x19x160 (ix4 0 0 n j) (ix2 n j) ?_).trans ?_
  · rw [Shape.rowMajor_val_four, Shape.rowMajor_val_two]
    show n.val * 160 + j.val = ((0 * 1 + 0) * 19 + n.val) * 160 + j.val
    omega
  have hj := j.isLt
  obtain h | h | h | h | h : j.val / 32 = 0 ∨ j.val / 32 = 1 ∨ j.val / 32 = 2 ∨ j.val / 32 = 3 ∨ j.val / 32 = 4 := by omega
  · have e : (⟨j.val / 32, hq⟩ : Fin 5) = 0 := Fin.ext h
    rw [e]
    refine concatenate_apply_piece (1 : Fin S19x160.rank) _ _ (ix2 n j) 0 (by show 0 < 5; omega) S19x32 g0 rfl rfl 0 rfl
      (ix2 n ⟨j.val % 32, Nat.mod_lt _ (by decide)⟩) ?_ ?_
    · intro b hb
      match b with
      | ⟨0, _⟩ => rfl
      | ⟨1, _⟩ => exact absurd (Fin.ext rfl) hb
    · show 0 + j.val % 32 = j.val; omega
  · have e : (⟨j.val / 32, hq⟩ : Fin 5) = 1 := Fin.ext h
    rw [e]
    refine concatenate_apply_piece (1 : Fin S19x160.rank) _ _ (ix2 n j) 1 (by show 1 < 5; omega) S19x32 g1 rfl rfl 32 rfl
      (ix2 n ⟨j.val % 32, Nat.mod_lt _ (by decide)⟩) ?_ ?_
    · intro b hb
      match b with
      | ⟨0, _⟩ => rfl
      | ⟨1, _⟩ => exact absurd (Fin.ext rfl) hb
    · show 32 + j.val % 32 = j.val; omega
  · have e : (⟨j.val / 32, hq⟩ : Fin 5) = 2 := Fin.ext h
    rw [e]
    refine concatenate_apply_piece (1 : Fin S19x160.rank) _ _ (ix2 n j) 2 (by show 2 < 5; omega) S19x32 g2 rfl rfl 64 rfl
      (ix2 n ⟨j.val % 32, Nat.mod_lt _ (by decide)⟩) ?_ ?_
    · intro b hb
      match b with
      | ⟨0, _⟩ => rfl
      | ⟨1, _⟩ => exact absurd (Fin.ext rfl) hb
    · show 64 + j.val % 32 = j.val; omega
  · have e : (⟨j.val / 32, hq⟩ : Fin 5) = 3 := Fin.ext h
    rw [e]
    refine concatenate_apply_piece (1 : Fin S19x160.rank) _ _ (ix2 n j) 3 (by show 3 < 5; omega) S19x32 g3 rfl rfl 96 rfl
      (ix2 n ⟨j.val % 32, Nat.mod_lt _ (by decide)⟩) ?_ ?_
    · intro b hb
      match b with
      | ⟨0, _⟩ => rfl
      | ⟨1, _⟩ => exact absurd (Fin.ext rfl) hb
    · show 96 + j.val % 32 = j.val; omega
  · have e : (⟨j.val / 32, hq⟩ : Fin 5) = 4 := Fin.ext h
    rw [e]
    refine concatenate_apply_piece (1 : Fin S19x160.rank) _ _ (ix2 n j) 4 (by show 4 < 5; omega) S19x32 g4 rfl rfl 128 rfl
      (ix2 n ⟨j.val % 32, Nat.mod_lt _ (by decide)⟩) ?_ ?_
    · intro b hb
      match b with
      | ⟨0, _⟩ => rfl
      | ⟨1, _⟩ => exact absurd (Fin.ext rfl) hb
    · show 128 + j.val % 32 = j.val; omega

/-! ## A band is the specification's four layers; the stored block is `gcn` -/

/-- A slab of a block: the load through the unit rectangle at `(0, k, 0, 0)` reads entry `(0, k, i, j)`. -/
theorem ld_slab {d a b : Nat} (X : Vec Ideal ⟨4, ![1, d, a, b]⟩ .f32) (k : Nat) (hk : k < d)
    (inb : ∀ ax, (![0, k, 0, 0] : Fin 4 → Nat) ax + (⟨4, ![1, 1, a, b]⟩ : Shape).size ax ≤ (⟨4, ![1, d, a, b]⟩ : Shape).size ax)
    (i : Fin a) (j : Fin b) :
    View.ld X (Rect.unit (s := ⟨4, ![1, d, a, b]⟩) ![0, k, 0, 0] (⟨4, ![1, 1, a, b]⟩ : Shape).size inb) (ix4 0 0 i j)
      = X (ix4 0 ⟨k, hk⟩ i j) := by
  show X _ = X _
  congr 1
  funext ax
  apply Fin.ext
  match ax with
  | ⟨0, _⟩ => rfl
  | ⟨1, _⟩ => show k + 1 * 0 = k; omega
  | ⟨2, _⟩ => show 0 + 1 * i.val = i.val; omega
  | ⟨3, _⟩ => show 0 + 1 * j.val = j.val; omega

/-- A band on slabs that hold graph `b`'s laplacian and features and member `m`'s weights of band `k` (the hidden
    weights at `2k` and `2k + 1`) is the specification's output layer `h4`. -/
theorem band_spec (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (m : Fin 64) (b : Fin 256) (k : Fin 5)
    (lapb : Vec Ideal S1x1x19x19 .f32) (xb : Vec Ideal S1x1x19x64 .f32) (wib : Vec Ideal S1x1x192x32 .f32) (bib : Vec Ideal S1x1x1x32 .f32)
    (w0 : Vec Ideal S1x1x96x32 .f32) (c0 : Vec Ideal S1x1x1x32 .f32) (w1 : Vec Ideal S1x1x96x32 .f32) (c1 : Vec Ideal S1x1x1x32 .f32)
    (wob : Vec Ideal S1x1x96x32 .f32) (bob : Vec Ideal S1x1x1x32 .f32)
    (hl : ∀ n n', lapb (ix4 0 0 n n') = A (ix4 b k n n'))
    (hx : ∀ n f, xb (ix4 0 0 n f) = x (ix4 b n f k))
    (hwi : ∀ j f, wib (ix4 0 0 j f) = wi (ix4 m k j f))
    (hbi : ∀ f, bib (ix4 0 0 0 f) = bi (ix4 m k 0 f))
    (hw0 : ∀ j f, w0 (ix4 0 0 j f) = wh (ix4 m (Cert.Spec.hid k 0) j f))
    (hc0 : ∀ f, c0 (ix4 0 0 0 f) = bh (ix4 m (Cert.Spec.hid k 0) 0 f))
    (hw1 : ∀ j f, w1 (ix4 0 0 j f) = wh (ix4 m (Cert.Spec.hid k 1) j f))
    (hc1 : ∀ f, c1 (ix4 0 0 0 f) = bh (ix4 m (Cert.Spec.hid k 1) 0 f))
    (hwo : ∀ j f, wob (ix4 0 0 j f) = wo (ix4 m k j f))
    (hbo : ∀ f, bob (ix4 0 0 0 f) = bo (ix4 m k 0 f)) :
    mat (band lapb xb wib bib w0 c0 w1 c1 wob bob) = Cert.Spec.h4 x A wi bi wh bh wo bo m b k := by
  rw [mat_band]
  have e1 : (fun n n' => lapb (ix4 0 0 n n')) = Cert.Spec.lap A b k := funext fun n => funext fun n' => hl n n'
  have e2 : (fun n f => xb (ix4 0 0 n f)) = Cert.Spec.feat0 x b k := funext fun n => funext fun f => hx n f
  have e3 : (fun j f => wib (ix4 0 0 j f)) = fun j f => wi (ix4 m k j f) := funext fun j => funext fun f => hwi j f
  have e4 : (fun f => bib (ix4 0 0 0 f)) = fun f => bi (ix4 m k 0 f) := funext fun f => hbi f
  have e5 : (fun j f => w0 (ix4 0 0 j f)) = fun j f => wh (ix4 m (Cert.Spec.hid k 0) j f) := funext fun j => funext fun f => hw0 j f
  have e6 : (fun f => c0 (ix4 0 0 0 f)) = fun f => bh (ix4 m (Cert.Spec.hid k 0) 0 f) := funext fun f => hc0 f
  have e7 : (fun j f => w1 (ix4 0 0 j f)) = fun j f => wh (ix4 m (Cert.Spec.hid k 1) j f) := funext fun j => funext fun f => hw1 j f
  have e8 : (fun f => c1 (ix4 0 0 0 f)) = fun f => bh (ix4 m (Cert.Spec.hid k 1) 0 f) := funext fun f => hc1 f
  have e9 : (fun j f => wob (ix4 0 0 j f)) = fun j f => wo (ix4 m k j f) := funext fun j => funext fun f => hwo j f
  have e10 : (fun f => bob (ix4 0 0 0 f)) = fun f => bo (ix4 m k 0 f) := funext fun f => hbo f
  rw [e1, e2, e3, e4, e5, e6, e7, e8, e9, e10]
  rfl

/-- The stored block on blocks that hold graph `b`'s features and laplacians and member `m`'s weights: entry
    `(0, 0, n, j)` is `gcn m b n j`. -/
theorem point_eq (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (m : Fin 64) (b : Fin 256)
    (x0 : Vec Ideal S1x5x19x64 .f32) (x1 : Vec Ideal S1x5x19x19 .f32) (x2 : Vec Ideal S1x5x192x32 .f32) (x3 : Vec Ideal S1x5x1x32 .f32)
    (x4 : Vec Ideal S1x10x96x32 .f32) (x5 : Vec Ideal S1x10x1x32 .f32) (x6 : Vec Ideal S1x5x96x32 .f32) (x7 : Vec Ideal S1x5x1x32 .f32)
    (h0 : ∀ (k : Fin 5) (n : Fin 19) (f : Fin 64), x0 (ix4 0 k n f) = x (ix4 b n f k))
    (h1 : ∀ (k : Fin 5) (n n' : Fin 19), x1 (ix4 0 k n n') = A (ix4 b k n n'))
    (h2 : ∀ (k : Fin 5) (j : Fin 192) (f : Fin 32), x2 (ix4 0 k j f) = wi (ix4 m k j f))
    (h3 : ∀ (k : Fin 5) (f : Fin 32), x3 (ix4 0 k 0 f) = bi (ix4 m k 0 f))
    (h4 : ∀ (k : Fin 10) (j : Fin 96) (f : Fin 32), x4 (ix4 0 k j f) = wh (ix4 m k j f))
    (h5 : ∀ (k : Fin 10) (f : Fin 32), x5 (ix4 0 k 0 f) = bh (ix4 m k 0 f))
    (h6 : ∀ (k : Fin 5) (j : Fin 96) (f : Fin 32), x6 (ix4 0 k j f) = wo (ix4 m k j f))
    (h7 : ∀ (k : Fin 5) (f : Fin 32), x7 (ix4 0 k 0 f) = bo (ix4 m k 0 f))
    (n : Fin 19) (j : Fin 160) :
    body
      (band (View.ld x1 r0_0) (View.ld x0 r0_1) (View.ld x2 r0_2) (View.ld x3 r0_3) (View.ld x4 r0_4) (View.ld x5 r0_5) (View.ld x4 r0_6) (View.ld x5 r0_7) (View.ld x6 r0_8) (View.ld x7 r0_3))
      (band (View.ld x1 r0_9) (View.ld x0 r0_10) (View.ld x2 r0_11) (View.ld x3 r0_12) (View.ld x4 r0_13) (View.ld x5 r0_14) (View.ld x4 r0_15) (View.ld x5 r0_16) (View.ld x6 r0_17) (View.ld x7 r0_12))
      (band (View.ld x1 r0_18) (View.ld x0 r0_19) (View.ld x2 r0_20) (View.ld x3 r0_21) (View.ld x4 r0_22) (View.ld x5 r0_23) (View.ld x4 r0_24) (View.ld x5 r0_25) (View.ld x6 r0_26) (View.ld x7 r0_21))
      (band (View.ld x1 r0_27) (View.ld x0 r0_28) (View.ld x2 r0_29) (View.ld x3 r0_30) (View.ld x4 r0_31) (View.ld x5 r0_32) (View.ld x4 r0_33) (View.ld x5 r0_34) (View.ld x6 r0_35) (View.ld x7 r0_30))
      (band (View.ld x1 r0_36) (View.ld x0 r0_37) (View.ld x2 r0_38) (View.ld x3 r0_39) (View.ld x4 r0_40) (View.ld x5 r0_41) (View.ld x4 r0_42) (View.ld x5 r0_43) (View.ld x6 r0_44) (View.ld x7 r0_39)) (ix4 0 0 n j)
      = Cert.Spec.gcn x A wi bi wh bh wo bo m b n j := by
  have hj := j.isLt
  have hq : j.val / 32 < 5 := by omega
  rw [body_apply _ _ _ _ _ n j hq]
  unfold Cert.Spec.gcn
  obtain h | h | h | h | h : j.val / 32 = 0 ∨ j.val / 32 = 1 ∨ j.val / 32 = 2 ∨ j.val / 32 = 3 ∨ j.val / 32 = 4 := by omega
  · have e : (⟨j.val / 32, hq⟩ : Fin 5) = 0 := Fin.ext h
    rw [e]
    refine congrFun (congrFun (band_spec x A wi bi wh bh wo bo m b 0 _ _ _ _ _ _ _ _ _ _ ?_ ?_ ?_ ?_ ?_ ?_ ?_ ?_ ?_ ?_) n) _
    · exact fun n n' => (ld_slab x1 0 (by decide) _ n n').trans (h1 _ n n')
    · exact fun n f => (ld_slab x0 0 (by decide) _ n f).trans (h0 _ n f)
    · exact fun j' f => (ld_slab x2 0 (by decide) _ j' f).trans (h2 _ j' f)
    · exact fun f => (ld_slab x3 0 (by decide) _ 0 f).trans (h3 _ f)
    · exact fun j' f => (ld_slab x4 0 (by decide) _ j' f).trans (h4 _ j' f)
    · exact fun f => (ld_slab x5 0 (by decide) _ 0 f).trans (h5 _ f)
    · exact fun j' f => (ld_slab x4 1 (by decide) _ j' f).trans (h4 _ j' f)
    · exact fun f => (ld_slab x5 1 (by decide) _ 0 f).trans (h5 _ f)
    · exact fun j' f => (ld_slab x6 0 (by decide) _ j' f).trans (h6 _ j' f)
    · exact fun f => (ld_slab x7 0 (by decide) _ 0 f).trans (h7 _ f)
  · have e : (⟨j.val / 32, hq⟩ : Fin 5) = 1 := Fin.ext h
    rw [e]
    refine congrFun (congrFun (band_spec x A wi bi wh bh wo bo m b 1 _ _ _ _ _ _ _ _ _ _ ?_ ?_ ?_ ?_ ?_ ?_ ?_ ?_ ?_ ?_) n) _
    · exact fun n n' => (ld_slab x1 1 (by decide) _ n n').trans (h1 _ n n')
    · exact fun n f => (ld_slab x0 1 (by decide) _ n f).trans (h0 _ n f)
    · exact fun j' f => (ld_slab x2 1 (by decide) _ j' f).trans (h2 _ j' f)
    · exact fun f => (ld_slab x3 1 (by decide) _ 0 f).trans (h3 _ f)
    · exact fun j' f => (ld_slab x4 2 (by decide) _ j' f).trans (h4 _ j' f)
    · exact fun f => (ld_slab x5 2 (by decide) _ 0 f).trans (h5 _ f)
    · exact fun j' f => (ld_slab x4 3 (by decide) _ j' f).trans (h4 _ j' f)
    · exact fun f => (ld_slab x5 3 (by decide) _ 0 f).trans (h5 _ f)
    · exact fun j' f => (ld_slab x6 1 (by decide) _ j' f).trans (h6 _ j' f)
    · exact fun f => (ld_slab x7 1 (by decide) _ 0 f).trans (h7 _ f)
  · have e : (⟨j.val / 32, hq⟩ : Fin 5) = 2 := Fin.ext h
    rw [e]
    refine congrFun (congrFun (band_spec x A wi bi wh bh wo bo m b 2 _ _ _ _ _ _ _ _ _ _ ?_ ?_ ?_ ?_ ?_ ?_ ?_ ?_ ?_ ?_) n) _
    · exact fun n n' => (ld_slab x1 2 (by decide) _ n n').trans (h1 _ n n')
    · exact fun n f => (ld_slab x0 2 (by decide) _ n f).trans (h0 _ n f)
    · exact fun j' f => (ld_slab x2 2 (by decide) _ j' f).trans (h2 _ j' f)
    · exact fun f => (ld_slab x3 2 (by decide) _ 0 f).trans (h3 _ f)
    · exact fun j' f => (ld_slab x4 4 (by decide) _ j' f).trans (h4 _ j' f)
    · exact fun f => (ld_slab x5 4 (by decide) _ 0 f).trans (h5 _ f)
    · exact fun j' f => (ld_slab x4 5 (by decide) _ j' f).trans (h4 _ j' f)
    · exact fun f => (ld_slab x5 5 (by decide) _ 0 f).trans (h5 _ f)
    · exact fun j' f => (ld_slab x6 2 (by decide) _ j' f).trans (h6 _ j' f)
    · exact fun f => (ld_slab x7 2 (by decide) _ 0 f).trans (h7 _ f)
  · have e : (⟨j.val / 32, hq⟩ : Fin 5) = 3 := Fin.ext h
    rw [e]
    refine congrFun (congrFun (band_spec x A wi bi wh bh wo bo m b 3 _ _ _ _ _ _ _ _ _ _ ?_ ?_ ?_ ?_ ?_ ?_ ?_ ?_ ?_ ?_) n) _
    · exact fun n n' => (ld_slab x1 3 (by decide) _ n n').trans (h1 _ n n')
    · exact fun n f => (ld_slab x0 3 (by decide) _ n f).trans (h0 _ n f)
    · exact fun j' f => (ld_slab x2 3 (by decide) _ j' f).trans (h2 _ j' f)
    · exact fun f => (ld_slab x3 3 (by decide) _ 0 f).trans (h3 _ f)
    · exact fun j' f => (ld_slab x4 6 (by decide) _ j' f).trans (h4 _ j' f)
    · exact fun f => (ld_slab x5 6 (by decide) _ 0 f).trans (h5 _ f)
    · exact fun j' f => (ld_slab x4 7 (by decide) _ j' f).trans (h4 _ j' f)
    · exact fun f => (ld_slab x5 7 (by decide) _ 0 f).trans (h5 _ f)
    · exact fun j' f => (ld_slab x6 3 (by decide) _ j' f).trans (h6 _ j' f)
    · exact fun f => (ld_slab x7 3 (by decide) _ 0 f).trans (h7 _ f)
  · have e : (⟨j.val / 32, hq⟩ : Fin 5) = 4 := Fin.ext h
    rw [e]
    refine congrFun (congrFun (band_spec x A wi bi wh bh wo bo m b 4 _ _ _ _ _ _ _ _ _ _ ?_ ?_ ?_ ?_ ?_ ?_ ?_ ?_ ?_ ?_) n) _
    · exact fun n n' => (ld_slab x1 4 (by decide) _ n n').trans (h1 _ n n')
    · exact fun n f => (ld_slab x0 4 (by decide) _ n f).trans (h0 _ n f)
    · exact fun j' f => (ld_slab x2 4 (by decide) _ j' f).trans (h2 _ j' f)
    · exact fun f => (ld_slab x3 4 (by decide) _ 0 f).trans (h3 _ f)
    · exact fun j' f => (ld_slab x4 8 (by decide) _ j' f).trans (h4 _ j' f)
    · exact fun f => (ld_slab x5 8 (by decide) _ 0 f).trans (h5 _ f)
    · exact fun j' f => (ld_slab x4 9 (by decide) _ j' f).trans (h4 _ j' f)
    · exact fun f => (ld_slab x5 9 (by decide) _ 0 f).trans (h5 _ f)
    · exact fun j' f => (ld_slab x6 4 (by decide) _ j' f).trans (h6 _ j' f)
    · exact fun f => (ld_slab x7 4 (by decide) _ 0 f).trans (h7 _ f)

/-! ## The generated block is `body` of the five `band`s -/

section Bridge

variable {F : FTy → Type} [FloatOps F]

/-- What the body leaves in the output block: band `k` reads slab `k` of the features, laplacians, input and output
    weights and slabs `2k`, `2k + 1` of the hidden weights. -/
theorem out_eq (x0 : Vec F S1x5x19x64 .f32) (x1 : Vec F S1x5x19x19 .f32) (x2 : Vec F S1x5x192x32 .f32) (x3 : Vec F S1x5x1x32 .f32)
    (x4 : Vec F S1x10x96x32 .f32) (x5 : Vec F S1x10x1x32 .f32) (x6 : Vec F S1x5x96x32 .f32) (x7 : Vec F S1x5x1x32 .f32) :
    out0_8 x0 x1 x2 x3 x4 x5 x6 x7 = View.canon [⟨r0_45, body
      (band (View.ld x1 r0_0) (View.ld x0 r0_1) (View.ld x2 r0_2) (View.ld x3 r0_3) (View.ld x4 r0_4) (View.ld x5 r0_5) (View.ld x4 r0_6) (View.ld x5 r0_7) (View.ld x6 r0_8) (View.ld x7 r0_3))
      (band (View.ld x1 r0_9) (View.ld x0 r0_10) (View.ld x2 r0_11) (View.ld x3 r0_12) (View.ld x4 r0_13) (View.ld x5 r0_14) (View.ld x4 r0_15) (View.ld x5 r0_16) (View.ld x6 r0_17) (View.ld x7 r0_12))
      (band (View.ld x1 r0_18) (View.ld x0 r0_19) (View.ld x2 r0_20) (View.ld x3 r0_21) (View.ld x4 r0_22) (View.ld x5 r0_23) (View.ld x4 r0_24) (View.ld x5 r0_25) (View.ld x6 r0_26) (View.ld x7 r0_21))
      (band (View.ld x1 r0_27) (View.ld x0 r0_28) (View.ld x2 r0_29) (View.ld x3 r0_30) (View.ld x4 r0_31) (View.ld x5 r0_32) (View.ld x4 r0_33) (View.ld x5 r0_34) (View.ld x6 r0_35) (View.ld x7 r0_30))
      (band (View.ld x1 r0_36) (View.ld x0 r0_37) (View.ld x2 r0_38) (View.ld x3 r0_39) (View.ld x4 r0_40) (View.ld x5 r0_41) (View.ld x4 r0_42) (View.ld x5 r0_43) (View.ld x6 r0_44) (View.ld x7 r0_39))⟩] := rfl

end Bridge

/-! ## From the blocks to the array

Grid point `t` is (member `m`, graph `b`) in row-major order.  The features' and laplacians' windows move with the
graph, the weights' windows with the member, the output's window with both; every other block index is 0. -/

theorem hz : (![0, 0, 0, 0] : Fin 4 → Nat) = fun _ => 0 := funext fun a => by fin_cases a <;> rfl

/-- The member a grid point works on. -/
def mOf (t : Fin cfg0.N) : Fin 64 := ⟨(grid0.coords t 0).val, (grid0.coords t 0).isLt⟩
/-- The graph a grid point works on. -/
def gOf (t : Fin cfg0.N) : Fin 256 := ⟨(grid0.coords t 1).val, (grid0.coords t 1).isLt⟩

theorem mOf_val (t : Fin cfg0.N) : (mOf t).val = t.val / 256 % 64 := by
  have hs : grid0.stride 0 = 256 := by decide
  show t.val / grid0.stride 0 % 64 = t.val / 256 % 64
  rw [hs]
theorem gOf_val (t : Fin cfg0.N) : (gOf t).val = t.val % 256 := by
  have hs : grid0.stride 1 = 1 := by decide
  show t.val / grid0.stride 1 % 256 = t.val % 256
  rw [hs, Nat.div_one]

/-- A grid coordinate, as the 32-bit word an index map receives and read back, is itself. -/
theorem toNat_coord {k n : Nat} (h : k < n) (hn : n ≤ 2 ^ 32) : (BitVec.ofNat 32 k).toNat = k := by
  rw [BitVec.toNat_ofNat]
  exact Nat.mod_eq_of_lt (Nat.lt_of_lt_of_le h hn)

theorem index0 (t : Fin cfg0.N) : win0_0.index t (0 : Fin 4) = (gOf t).val ∧ win0_0.index t (1 : Fin 4) = 0
    ∧ win0_0.index t (2 : Fin 4) = 0 ∧ win0_0.index t (3 : Fin 4) = 0 :=
  ⟨toNat_coord (gOf t).isLt (by decide), rfl, rfl, rfl⟩
theorem index1 (t : Fin cfg0.N) : win0_1.index t (0 : Fin 4) = (gOf t).val ∧ win0_1.index t (1 : Fin 4) = 0
    ∧ win0_1.index t (2 : Fin 4) = 0 ∧ win0_1.index t (3 : Fin 4) = 0 :=
  ⟨toNat_coord (gOf t).isLt (by decide), rfl, rfl, rfl⟩
theorem index2 (t : Fin cfg0.N) : win0_2.index t (0 : Fin 4) = (mOf t).val ∧ win0_2.index t (1 : Fin 4) = 0
    ∧ win0_2.index t (2 : Fin 4) = 0 ∧ win0_2.index t (3 : Fin 4) = 0 :=
  ⟨toNat_coord (mOf t).isLt (by decide), rfl, rfl, rfl⟩
theorem index3 (t : Fin cfg0.N) : win0_3.index t (0 : Fin 4) = (mOf t).val ∧ win0_3.index t (1 : Fin 4) = 0
    ∧ win0_3.index t (2 : Fin 4) = 0 ∧ win0_3.index t (3 : Fin 4) = 0 :=
  ⟨toNat_coord (mOf t).isLt (by decide), rfl, rfl, rfl⟩
theorem index4 (t : Fin cfg0.N) : win0_4.index t (0 : Fin 4) = (mOf t).val ∧ win0_4.index t (1 : Fin 4) = 0
    ∧ win0_4.index t (2 : Fin 4) = 0 ∧ win0_4.index t (3 : Fin 4) = 0 :=
  ⟨toNat_coord (mOf t).isLt (by decide), rfl, rfl, rfl⟩
theorem index5 (t : Fin cfg0.N) : win0_5.index t (0 : Fin 4) = (mOf t).val ∧ win0_5.index t (1 : Fin 4) = 0
    ∧ win0_5.index t (2 : Fin 4) = 0 ∧ win0_5.index t (3 : Fin 4) = 0 :=
  ⟨toNat_coord (mOf t).isLt (by decide), rfl, rfl, rfl⟩
theorem index6 (t : Fin cfg0.N) : win0_6.index t (0 : Fin 4) = (mOf t).val ∧ win0_6.index t (1 : Fin 4) = 0
    ∧ win0_6.index t (2 : Fin 4) = 0 ∧ win0_6.index t (3 : Fin 4) = 0 :=
  ⟨toNat_coord (mOf t).isLt (by decide), rfl, rfl, rfl⟩
theorem index7 (t : Fin cfg0.N) : win0_7.index t (0 : Fin 4) = (mOf t).val ∧ win0_7.index t (1 : Fin 4) = 0
    ∧ win0_7.index t (2 : Fin 4) = 0 ∧ win0_7.index t (3 : Fin 4) = 0 :=
  ⟨toNat_coord (mOf t).isLt (by decide), rfl, rfl, rfl⟩
theorem index8 (t : Fin cfg0.N) : win0_8.index t (0 : Fin 4) = (mOf t).val ∧ win0_8.index t (1 : Fin 4) = (gOf t).val
    ∧ win0_8.index t (2 : Fin 4) = 0 ∧ win0_8.index t (3 : Fin 4) = 0 :=
  ⟨toNat_coord (mOf t).isLt (by decide), toNat_coord (gOf t).isLt (by decide), rfl, rfl⟩

/-- The features' block at a point is the point's graph's slice of the band-major features. -/
theorem blk0_apply (V : (c : Dev nD) → (b : Ref sig .tc) → Buf (Elt Ideal) ((c : Thread nD τ).loc b)) (c : Dev nD) (t : Fin cfg0.N)
    (k : Fin 5) (n : Fin 19) (f : Fin 64) :
    (iblk0 V c 0 t : Vec Ideal S1x5x19x64 .f32) (ix4 0 k n f)
      = (V c main_v0 : S256x5x19x64.Idx → EReal) (ix4 (gOf t) k n f) := by
  obtain ⟨e0, e1, e2, e3⟩ := index0 t
  unfold iblk0
  rw [View.read_apply]
  show (V c main_v0 : S256x5x19x64.Idx → EReal) _ = _
  congr 1
  funext a
  apply Fin.ext
  match a with
  | ⟨0, _⟩ => show win0_0.index t (0 : Fin 4) * 1 + 1 * 0 = (gOf t).val; omega
  | ⟨1, _⟩ => show win0_0.index t (1 : Fin 4) * 5 + 1 * (k.val) = k.val; omega
  | ⟨2, _⟩ => show win0_0.index t (2 : Fin 4) * 19 + 1 * (n.val) = n.val; omega
  | ⟨3, _⟩ => show win0_0.index t (3 : Fin 4) * 64 + 1 * f.val = f.val; omega

/-- The laplacians' block at a point is the point's graph's five laplacians. -/
theorem blk1_apply (V : (c : Dev nD) → (b : Ref sig .tc) → Buf (Elt Ideal) ((c : Thread nD τ).loc b)) (c : Dev nD) (t : Fin cfg0.N)
    (k : Fin 5) (n n' : Fin 19) :
    (iblk0 V c 1 t : Vec Ideal S1x5x19x19 .f32) (ix4 0 k n n')
      = (V c main_arg1 : S256x5x19x19.Idx → EReal) (ix4 (gOf t) k n n') := by
  obtain ⟨e0, e1, e2, e3⟩ := index1 t
  unfold iblk0
  rw [View.read_apply]
  show (V c main_arg1 : S256x5x19x19.Idx → EReal) _ = _
  congr 1
  funext a
  apply Fin.ext
  match a with
  | ⟨0, _⟩ => show win0_1.index t (0 : Fin 4) * 1 + 1 * 0 = (gOf t).val; omega
  | ⟨1, _⟩ => show win0_1.index t (1 : Fin 4) * 5 + 1 * (k.val) = k.val; omega
  | ⟨2, _⟩ => show win0_1.index t (2 : Fin 4) * 19 + 1 * (n.val) = n.val; omega
  | ⟨3, _⟩ => show win0_1.index t (3 : Fin 4) * 19 + 1 * n'.val = n'.val; omega

/-- The input weights' block at a point is the point's member's. -/
theorem blk2_apply (V : (c : Dev nD) → (b : Ref sig .tc) → Buf (Elt Ideal) ((c : Thread nD τ).loc b)) (c : Dev nD) (t : Fin cfg0.N)
    (k : Fin 5) (j : Fin 192) (f : Fin 32) :
    (iblk0 V c 2 t : Vec Ideal S1x5x192x32 .f32) (ix4 0 k j f)
      = (V c main_arg2 : S64x5x192x32.Idx → EReal) (ix4 (mOf t) k j f) := by
  obtain ⟨e0, e1, e2, e3⟩ := index2 t
  unfold iblk0
  rw [View.read_apply]
  show (V c main_arg2 : S64x5x192x32.Idx → EReal) _ = _
  congr 1
  funext a
  apply Fin.ext
  match a with
  | ⟨0, _⟩ => show win0_2.index t (0 : Fin 4) * 1 + 1 * 0 = (mOf t).val; omega
  | ⟨1, _⟩ => show win0_2.index t (1 : Fin 4) * 5 + 1 * (k.val) = k.val; omega
  | ⟨2, _⟩ => show win0_2.index t (2 : Fin 4) * 192 + 1 * (j.val) = j.val; omega
  | ⟨3, _⟩ => show win0_2.index t (3 : Fin 4) * 32 + 1 * f.val = f.val; omega

/-- The input biases' block at a point is the point's member's. -/
theorem blk3_apply (V : (c : Dev nD) → (b : Ref sig .tc) → Buf (Elt Ideal) ((c : Thread nD τ).loc b)) (c : Dev nD) (t : Fin cfg0.N)
    (k : Fin 5) (f : Fin 32) :
    (iblk0 V c 3 t : Vec Ideal S1x5x1x32 .f32) (ix4 0 k 0 f)
      = (V c main_arg3 : S64x5x1x32.Idx → EReal) (ix4 (mOf t) k 0 f) := by
  obtain ⟨e0, e1, e2, e3⟩ := index3 t
  unfold iblk0
  rw [View.read_apply]
  show (V c main_arg3 : S64x5x1x32.Idx → EReal) _ = _
  congr 1
  funext a
  apply Fin.ext
  match a with
  | ⟨0, _⟩ => show win0_3.index t (0 : Fin 4) * 1 + 1 * 0 = (mOf t).val; omega
  | ⟨1, _⟩ => show win0_3.index t (1 : Fin 4) * 5 + 1 * (k.val) = k.val; omega
  | ⟨2, _⟩ => show win0_3.index t (2 : Fin 4) * 1 + 1 * (0) = 0; omega
  | ⟨3, _⟩ => show win0_3.index t (3 : Fin 4) * 32 + 1 * f.val = f.val; omega

/-- The hidden weights' block at a point is the point's member's. -/
theorem blk4_apply (V : (c : Dev nD) → (b : Ref sig .tc) → Buf (Elt Ideal) ((c : Thread nD τ).loc b)) (c : Dev nD) (t : Fin cfg0.N)
    (k : Fin 10) (j : Fin 96) (f : Fin 32) :
    (iblk0 V c 4 t : Vec Ideal S1x10x96x32 .f32) (ix4 0 k j f)
      = (V c main_arg4 : S64x10x96x32.Idx → EReal) (ix4 (mOf t) k j f) := by
  obtain ⟨e0, e1, e2, e3⟩ := index4 t
  unfold iblk0
  rw [View.read_apply]
  show (V c main_arg4 : S64x10x96x32.Idx → EReal) _ = _
  congr 1
  funext a
  apply Fin.ext
  match a with
  | ⟨0, _⟩ => show win0_4.index t (0 : Fin 4) * 1 + 1 * 0 = (mOf t).val; omega
  | ⟨1, _⟩ => show win0_4.index t (1 : Fin 4) * 10 + 1 * (k.val) = k.val; omega
  | ⟨2, _⟩ => show win0_4.index t (2 : Fin 4) * 96 + 1 * (j.val) = j.val; omega
  | ⟨3, _⟩ => show win0_4.index t (3 : Fin 4) * 32 + 1 * f.val = f.val; omega

/-- The hidden biases' block at a point is the point's member's. -/
theorem blk5_apply (V : (c : Dev nD) → (b : Ref sig .tc) → Buf (Elt Ideal) ((c : Thread nD τ).loc b)) (c : Dev nD) (t : Fin cfg0.N)
    (k : Fin 10) (f : Fin 32) :
    (iblk0 V c 5 t : Vec Ideal S1x10x1x32 .f32) (ix4 0 k 0 f)
      = (V c main_arg5 : S64x10x1x32.Idx → EReal) (ix4 (mOf t) k 0 f) := by
  obtain ⟨e0, e1, e2, e3⟩ := index5 t
  unfold iblk0
  rw [View.read_apply]
  show (V c main_arg5 : S64x10x1x32.Idx → EReal) _ = _
  congr 1
  funext a
  apply Fin.ext
  match a with
  | ⟨0, _⟩ => show win0_5.index t (0 : Fin 4) * 1 + 1 * 0 = (mOf t).val; omega
  | ⟨1, _⟩ => show win0_5.index t (1 : Fin 4) * 10 + 1 * (k.val) = k.val; omega
  | ⟨2, _⟩ => show win0_5.index t (2 : Fin 4) * 1 + 1 * (0) = 0; omega
  | ⟨3, _⟩ => show win0_5.index t (3 : Fin 4) * 32 + 1 * f.val = f.val; omega

/-- The output weights' block at a point is the point's member's. -/
theorem blk6_apply (V : (c : Dev nD) → (b : Ref sig .tc) → Buf (Elt Ideal) ((c : Thread nD τ).loc b)) (c : Dev nD) (t : Fin cfg0.N)
    (k : Fin 5) (j : Fin 96) (f : Fin 32) :
    (iblk0 V c 6 t : Vec Ideal S1x5x96x32 .f32) (ix4 0 k j f)
      = (V c main_arg6 : S64x5x96x32.Idx → EReal) (ix4 (mOf t) k j f) := by
  obtain ⟨e0, e1, e2, e3⟩ := index6 t
  unfold iblk0
  rw [View.read_apply]
  show (V c main_arg6 : S64x5x96x32.Idx → EReal) _ = _
  congr 1
  funext a
  apply Fin.ext
  match a with
  | ⟨0, _⟩ => show win0_6.index t (0 : Fin 4) * 1 + 1 * 0 = (mOf t).val; omega
  | ⟨1, _⟩ => show win0_6.index t (1 : Fin 4) * 5 + 1 * (k.val) = k.val; omega
  | ⟨2, _⟩ => show win0_6.index t (2 : Fin 4) * 96 + 1 * (j.val) = j.val; omega
  | ⟨3, _⟩ => show win0_6.index t (3 : Fin 4) * 32 + 1 * f.val = f.val; omega

/-- The output biases' block at a point is the point's member's. -/
theorem blk7_apply (V : (c : Dev nD) → (b : Ref sig .tc) → Buf (Elt Ideal) ((c : Thread nD τ).loc b)) (c : Dev nD) (t : Fin cfg0.N)
    (k : Fin 5) (f : Fin 32) :
    (iblk0 V c 7 t : Vec Ideal S1x5x1x32 .f32) (ix4 0 k 0 f)
      = (V c main_arg7 : S64x5x1x32.Idx → EReal) (ix4 (mOf t) k 0 f) := by
  obtain ⟨e0, e1, e2, e3⟩ := index7 t
  unfold iblk0
  rw [View.read_apply]
  show (V c main_arg7 : S64x5x1x32.Idx → EReal) _ = _
  congr 1
  funext a
  apply Fin.ext
  match a with
  | ⟨0, _⟩ => show win0_7.index t (0 : Fin 4) * 1 + 1 * 0 = (mOf t).val; omega
  | ⟨1, _⟩ => show win0_7.index t (1 : Fin 4) * 5 + 1 * (k.val) = k.val; omega
  | ⟨2, _⟩ => show win0_7.index t (2 : Fin 4) * 1 + 1 * (0) = 0; omega
  | ⟨3, _⟩ => show win0_7.index t (3 : Fin 4) * 32 + 1 * f.val = f.val; omega

/-- What point `t` writes back is block `t` of the graph-convolution array. -/
theorem flushed_eq (V : (c : Dev nD) → (b : Ref sig .tc) → Buf (Elt Ideal) ((c : Thread nD τ).loc b)) (c : Dev nD)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (h0 : (V c main_v0 : S256x5x19x64.Idx → EReal) = Cert.Spec.XBANDSarr x)
    (h1 : (V c main_arg1 : S256x5x19x19.Idx → EReal) = A)
    (h2 : (V c main_arg2 : S64x5x192x32.Idx → EReal) = wi) (h3 : (V c main_arg3 : S64x5x1x32.Idx → EReal) = bi)
    (h4 : (V c main_arg4 : S64x10x96x32.Idx → EReal) = wh) (h5 : (V c main_arg5 : S64x10x1x32.Idx → EReal) = bh)
    (h6 : (V c main_arg6 : S64x5x96x32.Idx → EReal) = wo) (h7 : (V c main_arg7 : S64x5x1x32.Idx → EReal) = bo)
    (t : Fin cfg0.N) :
    (dat0 (F := Ideal) V c).flushed 8 t
      = ((cfg0.win 8).blk t).view.read (Elt Ideal) (Cert.Spec.GCNarr x A wi bi wh bh wo bo) := by
  show (cfg0.win 8).cut (grid0.coords t) ((dat0 V c).after 8 t) = _
  rw [after0_8 V c t, out_eq (iblk0 V c 0 t) (iblk0 V c 1 t) (iblk0 V c 2 t) (iblk0 V c 3 t) (iblk0 V c 4 t) (iblk0 V c 5 t)
    (iblk0 V c 6 t) (iblk0 V c 7 t), View.canon_unit_zero hz]
  refine funext fun (y : S1x1x19x160.Idx) => ?_
  obtain ⟨n, j, rfl⟩ : ∃ (n : Fin 19) (j : Fin 160), y = (ix4 (0 : Fin 1) (0 : Fin 1) n j : S1x1x19x160.Idx) :=
    ⟨y 2, y 3, funext fun a => Fin.ext (by
      match a with
      | ⟨0, _⟩ => show (y 0).val = 0; have h : (y 0).val < 1 := (y 0).isLt; omega
      | ⟨1, _⟩ => show (y 1).val = 0; have h : (y 1).val < 1 := (y 1).isLt; omega
      | ⟨2, _⟩ => rfl
      | ⟨3, _⟩ => rfl)⟩
  rw [View.read_apply]
  refine (point_eq x A wi bi wh bh wo bo (mOf t) (gOf t) (iblk0 V c 0 t) (iblk0 V c 1 t) (iblk0 V c 2 t) (iblk0 V c 3 t)
    (iblk0 V c 4 t) (iblk0 V c 5 t) (iblk0 V c 6 t) (iblk0 V c 7 t)
    (fun k n f => (blk0_apply V c t k n f).trans (congrFun h0 _))
    (fun k n n' => (blk1_apply V c t k n n').trans (congrFun h1 _))
    (fun k j f => (blk2_apply V c t k j f).trans (congrFun h2 _))
    (fun k f => (blk3_apply V c t k f).trans (congrFun h3 _))
    (fun k j f => (blk4_apply V c t k j f).trans (congrFun h4 _))
    (fun k f => (blk5_apply V c t k f).trans (congrFun h5 _))
    (fun k j f => (blk6_apply V c t k j f).trans (congrFun h6 _))
    (fun k f => (blk7_apply V c t k f).trans (congrFun h7 _)) n j).trans ?_
  have he : ((cfg0.win 8).blk t).view.emb (ix4 (0 : Fin 1) (0 : Fin 1) n j : S1x1x19x160.Idx)
      = (ix4 (mOf t) (gOf t) n j : S64x256x19x160.Idx) := by
    obtain ⟨e0, e1, e2, e3⟩ := index8 t
    funext a
    apply Fin.ext
    match a with
    | ⟨0, _⟩ => show win0_8.index t (0 : Fin 4) * 1 + 1 * 0 = (mOf t).val; omega
    | ⟨1, _⟩ => show win0_8.index t (1 : Fin 4) * 1 + 1 * 0 = (gOf t).val; omega
    | ⟨2, _⟩ => show win0_8.index t (2 : Fin 4) * 19 + 1 * n.val = n.val; omega
    | ⟨3, _⟩ => show win0_8.index t (3 : Fin 4) * 160 + 1 * j.val = j.val; omega
  rw [he]
  rfl

/-- An index of the output array is in point `t`'s block iff each coordinate is in the block's range on its axis. -/
theorem mem_blk8 (t : Fin cfg0.N) (i : S64x256x19x160.Idx) :
    i ∈ ((cfg0.win 8).blk t).view.set ↔ ∀ a : Fin 4, win0_8.index t a * S1x1x19x160.size a ≤ (i a).val
      ∧ (i a).val < win0_8.index t a * S1x1x19x160.size a + S1x1x19x160.size a := by
  show i ∈ ((View.whole main_v1).slice (win0_8.rect t)).set ↔ _
  rw [View.set_slice_whole, Rect.mem_set_unit]
  exact Iff.rfl

/-- Every entry `(m, b, n, j)` of the output array lies in the block of the point `256 · m + b`. -/
theorem cover (i : S64x256x19x160.Idx) :
    ∃ t : Fin cfg0.N, (cfg0.win 8).flush t = true ∧ i ∈ ((cfg0.win 8).blk t).view.set := by
  have b0 : (i 0).val < 64 := (i 0).isLt
  have b1 : (i 1).val < 256 := (i 1).isLt
  have b2 : (i 2).val < 19 := (i 2).isLt
  have b3 : (i 3).val < 160 := (i 3).isLt
  have hN : cfg0.N = 16384 := N_0
  have ht : (i 0).val * 256 + (i 1).val < cfg0.N := by rw [hN]; omega
  refine ⟨⟨(i 0).val * 256 + (i 1).val, ht⟩, flush0_8 _, ?_⟩
  rw [mem_blk8]
  obtain ⟨e0, e1, e2, e3⟩ := index8 ⟨(i 0).val * 256 + (i 1).val, ht⟩
  have hm := mOf_val ⟨(i 0).val * 256 + (i 1).val, ht⟩
  have hg := gOf_val ⟨(i 0).val * 256 + (i 1).val, ht⟩
  have hm' : (mOf ⟨(i 0).val * 256 + (i 1).val, ht⟩).val = (i 0).val := by
    rw [hm]; show ((i 0).val * 256 + (i 1).val) / 256 % 64 = (i 0).val; omega
  have hg' : (gOf ⟨(i 0).val * 256 + (i 1).val, ht⟩).val = (i 1).val := by
    rw [hg]; show ((i 0).val * 256 + (i 1).val) % 256 = (i 1).val; omega
  intro a
  match a with
  | ⟨0, _⟩ =>
    show win0_8.index ⟨(i 0).val * 256 + (i 1).val, ht⟩ (0 : Fin 4) * 1 ≤ (i 0).val
      ∧ (i 0).val < win0_8.index ⟨(i 0).val * 256 + (i 1).val, ht⟩ (0 : Fin 4) * 1 + 1
    omega
  | ⟨1, _⟩ =>
    show win0_8.index ⟨(i 0).val * 256 + (i 1).val, ht⟩ (1 : Fin 4) * 1 ≤ (i 1).val
      ∧ (i 1).val < win0_8.index ⟨(i 0).val * 256 + (i 1).val, ht⟩ (1 : Fin 4) * 1 + 1
    omega
  | ⟨2, _⟩ =>
    show win0_8.index ⟨(i 0).val * 256 + (i 1).val, ht⟩ (2 : Fin 4) * 19 ≤ (i 2).val
      ∧ (i 2).val < win0_8.index ⟨(i 0).val * 256 + (i 1).val, ht⟩ (2 : Fin 4) * 19 + 19
    omega
  | ⟨3, _⟩ =>
    show win0_8.index ⟨(i 0).val * 256 + (i 1).val, ht⟩ (3 : Fin 4) * 160 ≤ (i 3).val
      ∧ (i 3).val < win0_8.index ⟨(i 0).val * 256 + (i 1).val, ht⟩ (3 : Fin 4) * 160 + 160
    omega

/-- Entered with the band-major features, the laplacians and the weights, the region leaves every member's and graph's
    graph-convolution output. -/
theorem final (V : (c : Dev nD) → (b : Ref sig .tc) → Buf (Elt Ideal) ((c : Thread nD τ).loc b)) (c : Dev nD)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (h0 : (V c main_v0 : S256x5x19x64.Idx → EReal) = Cert.Spec.XBANDSarr x)
    (h1 : (V c main_arg1 : S256x5x19x19.Idx → EReal) = A)
    (h2 : (V c main_arg2 : S64x5x192x32.Idx → EReal) = wi) (h3 : (V c main_arg3 : S64x5x1x32.Idx → EReal) = bi)
    (h4 : (V c main_arg4 : S64x10x96x32.Idx → EReal) = wh) (h5 : (V c main_arg5 : S64x10x1x32.Idx → EReal) = bh)
    (h6 : (V c main_arg6 : S64x5x96x32.Idx → EReal) = wo) (h7 : (V c main_arg7 : S64x5x1x32.Idx → EReal) = bo) :
    ((dat0 (F := Ideal) V c).arrAt 8 cfg0.N : S64x256x19x160.Idx → EReal) = Cert.Spec.GCNarr x A wi bi wh bh wo bo :=
  (dat0 (F := Ideal) V c).arrAt_eq_of_cover 8 (Cert.Spec.GCNarr x A wi bi wh bh wo bo)
    (fun t _ => flushed_eq V c x A wi bi wh bh wo bo h0 h1 h2 h3 h4 h5 h6 h7 t) cover

end Cert.ReferenceIdeal.Gcn

end
-- ==== Proof.RTail.lean ====
/-
  The reference's second kernel: one grid point per ensemble member.  For each of the 256 graphs it weights the 19 node
  rows of the graph-convolution output by each of the three taps, sums over the nodes, adds the three tap rows at
  offsets 0, 1, 2 and the bias (`Cert.Spec.feats`), then normalises over the batch and applies the final linear map —
  the same `head` the kernel program's last kernel applies.

  The argument.  One graph's row is written once, as a vector function `row` of the graph's 19 × 160 slab and the three
  taps; the member's 256 × 158 features `featsV` are the 256 rows stacked along the graph axis plus the bias, and what
  the body leaves in the output block is `head` of them and of the four other blocks, by unfolding.  At an index a tap's
  row is the sum over the 19 nodes of slab entry times tap weight, so `featsV` at graph `b`, position `l` is the spec's
  `feats` once the slab is the spec's `gcn` of the member and the taps and the bias are the member's.  Every window's
  block at grid point `t` is member `t`'s slice of its array, so the five operands of `head` are, as functions, the ones
  `logits` applies it to: `head` is never opened.  Point `t` writes member `t`'s block, and the 64 blocks cover the array.
-/
import proofs.«124497_g2000206817317674_pallasbulk_294_10_alg».proof.Proof.RFrame
import proofs.«124497_g2000206817317674_pallasbulk_294_10_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 65536

noncomputable section

namespace Cert.ReferenceIdeal.Tail

open Idealize.ShloMosaic Idealize.ShloMosaic.TcCoe Idealize.ShloMosaic.ValueIdx Idealize.SL.Sem
open Cert.ReferenceIdeal Cert.ReferenceIdeal.Gen

variable {F : FTy → Type} [FloatOps F]

/-- Batch normalisation down the columns, the per-column affine map, the final linear map and bias. -/
def head (f : FVec F S256x158 .f32) (g : FVec F S1x158 .f32) (be : FVec F S1x158 .f32) (w : FVec F S158x8 .f32) (cb : FVec F S1x8 .f32) :
    FVec F S256x8 .f32 :=
  have v2 : FVec F S158 .f32 := multiReduction .add [0] S158 f 0x00000000#32 reduces_S256x158_S158 (.inl rfl) rfl
  have v3 : FVec F S1x158 .f32 := shapeCast S1x158 v2 shapeCasts_S158_S1x158
  have v5 : FVec F S1x158 .f32 := divf v3 (broadcast S1x158 (Scalar.ofBits .f32 0x43800000#32))
  have v7 : FVec F S256x158 .f32 := subf f (broadcastTo S256x158 v5 broadcasts_S1x158_S256x158)
  have v8 : FVec F S256x158 .f32 := mulf v7 v7
  have v9 : FVec F S158 .f32 := multiReduction .add [0] S158 v8 0x00000000#32 reduces_S256x158_S158 (.inl rfl) rfl
  have v10 : FVec F S1x158 .f32 := shapeCast S1x158 v9 shapeCasts_S158_S1x158
  have v12 : FVec F S1x158 .f32 := divf v10 (broadcast S1x158 (Scalar.ofBits .f32 0x43800000#32))
  have v14 : FVec F S256x158 .f32 := subf f (broadcastTo S256x158 v5 broadcasts_S1x158_S256x158)
  have v16 : FVec F S1x158 .f32 := addf v12 (broadcast S1x158 (Scalar.ofBits .f32 0x3727C5AC#32))
  have v17 : FVec F S1x158 .f32 := rsqrt v16
  have v19 : FVec F S256x158 .f32 := mulf v14 (broadcastTo S256x158 v17 broadcasts_S1x158_S256x158)
  have v23 : FVec F S256x158 .f32 := mulf v19 (broadcastTo S256x158 g broadcasts_S1x158_S256x158)
  have v27 : FVec F S256x158 .f32 := addf v23 (broadcastTo S256x158 be broadcasts_S1x158_S256x158)
  have v30 : FVec F S256x8 .f32 := matmul dot_S256x158_S158x8_S256x8_1_0_0_1_n_n none v27 w (constant S256x8 .f32 0x00000000#32)
  addf v30 (broadcastTo S256x8 cb broadcasts_S1x8_S256x8)

/-- Every member's logits from the whole arrays: member `m`'s 256 × 8 block is `head` of member `m`'s slices. -/
def logits (f : (⟨3, ![64, 256, 158]⟩ : Shape).Idx → EReal) (ga be : (⟨3, ![64, 1, 158]⟩ : Shape).Idx → EReal)
    (fw : (⟨3, ![64, 158, 8]⟩ : Shape).Idx → EReal) (fb : (⟨3, ![64, 1, 8]⟩ : Shape).Idx → EReal) :
    (⟨3, ![64, 256, 8]⟩ : Shape).Idx → EReal :=
  fun i => head (F := Ideal) (fun j => f (ix3 (i 0) (j 0) (j 1))) (fun j => ga (ix3 (i 0) (j 0) (j 1)))
    (fun j => be (ix3 (i 0) (j 0) (j 1))) (fun j => fw (ix3 (i 0) (j 0) (j 1))) (fun j => fb (ix3 (i 0) (j 0) (j 1))) (ix2 (i 1) (i 2))

/-! ## One graph's row, as vector functions and at an index -/

/-- One tap of the filter: the 19 node rows of a graph's slab, each weighted by the tap's entry for its node, summed over the nodes. -/
def tapRow (x : FVec F S19x160 .f32) (w : Vec F S1x1x19x1 .f32) : FVec F S1x160 .f32 :=
  shapeCast S1x160
    (multiReduction .add [0] S160
      (mulf x (broadcastTo S19x160 (shapeCast S19x1 w shapeCasts_S1x1x19x1_S19x1) broadcasts_S19x1_S19x160))
      0x00000000#32 reduces_S19x160_S160 (.inl rfl) rfl)
    shapeCasts_S160_S1x160

/-- One graph's filtered row: from a zero row, the three taps' rows added at offsets 0, 1, 2. -/
def row (s : Vec F S1x1x19x160 .f32) (w0 w1 w2 : Vec F S1x1x19x1 .f32) : FVec F S1x158 .f32 :=
  have x : FVec F S19x160 .f32 := shapeCast S19x160 s shapeCasts_S1x1x19x160_S19x160
  addf (addf (addf (broadcast S1x158 (Scalar.ofBits .f32 0x00000000#32))
        (extractStridedSlice S1x158 ![0, 0] (tapRow x w0) slices_S1x160_o0_0_S1x158))
      (extractStridedSlice S1x158 ![0, 1] (tapRow x w1) slices_S1x160_o0_1_S1x158))
    (extractStridedSlice S1x158 ![0, 2] (tapRow x w2) slices_S1x160_o0_2_S1x158)

/-- A tap's row at feature `j`: the sum over the nodes of the slab's entry times the tap's weight. -/
theorem tapRow_apply (x : FVec Ideal S19x160 .f32) (w : Vec Ideal S1x1x19x1 .f32) (j : Fin 160) :
    tapRow x w (ix2 (0 : Fin 1) j) = ∑ n : Fin 19, x (ix2 n j) * w (ix4 (0 : Fin 1) (0 : Fin 1) n (0 : Fin 1)) := by
  unfold tapRow
  rw [shapeCast_a_1a_apply]
  refine (Ideal.multiReduction_add_single _ 0x00000000#32 reduces_S19x160_S160 (.inl rfl) rfl (ix1 j)).trans ?_
  refine Finset.sum_congr rfl fun n _ => ?_
  have hl : reduces_S19x160_S160.lift (ix1 j) n = ix2 (n : Fin 19) j := by
    funext c; apply Fin.ext
    match c with
    | ⟨0, _⟩ => rfl
    | ⟨1, _⟩ => rfl
  rw [hl]
  show x (ix2 n j) * broadcastTo S19x160 (shapeCast S19x1 w shapeCasts_S1x1x19x1_S19x1) broadcasts_S19x1_S19x160 (ix2 (n : Fin 19) j) = _
  congr 1
  refine (broadcastTo_apply _ broadcasts_S19x1_S19x160 (ix2 (n : Fin 19) j) (ix2 (n : Fin 19) (0 : Fin 1)) ?_).trans ?_
  · intro a
    match a with
    | ⟨0, _⟩ => rfl
    | ⟨1, _⟩ => rfl
  · refine shapeCast_apply _ _ _ (ix4 (0 : Fin 1) (0 : Fin 1) (n : Fin 19) (0 : Fin 1)) ?_
    rw [Shape.rowMajor_val_four, Shape.rowMajor_val_two]
    show ((0 * 1 + 0) * 19 + n.val) * 1 + 0 = n.val * 1 + 0
    omega

/-- The slab with its two unit axes dropped, at node `n` and feature `j`. -/
theorem slab_cast_apply (s : Vec Ideal S1x1x19x160 .f32) (n : Fin 19) (j : Fin 160) :
    shapeCast S19x160 s shapeCasts_S1x1x19x160_S19x160 (ix2 n j) = s (ix4 (0 : Fin 1) (0 : Fin 1) n j) := by
  refine shapeCast_apply _ _ _ (ix4 (0 : Fin 1) (0 : Fin 1) n j) ?_
  rw [Shape.rowMajor_val_four, Shape.rowMajor_val_two]
  show ((0 * 1 + 0) * 19 + n.val) * 160 + j.val = n.val * 160 + j.val
  omega

/-- One graph's filtered row at position `l`: from the zero, the three taps' node sums at features `l`, `l + 1`, `l + 2`, added in
    that order. -/
theorem row_apply (s : Vec Ideal S1x1x19x160 .f32) (w0 w1 w2 : Vec Ideal S1x1x19x1 .f32) (l : Fin 158) :
    row s w0 w1 w2 (ix2 (0 : Fin 1) l)
      = ((Cert.Spec.c0 + ∑ n : Fin 19, s (ix4 (0 : Fin 1) (0 : Fin 1) n (⟨l.val, by have := l.isLt; omega⟩ : Fin 160)) * w0 (ix4 (0 : Fin 1) (0 : Fin 1) n (0 : Fin 1)))
          + ∑ n : Fin 19, s (ix4 (0 : Fin 1) (0 : Fin 1) n (⟨l.val + 1, by have := l.isLt; omega⟩ : Fin 160)) * w1 (ix4 (0 : Fin 1) (0 : Fin 1) n (0 : Fin 1)))
          + ∑ n : Fin 19, s (ix4 (0 : Fin 1) (0 : Fin 1) n (⟨l.val + 2, by have := l.isLt; omega⟩ : Fin 160)) * w2 (ix4 (0 : Fin 1) (0 : Fin 1) n (0 : Fin 1)) := by
  unfold row
  simp only [addf_apply]
  rw [slice2_axis1_apply 0 _ _ (0 : Fin 1) l (⟨l.val, by have := l.isLt; omega⟩ : Fin 160) (by show l.val = 0 + l.val; omega),
    slice2_axis1_apply 1 _ _ (0 : Fin 1) l (⟨l.val + 1, by have := l.isLt; omega⟩ : Fin 160) (by show l.val + 1 = 1 + l.val; omega),
    slice2_axis1_apply 2 _ _ (0 : Fin 1) l (⟨l.val + 2, by have := l.isLt; omega⟩ : Fin 160) (by show l.val + 2 = 2 + l.val; omega),
    tapRow_apply, tapRow_apply, tapRow_apply]
  refine congrArg₂ (· + ·) (congrArg₂ (· + ·) (congrArg₂ (· + ·) rfl ?_) ?_) ?_ <;>
    exact Finset.sum_congr rfl fun n _ => congrArg (· * _) (slab_cast_apply s n _)

/-! ## The member's stacked features -/

/-- A load through a unit-stride rectangle reads the contents at the offsets plus the coordinates. -/
theorem load_unit_rect_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  show off a + 1 * (y a).val = (k a).val
  rw [hk a, Nat.one_mul]

/-- Graph `b`'s slab of the member's block: entry `b` of the graph axis, every node and feature. -/
abbrev slab (b : Fin 256) : Rect S1x256x19x160 :=
  Rect.unit (s := S1x256x19x160) ![0, b.val, 0, 0] S1x1x19x160.size (fun a => by
    have hb := b.isLt
    match a with
    | ⟨0, _⟩ => show (0 : Nat) + 1 ≤ 1; omega
    | ⟨1, _⟩ => show b.val + 1 ≤ 256; omega
    | ⟨2, _⟩ => show (0 : Nat) + 19 ≤ 19; omega
    | ⟨3, _⟩ => show (0 : Nat) + 160 ≤ 160; omega)

/-- 256 rows of 158 stack to 256 × 158 along the first axis, whatever the rows hold. -/
theorem rows_stack {α : Type} (f : Fin 256 → (S1x158.Idx → α)) :
    Shape.Concatenates ((List.ofFn fun b : Fin 256 => (⟨S1x158, f b⟩ : (s : Shape) × (s.Idx → α))).map (·.1)) S256x158 0 := by
  have e : (List.ofFn fun b : Fin 256 => (⟨S1x158, f b⟩ : (s : Shape) × (s.Idx → α))).map (·.1) = List.replicate 256 S1x158 := by
    rw [List.map_ofFn]
    exact List.ofFn_const 256 S1x158
  rw [e]
  decide

/-- The member's filtered features: the 256 graphs' rows stacked, plus the filter's bias. -/
def featsV (x0 : Vec F S1x256x19x160 .f32) (x1 : Vec F S1x3x19x1 .f32) (x2 : Vec F S1x1x1 .f32) : FVec F S256x158 .f32 :=
  addf
    (concatenate S256x158 0
      (List.ofFn fun b : Fin 256 =>
        (⟨S1x158, row (View.ld x0 (slab b)) (View.ld x1 r1_1) (View.ld x1 r1_2) (View.ld x1 r1_3)⟩ : (s : Shape) × (s.Idx → F .f32)))
      (rows_stack _))
    (broadcastTo S256x158 (shapeCast S1x1 (View.ld x2 r1_259) shapeCasts_S1x1x1_S1x1) broadcasts_S1x1_S256x158)

/-- Graph `b`'s slab read at node `n`, feature `j`. -/
theorem load_slab_apply (x0 : Vec Ideal S1x256x19x160 .f32) (b : Fin 256) (n : Fin 19) (j : Fin 160) :
    View.ld x0 (slab b) (ix4 (0 : Fin 1) (0 : Fin 1) n j) = x0 (ix4 (0 : Fin 1) b n j) :=
  load_unit_rect_apply x0 _ _ _ _ _ (fun a => by
    match a with
    | ⟨0, _⟩ => rfl
    | ⟨1, _⟩ => show b.val = b.val + 0; omega
    | ⟨2, _⟩ => show n.val = 0 + n.val; omega
    | ⟨3, _⟩ => show j.val = 0 + j.val; omega)

/-- The three taps' loads at node `n`. -/
theorem load_tap0_apply (x1 : Vec Ideal S1x3x19x1 .f32) (n : Fin 19) :
    View.ld x1 r1_1 (ix4 (0 : Fin 1) (0 : Fin 1) n (0 : Fin 1)) = x1 (ix4 (0 : Fin 1) (0 : Fin 3) n (0 : Fin 1)) :=
  load_unit_rect_apply x1 _ _ _ _ _ (fun a => by
    match a with
    | ⟨0, _⟩ => rfl
    | ⟨1, _⟩ => rfl
    | ⟨2, _⟩ => show n.val = 0 + n.val; omega
    | ⟨3, _⟩ => rfl)
theorem load_tap1_apply (x1 : Vec Ideal S1x3x19x1 .f32) (n : Fin 19) :
    View.ld x1 r1_2 (ix4 (0 : Fin 1) (0 : Fin 1) n (0 : Fin 1)) = x1 (ix4 (0 : Fin 1) (1 : Fin 3) n (0 : Fin 1)) :=
  load_unit_rect_apply x1 _ _ _ _ _ (fun a => by
    match a with
    | ⟨0, _⟩ => rfl
    | ⟨1, _⟩ => rfl
    | ⟨2, _⟩ => show n.val = 0 + n.val; omega
    | ⟨3, _⟩ => rfl)
theorem load_tap2_apply (x1 : Vec Ideal S1x3x19x1 .f32) (n : Fin 19) :
    View.ld x1 r1_3 (ix4 (0 : Fin 1) (0 : Fin 1) n (0 : Fin 1)) = x1 (ix4 (0 : Fin 1) (2 : Fin 3) n (0 : Fin 1)) :=
  load_unit_rect_apply x1 _ _ _ _ _ (fun a => by
    match a with
    | ⟨0, _⟩ => rfl
    | ⟨1, _⟩ => rfl
    | ⟨2, _⟩ => show n.val = 0 + n.val; omega
    | ⟨3, _⟩ => rfl)

/-- The stacked features at graph `b`, position `l`: the three taps' node sums of graph `b`'s slab at features `l`, `l + 1`,
    `l + 2` added from a zero in that order, plus the bias. -/
theorem featsV_apply (x0 : Vec Ideal S1x256x19x160 .f32) (x1 : Vec Ideal S1x3x19x1 .f32) (x2 : Vec Ideal S1x1x1 .f32)
    (b : Fin 256) (l : Fin 158) :
    featsV x0 x1 x2 (ix2 b l)
      = (((Cert.Spec.c0 + ∑ n : Fin 19, x0 (ix4 (0 : Fin 1) b n (⟨l.val, by have := l.isLt; omega⟩ : Fin 160)) * x1 (ix4 (0 : Fin 1) (0 : Fin 3) n (0 : Fin 1)))
          + ∑ n : Fin 19, x0 (ix4 (0 : Fin 1) b n (⟨l.val + 1, by have := l.isLt; omega⟩ : Fin 160)) * x1 (ix4 (0 : Fin 1) (1 : Fin 3) n (0 : Fin 1)))
          + ∑ n : Fin 19, x0 (ix4 (0 : Fin 1) b n (⟨l.val + 2, by have := l.isLt; omega⟩ : Fin 160)) * x1 (ix4 (0 : Fin 1) (2 : Fin 3) n (0 : Fin 1)))
        + x2 (ix3 (0 : Fin 1) (0 : Fin 1) (0 : Fin 1)) := by
  unfold featsV
  rw [addf_apply]
  refine congrArg₂ (· + ·) ?_ ?_
  · refine (concatenate_ofFn_unit_apply (t := S256x158) (s₁ := S1x158) (0 : Fin 2)
        (fun b : Fin 256 => row (View.ld x0 (slab b)) (View.ld x1 r1_1) (View.ld x1 r1_2) (View.ld x1 r1_3))
        (rows_stack _) rfl rfl (ix2 b l) b rfl (ix2 (0 : Fin 1) l) ?_).trans ?_
    · intro d hd
      match d with
      | ⟨0, _⟩ => exact absurd rfl hd
      | ⟨1, _⟩ => rfl
    · rw [row_apply]
      refine congrArg₂ (· + ·) (congrArg₂ (· + ·) (congrArg₂ (· + ·) rfl ?_) ?_) ?_
      · exact Finset.sum_congr rfl fun n _ => congrArg₂ (· * ·) (load_slab_apply x0 b n _) (load_tap0_apply x1 n)
      · exact Finset.sum_congr rfl fun n _ => congrArg₂ (· * ·) (load_slab_apply x0 b n _) (load_tap1_apply x1 n)
      · exact Finset.sum_congr rfl fun n _ => congrArg₂ (· * ·) (load_slab_apply x0 b n _) (load_tap2_apply x1 n)
  · refine (broadcastTo_apply _ broadcasts_S1x1_S256x158 (ix2 b l) (ix2 (0 : Fin 1) (0 : Fin 1)) ?_).trans ?_
    · intro a
      match a with
      | ⟨0, _⟩ => rfl
      | ⟨1, _⟩ => rfl
    · refine (shapeCast_1ab_ab_apply _ shapeCasts_S1x1x1_S1x1 (0 : Fin 1) (0 : Fin 1)).trans ?_
      exact load_unit_rect_apply x2 _ _ _ _ _ (fun a => by
        match a with
        | ⟨0, _⟩ => rfl
        | ⟨1, _⟩ => rfl
        | ⟨2, _⟩ => rfl)

/-! ## The body is `head` of the stacked features -/

/-- What the generated frame leaves in the output block: `head` of the stacked features and of the four other loaded blocks with
    their unit axes dropped, with the unit axis put back. -/
theorem body_eq_head_of_feats (x0 : Vec F S1x256x19x160 .f32) (x1 : Vec F S1x3x19x1 .f32) (x2 : Vec F S1x1x1 .f32) (x3 : Vec F S1x1x158 .f32)
    (x4 : Vec F S1x1x158 .f32) (x5 : Vec F S1x158x8 .f32) (x6 : Vec F S1x1x8 .f32) :
    out1_7 x0 x1 x2 x3 x4 x5 x6 = View.canon [⟨r1_263, shapeCast S1x256x8
      (head (featsV x0 x1 x2)
        (shapeCast S1x158 (View.ld x3 r1_260) shapeCasts_S1x1x158_S1x158) (shapeCast S1x158 (View.ld x4 r1_260) shapeCasts_S1x1x158_S1x158)
        (shapeCast S158x8 (View.ld x5 r1_261) shapeCasts_S1x158x8_S158x8) (shapeCast S1x8 (View.ld x6 r1_262) shapeCasts_S1x1x8_S1x8))
      shapeCasts_S256x8_S1x256x8⟩] := rfl

/-- One member's block of the output, over the seven input blocks as variables: if the blocks hold member `tm`'s slices of the
    arrays, the stored block at row `p`, column `q` is that member's logit there.  The five operands of `head` are identified
    as functions; `head` itself is not opened. -/
theorem member_block_logits
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (wtap : (⟨4, ![64, 3, 19, 1]⟩ : Shape).Idx → EReal) (bconv : (⟨3, ![64, 1, 1]⟩ : Shape).Idx → EReal)
    (ga be : (⟨3, ![64, 1, 158]⟩ : Shape).Idx → EReal) (fw : (⟨3, ![64, 158, 8]⟩ : Shape).Idx → EReal)
    (fb : (⟨3, ![64, 1, 8]⟩ : Shape).Idx → EReal)
    (x0 : Vec Ideal S1x256x19x160 .f32) (x1 : Vec Ideal S1x3x19x1 .f32) (x2 : Vec Ideal S1x1x1 .f32)
    (x3 x4 : Vec Ideal S1x1x158 .f32) (x5 : Vec Ideal S1x158x8 .f32) (x6 : Vec Ideal S1x1x8 .f32) (tm : Fin 64)
    (e0 : ∀ (b : Fin 256) (n : Fin 19) (j : Fin 160), x0 (ix4 (0 : Fin 1) b n j) = Cert.Spec.gcn x A wi bi wh bh wo bo tm b n j)
    (e1 : ∀ (k : Fin 3) (n : Fin 19), x1 (ix4 (0 : Fin 1) k n (0 : Fin 1)) = wtap (ix4 tm k n (0 : Fin 1)))
    (e2 : x2 (ix3 (0 : Fin 1) (0 : Fin 1) (0 : Fin 1)) = bconv (ix3 tm (0 : Fin 1) (0 : Fin 1)))
    (e3 : ∀ (u : Fin 1) (l : Fin 158), x3 (ix3 (0 : Fin 1) u l) = ga (ix3 tm u l))
    (e4 : ∀ (u : Fin 1) (l : Fin 158), x4 (ix3 (0 : Fin 1) u l) = be (ix3 tm u l))
    (e5 : ∀ (r : Fin 158) (q : Fin 8), x5 (ix3 (0 : Fin 1) r q) = fw (ix3 tm r q))
    (e6 : ∀ (u : Fin 1) (q : Fin 8), x6 (ix3 (0 : Fin 1) u q) = fb (ix3 tm u q))
    (p : Fin 256) (q : Fin 8) :
    shapeCast S1x256x8
        (head (featsV x0 x1 x2)
          (shapeCast S1x158 (View.ld x3 r1_260) shapeCasts_S1x1x158_S1x158) (shapeCast S1x158 (View.ld x4 r1_260) shapeCasts_S1x1x158_S1x158)
          (shapeCast S158x8 (View.ld x5 r1_261) shapeCasts_S1x158x8_S158x8) (shapeCast S1x8 (View.ld x6 r1_262) shapeCasts_S1x1x8_S1x8))
        shapeCasts_S256x8_S1x256x8 (ix3 (0 : Fin 1) p q)
      = logits (Cert.Spec.FEATSarr x A wi bi wh bh wo bo wtap bconv) ga be fw fb (ix3 tm p q) := by
  rw [shapeCast_ab_1ab_apply]
  have hf : featsV x0 x1 x2 = fun j => Cert.Spec.FEATSarr x A wi bi wh bh wo bo wtap bconv (ix3 tm (j 0) (j 1)) := by
    funext j
    obtain ⟨b, l, rfl⟩ : ∃ (b : Fin 256) (l : Fin 158), j = ix2 b l := ⟨j 0, j 1, eq_ix2 j⟩
    rw [featsV_apply]
    simp only [e0, e1, e2]
    rfl
  have hg : shapeCast S1x158 (View.ld x3 r1_260) shapeCasts_S1x1x158_S1x158 = fun j => ga (ix3 tm (j 0) (j 1)) := by
    funext j
    obtain ⟨u, l, rfl⟩ : ∃ (u : Fin 1) (l : Fin 158), j = ix2 u l := ⟨j 0, j 1, eq_ix2 j⟩
    refine (shapeCast_1ab_ab_apply _ shapeCasts_S1x1x158_S1x158 u l).trans ?_
    refine (load_unit_rect_apply x3 _ _ _ _ (ix3 (0 : Fin 1) u l) (fun a => by
      match a with
      | ⟨0, _⟩ => rfl
      | ⟨1, _⟩ => show u.val = 0 + u.val; omega
      | ⟨2, _⟩ => show l.val = 0 + l.val; omega)).trans (e3 u l)
  have hb : shapeCast S1x158 (View.ld x4 r1_260) shapeCasts_S1x1x158_S1x158 = fun j => be (ix3 tm (j 0) (j 1)) := by
    funext j
    obtain ⟨u, l, rfl⟩ : ∃ (u : Fin 1) (l : Fin 158), j = ix2 u l := ⟨j 0, j 1, eq_ix2 j⟩
    refine (shapeCast_1ab_ab_apply _ shapeCasts_S1x1x158_S1x158 u l).trans ?_
    refine (load_unit_rect_apply x4 _ _ _ _ (ix3 (0 : Fin 1) u l) (fun a => by
      match a with
      | ⟨0, _⟩ => rfl
      | ⟨1, _⟩ => show u.val = 0 + u.val; omega
      | ⟨2, _⟩ => show l.val = 0 + l.val; omega)).trans (e4 u l)
  have hw : shapeCast S158x8 (View.ld x5 r1_261) shapeCasts_S1x158x8_S158x8 = fun j => fw (ix3 tm (j 0) (j 1)) := by
    funext j
    obtain ⟨r, s, rfl⟩ : ∃ (r : Fin 158) (s : Fin 8), j = ix2 r s := ⟨j 0, j 1, eq_ix2 j⟩
    refine (shapeCast_1ab_ab_apply _ shapeCasts_S1x158x8_S158x8 r s).trans ?_
    refine (load_unit_rect_apply x5 _ _ _ _ (ix3 (0 : Fin 1) r s) (fun a => by
      match a with
      | ⟨0, _⟩ => rfl
      | ⟨1, _⟩ => show r.val = 0 + r.val; omega
      | ⟨2, _⟩ => show s.val = 0 + s.val; omega)).trans (e5 r s)
  have hc : shapeCast S1x8 (View.ld x6 r1_262) shapeCasts_S1x1x8_S1x8 = fun j => fb (ix3 tm (j 0) (j 1)) := by
    funext j
    obtain ⟨u, s, rfl⟩ : ∃ (u : Fin 1) (s : Fin 8), j = ix2 u s := ⟨j 0, j 1, eq_ix2 j⟩
    refine (shapeCast_1ab_ab_apply _ shapeCasts_S1x1x8_S1x8 u s).trans ?_
    refine (load_unit_rect_apply x6 _ _ _ _ (ix3 (0 : Fin 1) u s) (fun a => by
      match a with
      | ⟨0, _⟩ => rfl
      | ⟨1, _⟩ => show u.val = 0 + u.val; omega
      | ⟨2, _⟩ => show s.val = 0 + s.val; omega)).trans (e6 u s)
  rw [hf, hg, hb, hw, hc]
  rfl

/-! ## From the blocks to the arrays -/

theorem zero_offsets3 : (![0, 0, 0] : Fin 3 → Nat) = fun _ => 0 := funext fun a => by fin_cases a <;> rfl

/-- The index maps, decided over the 64 grid points: every window's block index is the point on the member axis and zero on the
    others, and the output's block is written back at every point. -/
theorem block_index_is_member : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0)
    ∧ (win1_7.index t (0 : Fin 3) = t.val ∧ win1_7.index t (1 : Fin 3) = 0 ∧ win1_7.index t (2 : Fin 3) = 0)
    ∧ (cfg1.win 7).flush t = true :=
  (by decide +kernel : ∀ t : Fin grid1.N, _)

/-- A grid point is a member. -/
theorem point_lt_members (t : Fin cfg1.N) : t.val < 64 := by
  have h : t.val < grid1.N := t.isLt
  rw [N_1] at h
  exact h

/-- Window 0's block at point `t` is member `t`'s graphs: where its entries sit in the graph-convolution array. -/
theorem graphs_block_at (t : Fin cfg1.N) (b : Fin 256) (n : Fin 19) (j : Fin 160) :
    ((cfg1.win 0).blk t).view.emb (ix4 (0 : Fin 1) b n j) = (ix4 (⟨t.val, point_lt_members t⟩ : Fin 64) b n j : S64x256x19x160.Idx) := by
  obtain ⟨e0, e1, e2, e3⟩ := (block_index_is_member t).1
  funext a; apply Fin.ext
  match a with
  | ⟨0, _⟩ => show win1_0.index t (0 : Fin 4) * 1 + 1 * 0 = t.val; omega
  | ⟨1, _⟩ => show win1_0.index t (1 : Fin 4) * 256 + 1 * b.val = b.val; omega
  | ⟨2, _⟩ => show win1_0.index t (2 : Fin 4) * 19 + 1 * n.val = n.val; omega
  | ⟨3, _⟩ => show win1_0.index t (3 : Fin 4) * 160 + 1 * j.val = j.val; omega

/-- Window 1's block at point `t` is member `t`'s three taps. -/
theorem taps_block_at (t : Fin cfg1.N) (k : Fin 3) (n : Fin 19) :
    ((cfg1.win 1).blk t).view.emb (ix4 (0 : Fin 1) k n (0 : Fin 1)) = (ix4 (⟨t.val, point_lt_members t⟩ : Fin 64) k n (0 : Fin 1) : S64x3x19x1.Idx) := by
  obtain ⟨e0, e1, e2, e3⟩ := (block_index_is_member t).2.1
  funext a; apply Fin.ext
  match a with
  | ⟨0, _⟩ => show win1_1.index t (0 : Fin 4) * 1 + 1 * 0 = t.val; omega
  | ⟨1, _⟩ => show win1_1.index t (1 : Fin 4) * 3 + 1 * k.val = k.val; omega
  | ⟨2, _⟩ => show win1_1.index t (2 : Fin 4) * 19 + 1 * n.val = n.val; omega
  | ⟨3, _⟩ => show win1_1.index t (3 : Fin 4) * 1 + 1 * 0 = 0; omega

/-- Window 2's block at point `t` is member `t`'s filter bias. -/
theorem filter_bias_block_at (t : Fin cfg1.N) (u : Fin 1) (v : Fin 1) :
    ((cfg1.win 2).blk t).view.emb (ix3 (0 : Fin 1) u v) = (ix3 (⟨t.val, point_lt_members t⟩ : Fin 64) u v : S64x1x1.Idx) := by
  obtain ⟨e0, e1, e2⟩ := (block_index_is_member t).2.2.1
  funext a; apply Fin.ext
  match a with
  | ⟨0, _⟩ => show win1_2.index t (0 : Fin 3) * 1 + 1 * 0 = t.val; omega
  | ⟨1, _⟩ => show win1_2.index t (1 : Fin 3) * 1 + 1 * u.val = u.val; omega
  | ⟨2, _⟩ => show win1_2.index t (2 : Fin 3) * 1 + 1 * v.val = v.val; omega

/-- Window 3's block at point `t` is member `t`'s scale row. -/
theorem scale_block_at (t : Fin cfg1.N) (u : Fin 1) (v : Fin 158) :
    ((cfg1.win 3).blk t).view.emb (ix3 (0 : Fin 1) u v) = (ix3 (⟨t.val, point_lt_members t⟩ : Fin 64) u v : S64x1x158.Idx) := by
  obtain ⟨e0, e1, e2⟩ := (block_index_is_member t).2.2.2.1
  funext a; apply Fin.ext
  match a with
  | ⟨0, _⟩ => show win1_3.index t (0 : Fin 3) * 1 + 1 * 0 = t.val; omega
  | ⟨1, _⟩ => show win1_3.index t (1 : Fin 3) * 1 + 1 * u.val = u.val; omega
  | ⟨2, _⟩ => show win1_3.index t (2 : Fin 3) * 158 + 1 * v.val = v.val; omega

/-- Window 4's block at point `t` is member `t`'s shift row. -/
theorem shift_block_at (t : Fin cfg1.N) (u : Fin 1) (v : Fin 158) :
    ((cfg1.win 4).blk t).view.emb (ix3 (0 : Fin 1) u v) = (ix3 (⟨t.val, point_lt_members t⟩ : Fin 64) u v : S64x1x158.Idx) := by
  obtain ⟨e0, e1, e2⟩ := (block_index_is_member t).2.2.2.2.1
  funext a; apply Fin.ext
  match a with
  | ⟨0, _⟩ => show win1_4.index t (0 : Fin 3) * 1 + 1 * 0 = t.val; omega
  | ⟨1, _⟩ => show win1_4.index t (1 : Fin 3) * 1 + 1 * u.val = u.val; omega
  | ⟨2, _⟩ => show win1_4.index t (2 : Fin 3) * 158 + 1 * v.val = v.val; omega

/-- Window 5's block at point `t` is member `t`'s final matrix. -/
theorem matrix_block_at (t : Fin cfg1.N) (u : Fin 158) (v : Fin 8) :
    ((cfg1.win 5).blk t).view.emb (ix3 (0 : Fin 1) u v) = (ix3 (⟨t.val, point_lt_members t⟩ : Fin 64) u v : S64x158x8.Idx) := by
  obtain ⟨e0, e1, e2⟩ := (block_index_is_member t).2.2.2.2.2.1
  funext a; apply Fin.ext
  match a with
  | ⟨0, _⟩ => show win1_5.index t (0 : Fin 3) * 1 + 1 * 0 = t.val; omega
  | ⟨1, _⟩ => show win1_5.index t (1 : Fin 3) * 158 + 1 * u.val = u.val; omega
  | ⟨2, _⟩ => show win1_5.index t (2 : Fin 3) * 8 + 1 * v.val = v.val; omega

/-- Window 6's block at point `t` is member `t`'s final bias. -/
theorem final_bias_block_at (t : Fin cfg1.N) (u : Fin 1) (v : Fin 8) :
    ((cfg1.win 6).blk t).view.emb (ix3 (0 : Fin 1) u v) = (ix3 (⟨t.val, point_lt_members t⟩ : Fin 64) u v : S64x1x8.Idx) := by
  obtain ⟨e0, e1, e2⟩ := (block_index_is_member t).2.2.2.2.2.2.1
  funext a; apply Fin.ext
  match a with
  | ⟨0, _⟩ => show win1_6.index t (0 : Fin 3) * 1 + 1 * 0 = t.val; omega
  | ⟨1, _⟩ => show win1_6.index t (1 : Fin 3) * 1 + 1 * u.val = u.val; omega
  | ⟨2, _⟩ => show win1_6.index t (2 : Fin 3) * 8 + 1 * v.val = v.val; omega

/-- The output window's block at point `t` is member `t`'s 256 × 8 logits. -/
theorem logits_block_at (t : Fin cfg1.N) (u : Fin 256) (v : Fin 8) :
    ((cfg1.win 7).blk t).view.emb (ix3 (0 : Fin 1) u v) = (ix3 (⟨t.val, point_lt_members t⟩ : Fin 64) u v : S64x256x8.Idx) := by
  obtain ⟨e0, e1, e2⟩ := (block_index_is_member t).2.2.2.2.2.2.2.1
  funext a; apply Fin.ext
  match a with
  | ⟨0, _⟩ => show win1_7.index t (0 : Fin 3) * 1 + 1 * 0 = t.val; omega
  | ⟨1, _⟩ => show win1_7.index t (1 : Fin 3) * 256 + 1 * u.val = u.val; omega
  | ⟨2, _⟩ => show win1_7.index t (2 : Fin 3) * 8 + 1 * v.val = v.val; omega

/-- What point `t` writes back is member `t`'s block of the logits of the spec's features. -/
theorem writes_member_logits (V : (c : Dev nD) → (b : Ref sig .tc) → Buf (Elt Ideal) ((c : Thread nD τ).loc b)) (c : Dev nD)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (wtap : (⟨4, ![64, 3, 19, 1]⟩ : Shape).Idx → EReal) (bconv : (⟨3, ![64, 1, 1]⟩ : Shape).Idx → EReal)
    (h0 : (V c main_v1 : S64x256x19x160.Idx → EReal) = Cert.Spec.GCNarr x A wi bi wh bh wo bo)
    (h1 : (V c main_arg8 : S64x3x19x1.Idx → EReal) = wtap) (h2 : (V c main_arg9 : S64x1x1.Idx → EReal) = bconv) (t : Fin cfg1.N) :
    (dat1 (F := Ideal) V c).flushed 7 t = ((cfg1.win 7).blk t).view.read (Elt Ideal)
      (logits (Cert.Spec.FEATSarr x A wi bi wh bh wo bo wtap bconv) (V c main_arg10) (V c main_arg11) (V c main_arg12) (V c main_arg13)) := by
  show (cfg1.win 7).cut (grid1.coords t) ((dat1 V c).after 7 t) = _
  rw [after1_7, body_eq_head_of_feats (F := Ideal) (iblk1 V c 0 t) (iblk1 V c 1 t) (iblk1 V c 2 t) (iblk1 V c 3 t) (iblk1 V c 4 t) (iblk1 V c 5 t) (iblk1 V c 6 t)]
  rw [View.canon_unit_zero zero_offsets3]
  funext y
  obtain ⟨p, q, rfl⟩ : ∃ (p : Fin 256) (q : Fin 8), y = ix3 (0 : Fin 1) p q :=
    ⟨y 1, y 2, funext fun a => by
      match a with
      | ⟨0, _⟩ => exact Fin.fin_one_eq_zero _
      | ⟨1, _⟩ => rfl
      | ⟨2, _⟩ => rfl⟩
  show shapeCast S1x256x8 _ shapeCasts_S256x8_S1x256x8 (ix3 (0 : Fin 1) p q)
    = logits (Cert.Spec.FEATSarr x A wi bi wh bh wo bo wtap bconv) (V c main_arg10) (V c main_arg11) (V c main_arg12) (V c main_arg13)
        (((cfg1.win 7).blk t).view.emb (ix3 (0 : Fin 1) p q))
  rw [logits_block_at t p q]
  refine member_block_logits x A wi bi wh bh wo bo wtap bconv (V c main_arg10) (V c main_arg11) (V c main_arg12) (V c main_arg13)
    (iblk1 V c 0 t) (iblk1 V c 1 t) (iblk1 V c 2 t) (iblk1 V c 3 t) (iblk1 V c 4 t) (iblk1 V c 5 t) (iblk1 V c 6 t) ⟨t.val, point_lt_members t⟩
    ?_ ?_ ?_ ?_ ?_ ?_ ?_ p q
  · intro b n j
    exact (congrArg (V c main_v1 : S64x256x19x160.Idx → EReal) (graphs_block_at t b n j)).trans (congrFun h0 _)
  · intro k n
    exact (congrArg (V c main_arg8 : S64x3x19x1.Idx → EReal) (taps_block_at t k n)).trans (congrFun h1 _)
  · exact (congrArg (V c main_arg9 : S64x1x1.Idx → EReal) (filter_bias_block_at t 0 0)).trans (congrFun h2 _)
  · intro u l
    exact congrArg (V c main_arg10 : S64x1x158.Idx → EReal) (scale_block_at t u l)
  · intro u l
    exact congrArg (V c main_arg11 : S64x1x158.Idx → EReal) (shift_block_at t u l)
  · intro r s
    exact congrArg (V c main_arg12 : S64x158x8.Idx → EReal) (matrix_block_at t r s)
  · intro u s
    exact congrArg (V c main_arg13 : S64x1x8.Idx → EReal) (final_bias_block_at t u s)

/-- An index of the logits array is in point `t`'s block iff each coordinate is in the block's range on its axis. -/
theorem mem_logits_block (t : Fin cfg1.N) (i : S64x256x8.Idx) :
    i ∈ ((cfg1.win 7).blk t).view.set ↔ ∀ a : Fin 3, win1_7.index t a * S1x256x8.size a ≤ (i a).val ∧ (i a).val < win1_7.index t a * S1x256x8.size a + S1x256x8.size a := by
  show i ∈ ((View.whole main_v2).slice (win1_7.rect t)).set ↔ _
  rw [View.set_slice_whole, Rect.mem_set_unit]
  exact Iff.rfl

/-- Entered with the graph-convolution output, the taps and the bias, the region leaves every member's logits: `head` of
    the member's `Cert.Spec.feats`. -/
theorem final (V : (c : Dev nD) → (b : Ref sig .tc) → Buf (Elt Ideal) ((c : Thread nD τ).loc b)) (c : Dev nD)
    (x : (⟨4, ![256, 19, 64, 5]⟩ : Shape).Idx → EReal) (A : (⟨4, ![256, 5, 19, 19]⟩ : Shape).Idx → EReal)
    (wi : (⟨4, ![64, 5, 192, 32]⟩ : Shape).Idx → EReal) (bi : (⟨4, ![64, 5, 1, 32]⟩ : Shape).Idx → EReal)
    (wh : (⟨4, ![64, 10, 96, 32]⟩ : Shape).Idx → EReal) (bh : (⟨4, ![64, 10, 1, 32]⟩ : Shape).Idx → EReal)
    (wo : (⟨4, ![64, 5, 96, 32]⟩ : Shape).Idx → EReal) (bo : (⟨4, ![64, 5, 1, 32]⟩ : Shape).Idx → EReal)
    (wtap : (⟨4, ![64, 3, 19, 1]⟩ : Shape).Idx → EReal) (bconv : (⟨3, ![64, 1, 1]⟩ : Shape).Idx → EReal)
    (h0 : (V c main_v1 : S64x256x19x160.Idx → EReal) = Cert.Spec.GCNarr x A wi bi wh bh wo bo)
    (h1 : (V c main_arg8 : S64x3x19x1.Idx → EReal) = wtap) (h2 : (V c main_arg9 : S64x1x1.Idx → EReal) = bconv) :
    ((dat1 (F := Ideal) V c).arrAt 7 cfg1.N : S64x256x8.Idx → EReal)
      = logits (Cert.Spec.FEATSarr x A wi bi wh bh wo bo wtap bconv) (V c main_arg10) (V c main_arg11) (V c main_arg12) (V c main_arg13) := by
  refine (dat1 (F := Ideal) V c).arrAt_eq_of_cover 7 _ (fun t _ => writes_member_logits V c x A wi bi wh bh wo bo wtap bconv h0 h1 h2 t)
    fun (i : S64x256x8.Idx) => ?_
  have hi0 : (i 0).val < 64 := (i 0).isLt
  have hi1 : (i 1).val < 256 := (i 1).isLt
  have hi2 : (i 2).val < 8 := (i 2).isLt
  have hlt : (i 0).val < cfg1.N := by
    show (i 0).val < grid1.N
    rw [N_1]
    exact hi0
  have o0 : win1_7.index ⟨(i 0).val, hlt⟩ (0 : Fin 3) = (i 0).val := (block_index_is_member ⟨(i 0).val, hlt⟩).2.2.2.2.2.2.2.1.1
  have o1 : win1_7.index ⟨(i 0).val, hlt⟩ (1 : Fin 3) = 0 := (block_index_is_member ⟨(i 0).val, hlt⟩).2.2.2.2.2.2.2.1.2.1
  have o2 : win1_7.index ⟨(i 0).val, hlt⟩ (2 : Fin 3) = 0 := (block_index_is_member ⟨(i 0).val, hlt⟩).2.2.2.2.2.2.2.1.2.2
  refine ⟨⟨(i 0).val, hlt⟩, (block_index_is_member ⟨(i 0).val, hlt⟩).2.2.2.2.2.2.2.2, ?_⟩
  rw [mem_logits_block]
  intro a
  match a with
  | ⟨0, _⟩ =>
    show win1_7.index ⟨(i 0).val, hlt⟩ (0 : Fin 3) * 1 ≤ (i 0).val ∧ (i 0).val < win1_7.index ⟨(i 0).val, hlt⟩ (0 : Fin 3) * 1 + 1
    omega
  | ⟨1, _⟩ =>
    show win1_7.index ⟨(i 0).val, hlt⟩ (1 : Fin 3) * 256 ≤ (i 1).val ∧ (i 1).val < win1_7.index ⟨(i 0).val, hlt⟩ (1 : Fin 3) * 256 + 256
    omega
  | ⟨2, _⟩ =>
    show win1_7.index ⟨(i 0).val, hlt⟩ (2 : Fin 3) * 8 ≤ (i 2).val ∧ (i 2).val < win1_7.index ⟨(i 0).val, hlt⟩ (2 : Fin 3) * 8 + 8
    omega

end Cert.ReferenceIdeal.Tail

end
-- ==== Proof.RVal.lean ====
/-
  The reference program end to end: the host moves the band axis of the features forward, the two kernels run, the host
  averages over the ensemble.  The result buffer holds the average of the members' logits, each member's logits the
  `head` of its `Cert.Spec.feats`.
-/
import proofs.«124497_g2000206817317674_pallasbulk_294_10_alg».proof.Proof.RFrame
import proofs.«124497_g2000206817317674_pallasbulk_294_10_alg».proof.Proof.RGcn
import proofs.«124497_g2000206817317674_pallasbulk_294_10_alg».proof.Proof.RTail
import proofs.«124497_g2000206817317674_pallasbulk_294_10_alg».proof.Proof.Spec
import Idealize.ShloMosaic.Lib.ValueIdx
import Idealize.ShloMosaic.Lib.Pipeline.Value
import Idealize.ShloMosaic.Lib.StableHlo.Run

noncomputable section

namespace Cert.ReferenceIdeal.Val

open Idealize.ShloMosaic Idealize.ShloMosaic.TcCoe Idealize.ShloMosaic.ValueIdx Idealize.SL.Sem
open Cert.ReferenceIdeal Cert.ReferenceIdeal.Gen

/-- The ensemble average: the 64 members' logits summed and divided by 64 (the host operations after the last kernel). -/
def meanOver (Lg : (⟨3, ![64, 256, 8]⟩ : Shape).Idx → EReal) : (⟨2, ![256, 8]⟩ : Shape).Idx → EReal :=
  Host.divf (F := Ideal) (Host.reduceAdd (F := Ideal) Lg (constant (F := Ideal) S_ .f32 0x00000000#32) reducesTo_S64x256x8_S256x8_d0 h_S_)
    (broadcastInDim S256x8 ![] bcast_S_S256x8 (constant (F := Ideal) S_ .f32 0x42800000#32))

/-! ## The two host stretches, from any buffer contents

Before the kernels the host permutes the axes of the features, `[graph, node, feature, band] → [graph, band, node, feature]`,
into a buffer of its own and writes nothing else; after them it sums the logits over the ensemble axis and divides by 64. -/

section Host

/-- The band axis moved from last to second: entry `(g, band, n, f)` of the result is entry `(g, n, f, band)` of the
    features, which is how `Cert.Spec.XBANDSarr` reads them. -/
theorem bandsForward (x : S256x19x64x5.Idx → EReal) :
    transpose S256x5x19x64 [0, 3, 1, 2] x transposes_S256x19x64x5_S256x5x19x64_0_3_1_2 = Cert.Spec.XBANDSarr x := by
  funext j
  exact transpose_apply _ x _ j (ix4 (j 0) (j 2) (j 3) (j 1)) fun b =>
    match b with | ⟨0, _⟩ => rfl | ⟨1, _⟩ => rfl | ⟨2, _⟩ => rfl | ⟨3, _⟩ => rfl

/-- After the first stretch the band-major buffer holds `XBANDSarr` of the features. -/
theorem hostBefore_bands (V : Valuation τ sig (Elt Ideal)) :
    (StableHlo.after hostOps0 V (Proc.devRef .tc main_v0) : S256x5x19x64.Idx → EReal)
      = Cert.Spec.XBANDSarr (V (Proc.devRef .tc main_arg0)) := by
  after_results
  exact bandsForward _

/-- The first stretch writes the band-major buffer only. -/
theorem hostBefore_of_ne (V : Valuation τ sig (Elt Ideal)) (b : Ref sig .tc) (hb : b ≠ main_v0) :
    StableHlo.after hostOps0 V (Proc.devRef .tc b) = V (Proc.devRef .tc b) :=
  StableHlo.unary_result_ne main_arg0 main_v0 _ _ _ V hb

/-- After the last stretch the result buffer holds the ensemble average of the logits buffer. -/
theorem hostAfter_mean (V : Valuation τ sig (Elt Ideal)) :
    (StableHlo.after hostOps2 V (Proc.devRef .tc main_v5) : S256x8.Idx → EReal) = meanOver (V (Proc.devRef .tc main_v2)) := by
  after_results
  rfl

end Host

/-! ## The buffers at each boundary of the run, as functions of the launched arrays -/

section Walk

variable (m : (ℓ : Loc nD τ sig) → Buf (Elt Ideal) ℓ) (ρ : Dev nD → PrngReg) (c : Dev nD)

/-- Entering the first kernel, a buffer other than the band-major copy holds what it was launched with. -/
theorem enter0_of_ne (b : Ref sig .tc) (hb : b ≠ main_v0) : V1 m ρ c b = m ((c.tc : Thread nD τ).loc b) :=
  hostBefore_of_ne (W0 m ρ c) b hb

/-- Entering the first kernel, the band-major copy is `XBANDSarr` of the launched features. -/
theorem enter0_bands :
    (V1 m ρ c main_v0 : S256x5x19x64.Idx → EReal) = Cert.Spec.XBANDSarr (m ((c.tc : Thread nD τ).loc main_arg0)) :=
  hostBefore_bands (W0 m ρ c)

/-- Entering the second kernel, a buffer that is no window of the first kernel and not the band-major copy holds what it
    was launched with. -/
theorem enter1_of_ne (b : Ref sig .tc) (hb : b ≠ main_v0) (hw : ∀ w, Pipeline.arrRef spec0 w ≠ b) :
    V2 m ρ c b = m ((c.tc : Thread nD τ).loc b) :=
  (W2_of_ne m ρ c b hw).trans (enter0_of_ne m ρ c b hb)

/-- Entering the second kernel, the first kernel's output is the graph convolution of the launched arrays. -/
theorem enter1_gcn :
    (V2 m ρ c main_v1 : S64x256x19x160.Idx → EReal)
      = Cert.Spec.GCNarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W2_arr m ρ c 8).trans
    (Cert.ReferenceIdeal.Gcn.final (V1 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      (enter0_bands m ρ c)
      (enter0_of_ne m ρ c main_arg1 (by decide)) (enter0_of_ne m ρ c main_arg2 (by decide))
      (enter0_of_ne m ρ c main_arg3 (by decide)) (enter0_of_ne m ρ c main_arg4 (by decide))
      (enter0_of_ne m ρ c main_arg5 (by decide)) (enter0_of_ne m ρ c main_arg6 (by decide))
      (enter0_of_ne m ρ c main_arg7 (by decide)))

/-- Leaving the second kernel, the logits buffer holds every member's `head` of its filtered features. -/
theorem leave1_logits :
    (W3 m ρ c (Proc.devRef .tc main_v2) : S64x256x8.Idx → EReal)
      = Cert.ReferenceIdeal.Tail.logits (Cert.Spec.FEATSarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg10)) (m ((c.tc : Thread nD τ).loc main_arg11)) (m ((c.tc : Thread nD τ).loc main_arg12)) (m ((c.tc : Thread nD τ).loc main_arg13)) := by
  refine (W3_arr m ρ c 7).trans ?_
  refine (Cert.ReferenceIdeal.Tail.final (V2 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (enter1_gcn m ρ c) (enter1_of_ne m ρ c main_arg8 (by decide) (by decide))
    (enter1_of_ne m ρ c main_arg9 (by decide) (by decide))).trans ?_
  rw [enter1_of_ne m ρ c main_arg10 (by decide) (by decide), enter1_of_ne m ρ c main_arg11 (by decide) (by decide),
    enter1_of_ne m ρ c main_arg12 (by decide) (by decide), enter1_of_ne m ρ c main_arg13 (by decide) (by decide)]

end Walk

/-- What the result buffer holds at the last boundary, as a function of the argument arrays. -/
theorem result (m : (ℓ : Loc nD τ sig) → Buf (Elt Ideal) ℓ) (ρ : Dev nD → PrngReg) (c : Dev nD) :
    (W4 m ρ c (Proc.devRef .tc main_v5) : S256x8.Idx → EReal)
      = meanOver (Cert.ReferenceIdeal.Tail.logits (Cert.Spec.FEATSarr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg10)) (m ((c.tc : Thread nD τ).loc main_arg11)) (m ((c.tc : Thread nD τ).loc main_arg12)) (m ((c.tc : Thread nD τ).loc main_arg13))) :=
  (hostAfter_mean (W3 m ρ c)).trans (congrArg meanOver (leave1_logits m ρ c))

end Cert.ReferenceIdeal.Val

end
-- ==== Proof.lean ====
/-
  The certificate's claims assembled.

  Both programs compute, for each of 64 ensemble members and 256 graphs, four Chebyshev graph-convolution layers in
  five frequency bands on the graph's 19 nodes, a three-tap filter over the 160 resulting features (`Cert.Spec.feats`),
  batch normalisation and a linear map to 8 logits, and the average of the logits over the ensemble.  The kernel
  program stacks 32 graphs per grid point and multiplies by block-diagonal laplacians (the off-diagonal products are
  zero), computes the first layer's Chebyshev terms once for all members, and splits the work over three kernels; the
  reference takes one graph per grid point in two kernels.  Each kernel of either program is proved to leave the array
  `Cert.Spec` names (modules KCheb, KStackVal, KHead, RGcn, RTail), each program's result buffer is read off its run as
  the average of `head` of `feats` (KVal, RVal), and the two expressions are one term: the normalisation-and-linear-map
  `head` and the averaging are applied by both programs operation for operation, so they are never opened.
  The frames are the generated ones; the ideal pass rewrote nothing, so `preserves` is trivial.
-/
import proofs.«124497_g2000206817317674_pallasbulk_294_10_alg».proof.Defs
import proofs.«124497_g2000206817317674_pallasbulk_294_10_alg».proof.Proof.Gen.Kernel
import proofs.«124497_g2000206817317674_pallasbulk_294_10_alg».proof.Proof.Gen.Kernel.Frame
import proofs.«124497_g2000206817317674_pallasbulk_294_10_alg».proof.Proof.Gen.KernelIdeal
import proofs.«124497_g2000206817317674_pallasbulk_294_10_alg».proof.Proof.Gen.KernelIdeal.Frame
import proofs.«124497_g2000206817317674_pallasbulk_294_10_alg».proof.Proof.Gen.ReferenceIdeal
import proofs.«124497_g2000206817317674_pallasbulk_294_10_alg».proof.Proof.RFrame
import proofs.«124497_g2000206817317674_pallasbulk_294_10_alg».proof.Proof.Gen.Pre_finite_inputs
import proofs.«124497_g2000206817317674_pallasbulk_294_10_alg».proof.Proof.KRun
import proofs.«124497_g2000206817317674_pallasbulk_294_10_alg».proof.Proof.KVal
import proofs.«124497_g2000206817317674_pallasbulk_294_10_alg».proof.Proof.RRun
import proofs.«124497_g2000206817317674_pallasbulk_294_10_alg».proof.Proof.RVal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The two programs' final expressions are one term: the same `head` per member and the same average, applied to
    the same `feats` of the same arguments. -/
theorem same_result (a0 : (⟨4, ![256, 19, 64, 5]⟩ : Shape).Idx → EReal) (a1 : (⟨4, ![256, 5, 19, 19]⟩ : Shape).Idx → EReal)
    (a2 : (⟨4, ![64, 5, 192, 32]⟩ : Shape).Idx → EReal) (a3 : (⟨4, ![64, 5, 1, 32]⟩ : Shape).Idx → EReal)
    (a4 : (⟨4, ![64, 10, 96, 32]⟩ : Shape).Idx → EReal) (a5 : (⟨4, ![64, 10, 1, 32]⟩ : Shape).Idx → EReal)
    (a6 : (⟨4, ![64, 5, 96, 32]⟩ : Shape).Idx → EReal) (a7 : (⟨4, ![64, 5, 1, 32]⟩ : Shape).Idx → EReal)
    (a8 : (⟨4, ![64, 3, 19, 1]⟩ : Shape).Idx → EReal) (a9 : (⟨3, ![64, 1, 1]⟩ : Shape).Idx → EReal)
    (a10 a11 : (⟨3, ![64, 1, 158]⟩ : Shape).Idx → EReal) (a12 : (⟨3, ![64, 158, 8]⟩ : Shape).Idx → EReal)
    (a13 : (⟨3, ![64, 1, 8]⟩ : Shape).Idx → EReal) :
    Cert.ReferenceIdeal.Val.meanOver (Cert.ReferenceIdeal.Tail.logits (Cert.Spec.FEATSarr a0 a1 a2 a3 a4 a5 a6 a7 a8 a9) a10 a11 a12 a13)
      = Cert.KernelIdeal.Val.meanOver (Cert.KernelIdeal.Head.logits (Cert.Spec.FEATSarr a0 a1 a2 a3 a4 a5 a6 a7 a8 a9) a10 a11 a12 a13) := rfl

/-- From memories agreeing on the arguments both programs run and end with the same result: the ensemble average of
    `head` of `Cert.Spec.feats` of the arguments. -/
theorem algebraic : Cert.algebraic_KernelIdeal_ReferenceIdeal := by
  intro m ρ m' ρ' _ hagree
  refine ⟨fun c => Cert.KernelIdeal.Val.meanOver (Cert.KernelIdeal.Head.logits
        (Cert.Spec.FEATSarr (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))), ?_, ?_⟩
  · exact (θ_run Cert.KernelIdeal.defs _ _).mono
      (fun r h c => ⟨(h c).1.trans (Cert.KernelIdeal.Val.result m ρ c), (h c).2⟩) (Cert.KernelIdeal.RunV.run m ρ)
  · refine (θ_run Cert.ReferenceIdeal.defs _ _).mono (fun r h c => ⟨(h c).1.trans ?_, (h c).2⟩) (Cert.ReferenceIdeal.RunV.run m' ρ')
    have hr := Cert.ReferenceIdeal.Val.result m' ρ' c
    obtain ⟨e0, e1, e2, e3, e4, e5, e6, e7, e8, e9, e10, e11, e12, e13⟩ := hagree c
    rw [e0, e1, e2, e3, e4, e5, e6, e7, e8, e9, e10, e11, e12, e13] at hr
    exact hr.trans (same_result _ _ _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
